-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S128000x512 : Shape := ⟨2, ![128000, 512]⟩
abbrev S8192x512 : Shape := ⟨2, ![8192, 512]⟩
abbrev S1024x1024 : Shape := ⟨2, ![1024, 1024]⟩
abbrev S1024 : Shape := ⟨1, ![1024]⟩
abbrev S_ : Shape := ⟨0, ![]⟩

class Facts : Prop where
  bcast_S_S128000x512 : S_.BroadcastsInDim S128000x512 (![] : Fin 0 → Fin S128000x512.rank)
  reducesTo_S128000x512_S_d0_1 : S128000x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : IVec S8192 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg0 main_v19
  let main_c_7 : IVec S_ 32 := constantI S_ 32 128000#32
  let main_v21 : IVec S8192 32 := broadcastInDim S8192 ![] bcast_S_S8192 main_c_7
  let main_v22 : IVec S8192 1 := cmpi .slt main_arg0 main_v21
  let main_v23 : IVec S8192 1 := andi main_v20 main_v22
  let main_c_8 : IVec S_ 1 := constantI S_ 1 1#1
  let main_v24 : IVec S_ 1 := (fun x v => Host.reduce IntOp.andi x v reducesTo_S8192_S_d0 h_S_) main_v23 main_c_8
  let main_v25 : IVec S_ 1 := andi main_v18 main_v24
  main_v25

def fn {F : FTy → Type} [FloatOps F] (main_arg0 : IVec S8192 32) (main_arg1 : FVec F S128000x512 .f32) (main_arg2 : FVec F S8192x512 .f32) (main_arg3 : FVec F S1024x1024 .f32) (main_arg4 : FVec F S1024 .f32) : IVec S_ 1 :=
  let main_v0 : FVec F S128000x512 .f32 := Host.absf main_arg1
  let main_cst : FVec F S_ .f32 := constant S_ .f32 0x7F800000#32
  let main_v1 : FVec F S128000x512 .f32 := broadcastInDim S128000x512 ![] bcast_S_S128000x512 main_cst
  let main_v2 : IVec S128000x512 1 := cmpf .olt main_v0 main_v1
  let main_c : IVec S_ 1 := constantI S_ 1 1#1
  let main_v3 : IVec S_ 1 := (fun x v => Host.reduce IntOp.andi x v reducesTo_S128000x512_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg0 main_v13 main_v16
-- ==== Kernel.lean ====
abbrev S8192 : Shape := ⟨1, ![8192]⟩
abbrev S128000x512 : Shape := ⟨2, ![128000, 512]⟩
abbrev S8192x512 : Shape := ⟨2, ![8192, 512]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S1x1024 : Shape := ⟨2, ![1, 1024]⟩
abbrev S8192x1024 : Shape := ⟨2, ![8192, 1024]⟩
abbrev S256x512 : Shape := ⟨2, ![256, 512]⟩
abbrev S256x1024 : Shape := ⟨2, ![256, 1024]⟩
abbrev S256 : Shape := ⟨1, ![256]⟩
abbrev S1 : Shape := ⟨1, ![1]⟩
abbrev S_ : Shape := ⟨0, ![]⟩
abbrev S1x512 : Shape := ⟨2, ![1, 512]⟩
abbrev S512 : Shape := ⟨1, ![512]⟩
abbrev S1x1x1024 : Shape := ⟨3, ![1, 1, 1024]⟩

abbrev nBuf : Space → Nat
  | .hbm => 18
  | .vmem => 8
  | .smem => 1
  | _ => 0

abbrev bufTy : (tb : Table) → Fin (tcTables nBuf tb) → BufTy
  | .hbm, ⟨0, _⟩ => ⟨S128000x512, .f32⟩
  | .hbm, ⟨1, _⟩ => ⟨S8192x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1x1024, .f32⟩
  | .hbm, ⟨11, _⟩ => ⟨S8192x1024, .f32⟩
  | .hbm, ⟨12, _⟩ => ⟨S_, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1x1x1024, .f32⟩
  | .local _ .vmem, ⟨0, _⟩ => ⟨S256x512, .f32⟩
  | .local _ .vmem, ⟨1, _⟩ => ⟨S256x512, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x512, .f32⟩
  | .local _ .smem, ⟨0, _⟩ => ⟨S8192, .i32⟩
  | _, _ => ⟨S128000x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 263 → Bool
  | ⟨i, _⟩ => dmaSemScopedAt i

abbrev sig : RefSig :=
  ofTc nBuf bufTy 0 263 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x512.size a ≤ S128000x512.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x512.size a ≤ S128000x512.size a := fun v3 k0_hw1 => k0_hw1

def k0_off3 (i : grid0.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_chk2 (v12 : BitVec 32) : Prop :=
  (∀ a, (k0_off4 v12) a + S1x512.size a ≤ S128000x512.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x512.size a ≤ S128000x512.size a := fun v12 k0_hw2 => k0_hw2

def k0_off5 (i : grid0.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_chk3 (v21 : BitVec 32) : Prop :=
  (∀ a, (k0_off6 v21) a + S1x512.size a ≤ S128000x512.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x512.size a ≤ S128000x512.size a := fun v21 k0_hw3 => k0_hw3

def k0_off7 (i : grid0.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_chk4 (v30 : BitVec 32) : Prop :=
  (∀ a, (k0_off8 v30) a + S1x512.size a ≤ S128000x512.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x512.size a ≤ S128000x512.size a := fun v30 k0_hw4 => k0_hw4

def k0_off9 (i : grid0.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_chk5 (v39 : BitVec 32) : Prop :=
  (∀ a, (k0_off10 v39) a + S1x512.size a ≤ S128000x512.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x512.size a ≤ S128000x512.size a := fun v39 k0_hw5 => k0_hw5

def k0_off11 (i : grid0.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_chk6 (v48 : BitVec 32) : Prop :=
  (∀ a, (k0_off12 v48) a + S1x512.size a ≤ S128000x512.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x512.size a ≤ S128000x512.size a := fun v48 k0_hw6 => k0_hw6

def k0_off13 (i : grid0.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_chk7 (v57 : BitVec 32) : Prop :=
  (∀ a, (k0_off14 v57) a + S1x512.size a ≤ S128000x512.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x512.size a ≤ S128000x512.size a := fun v57 k0_hw7 => k0_hw7

def k0_off15 (i : grid0.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x512.size a ≤ S128000x512.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x512.size a ≤ S128000x512.size a := fun v66 k0_hw8 => k0_hw8

def k0_off17 (i : grid0.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_chk9 (v75 : BitVec 32) : Prop :=
  (∀ a, (k0_off18 v75) a + S1x512.size a ≤ S128000x512.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x512.size a ≤ S128000x512.size a := fun v75 k0_hw9 => k0_hw9

def k0_off19 (i : grid0.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_chk10 (v84 : BitVec 32) : Prop :=
  (∀ a, (k0_off20 v84) a + S1x512.size a ≤ S128000x512.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x512.size a ≤ S128000x512.size a := fun v84 k0_hw10 => k0_hw10

def k0_off21 (i : grid0.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_chk11 (v93 : BitVec 32) : Prop :=
  (∀ a, (k0_off22 v93) a + S1x512.size a ≤ S128000x512.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x512.size a ≤ S128000x512.size a := fun v93 k0_hw11 => k0_hw11

def k0_off23 (i : grid0.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_chk12 (v102 : BitVec 32) : Prop :=
  (∀ a, (k0_off24 v102) a + S1x512.size a ≤ S128000x512.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x512.size a ≤ S128000x512.size a := fun v102 k0_hw12 => k0_hw12

def k0_off25 (i : grid0.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_chk13 (v111 : BitVec 32) : Prop :=
  (∀ a, (k0_off26 v111) a + S1x512.size a ≤ S128000x512.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x512.size a ≤ S128000x512.size a := fun v111 k0_hw13 => k0_hw13

def k0_off27 (i : grid0.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_chk14 (v120 : BitVec 32) : Prop :=
  (∀ a, (k0_off28 v120) a + S1x512.size a ≤ S128000x512.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x512.size a ≤ S128000x512.size a := fun v120 k0_hw14 => k0_hw14

def k0_off29 (i : grid0.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_chk15 (v129 : BitVec 32) : Prop :=
  (∀ a, (k0_off30 v129) a + S1x512.size a ≤ S128000x512.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x512.size a ≤ S128000x512.size a := fun v129 k0_hw15 => k0_hw15

def k0_off31 (i : grid0.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_chk16 (v138 : BitVec 32) : Prop :=
  (∀ a, (k0_off32 v138) a + S1x512.size a ≤ S128000x512.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x512.size a ≤ S128000x512.size a := fun v138 k0_hw16 => k0_hw16

def k0_off33 (i : grid0.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_chk17 (v147 : BitVec 32) : Prop :=
  (∀ a, (k0_off34 v147) a + S1x512.size a ≤ S128000x512.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x512.size a ≤ S128000x512.size a := fun v147 k0_hw17 => k0_hw17

def k0_off35 (i : grid0.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_chk18 (v156 : BitVec 32) : Prop :=
  (∀ a, (k0_off36 v156) a + S1x512.size a ≤ S128000x512.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x512.size a ≤ S128000x512.size a := fun v156 k0_hw18 => k0_hw18

def k0_off37 (i : grid0.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_chk19 (v165 : BitVec 32) : Prop :=
  (∀ a, (k0_off38 v165) a + S1x512.size a ≤ S128000x512.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x512.size a ≤ S128000x512.size a := fun v165 k0_hw19 => k0_hw19

def k0_off39 (i : grid0.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_chk20 (v174 : BitVec 32) : Prop :=
  (∀ a, (k0_off40 v174) a + S1x512.size a ≤ S128000x512.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x512.size a ≤ S128000x512.size a := fun v174 k0_hw20 => k0_hw20

def k0_off41 (i : grid0.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_chk21 (v183 : BitVec 32) : Prop :=
  (∀ a, (k0_off42 v183) a + S1x512.size a ≤ S128000x512.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x512.size a ≤ S128000x512.size a := fun v183 k0_hw21 => k0_hw21

def k0_off43 (i : grid0.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_chk22 (v192 : BitVec 32) : Prop :=
  (∀ a, (k0_off44 v192) a + S1x512.size a ≤ S128000x512.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x512.size a ≤ S128000x512.size a := fun v192 k0_hw22 => k0_hw22

def k0_off45 (i : grid0.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_chk23 (v201 : BitVec 32) : Prop :=
  (∀ a, (k0_off46 v201) a + S1x512.size a ≤ S128000x512.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x512.size a ≤ S128000x512.size a := fun v201 k0_hw23 => k0_hw23

def k0_off47 (i : grid0.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_chk24 (v210 : BitVec 32) : Prop :=
  (∀ a, (k0_off48 v210) a + S1x512.size a ≤ S128000x512.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x512.size a ≤ S128000x512.size a := fun v210 k0_hw24 => k0_hw24

def k0_off49 (i : grid0.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_chk25 (v219 : BitVec 32) : Prop :=
  (∀ a, (k0_off50 v219) a + S1x512.size a ≤ S128000x512.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x512.size a ≤ S128000x512.size a := fun v219 k0_hw25 => k0_hw25

def k0_off51 (i : grid0.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_chk26 (v228 : BitVec 32) : Prop :=
  (∀ a, (k0_off52 v228) a + S1x512.size a ≤ S128000x512.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x512.size a ≤ S128000x512.size a := fun v228 k0_hw26 => k0_hw26

def k0_off53 (i : grid0.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_chk27 (v237 : BitVec 32) : Prop :=
  (∀ a, (k0_off54 v237) a + S1x512.size a ≤ S128000x512.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x512.size a ≤ S128000x512.size a := fun v237 k0_hw27 => k0_hw27

def k0_off55 (i : grid0.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_chk28 (v246 : BitVec 32) : Prop :=
  (∀ a, (k0_off56 v246) a + S1x512.size a ≤ S128000x512.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x512.size a ≤ S128000x512.size a := fun v246 k0_hw28 => k0_hw28

def k0_off57 (i : grid0.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_chk29 (v255 : BitVec 32) : Prop :=
  (∀ a, (k0_off58 v255) a + S1x512.size a ≤ S128000x512.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x512.size a ≤ S128000x512.size a := fun v255 k0_hw29 => k0_hw29

def k0_off59 (i : grid0.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_chk30 (v264 : BitVec 32) : Prop :=
  (∀ a, (k0_off60 v264) a + S1x512.size a ≤ S128000x512.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x512.size a ≤ S128000x512.size a := fun v264 k0_hw30 => k0_hw30

def k0_off61 (i : grid0.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_chk31 (v273 : BitVec 32) : Prop :=
  (∀ a, (k0_off62 v273) a + S1x512.size a ≤ S128000x512.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x512.size a ≤ S128000x512.size a := fun v273 k0_hw31 => k0_hw31

def k0_off63 (i : grid0.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_chk32 (v282 : BitVec 32) : Prop :=
  (∀ a, (k0_off64 v282) a + S1x512.size a ≤ S128000x512.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x512.size a ≤ S128000x512.size a := fun v282 k0_hw32 => k0_hw32

def k0_off65 (i : grid0.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_chk33 (v291 : BitVec 32) : Prop :=
  (∀ a, (k0_off66 v291) a + S1x512.size a ≤ S128000x512.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x512.size a ≤ S128000x512.size a := fun v291 k0_hw33 => k0_hw33

def k0_off67 (i : grid0.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_chk34 (v300 : BitVec 32) : Prop :=
  (∀ a, (k0_off68 v300) a + S1x512.size a ≤ S128000x512.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x512.size a ≤ S128000x512.size a := fun v300 k0_hw34 => k0_hw34

def k0_off69 (i : grid0.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_chk35 (v309 : BitVec 32) : Prop :=
  (∀ a, (k0_off70 v309) a + S1x512.size a ≤ S128000x512.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x512.size a ≤ S128000x512.size a := fun v309 k0_hw35 => k0_hw35

def k0_off71 (i : grid0.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_chk36 (v318 : BitVec 32) : Prop :=
  (∀ a, (k0_off72 v318) a + S1x512.size a ≤ S128000x512.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x512.size a ≤ S128000x512.size a := fun v318 k0_hw36 => k0_hw36

def k0_off73 (i : grid0.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_chk37 (v327 : BitVec 32) : Prop :=
  (∀ a, (k0_off74 v327) a + S1x512.size a ≤ S128000x512.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x512.size a ≤ S128000x512.size a := fun v327 k0_hw37 => k0_hw37

def k0_off75 (i : grid0.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_chk38 (v336 : BitVec 32) : Prop :=
  (∀ a, (k0_off76 v336) a + S1x512.size a ≤ S128000x512.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x512.size a ≤ S128000x512.size a := fun v336 k0_hw38 => k0_hw38

def k0_off77 (i : grid0.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_chk39 (v345 : BitVec 32) : Prop :=
  (∀ a, (k0_off78 v345) a + S1x512.size a ≤ S128000x512.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x512.size a ≤ S128000x512.size a := fun v345 k0_hw39 => k0_hw39

def k0_off79 (i : grid0.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_chk40 (v354 : BitVec 32) : Prop :=
  (∀ a, (k0_off80 v354) a + S1x512.size a ≤ S128000x512.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x512.size a ≤ S128000x512.size a := fun v354 k0_hw40 => k0_hw40

def k0_off81 (i : grid0.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_chk41 (v363 : BitVec 32) : Prop :=
  (∀ a, (k0_off82 v363) a + S1x512.size a ≤ S128000x512.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x512.size a ≤ S128000x512.size a := fun v363 k0_hw41 => k0_hw41

def k0_off83 (i : grid0.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_chk42 (v372 : BitVec 32) : Prop :=
  (∀ a, (k0_off84 v372) a + S1x512.size a ≤ S128000x512.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x512.size a ≤ S128000x512.size a := fun v372 k0_hw42 => k0_hw42

def k0_off85 (i : grid0.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_chk43 (v381 : BitVec 32) : Prop :=
  (∀ a, (k0_off86 v381) a + S1x512.size a ≤ S128000x512.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x512.size a ≤ S128000x512.size a := fun v381 k0_hw43 => k0_hw43

def k0_off87 (i : grid0.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_chk44 (v390 : BitVec 32) : Prop :=
  (∀ a, (k0_off88 v390) a + S1x512.size a ≤ S128000x512.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x512.size a ≤ S128000x512.size a := fun v390 k0_hw44 => k0_hw44

def k0_off89 (i : grid0.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_chk45 (v399 : BitVec 32) : Prop :=
  (∀ a, (k0_off90 v399) a + S1x512.size a ≤ S128000x512.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x512.size a ≤ S128000x512.size a := fun v399 k0_hw45 => k0_hw45

def k0_off91 (i : grid0.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_chk46 (v408 : BitVec 32) : Prop :=
  (∀ a, (k0_off92 v408) a + S1x512.size a ≤ S128000x512.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x512.size a ≤ S128000x512.size a := fun v408 k0_hw46 => k0_hw46

def k0_off93 (i : grid0.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_chk47 (v417 : BitVec 32) : Prop :=
  (∀ a, (k0_off94 v417) a + S1x512.size a ≤ S128000x512.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x512.size a ≤ S128000x512.size a := fun v417 k0_hw47 => k0_hw47

def k0_off95 (i : grid0.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_chk48 (v426 : BitVec 32) : Prop :=
  (∀ a, (k0_off96 v426) a + S1x512.size a ≤ S128000x512.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x512.size a ≤ S128000x512.size a := fun v426 k0_hw48 => k0_hw48

def k0_off97 (i : grid0.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_chk49 (v435 : BitVec 32) : Prop :=
  (∀ a, (k0_off98 v435) a + S1x512.size a ≤ S128000x512.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x512.size a ≤ S128000x512.size a := fun v435 k0_hw49 => k0_hw49

def k0_off99 (i : grid0.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_chk50 (v444 : BitVec 32) : Prop :=
  (∀ a, (k0_off100 v444) a + S1x512.size a ≤ S128000x512.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x512.size a ≤ S128000x512.size a := fun v444 k0_hw50 => k0_hw50

def k0_off101 (i : grid0.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_chk51 (v453 : BitVec 32) : Prop :=
  (∀ a, (k0_off102 v453) a + S1x512.size a ≤ S128000x512.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x512.size a ≤ S128000x512.size a := fun v453 k0_hw51 => k0_hw51

def k0_off103 (i : grid0.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_chk52 (v462 : BitVec 32) : Prop :=
  (∀ a, (k0_off104 v462) a + S1x512.size a ≤ S128000x512.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x512.size a ≤ S128000x512.size a := fun v462 k0_hw52 => k0_hw52

def k0_off105 (i : grid0.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_chk53 (v471 : BitVec 32) : Prop :=
  (∀ a, (k0_off106 v471) a + S1x512.size a ≤ S128000x512.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x512.size a ≤ S128000x512.size a := fun v471 k0_hw53 => k0_hw53

def k0_off107 (i : grid0.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_chk54 (v480 : BitVec 32) : Prop :=
  (∀ a, (k0_off108 v480) a + S1x512.size a ≤ S128000x512.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x512.size a ≤ S128000x512.size a := fun v480 k0_hw54 => k0_hw54

def k0_off109 (i : grid0.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_chk55 (v489 : BitVec 32) : Prop :=
  (∀ a, (k0_off110 v489) a + S1x512.size a ≤ S128000x512.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x512.size a ≤ S128000x512.size a := fun v489 k0_hw55 => k0_hw55

def k0_off111 (i : grid0.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_chk56 (v498 : BitVec 32) : Prop :=
  (∀ a, (k0_off112 v498) a + S1x512.size a ≤ S128000x512.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x512.size a ≤ S128000x512.size a := fun v498 k0_hw56 => k0_hw56

def k0_off113 (i : grid0.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_chk57 (v507 : BitVec 32) : Prop :=
  (∀ a, (k0_off114 v507) a + S1x512.size a ≤ S128000x512.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x512.size a ≤ S128000x512.size a := fun v507 k0_hw57 => k0_hw57

def k0_off115 (i : grid0.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_chk58 (v516 : BitVec 32) : Prop :=
  (∀ a, (k0_off116 v516) a + S1x512.size a ≤ S128000x512.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x512.size a ≤ S128000x512.size a := fun v516 k0_hw58 => k0_hw58

def k0_off117 (i : grid0.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_chk59 (v525 : BitVec 32) : Prop :=
  (∀ a, (k0_off118 v525) a + S1x512.size a ≤ S128000x512.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x512.size a ≤ S128000x512.size a := fun v525 k0_hw59 => k0_hw59

def k0_off119 (i : grid0.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_chk60 (v534 : BitVec 32) : Prop :=
  (∀ a, (k0_off120 v534) a + S1x512.size a ≤ S128000x512.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x512.size a ≤ S128000x512.size a := fun v534 k0_hw60 => k0_hw60

def k0_off121 (i : grid0.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_chk61 (v543 : BitVec 32) : Prop :=
  (∀ a, (k0_off122 v543) a + S1x512.size a ≤ S128000x512.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x512.size a ≤ S128000x512.size a := fun v543 k0_hw61 => k0_hw61

def k0_off123 (i : grid0.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_chk62 (v552 : BitVec 32) : Prop :=
  (∀ a, (k0_off124 v552) a + S1x512.size a ≤ S128000x512.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x512.size a ≤ S128000x512.size a := fun v552 k0_hw62 => k0_hw62

def k0_off125 (i : grid0.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_chk63 (v561 : BitVec 32) : Prop :=
  (∀ a, (k0_off126 v561) a + S1x512.size a ≤ S128000x512.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x512.size a ≤ S128000x512.size a := fun v561 k0_hw63 => k0_hw63

def k0_off127 (i : grid0.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_chk64 (v570 : BitVec 32) : Prop :=
  (∀ a, (k0_off128 v570) a + S1x512.size a ≤ S128000x512.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x512.size a ≤ S128000x512.size a := fun v570 k0_hw64 => k0_hw64

def k0_off129 (i : grid0.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v577 : BitVec 32 := Scalar.addi v0 c64_i32
  let v578 : Index := Scalar.indexCast v577
  ![v578.toNat]
def k0_off130 (v579 : BitVec 32) : Fin 2 → Nat :=
  let c0_i32_259 : BitVec 32 := 0#32
  ![v579.toNat, 0]

def k0_chk65 (v579 : BitVec 32) : Prop :=
  (∀ a, (k0_off130 v579) a + S1x512.size a ≤ S128000x512.size a)
instance k0_chk65.dec : ∀ (v579 : BitVec 32), Decidable (k0_chk65 v579) := fun v579 => decidable_of_iff' _ (Iff.of_eq (k0_chk65.eq_1 v579))
theorem k0_off130_inb : ∀ (v579 : BitVec 32) (k0_hw65 : k0_chk65 v579), ∀ a, (k0_off130 v579) a + S1x512.size a ≤ S128000x512.size a := fun v579 k0_hw65 => k0_hw65

def k0_off131 (i : grid0.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v586 : BitVec 32 := Scalar.addi v0 c65_i32
  let v587 : Index := Scalar.indexCast v586
  ![v587.toNat]
def k0_off132 (v588 : BitVec 32) : Fin 2 → Nat :=
  let c0_i32_263 : BitVec 32 := 0#32
  ![v588.toNat, 0]

def k0_chk66 (v588 : BitVec 32) : Prop :=
  (∀ a, (k0_off132 v588) a + S1x512.size a ≤ S128000x512.size a)
instance k0_chk66.dec : ∀ (v588 : BitVec 32), Decidable (k0_chk66 v588) := fun v588 => decidable_of_iff' _ (Iff.of_eq (k0_chk66.eq_1 v588))
theorem k0_off132_inb : ∀ (v588 : BitVec 32) (k0_hw66 : k0_chk66 v588), ∀ a, (k0_off132 v588) a + S1x512.size a ≤ S128000x512.size a := fun v588 k0_hw66 => k0_hw66

def k0_off133 (i : grid0.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v595 : BitVec 32 := Scalar.addi v0 c66_i32
  let v596 : Index := Scalar.indexCast v595
  ![v596.toNat]
def k0_off134 (v597 : BitVec 32) : Fin 2 → Nat :=
  let c0_i32_267 : BitVec 32 := 0#32
  ![v597.toNat, 0]

def k0_chk67 (v597 : BitVec 32) : Prop :=
  (∀ a, (k0_off134 v597) a + S1x512.size a ≤ S128000x512.size a)
instance k0_chk67.dec : ∀ (v597 : BitVec 32), Decidable (k0_chk67 v597) := fun v597 => decidable_of_iff' _ (Iff.of_eq (k0_chk67.eq_1 v597))
theorem k0_off134_inb : ∀ (v597 : BitVec 32) (k0_hw67 : k0_chk67 v597), ∀ a, (k0_off134 v597) a + S1x512.size a ≤ S128000x512.size a := fun v597 k0_hw67 => k0_hw67

def k0_off135 (i : grid0.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v604 : BitVec 32 := Scalar.addi v0 c67_i32
  let v605 : Index := Scalar.indexCast v604
  ![v605.toNat]
def k0_off136 (v606 : BitVec 32) : Fin 2 → Nat :=
  let c0_i32_271 : BitVec 32 := 0#32
  ![v606.toNat, 0]

def k0_chk68 (v606 : BitVec 32) : Prop :=
  (∀ a, (k0_off136 v606) a + S1x512.size a ≤ S128000x512.size a)
instance k0_chk68.dec : ∀ (v606 : BitVec 32), Decidable (k0_chk68 v606) := fun v606 => decidable_of_iff' _ (Iff.of_eq (k0_chk68.eq_1 v606))
theorem k0_off136_inb : ∀ (v606 : BitVec 32) (k0_hw68 : k0_chk68 v606), ∀ a, (k0_off136 v606) a + S1x512.size a ≤ S128000x512.size a := fun v606 k0_hw68 => k0_hw68

def k0_off137 (i : grid0.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v613 : BitVec 32 := Scalar.addi v0 c68_i32
  let v614 : Index := Scalar.indexCast v613
  ![v614.toNat]
def k0_off138 (v615 : BitVec 32) : Fin 2 → Nat :=
  let c0_i32_275 : BitVec 32 := 0#32
  ![v615.toNat, 0]

def k0_chk69 (v615 : BitVec 32) : Prop :=
  (∀ a, (k0_off138 v615) a + S1x512.size a ≤ S128000x512.size a)
instance k0_chk69.dec : ∀ (v615 : BitVec 32), Decidable (k0_chk69 v615) := fun v615 => decidable_of_iff' _ (Iff.of_eq (k0_chk69.eq_1 v615))
theorem k0_off138_inb : ∀ (v615 : BitVec 32) (k0_hw69 : k0_chk69 v615), ∀ a, (k0_off138 v615) a + S1x512.size a ≤ S128000x512.size a := fun v615 k0_hw69 => k0_hw69

def k0_off139 (i : grid0.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v622 : BitVec 32 := Scalar.addi v0 c69_i32
  let v623 : Index := Scalar.indexCast v622
  ![v623.toNat]
def k0_off140 (v624 : BitVec 32) : Fin 2 → Nat :=
  let c0_i32_279 : BitVec 32 := 0#32
  ![v624.toNat, 0]

def k0_chk70 (v624 : BitVec 32) : Prop :=
  (∀ a, (k0_off140 v624) a + S1x512.size a ≤ S128000x512.size a)
instance k0_chk70.dec : ∀ (v624 : BitVec 32), Decidable (k0_chk70 v624) := fun v624 => decidable_of_iff' _ (Iff.of_eq (k0_chk70.eq_1 v624))
theorem k0_off140_inb : ∀ (v624 : BitVec 32) (k0_hw70 : k0_chk70 v624), ∀ a, (k0_off140 v624) a + S1x512.size a ≤ S128000x512.size a := fun v624 k0_hw70 => k0_hw70

def k0_off141 (i : grid0.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v631 : BitVec 32 := Scalar.addi v0 c70_i32
  let v632 : Index := Scalar.indexCast v631
  ![v632.toNat]
def k0_off142 (v633 : BitVec 32) : Fin 2 → Nat :=
  let c0_i32_283 : BitVec 32 := 0#32
  ![v633.toNat, 0]

def k0_chk71 (v633 : BitVec 32) : Prop :=
  (∀ a, (k0_off142 v633) a + S1x512.size a ≤ S128000x512.size a)
instance k0_chk71.dec : ∀ (v633 : BitVec 32), Decidable (k0_chk71 v633) := fun v633 => decidable_of_iff' _ (Iff.of_eq (k0_chk71.eq_1 v633))
theorem k0_off142_inb : ∀ (v633 : BitVec 32) (k0_hw71 : k0_chk71 v633), ∀ a, (k0_off142 v633) a + S1x512.size a ≤ S128000x512.size a := fun v633 k0_hw71 => k0_hw71

def k0_off143 (i : grid0.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v640 : BitVec 32 := Scalar.addi v0 c71_i32
  let v641 : Index := Scalar.indexCast v640
  ![v641.toNat]
def k0_off144 (v642 : BitVec 32) : Fin 2 → Nat :=
  let c0_i32_287 : BitVec 32 := 0#32
  ![v642.toNat, 0]

def k0_chk72 (v642 : BitVec 32) : Prop :=
  (∀ a, (k0_off144 v642) a + S1x512.size a ≤ S128000x512.size a)
instance k0_chk72.dec : ∀ (v642 : BitVec 32), Decidable (k0_chk72 v642) := fun v642 => decidable_of_iff' _ (Iff.of_eq (k0_chk72.eq_1 v642))
theorem k0_off144_inb : ∀ (v642 : BitVec 32) (k0_hw72 : k0_chk72 v642), ∀ a, (k0_off144 v642) a + S1x512.size a ≤ S128000x512.size a := fun v642 k0_hw72 => k0_hw72

def k0_off145 (i : grid0.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v649 : BitVec 32 := Scalar.addi v0 c72_i32
  let v650 : Index := Scalar.indexCast v649
  ![v650.toNat]
def k0_off146 (v651 : BitVec 32) : Fin 2 → Nat :=
  let c0_i32_291 : BitVec 32 := 0#32
  ![v651.toNat, 0]

def k0_chk73 (v651 : BitVec 32) : Prop :=
  (∀ a, (k0_off146 v651) a + S1x512.size a ≤ S128000x512.size a)
instance k0_chk73.dec : ∀ (v651 : BitVec 32), Decidable (k0_chk73 v651) := fun v651 => decidable_of_iff' _ (Iff.of_eq (k0_chk73.eq_1 v651))
theorem k0_off146_inb : ∀ (v651 : BitVec 32) (k0_hw73 : k0_chk73 v651), ∀ a, (k0_off146 v651) a + S1x512.size a ≤ S128000x512.size a := fun v651 k0_hw73 => k0_hw73

def k0_off147 (i : grid0.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v658 : BitVec 32 := Scalar.addi v0 c73_i32
  let v659 : Index := Scalar.indexCast v658
  ![v659.toNat]
def k0_off148 (v660 : BitVec 32) : Fin 2 → Nat :=
  let c0_i32_295 : BitVec 32 := 0#32
  ![v660.toNat, 0]

def k0_chk74 (v660 : BitVec 32) : Prop :=
  (∀ a, (k0_off148 v660) a + S1x512.size a ≤ S128000x512.size a)
instance k0_chk74.dec : ∀ (v660 : BitVec 32), Decidable (k0_chk74 v660) := fun v660 => decidable_of_iff' _ (Iff.of_eq (k0_chk74.eq_1 v660))
theorem k0_off148_inb : ∀ (v660 : BitVec 32) (k0_hw74 : k0_chk74 v660), ∀ a, (k0_off148 v660) a + S1x512.size a ≤ S128000x512.size a := fun v660 k0_hw74 => k0_hw74

def k0_off149 (i : grid0.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v667 : BitVec 32 := Scalar.addi v0 c74_i32
  let v668 : Index := Scalar.indexCast v667
  ![v668.toNat]
def k0_off150 (v669 : BitVec 32) : Fin 2 → Nat :=
  let c0_i32_299 : BitVec 32 := 0#32
  ![v669.toNat, 0]

def k0_chk75 (v669 : BitVec 32) : Prop :=
  (∀ a, (k0_off150 v669) a + S1x512.size a ≤ S128000x512.size a)
instance k0_chk75.dec : ∀ (v669 : BitVec 32), Decidable (k0_chk75 v669) := fun v669 => decidable_of_iff' _ (Iff.of_eq (k0_chk75.eq_1 v669))
theorem k0_off150_inb : ∀ (v669 : BitVec 32) (k0_hw75 : k0_chk75 v669), ∀ a, (k0_off150 v669) a + S1x512.size a ≤ S128000x512.size a := fun v669 k0_hw75 => k0_hw75

def k0_off151 (i : grid0.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v676 : BitVec 32 := Scalar.addi v0 c75_i32
  let v677 : Index := Scalar.indexCast v676
  ![v677.toNat]
def k0_off152 (v678 : BitVec 32) : Fin 2 → Nat :=
  let c0_i32_303 : BitVec 32 := 0#32
  ![v678.toNat, 0]

def k0_chk76 (v678 : BitVec 32) : Prop :=
  (∀ a, (k0_off152 v678) a + S1x512.size a ≤ S128000x512.size a)
instance k0_chk76.dec : ∀ (v678 : BitVec 32), Decidable (k0_chk76 v678) := fun v678 => decidable_of_iff' _ (Iff.of_eq (k0_chk76.eq_1 v678))
theorem k0_off152_inb : ∀ (v678 : BitVec 32) (k0_hw76 : k0_chk76 v678), ∀ a, (k0_off152 v678) a + S1x512.size a ≤ S128000x512.size a := fun v678 k0_hw76 => k0_hw76

def k0_off153 (i : grid0.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v685 : BitVec 32 := Scalar.addi v0 c76_i32
  let v686 : Index := Scalar.indexCast v685
  ![v686.toNat]
def k0_off154 (v687 : BitVec 32) : Fin 2 → Nat :=
  let c0_i32_307 : BitVec 32 := 0#32
  ![v687.toNat, 0]

def k0_chk77 (v687 : BitVec 32) : Prop :=
  (∀ a, (k0_off154 v687) a + S1x512.size a ≤ S128000x512.size a)
instance k0_chk77.dec : ∀ (v687 : BitVec 32), Decidable (k0_chk77 v687) := fun v687 => decidable_of_iff' _ (Iff.of_eq (k0_chk77.eq_1 v687))
theorem k0_off154_inb : ∀ (v687 : BitVec 32) (k0_hw77 : k0_chk77 v687), ∀ a, (k0_off154 v687) a + S1x512.size a ≤ S128000x512.size a := fun v687 k0_hw77 => k0_hw77

def k0_off155 (i : grid0.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v694 : BitVec 32 := Scalar.addi v0 c77_i32
  let v695 : Index := Scalar.indexCast v694
  ![v695.toNat]
def k0_off156 (v696 : BitVec 32) : Fin 2 → Nat :=
  let c0_i32_311 : BitVec 32 := 0#32
  ![v696.toNat, 0]

def k0_chk78 (v696 : BitVec 32) : Prop :=
  (∀ a, (k0_off156 v696) a + S1x512.size a ≤ S128000x512.size a)
instance k0_chk78.dec : ∀ (v696 : BitVec 32), Decidable (k0_chk78 v696) := fun v696 => decidable_of_iff' _ (Iff.of_eq (k0_chk78.eq_1 v696))
theorem k0_off156_inb : ∀ (v696 : BitVec 32) (k0_hw78 : k0_chk78 v696), ∀ a, (k0_off156 v696) a + S1x512.size a ≤ S128000x512.size a := fun v696 k0_hw78 => k0_hw78

def k0_off157 (i : grid0.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v703 : BitVec 32 := Scalar.addi v0 c78_i32
  let v704 : Index := Scalar.indexCast v703
  ![v704.toNat]
def k0_off158 (v705 : BitVec 32) : Fin 2 → Nat :=
  let c0_i32_315 : BitVec 32 := 0#32
  ![v705.toNat, 0]

def k0_chk79 (v705 : BitVec 32) : Prop :=
  (∀ a, (k0_off158 v705) a + S1x512.size a ≤ S128000x512.size a)
instance k0_chk79.dec : ∀ (v705 : BitVec 32), Decidable (k0_chk79 v705) := fun v705 => decidable_of_iff' _ (Iff.of_eq (k0_chk79.eq_1 v705))
theorem k0_off158_inb : ∀ (v705 : BitVec 32) (k0_hw79 : k0_chk79 v705), ∀ a, (k0_off158 v705) a + S1x512.size a ≤ S128000x512.size a := fun v705 k0_hw79 => k0_hw79

def k0_off159 (i : grid0.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v712 : BitVec 32 := Scalar.addi v0 c79_i32
  let v713 : Index := Scalar.indexCast v712
  ![v713.toNat]
def k0_off160 (v714 : BitVec 32) : Fin 2 → Nat :=
  let c0_i32_319 : BitVec 32 := 0#32
  ![v714.toNat, 0]

def k0_chk80 (v714 : BitVec 32) : Prop :=
  (∀ a, (k0_off160 v714) a + S1x512.size a ≤ S128000x512.size a)
instance k0_chk80.dec : ∀ (v714 : BitVec 32), Decidable (k0_chk80 v714) := fun v714 => decidable_of_iff' _ (Iff.of_eq (k0_chk80.eq_1 v714))
theorem k0_off160_inb : ∀ (v714 : BitVec 32) (k0_hw80 : k0_chk80 v714), ∀ a, (k0_off160 v714) a + S1x512.size a ≤ S128000x512.size a := fun v714 k0_hw80 => k0_hw80

def k0_off161 (i : grid0.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v721 : BitVec 32 := Scalar.addi v0 c80_i32
  let v722 : Index := Scalar.indexCast v721
  ![v722.toNat]
def k0_off162 (v723 : BitVec 32) : Fin 2 → Nat :=
  let c0_i32_323 : BitVec 32 := 0#32
  ![v723.toNat, 0]

def k0_chk81 (v723 : BitVec 32) : Prop :=
  (∀ a, (k0_off162 v723) a + S1x512.size a ≤ S128000x512.size a)
instance k0_chk81.dec : ∀ (v723 : BitVec 32), Decidable (k0_chk81 v723) := fun v723 => decidable_of_iff' _ (Iff.of_eq (k0_chk81.eq_1 v723))
theorem k0_off162_inb : ∀ (v723 : BitVec 32) (k0_hw81 : k0_chk81 v723), ∀ a, (k0_off162 v723) a + S1x512.size a ≤ S128000x512.size a := fun v723 k0_hw81 => k0_hw81

def k0_off163 (i : grid0.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v730 : BitVec 32 := Scalar.addi v0 c81_i32
  let v731 : Index := Scalar.indexCast v730
  ![v731.toNat]
def k0_off164 (v732 : BitVec 32) : Fin 2 → Nat :=
  let c0_i32_327 : BitVec 32 := 0#32
  ![v732.toNat, 0]

def k0_chk82 (v732 : BitVec 32) : Prop :=
  (∀ a, (k0_off164 v732) a + S1x512.size a ≤ S128000x512.size a)
instance k0_chk82.dec : ∀ (v732 : BitVec 32), Decidable (k0_chk82 v732) := fun v732 => decidable_of_iff' _ (Iff.of_eq (k0_chk82.eq_1 v732))
theorem k0_off164_inb : ∀ (v732 : BitVec 32) (k0_hw82 : k0_chk82 v732), ∀ a, (k0_off164 v732) a + S1x512.size a ≤ S128000x512.size a := fun v732 k0_hw82 => k0_hw82

def k0_off165 (i : grid0.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v739 : BitVec 32 := Scalar.addi v0 c82_i32
  let v740 : Index := Scalar.indexCast v739
  ![v740.toNat]
def k0_off166 (v741 : BitVec 32) : Fin 2 → Nat :=
  let c0_i32_331 : BitVec 32 := 0#32
  ![v741.toNat, 0]

def k0_chk83 (v741 : BitVec 32) : Prop :=
  (∀ a, (k0_off166 v741) a + S1x512.size a ≤ S128000x512.size a)
instance k0_chk83.dec : ∀ (v741 : BitVec 32), Decidable (k0_chk83 v741) := fun v741 => decidable_of_iff' _ (Iff.of_eq (k0_chk83.eq_1 v741))
theorem k0_off166_inb : ∀ (v741 : BitVec 32) (k0_hw83 : k0_chk83 v741), ∀ a, (k0_off166 v741) a + S1x512.size a ≤ S128000x512.size a := fun v741 k0_hw83 => k0_hw83

def k0_off167 (i : grid0.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v748 : BitVec 32 := Scalar.addi v0 c83_i32
  let v749 : Index := Scalar.indexCast v748
  ![v749.toNat]
def k0_off168 (v750 : BitVec 32) : Fin 2 → Nat :=
  let c0_i32_335 : BitVec 32 := 0#32
  ![v750.toNat, 0]

def k0_chk84 (v750 : BitVec 32) : Prop :=
  (∀ a, (k0_off168 v750) a + S1x512.size a ≤ S128000x512.size a)
instance k0_chk84.dec : ∀ (v750 : BitVec 32), Decidable (k0_chk84 v750) := fun v750 => decidable_of_iff' _ (Iff.of_eq (k0_chk84.eq_1 v750))
theorem k0_off168_inb : ∀ (v750 : BitVec 32) (k0_hw84 : k0_chk84 v750), ∀ a, (k0_off168 v750) a + S1x512.size a ≤ S128000x512.size a := fun v750 k0_hw84 => k0_hw84

def k0_off169 (i : grid0.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v757 : BitVec 32 := Scalar.addi v0 c84_i32
  let v758 : Index := Scalar.indexCast v757
  ![v758.toNat]
def k0_off170 (v759 : BitVec 32) : Fin 2 → Nat :=
  let c0_i32_339 : BitVec 32 := 0#32
  ![v759.toNat, 0]

def k0_chk85 (v759 : BitVec 32) : Prop :=
  (∀ a, (k0_off170 v759) a + S1x512.size a ≤ S128000x512.size a)
instance k0_chk85.dec : ∀ (v759 : BitVec 32), Decidable (k0_chk85 v759) := fun v759 => decidable_of_iff' _ (Iff.of_eq (k0_chk85.eq_1 v759))
theorem k0_off170_inb : ∀ (v759 : BitVec 32) (k0_hw85 : k0_chk85 v759), ∀ a, (k0_off170 v759) a + S1x512.size a ≤ S128000x512.size a := fun v759 k0_hw85 => k0_hw85

def k0_off171 (i : grid0.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v766 : BitVec 32 := Scalar.addi v0 c85_i32
  let v767 : Index := Scalar.indexCast v766
  ![v767.toNat]
def k0_off172 (v768 : BitVec 32) : Fin 2 → Nat :=
  let c0_i32_343 : BitVec 32 := 0#32
  ![v768.toNat, 0]

def k0_chk86 (v768 : BitVec 32) : Prop :=
  (∀ a, (k0_off172 v768) a + S1x512.size a ≤ S128000x512.size a)
instance k0_chk86.dec : ∀ (v768 : BitVec 32), Decidable (k0_chk86 v768) := fun v768 => decidable_of_iff' _ (Iff.of_eq (k0_chk86.eq_1 v768))
theorem k0_off172_inb : ∀ (v768 : BitVec 32) (k0_hw86 : k0_chk86 v768), ∀ a, (k0_off172 v768) a + S1x512.size a ≤ S128000x512.size a := fun v768 k0_hw86 => k0_hw86

def k0_off173 (i : grid0.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v775 : BitVec 32 := Scalar.addi v0 c86_i32
  let v776 : Index := Scalar.indexCast v775
  ![v776.toNat]
def k0_off174 (v777 : BitVec 32) : Fin 2 → Nat :=
  let c0_i32_347 : BitVec 32 := 0#32
  ![v777.toNat, 0]

def k0_chk87 (v777 : BitVec 32) : Prop :=
  (∀ a, (k0_off174 v777) a + S1x512.size a ≤ S128000x512.size a)
instance k0_chk87.dec : ∀ (v777 : BitVec 32), Decidable (k0_chk87 v777) := fun v777 => decidable_of_iff' _ (Iff.of_eq (k0_chk87.eq_1 v777))
theorem k0_off174_inb : ∀ (v777 : BitVec 32) (k0_hw87 : k0_chk87 v777), ∀ a, (k0_off174 v777) a + S1x512.size a ≤ S128000x512.size a := fun v777 k0_hw87 => k0_hw87

def k0_off175 (i : grid0.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v784 : BitVec 32 := Scalar.addi v0 c87_i32
  let v785 : Index := Scalar.indexCast v784
  ![v785.toNat]
def k0_off176 (v786 : BitVec 32) : Fin 2 → Nat :=
  let c0_i32_351 : BitVec 32 := 0#32
  ![v786.toNat, 0]

def k0_chk88 (v786 : BitVec 32) : Prop :=
  (∀ a, (k0_off176 v786) a + S1x512.size a ≤ S128000x512.size a)
instance k0_chk88.dec : ∀ (v786 : BitVec 32), Decidable (k0_chk88 v786) := fun v786 => decidable_of_iff' _ (Iff.of_eq (k0_chk88.eq_1 v786))
theorem k0_off176_inb : ∀ (v786 : BitVec 32) (k0_hw88 : k0_chk88 v786), ∀ a, (k0_off176 v786) a + S1x512.size a ≤ S128000x512.size a := fun v786 k0_hw88 => k0_hw88

def k0_off177 (i : grid0.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v793 : BitVec 32 := Scalar.addi v0 c88_i32
  let v794 : Index := Scalar.indexCast v793
  ![v794.toNat]
def k0_off178 (v795 : BitVec 32) : Fin 2 → Nat :=
  let c0_i32_355 : BitVec 32 := 0#32
  ![v795.toNat, 0]

def k0_chk89 (v795 : BitVec 32) : Prop :=
  (∀ a, (k0_off178 v795) a + S1x512.size a ≤ S128000x512.size a)
instance k0_chk89.dec : ∀ (v795 : BitVec 32), Decidable (k0_chk89 v795) := fun v795 => decidable_of_iff' _ (Iff.of_eq (k0_chk89.eq_1 v795))
theorem k0_off178_inb : ∀ (v795 : BitVec 32) (k0_hw89 : k0_chk89 v795), ∀ a, (k0_off178 v795) a + S1x512.size a ≤ S128000x512.size a := fun v795 k0_hw89 => k0_hw89

def k0_off179 (i : grid0.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v802 : BitVec 32 := Scalar.addi v0 c89_i32
  let v803 : Index := Scalar.indexCast v802
  ![v803.toNat]
def k0_off180 (v804 : BitVec 32) : Fin 2 → Nat :=
  let c0_i32_359 : BitVec 32 := 0#32
  ![v804.toNat, 0]

def k0_chk90 (v804 : BitVec 32) : Prop :=
  (∀ a, (k0_off180 v804) a + S1x512.size a ≤ S128000x512.size a)
instance k0_chk90.dec : ∀ (v804 : BitVec 32), Decidable (k0_chk90 v804) := fun v804 => decidable_of_iff' _ (Iff.of_eq (k0_chk90.eq_1 v804))
theorem k0_off180_inb : ∀ (v804 : BitVec 32) (k0_hw90 : k0_chk90 v804), ∀ a, (k0_off180 v804) a + S1x512.size a ≤ S128000x512.size a := fun v804 k0_hw90 => k0_hw90

def k0_off181 (i : grid0.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v811 : BitVec 32 := Scalar.addi v0 c90_i32
  let v812 : Index := Scalar.indexCast v811
  ![v812.toNat]
def k0_off182 (v813 : BitVec 32) : Fin 2 → Nat :=
  let c0_i32_363 : BitVec 32 := 0#32
  ![v813.toNat, 0]

def k0_chk91 (v813 : BitVec 32) : Prop :=
  (∀ a, (k0_off182 v813) a + S1x512.size a ≤ S128000x512.size a)
instance k0_chk91.dec : ∀ (v813 : BitVec 32), Decidable (k0_chk91 v813) := fun v813 => decidable_of_iff' _ (Iff.of_eq (k0_chk91.eq_1 v813))
theorem k0_off182_inb : ∀ (v813 : BitVec 32) (k0_hw91 : k0_chk91 v813), ∀ a, (k0_off182 v813) a + S1x512.size a ≤ S128000x512.size a := fun v813 k0_hw91 => k0_hw91

def k0_off183 (i : grid0.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v820 : BitVec 32 := Scalar.addi v0 c91_i32
  let v821 : Index := Scalar.indexCast v820
  ![v821.toNat]
def k0_off184 (v822 : BitVec 32) : Fin 2 → Nat :=
  let c0_i32_367 : BitVec 32 := 0#32
  ![v822.toNat, 0]

def k0_chk92 (v822 : BitVec 32) : Prop :=
  (∀ a, (k0_off184 v822) a + S1x512.size a ≤ S128000x512.size a)
instance k0_chk92.dec : ∀ (v822 : BitVec 32), Decidable (k0_chk92 v822) := fun v822 => decidable_of_iff' _ (Iff.of_eq (k0_chk92.eq_1 v822))
theorem k0_off184_inb : ∀ (v822 : BitVec 32) (k0_hw92 : k0_chk92 v822), ∀ a, (k0_off184 v822) a + S1x512.size a ≤ S128000x512.size a := fun v822 k0_hw92 => k0_hw92

def k0_off185 (i : grid0.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v829 : BitVec 32 := Scalar.addi v0 c92_i32
  let v830 : Index := Scalar.indexCast v829
  ![v830.toNat]
def k0_off186 (v831 : BitVec 32) : Fin 2 → Nat :=
  let c0_i32_371 : BitVec 32 := 0#32
  ![v831.toNat, 0]

def k0_chk93 (v831 : BitVec 32) : Prop :=
  (∀ a, (k0_off186 v831) a + S1x512.size a ≤ S128000x512.size a)
instance k0_chk93.dec : ∀ (v831 : BitVec 32), Decidable (k0_chk93 v831) := fun v831 => decidable_of_iff' _ (Iff.of_eq (k0_chk93.eq_1 v831))
theorem k0_off186_inb : ∀ (v831 : BitVec 32) (k0_hw93 : k0_chk93 v831), ∀ a, (k0_off186 v831) a + S1x512.size a ≤ S128000x512.size a := fun v831 k0_hw93 => k0_hw93

def k0_off187 (i : grid0.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v838 : BitVec 32 := Scalar.addi v0 c93_i32
  let v839 : Index := Scalar.indexCast v838
  ![v839.toNat]
def k0_off188 (v840 : BitVec 32) : Fin 2 → Nat :=
  let c0_i32_375 : BitVec 32 := 0#32
  ![v840.toNat, 0]

def k0_chk94 (v840 : BitVec 32) : Prop :=
  (∀ a, (k0_off188 v840) a + S1x512.size a ≤ S128000x512.size a)
instance k0_chk94.dec : ∀ (v840 : BitVec 32), Decidable (k0_chk94 v840) := fun v840 => decidable_of_iff' _ (Iff.of_eq (k0_chk94.eq_1 v840))
theorem k0_off188_inb : ∀ (v840 : BitVec 32) (k0_hw94 : k0_chk94 v840), ∀ a, (k0_off188 v840) a + S1x512.size a ≤ S128000x512.size a := fun v840 k0_hw94 => k0_hw94

def k0_off189 (i : grid0.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v847 : BitVec 32 := Scalar.addi v0 c94_i32
  let v848 : Index := Scalar.indexCast v847
  ![v848.toNat]
def k0_off190 (v849 : BitVec 32) : Fin 2 → Nat :=
  let c0_i32_379 : BitVec 32 := 0#32
  ![v849.toNat, 0]

def k0_chk95 (v849 : BitVec 32) : Prop :=
  (∀ a, (k0_off190 v849) a + S1x512.size a ≤ S128000x512.size a)
instance k0_chk95.dec : ∀ (v849 : BitVec 32), Decidable (k0_chk95 v849) := fun v849 => decidable_of_iff' _ (Iff.of_eq (k0_chk95.eq_1 v849))
theorem k0_off190_inb : ∀ (v849 : BitVec 32) (k0_hw95 : k0_chk95 v849), ∀ a, (k0_off190 v849) a + S1x512.size a ≤ S128000x512.size a := fun v849 k0_hw95 => k0_hw95

def k0_off191 (i : grid0.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v856 : BitVec 32 := Scalar.addi v0 c95_i32
  let v857 : Index := Scalar.indexCast v856
  ![v857.toNat]
def k0_off192 (v858 : BitVec 32) : Fin 2 → Nat :=
  let c0_i32_383 : BitVec 32 := 0#32
  ![v858.toNat, 0]

def k0_chk96 (v858 : BitVec 32) : Prop :=
  (∀ a, (k0_off192 v858) a + S1x512.size a ≤ S128000x512.size a)
instance k0_chk96.dec : ∀ (v858 : BitVec 32), Decidable (k0_chk96 v858) := fun v858 => decidable_of_iff' _ (Iff.of_eq (k0_chk96.eq_1 v858))
theorem k0_off192_inb : ∀ (v858 : BitVec 32) (k0_hw96 : k0_chk96 v858), ∀ a, (k0_off192 v858) a + S1x512.size a ≤ S128000x512.size a := fun v858 k0_hw96 => k0_hw96

def k0_off193 (i : grid0.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v865 : BitVec 32 := Scalar.addi v0 c96_i32
  let v866 : Index := Scalar.indexCast v865
  ![v866.toNat]
def k0_off194 (v867 : BitVec 32) : Fin 2 → Nat :=
  let c0_i32_387 : BitVec 32 := 0#32
  ![v867.toNat, 0]

def k0_chk97 (v867 : BitVec 32) : Prop :=
  (∀ a, (k0_off194 v867) a + S1x512.size a ≤ S128000x512.size a)
instance k0_chk97.dec : ∀ (v867 : BitVec 32), Decidable (k0_chk97 v867) := fun v867 => decidable_of_iff' _ (Iff.of_eq (k0_chk97.eq_1 v867))
theorem k0_off194_inb : ∀ (v867 : BitVec 32) (k0_hw97 : k0_chk97 v867), ∀ a, (k0_off194 v867) a + S1x512.size a ≤ S128000x512.size a := fun v867 k0_hw97 => k0_hw97

def k0_off195 (i : grid0.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v874 : BitVec 32 := Scalar.addi v0 c97_i32
  let v875 : Index := Scalar.indexCast v874
  ![v875.toNat]
def k0_off196 (v876 : BitVec 32) : Fin 2 → Nat :=
  let c0_i32_391 : BitVec 32 := 0#32
  ![v876.toNat, 0]

def k0_chk98 (v876 : BitVec 32) : Prop :=
  (∀ a, (k0_off196 v876) a + S1x512.size a ≤ S128000x512.size a)
instance k0_chk98.dec : ∀ (v876 : BitVec 32), Decidable (k0_chk98 v876) := fun v876 => decidable_of_iff' _ (Iff.of_eq (k0_chk98.eq_1 v876))
theorem k0_off196_inb : ∀ (v876 : BitVec 32) (k0_hw98 : k0_chk98 v876), ∀ a, (k0_off196 v876) a + S1x512.size a ≤ S128000x512.size a := fun v876 k0_hw98 => k0_hw98

def k0_off197 (i : grid0.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v883 : BitVec 32 := Scalar.addi v0 c98_i32
  let v884 : Index := Scalar.indexCast v883
  ![v884.toNat]
def k0_off198 (v885 : BitVec 32) : Fin 2 → Nat :=
  let c0_i32_395 : BitVec 32 := 0#32
  ![v885.toNat, 0]

def k0_chk99 (v885 : BitVec 32) : Prop :=
  (∀ a, (k0_off198 v885) a + S1x512.size a ≤ S128000x512.size a)
instance k0_chk99.dec : ∀ (v885 : BitVec 32), Decidable (k0_chk99 v885) := fun v885 => decidable_of_iff' _ (Iff.of_eq (k0_chk99.eq_1 v885))
theorem k0_off198_inb : ∀ (v885 : BitVec 32) (k0_hw99 : k0_chk99 v885), ∀ a, (k0_off198 v885) a + S1x512.size a ≤ S128000x512.size a := fun v885 k0_hw99 => k0_hw99

def k0_off199 (i : grid0.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v892 : BitVec 32 := Scalar.addi v0 c99_i32
  let v893 : Index := Scalar.indexCast v892
  ![v893.toNat]
def k0_off200 (v894 : BitVec 32) : Fin 2 → Nat :=
  let c0_i32_399 : BitVec 32 := 0#32
  ![v894.toNat, 0]

def k0_chk100 (v894 : BitVec 32) : Prop :=
  (∀ a, (k0_off200 v894) a + S1x512.size a ≤ S128000x512.size a)
instance k0_chk100.dec : ∀ (v894 : BitVec 32), Decidable (k0_chk100 v894) := fun v894 => decidable_of_iff' _ (Iff.of_eq (k0_chk100.eq_1 v894))
theorem k0_off200_inb : ∀ (v894 : BitVec 32) (k0_hw100 : k0_chk100 v894), ∀ a, (k0_off200 v894) a + S1x512.size a ≤ S128000x512.size a := fun v894 k0_hw100 => k0_hw100

def k0_off201 (i : grid0.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v901 : BitVec 32 := Scalar.addi v0 c100_i32
  let v902 : Index := Scalar.indexCast v901
  ![v902.toNat]
def k0_off202 (v903 : BitVec 32) : Fin 2 → Nat :=
  let c0_i32_403 : BitVec 32 := 0#32
  ![v903.toNat, 0]

def k0_chk101 (v903 : BitVec 32) : Prop :=
  (∀ a, (k0_off202 v903) a + S1x512.size a ≤ S128000x512.size a)
instance k0_chk101.dec : ∀ (v903 : BitVec 32), Decidable (k0_chk101 v903) := fun v903 => decidable_of_iff' _ (Iff.of_eq (k0_chk101.eq_1 v903))
theorem k0_off202_inb : ∀ (v903 : BitVec 32) (k0_hw101 : k0_chk101 v903), ∀ a, (k0_off202 v903) a + S1x512.size a ≤ S128000x512.size a := fun v903 k0_hw101 => k0_hw101

def k0_off203 (i : grid0.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v910 : BitVec 32 := Scalar.addi v0 c101_i32
  let v911 : Index := Scalar.indexCast v910
  ![v911.toNat]
def k0_off204 (v912 : BitVec 32) : Fin 2 → Nat :=
  let c0_i32_407 : BitVec 32 := 0#32
  ![v912.toNat, 0]

def k0_chk102 (v912 : BitVec 32) : Prop :=
  (∀ a, (k0_off204 v912) a + S1x512.size a ≤ S128000x512.size a)
instance k0_chk102.dec : ∀ (v912 : BitVec 32), Decidable (k0_chk102 v912) := fun v912 => decidable_of_iff' _ (Iff.of_eq (k0_chk102.eq_1 v912))
theorem k0_off204_inb : ∀ (v912 : BitVec 32) (k0_hw102 : k0_chk102 v912), ∀ a, (k0_off204 v912) a + S1x512.size a ≤ S128000x512.size a := fun v912 k0_hw102 => k0_hw102

def k0_off205 (i : grid0.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v919 : BitVec 32 := Scalar.addi v0 c102_i32
  let v920 : Index := Scalar.indexCast v919
  ![v920.toNat]
def k0_off206 (v921 : BitVec 32) : Fin 2 → Nat :=
  let c0_i32_411 : BitVec 32 := 0#32
  ![v921.toNat, 0]

def k0_chk103 (v921 : BitVec 32) : Prop :=
  (∀ a, (k0_off206 v921) a + S1x512.size a ≤ S128000x512.size a)
instance k0_chk103.dec : ∀ (v921 : BitVec 32), Decidable (k0_chk103 v921) := fun v921 => decidable_of_iff' _ (Iff.of_eq (k0_chk103.eq_1 v921))
theorem k0_off206_inb : ∀ (v921 : BitVec 32) (k0_hw103 : k0_chk103 v921), ∀ a, (k0_off206 v921) a + S1x512.size a ≤ S128000x512.size a := fun v921 k0_hw103 => k0_hw103

def k0_off207 (i : grid0.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v928 : BitVec 32 := Scalar.addi v0 c103_i32
  let v929 : Index := Scalar.indexCast v928
  ![v929.toNat]
def k0_off208 (v930 : BitVec 32) : Fin 2 → Nat :=
  let c0_i32_415 : BitVec 32 := 0#32
  ![v930.toNat, 0]

def k0_chk104 (v930 : BitVec 32) : Prop :=
  (∀ a, (k0_off208 v930) a + S1x512.size a ≤ S128000x512.size a)
instance k0_chk104.dec : ∀ (v930 : BitVec 32), Decidable (k0_chk104 v930) := fun v930 => decidable_of_iff' _ (Iff.of_eq (k0_chk104.eq_1 v930))
theorem k0_off208_inb : ∀ (v930 : BitVec 32) (k0_hw104 : k0_chk104 v930), ∀ a, (k0_off208 v930) a + S1x512.size a ≤ S128000x512.size a := fun v930 k0_hw104 => k0_hw104

def k0_off209 (i : grid0.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v937 : BitVec 32 := Scalar.addi v0 c104_i32
  let v938 : Index := Scalar.indexCast v937
  ![v938.toNat]
def k0_off210 (v939 : BitVec 32) : Fin 2 → Nat :=
  let c0_i32_419 : BitVec 32 := 0#32
  ![v939.toNat, 0]

def k0_chk105 (v939 : BitVec 32) : Prop :=
  (∀ a, (k0_off210 v939) a + S1x512.size a ≤ S128000x512.size a)
instance k0_chk105.dec : ∀ (v939 : BitVec 32), Decidable (k0_chk105 v939) := fun v939 => decidable_of_iff' _ (Iff.of_eq (k0_chk105.eq_1 v939))
theorem k0_off210_inb : ∀ (v939 : BitVec 32) (k0_hw105 : k0_chk105 v939), ∀ a, (k0_off210 v939) a + S1x512.size a ≤ S128000x512.size a := fun v939 k0_hw105 => k0_hw105

def k0_off211 (i : grid0.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v946 : BitVec 32 := Scalar.addi v0 c105_i32
  let v947 : Index := Scalar.indexCast v946
  ![v947.toNat]
def k0_off212 (v948 : BitVec 32) : Fin 2 → Nat :=
  let c0_i32_423 : BitVec 32 := 0#32
  ![v948.toNat, 0]

def k0_chk106 (v948 : BitVec 32) : Prop :=
  (∀ a, (k0_off212 v948) a + S1x512.size a ≤ S128000x512.size a)
instance k0_chk106.dec : ∀ (v948 : BitVec 32), Decidable (k0_chk106 v948) := fun v948 => decidable_of_iff' _ (Iff.of_eq (k0_chk106.eq_1 v948))
theorem k0_off212_inb : ∀ (v948 : BitVec 32) (k0_hw106 : k0_chk106 v948), ∀ a, (k0_off212 v948) a + S1x512.size a ≤ S128000x512.size a := fun v948 k0_hw106 => k0_hw106

def k0_off213 (i : grid0.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v955 : BitVec 32 := Scalar.addi v0 c106_i32
  let v956 : Index := Scalar.indexCast v955
  ![v956.toNat]
def k0_off214 (v957 : BitVec 32) : Fin 2 → Nat :=
  let c0_i32_427 : BitVec 32 := 0#32
  ![v957.toNat, 0]

def k0_chk107 (v957 : BitVec 32) : Prop :=
  (∀ a, (k0_off214 v957) a + S1x512.size a ≤ S128000x512.size a)
instance k0_chk107.dec : ∀ (v957 : BitVec 32), Decidable (k0_chk107 v957) := fun v957 => decidable_of_iff' _ (Iff.of_eq (k0_chk107.eq_1 v957))
theorem k0_off214_inb : ∀ (v957 : BitVec 32) (k0_hw107 : k0_chk107 v957), ∀ a, (k0_off214 v957) a + S1x512.size a ≤ S128000x512.size a := fun v957 k0_hw107 => k0_hw107

def k0_off215 (i : grid0.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v964 : BitVec 32 := Scalar.addi v0 c107_i32
  let v965 : Index := Scalar.indexCast v964
  ![v965.toNat]
def k0_off216 (v966 : BitVec 32) : Fin 2 → Nat :=
  let c0_i32_431 : BitVec 32 := 0#32
  ![v966.toNat, 0]

def k0_chk108 (v966 : BitVec 32) : Prop :=
  (∀ a, (k0_off216 v966) a + S1x512.size a ≤ S128000x512.size a)
instance k0_chk108.dec : ∀ (v966 : BitVec 32), Decidable (k0_chk108 v966) := fun v966 => decidable_of_iff' _ (Iff.of_eq (k0_chk108.eq_1 v966))
theorem k0_off216_inb : ∀ (v966 : BitVec 32) (k0_hw108 : k0_chk108 v966), ∀ a, (k0_off216 v966) a + S1x512.size a ≤ S128000x512.size a := fun v966 k0_hw108 => k0_hw108

def k0_off217 (i : grid0.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v973 : BitVec 32 := Scalar.addi v0 c108_i32
  let v974 : Index := Scalar.indexCast v973
  ![v974.toNat]
def k0_off218 (v975 : BitVec 32) : Fin 2 → Nat :=
  let c0_i32_435 : BitVec 32 := 0#32
  ![v975.toNat, 0]

def k0_chk109 (v975 : BitVec 32) : Prop :=
  (∀ a, (k0_off218 v975) a + S1x512.size a ≤ S128000x512.size a)
instance k0_chk109.dec : ∀ (v975 : BitVec 32), Decidable (k0_chk109 v975) := fun v975 => decidable_of_iff' _ (Iff.of_eq (k0_chk109.eq_1 v975))
theorem k0_off218_inb : ∀ (v975 : BitVec 32) (k0_hw109 : k0_chk109 v975), ∀ a, (k0_off218 v975) a + S1x512.size a ≤ S128000x512.size a := fun v975 k0_hw109 => k0_hw109

def k0_off219 (i : grid0.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v982 : BitVec 32 := Scalar.addi v0 c109_i32
  let v983 : Index := Scalar.indexCast v982
  ![v983.toNat]
def k0_off220 (v984 : BitVec 32) : Fin 2 → Nat :=
  let c0_i32_439 : BitVec 32 := 0#32
  ![v984.toNat, 0]

def k0_chk110 (v984 : BitVec 32) : Prop :=
  (∀ a, (k0_off220 v984) a + S1x512.size a ≤ S128000x512.size a)
instance k0_chk110.dec : ∀ (v984 : BitVec 32), Decidable (k0_chk110 v984) := fun v984 => decidable_of_iff' _ (Iff.of_eq (k0_chk110.eq_1 v984))
theorem k0_off220_inb : ∀ (v984 : BitVec 32) (k0_hw110 : k0_chk110 v984), ∀ a, (k0_off220 v984) a + S1x512.size a ≤ S128000x512.size a := fun v984 k0_hw110 => k0_hw110

def k0_off221 (i : grid0.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v991 : BitVec 32 := Scalar.addi v0 c110_i32
  let v992 : Index := Scalar.indexCast v991
  ![v992.toNat]
def k0_off222 (v993 : BitVec 32) : Fin 2 → Nat :=
  let c0_i32_443 : BitVec 32 := 0#32
  ![v993.toNat, 0]

def k0_chk111 (v993 : BitVec 32) : Prop :=
  (∀ a, (k0_off222 v993) a + S1x512.size a ≤ S128000x512.size a)
instance k0_chk111.dec : ∀ (v993 : BitVec 32), Decidable (k0_chk111 v993) := fun v993 => decidable_of_iff' _ (Iff.of_eq (k0_chk111.eq_1 v993))
theorem k0_off222_inb : ∀ (v993 : BitVec 32) (k0_hw111 : k0_chk111 v993), ∀ a, (k0_off222 v993) a + S1x512.size a ≤ S128000x512.size a := fun v993 k0_hw111 => k0_hw111

def k0_off223 (i : grid0.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1000 : BitVec 32 := Scalar.addi v0 c111_i32
  let v1001 : Index := Scalar.indexCast v1000
  ![v1001.toNat]
def k0_off224 (v1002 : BitVec 32) : Fin 2 → Nat :=
  let c0_i32_447 : BitVec 32 := 0#32
  ![v1002.toNat, 0]

def k0_chk112 (v1002 : BitVec 32) : Prop :=
  (∀ a, (k0_off224 v1002) a + S1x512.size a ≤ S128000x512.size a)
instance k0_chk112.dec : ∀ (v1002 : BitVec 32), Decidable (k0_chk112 v1002) := fun v1002 => decidable_of_iff' _ (Iff.of_eq (k0_chk112.eq_1 v1002))
theorem k0_off224_inb : ∀ (v1002 : BitVec 32) (k0_hw112 : k0_chk112 v1002), ∀ a, (k0_off224 v1002) a + S1x512.size a ≤ S128000x512.size a := fun v1002 k0_hw112 => k0_hw112

def k0_off225 (i : grid0.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1009 : BitVec 32 := Scalar.addi v0 c112_i32
  let v1010 : Index := Scalar.indexCast v1009
  ![v1010.toNat]
def k0_off226 (v1011 : BitVec 32) : Fin 2 → Nat :=
  let c0_i32_451 : BitVec 32 := 0#32
  ![v1011.toNat, 0]

def k0_chk113 (v1011 : BitVec 32) : Prop :=
  (∀ a, (k0_off226 v1011) a + S1x512.size a ≤ S128000x512.size a)
instance k0_chk113.dec : ∀ (v1011 : BitVec 32), Decidable (k0_chk113 v1011) := fun v1011 => decidable_of_iff' _ (Iff.of_eq (k0_chk113.eq_1 v1011))
theorem k0_off226_inb : ∀ (v1011 : BitVec 32) (k0_hw113 : k0_chk113 v1011), ∀ a, (k0_off226 v1011) a + S1x512.size a ≤ S128000x512.size a := fun v1011 k0_hw113 => k0_hw113

def k0_off227 (i : grid0.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1018 : BitVec 32 := Scalar.addi v0 c113_i32
  let v1019 : Index := Scalar.indexCast v1018
  ![v1019.toNat]
def k0_off228 (v1020 : BitVec 32) : Fin 2 → Nat :=
  let c0_i32_455 : BitVec 32 := 0#32
  ![v1020.toNat, 0]

def k0_chk114 (v1020 : BitVec 32) : Prop :=
  (∀ a, (k0_off228 v1020) a + S1x512.size a ≤ S128000x512.size a)
instance k0_chk114.dec : ∀ (v1020 : BitVec 32), Decidable (k0_chk114 v1020) := fun v1020 => decidable_of_iff' _ (Iff.of_eq (k0_chk114.eq_1 v1020))
theorem k0_off228_inb : ∀ (v1020 : BitVec 32) (k0_hw114 : k0_chk114 v1020), ∀ a, (k0_off228 v1020) a + S1x512.size a ≤ S128000x512.size a := fun v1020 k0_hw114 => k0_hw114

def k0_off229 (i : grid0.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1027 : BitVec 32 := Scalar.addi v0 c114_i32
  let v1028 : Index := Scalar.indexCast v1027
  ![v1028.toNat]
def k0_off230 (v1029 : BitVec 32) : Fin 2 → Nat :=
  let c0_i32_459 : BitVec 32 := 0#32
  ![v1029.toNat, 0]

def k0_chk115 (v1029 : BitVec 32) : Prop :=
  (∀ a, (k0_off230 v1029) a + S1x512.size a ≤ S128000x512.size a)
instance k0_chk115.dec : ∀ (v1029 : BitVec 32), Decidable (k0_chk115 v1029) := fun v1029 => decidable_of_iff' _ (Iff.of_eq (k0_chk115.eq_1 v1029))
theorem k0_off230_inb : ∀ (v1029 : BitVec 32) (k0_hw115 : k0_chk115 v1029), ∀ a, (k0_off230 v1029) a + S1x512.size a ≤ S128000x512.size a := fun v1029 k0_hw115 => k0_hw115

def k0_off231 (i : grid0.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1036 : BitVec 32 := Scalar.addi v0 c115_i32
  let v1037 : Index := Scalar.indexCast v1036
  ![v1037.toNat]
def k0_off232 (v1038 : BitVec 32) : Fin 2 → Nat :=
  let c0_i32_463 : BitVec 32 := 0#32
  ![v1038.toNat, 0]

def k0_chk116 (v1038 : BitVec 32) : Prop :=
  (∀ a, (k0_off232 v1038) a + S1x512.size a ≤ S128000x512.size a)
instance k0_chk116.dec : ∀ (v1038 : BitVec 32), Decidable (k0_chk116 v1038) := fun v1038 => decidable_of_iff' _ (Iff.of_eq (k0_chk116.eq_1 v1038))
theorem k0_off232_inb : ∀ (v1038 : BitVec 32) (k0_hw116 : k0_chk116 v1038), ∀ a, (k0_off232 v1038) a + S1x512.size a ≤ S128000x512.size a := fun v1038 k0_hw116 => k0_hw116

def k0_off233 (i : grid0.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1045 : BitVec 32 := Scalar.addi v0 c116_i32
  let v1046 : Index := Scalar.indexCast v1045
  ![v1046.toNat]
def k0_off234 (v1047 : BitVec 32) : Fin 2 → Nat :=
  let c0_i32_467 : BitVec 32 := 0#32
  ![v1047.toNat, 0]

def k0_chk117 (v1047 : BitVec 32) : Prop :=
  (∀ a, (k0_off234 v1047) a + S1x512.size a ≤ S128000x512.size a)
instance k0_chk117.dec : ∀ (v1047 : BitVec 32), Decidable (k0_chk117 v1047) := fun v1047 => decidable_of_iff' _ (Iff.of_eq (k0_chk117.eq_1 v1047))
theorem k0_off234_inb : ∀ (v1047 : BitVec 32) (k0_hw117 : k0_chk117 v1047), ∀ a, (k0_off234 v1047) a + S1x512.size a ≤ S128000x512.size a := fun v1047 k0_hw117 => k0_hw117

def k0_off235 (i : grid0.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1054 : BitVec 32 := Scalar.addi v0 c117_i32
  let v1055 : Index := Scalar.indexCast v1054
  ![v1055.toNat]
def k0_off236 (v1056 : BitVec 32) : Fin 2 → Nat :=
  let c0_i32_471 : BitVec 32 := 0#32
  ![v1056.toNat, 0]

def k0_chk118 (v1056 : BitVec 32) : Prop :=
  (∀ a, (k0_off236 v1056) a + S1x512.size a ≤ S128000x512.size a)
instance k0_chk118.dec : ∀ (v1056 : BitVec 32), Decidable (k0_chk118 v1056) := fun v1056 => decidable_of_iff' _ (Iff.of_eq (k0_chk118.eq_1 v1056))
theorem k0_off236_inb : ∀ (v1056 : BitVec 32) (k0_hw118 : k0_chk118 v1056), ∀ a, (k0_off236 v1056) a + S1x512.size a ≤ S128000x512.size a := fun v1056 k0_hw118 => k0_hw118

def k0_off237 (i : grid0.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1063 : BitVec 32 := Scalar.addi v0 c118_i32
  let v1064 : Index := Scalar.indexCast v1063
  ![v1064.toNat]
def k0_off238 (v1065 : BitVec 32) : Fin 2 → Nat :=
  let c0_i32_475 : BitVec 32 := 0#32
  ![v1065.toNat, 0]

def k0_chk119 (v1065 : BitVec 32) : Prop :=
  (∀ a, (k0_off238 v1065) a + S1x512.size a ≤ S128000x512.size a)
instance k0_chk119.dec : ∀ (v1065 : BitVec 32), Decidable (k0_chk119 v1065) := fun v1065 => decidable_of_iff' _ (Iff.of_eq (k0_chk119.eq_1 v1065))
theorem k0_off238_inb : ∀ (v1065 : BitVec 32) (k0_hw119 : k0_chk119 v1065), ∀ a, (k0_off238 v1065) a + S1x512.size a ≤ S128000x512.size a := fun v1065 k0_hw119 => k0_hw119

def k0_off239 (i : grid0.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1072 : BitVec 32 := Scalar.addi v0 c119_i32
  let v1073 : Index := Scalar.indexCast v1072
  ![v1073.toNat]
def k0_off240 (v1074 : BitVec 32) : Fin 2 → Nat :=
  let c0_i32_479 : BitVec 32 := 0#32
  ![v1074.toNat, 0]

def k0_chk120 (v1074 : BitVec 32) : Prop :=
  (∀ a, (k0_off240 v1074) a + S1x512.size a ≤ S128000x512.size a)
instance k0_chk120.dec : ∀ (v1074 : BitVec 32), Decidable (k0_chk120 v1074) := fun v1074 => decidable_of_iff' _ (Iff.of_eq (k0_chk120.eq_1 v1074))
theorem k0_off240_inb : ∀ (v1074 : BitVec 32) (k0_hw120 : k0_chk120 v1074), ∀ a, (k0_off240 v1074) a + S1x512.size a ≤ S128000x512.size a := fun v1074 k0_hw120 => k0_hw120

def k0_off241 (i : grid0.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1081 : BitVec 32 := Scalar.addi v0 c120_i32
  let v1082 : Index := Scalar.indexCast v1081
  ![v1082.toNat]
def k0_off242 (v1083 : BitVec 32) : Fin 2 → Nat :=
  let c0_i32_483 : BitVec 32 := 0#32
  ![v1083.toNat, 0]

def k0_chk121 (v1083 : BitVec 32) : Prop :=
  (∀ a, (k0_off242 v1083) a + S1x512.size a ≤ S128000x512.size a)
instance k0_chk121.dec : ∀ (v1083 : BitVec 32), Decidable (k0_chk121 v1083) := fun v1083 => decidable_of_iff' _ (Iff.of_eq (k0_chk121.eq_1 v1083))
theorem k0_off242_inb : ∀ (v1083 : BitVec 32) (k0_hw121 : k0_chk121 v1083), ∀ a, (k0_off242 v1083) a + S1x512.size a ≤ S128000x512.size a := fun v1083 k0_hw121 => k0_hw121

def k0_off243 (i : grid0.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1090 : BitVec 32 := Scalar.addi v0 c121_i32
  let v1091 : Index := Scalar.indexCast v1090
  ![v1091.toNat]
def k0_off244 (v1092 : BitVec 32) : Fin 2 → Nat :=
  let c0_i32_487 : BitVec 32 := 0#32
  ![v1092.toNat, 0]

def k0_chk122 (v1092 : BitVec 32) : Prop :=
  (∀ a, (k0_off244 v1092) a + S1x512.size a ≤ S128000x512.size a)
instance k0_chk122.dec : ∀ (v1092 : BitVec 32), Decidable (k0_chk122 v1092) := fun v1092 => decidable_of_iff' _ (Iff.of_eq (k0_chk122.eq_1 v1092))
theorem k0_off244_inb : ∀ (v1092 : BitVec 32) (k0_hw122 : k0_chk122 v1092), ∀ a, (k0_off244 v1092) a + S1x512.size a ≤ S128000x512.size a := fun v1092 k0_hw122 => k0_hw122

def k0_off245 (i : grid0.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1099 : BitVec 32 := Scalar.addi v0 c122_i32
  let v1100 : Index := Scalar.indexCast v1099
  ![v1100.toNat]
def k0_off246 (v1101 : BitVec 32) : Fin 2 → Nat :=
  let c0_i32_491 : BitVec 32 := 0#32
  ![v1101.toNat, 0]

def k0_chk123 (v1101 : BitVec 32) : Prop :=
  (∀ a, (k0_off246 v1101) a + S1x512.size a ≤ S128000x512.size a)
instance k0_chk123.dec : ∀ (v1101 : BitVec 32), Decidable (k0_chk123 v1101) := fun v1101 => decidable_of_iff' _ (Iff.of_eq (k0_chk123.eq_1 v1101))
theorem k0_off246_inb : ∀ (v1101 : BitVec 32) (k0_hw123 : k0_chk123 v1101), ∀ a, (k0_off246 v1101) a + S1x512.size a ≤ S128000x512.size a := fun v1101 k0_hw123 => k0_hw123

def k0_off247 (i : grid0.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1108 : BitVec 32 := Scalar.addi v0 c123_i32
  let v1109 : Index := Scalar.indexCast v1108
  ![v1109.toNat]
def k0_off248 (v1110 : BitVec 32) : Fin 2 → Nat :=
  let c0_i32_495 : BitVec 32 := 0#32
  ![v1110.toNat, 0]

def k0_chk124 (v1110 : BitVec 32) : Prop :=
  (∀ a, (k0_off248 v1110) a + S1x512.size a ≤ S128000x512.size a)
instance k0_chk124.dec : ∀ (v1110 : BitVec 32), Decidable (k0_chk124 v1110) := fun v1110 => decidable_of_iff' _ (Iff.of_eq (k0_chk124.eq_1 v1110))
theorem k0_off248_inb : ∀ (v1110 : BitVec 32) (k0_hw124 : k0_chk124 v1110), ∀ a, (k0_off248 v1110) a + S1x512.size a ≤ S128000x512.size a := fun v1110 k0_hw124 => k0_hw124

def k0_off249 (i : grid0.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1117 : BitVec 32 := Scalar.addi v0 c124_i32
  let v1118 : Index := Scalar.indexCast v1117
  ![v1118.toNat]
def k0_off250 (v1119 : BitVec 32) : Fin 2 → Nat :=
  let c0_i32_499 : BitVec 32 := 0#32
  ![v1119.toNat, 0]

def k0_chk125 (v1119 : BitVec 32) : Prop :=
  (∀ a, (k0_off250 v1119) a + S1x512.size a ≤ S128000x512.size a)
instance k0_chk125.dec : ∀ (v1119 : BitVec 32), Decidable (k0_chk125 v1119) := fun v1119 => decidable_of_iff' _ (Iff.of_eq (k0_chk125.eq_1 v1119))
theorem k0_off250_inb : ∀ (v1119 : BitVec 32) (k0_hw125 : k0_chk125 v1119), ∀ a, (k0_off250 v1119) a + S1x512.size a ≤ S128000x512.size a := fun v1119 k0_hw125 => k0_hw125

def k0_off251 (i : grid0.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1126 : BitVec 32 := Scalar.addi v0 c125_i32
  let v1127 : Index := Scalar.indexCast v1126
  ![v1127.toNat]
def k0_off252 (v1128 : BitVec 32) : Fin 2 → Nat :=
  let c0_i32_503 : BitVec 32 := 0#32
  ![v1128.toNat, 0]

def k0_chk126 (v1128 : BitVec 32) : Prop :=
  (∀ a, (k0_off252 v1128) a + S1x512.size a ≤ S128000x512.size a)
instance k0_chk126.dec : ∀ (v1128 : BitVec 32), Decidable (k0_chk126 v1128) := fun v1128 => decidable_of_iff' _ (Iff.of_eq (k0_chk126.eq_1 v1128))
theorem k0_off252_inb : ∀ (v1128 : BitVec 32) (k0_hw126 : k0_chk126 v1128), ∀ a, (k0_off252 v1128) a + S1x512.size a ≤ S128000x512.size a := fun v1128 k0_hw126 => k0_hw126

def k0_off253 (i : grid0.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1135 : BitVec 32 := Scalar.addi v0 c126_i32
  let v1136 : Index := Scalar.indexCast v1135
  ![v1136.toNat]
def k0_off254 (v1137 : BitVec 32) : Fin 2 → Nat :=
  let c0_i32_507 : BitVec 32 := 0#32
  ![v1137.toNat, 0]

def k0_chk127 (v1137 : BitVec 32) : Prop :=
  (∀ a, (k0_off254 v1137) a + S1x512.size a ≤ S128000x512.size a)
instance k0_chk127.dec : ∀ (v1137 : BitVec 32), Decidable (k0_chk127 v1137) := fun v1137 => decidable_of_iff' _ (Iff.of_eq (k0_chk127.eq_1 v1137))
theorem k0_off254_inb : ∀ (v1137 : BitVec 32) (k0_hw127 : k0_chk127 v1137), ∀ a, (k0_off254 v1137) a + S1x512.size a ≤ S128000x512.size a := fun v1137 k0_hw127 => k0_hw127

def k0_off255 (i : grid0.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1144 : BitVec 32 := Scalar.addi v0 c127_i32
  let v1145 : Index := Scalar.indexCast v1144
  ![v1145.toNat]
def k0_off256 (v1146 : BitVec 32) : Fin 2 → Nat :=
  let c0_i32_511 : BitVec 32 := 0#32
  ![v1146.toNat, 0]

def k0_chk128 (v1146 : BitVec 32) : Prop :=
  (∀ a, (k0_off256 v1146) a + S1x512.size a ≤ S128000x512.size a)
instance k0_chk128.dec : ∀ (v1146 : BitVec 32), Decidable (k0_chk128 v1146) := fun v1146 => decidable_of_iff' _ (Iff.of_eq (k0_chk128.eq_1 v1146))
theorem k0_off256_inb : ∀ (v1146 : BitVec 32) (k0_hw128 : k0_chk128 v1146), ∀ a, (k0_off256 v1146) a + S1x512.size a ≤ S128000x512.size a := fun v1146 k0_hw128 => k0_hw128

def k0_off257 (i : grid0.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1153 : BitVec 32 := Scalar.addi v0 c128_i32
  let v1154 : Index := Scalar.indexCast v1153
  ![v1154.toNat]
def k0_off258 (v1155 : BitVec 32) : Fin 2 → Nat :=
  let c0_i32_515 : BitVec 32 := 0#32
  ![v1155.toNat, 0]

def k0_chk129 (v1155 : BitVec 32) : Prop :=
  (∀ a, (k0_off258 v1155) a + S1x512.size a ≤ S128000x512.size a)
instance k0_chk129.dec : ∀ (v1155 : BitVec 32), Decidable (k0_chk129 v1155) := fun v1155 => decidable_of_iff' _ (Iff.of_eq (k0_chk129.eq_1 v1155))
theorem k0_off258_inb : ∀ (v1155 : BitVec 32) (k0_hw129 : k0_chk129 v1155), ∀ a, (k0_off258 v1155) a + S1x512.size a ≤ S128000x512.size a := fun v1155 k0_hw129 => k0_hw129

def k0_off259 (i : grid0.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1162 : BitVec 32 := Scalar.addi v0 c129_i32
  let v1163 : Index := Scalar.indexCast v1162
  ![v1163.toNat]
def k0_off260 (v1164 : BitVec 32) : Fin 2 → Nat :=
  let c0_i32_519 : BitVec 32 := 0#32
  ![v1164.toNat, 0]

def k0_chk130 (v1164 : BitVec 32) : Prop :=
  (∀ a, (k0_off260 v1164) a + S1x512.size a ≤ S128000x512.size a)
instance k0_chk130.dec : ∀ (v1164 : BitVec 32), Decidable (k0_chk130 v1164) := fun v1164 => decidable_of_iff' _ (Iff.of_eq (k0_chk130.eq_1 v1164))
theorem k0_off260_inb : ∀ (v1164 : BitVec 32) (k0_hw130 : k0_chk130 v1164), ∀ a, (k0_off260 v1164) a + S1x512.size a ≤ S128000x512.size a := fun v1164 k0_hw130 => k0_hw130

def k0_off261 (i : grid0.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1171 : BitVec 32 := Scalar.addi v0 c130_i32
  let v1172 : Index := Scalar.indexCast v1171
  ![v1172.toNat]
def k0_off262 (v1173 : BitVec 32) : Fin 2 → Nat :=
  let c0_i32_523 : BitVec 32 := 0#32
  ![v1173.toNat, 0]

def k0_chk131 (v1173 : BitVec 32) : Prop :=
  (∀ a, (k0_off262 v1173) a + S1x512.size a ≤ S128000x512.size a)
instance k0_chk131.dec : ∀ (v1173 : BitVec 32), Decidable (k0_chk131 v1173) := fun v1173 => decidable_of_iff' _ (Iff.of_eq (k0_chk131.eq_1 v1173))
theorem k0_off262_inb : ∀ (v1173 : BitVec 32) (k0_hw131 : k0_chk131 v1173), ∀ a, (k0_off262 v1173) a + S1x512.size a ≤ S128000x512.size a := fun v1173 k0_hw131 => k0_hw131

def k0_off263 (i : grid0.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1180 : BitVec 32 := Scalar.addi v0 c131_i32
  let v1181 : Index := Scalar.indexCast v1180
  ![v1181.toNat]
def k0_off264 (v1182 : BitVec 32) : Fin 2 → Nat :=
  let c0_i32_527 : BitVec 32 := 0#32
  ![v1182.toNat, 0]

def k0_chk132 (v1182 : BitVec 32) : Prop :=
  (∀ a, (k0_off264 v1182) a + S1x512.size a ≤ S128000x512.size a)
instance k0_chk132.dec : ∀ (v1182 : BitVec 32), Decidable (k0_chk132 v1182) := fun v1182 => decidable_of_iff' _ (Iff.of_eq (k0_chk132.eq_1 v1182))
theorem k0_off264_inb : ∀ (v1182 : BitVec 32) (k0_hw132 : k0_chk132 v1182), ∀ a, (k0_off264 v1182) a + S1x512.size a ≤ S128000x512.size a := fun v1182 k0_hw132 => k0_hw132

def k0_off265 (i : grid0.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1189 : BitVec 32 := Scalar.addi v0 c132_i32
  let v1190 : Index := Scalar.indexCast v1189
  ![v1190.toNat]
def k0_off266 (v1191 : BitVec 32) : Fin 2 → Nat :=
  let c0_i32_531 : BitVec 32 := 0#32
  ![v1191.toNat, 0]

def k0_chk133 (v1191 : BitVec 32) : Prop :=
  (∀ a, (k0_off266 v1191) a + S1x512.size a ≤ S128000x512.size a)
instance k0_chk133.dec : ∀ (v1191 : BitVec 32), Decidable (k0_chk133 v1191) := fun v1191 => decidable_of_iff' _ (Iff.of_eq (k0_chk133.eq_1 v1191))
theorem k0_off266_inb : ∀ (v1191 : BitVec 32) (k0_hw133 : k0_chk133 v1191), ∀ a, (k0_off266 v1191) a + S1x512.size a ≤ S128000x512.size a := fun v1191 k0_hw133 => k0_hw133

def k0_off267 (i : grid0.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1198 : BitVec 32 := Scalar.addi v0 c133_i32
  let v1199 : Index := Scalar.indexCast v1198
  ![v1199.toNat]
def k0_off268 (v1200 : BitVec 32) : Fin 2 → Nat :=
  let c0_i32_535 : BitVec 32 := 0#32
  ![v1200.toNat, 0]

def k0_chk134 (v1200 : BitVec 32) : Prop :=
  (∀ a, (k0_off268 v1200) a + S1x512.size a ≤ S128000x512.size a)
instance k0_chk134.dec : ∀ (v1200 : BitVec 32), Decidable (k0_chk134 v1200) := fun v1200 => decidable_of_iff' _ (Iff.of_eq (k0_chk134.eq_1 v1200))
theorem k0_off268_inb : ∀ (v1200 : BitVec 32) (k0_hw134 : k0_chk134 v1200), ∀ a, (k0_off268 v1200) a + S1x512.size a ≤ S128000x512.size a := fun v1200 k0_hw134 => k0_hw134

def k0_off269 (i : grid0.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1207 : BitVec 32 := Scalar.addi v0 c134_i32
  let v1208 : Index := Scalar.indexCast v1207
  ![v1208.toNat]
def k0_off270 (v1209 : BitVec 32) : Fin 2 → Nat :=
  let c0_i32_539 : BitVec 32 := 0#32
  ![v1209.toNat, 0]

def k0_chk135 (v1209 : BitVec 32) : Prop :=
  (∀ a, (k0_off270 v1209) a + S1x512.size a ≤ S128000x512.size a)
instance k0_chk135.dec : ∀ (v1209 : BitVec 32), Decidable (k0_chk135 v1209) := fun v1209 => decidable_of_iff' _ (Iff.of_eq (k0_chk135.eq_1 v1209))
theorem k0_off270_inb : ∀ (v1209 : BitVec 32) (k0_hw135 : k0_chk135 v1209), ∀ a, (k0_off270 v1209) a + S1x512.size a ≤ S128000x512.size a := fun v1209 k0_hw135 => k0_hw135

def k0_off271 (i : grid0.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1216 : BitVec 32 := Scalar.addi v0 c135_i32
  let v1217 : Index := Scalar.indexCast v1216
  ![v1217.toNat]
def k0_off272 (v1218 : BitVec 32) : Fin 2 → Nat :=
  let c0_i32_543 : BitVec 32 := 0#32
  ![v1218.toNat, 0]

def k0_chk136 (v1218 : BitVec 32) : Prop :=
  (∀ a, (k0_off272 v1218) a + S1x512.size a ≤ S128000x512.size a)
instance k0_chk136.dec : ∀ (v1218 : BitVec 32), Decidable (k0_chk136 v1218) := fun v1218 => decidable_of_iff' _ (Iff.of_eq (k0_chk136.eq_1 v1218))
theorem k0_off272_inb : ∀ (v1218 : BitVec 32) (k0_hw136 : k0_chk136 v1218), ∀ a, (k0_off272 v1218) a + S1x512.size a ≤ S128000x512.size a := fun v1218 k0_hw136 => k0_hw136

def k0_off273 (i : grid0.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1225 : BitVec 32 := Scalar.addi v0 c136_i32
  let v1226 : Index := Scalar.indexCast v1225
  ![v1226.toNat]
def k0_off274 (v1227 : BitVec 32) : Fin 2 → Nat :=
  let c0_i32_547 : BitVec 32 := 0#32
  ![v1227.toNat, 0]

def k0_chk137 (v1227 : BitVec 32) : Prop :=
  (∀ a, (k0_off274 v1227) a + S1x512.size a ≤ S128000x512.size a)
instance k0_chk137.dec : ∀ (v1227 : BitVec 32), Decidable (k0_chk137 v1227) := fun v1227 => decidable_of_iff' _ (Iff.of_eq (k0_chk137.eq_1 v1227))
theorem k0_off274_inb : ∀ (v1227 : BitVec 32) (k0_hw137 : k0_chk137 v1227), ∀ a, (k0_off274 v1227) a + S1x512.size a ≤ S128000x512.size a := fun v1227 k0_hw137 => k0_hw137

def k0_off275 (i : grid0.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v1234 : BitVec 32 := Scalar.addi v0 c137_i32
  let v1235 : Index := Scalar.indexCast v1234
  ![v1235.toNat]
def k0_off276 (v1236 : BitVec 32) : Fin 2 → Nat :=
  let c0_i32_551 : BitVec 32 := 0#32
  ![v1236.toNat, 0]

def k0_chk138 (v1236 : BitVec 32) : Prop :=
  (∀ a, (k0_off276 v1236) a + S1x512.size a ≤ S128000x512.size a)
instance k0_chk138.dec : ∀ (v1236 : BitVec 32), Decidable (k0_chk138 v1236) := fun v1236 => decidable_of_iff' _ (Iff.of_eq (k0_chk138.eq_1 v1236))
theorem k0_off276_inb : ∀ (v1236 : BitVec 32) (k0_hw138 : k0_chk138 v1236), ∀ a, (k0_off276 v1236) a + S1x512.size a ≤ S128000x512.size a := fun v1236 k0_hw138 => k0_hw138

def k0_off277 (i : grid0.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v1243 : BitVec 32 := Scalar.addi v0 c138_i32
  let v1244 : Index := Scalar.indexCast v1243
  ![v1244.toNat]
def k0_off278 (v1245 : BitVec 32) : Fin 2 → Nat :=
  let c0_i32_555 : BitVec 32 := 0#32
  ![v1245.toNat, 0]

def k0_chk139 (v1245 : BitVec 32) : Prop :=
  (∀ a, (k0_off278 v1245) a + S1x512.size a ≤ S128000x512.size a)
instance k0_chk139.dec : ∀ (v1245 : BitVec 32), Decidable (k0_chk139 v1245) := fun v1245 => decidable_of_iff' _ (Iff.of_eq (k0_chk139.eq_1 v1245))
theorem k0_off278_inb : ∀ (v1245 : BitVec 32) (k0_hw139 : k0_chk139 v1245), ∀ a, (k0_off278 v1245) a + S1x512.size a ≤ S128000x512.size a := fun v1245 k0_hw139 => k0_hw139

def k0_off279 (i : grid0.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v1252 : BitVec 32 := Scalar.addi v0 c139_i32
  let v1253 : Index := Scalar.indexCast v1252
  ![v1253.toNat]
def k0_off280 (v1254 : BitVec 32) : Fin 2 → Nat :=
  let c0_i32_559 : BitVec 32 := 0#32
  ![v1254.toNat, 0]

def k0_chk140 (v1254 : BitVec 32) : Prop :=
  (∀ a, (k0_off280 v1254) a + S1x512.size a ≤ S128000x512.size a)
instance k0_chk140.dec : ∀ (v1254 : BitVec 32), Decidable (k0_chk140 v1254) := fun v1254 => decidable_of_iff' _ (Iff.of_eq (k0_chk140.eq_1 v1254))
theorem k0_off280_inb : ∀ (v1254 : BitVec 32) (k0_hw140 : k0_chk140 v1254), ∀ a, (k0_off280 v1254) a + S1x512.size a ≤ S128000x512.size a := fun v1254 k0_hw140 => k0_hw140

def k0_off281 (i : grid0.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v1261 : BitVec 32 := Scalar.addi v0 c140_i32
  let v1262 : Index := Scalar.indexCast v1261
  ![v1262.toNat]
def k0_off282 (v1263 : BitVec 32) : Fin 2 → Nat :=
  let c0_i32_563 : BitVec 32 := 0#32
  ![v1263.toNat, 0]

def k0_chk141 (v1263 : BitVec 32) : Prop :=
  (∀ a, (k0_off282 v1263) a + S1x512.size a ≤ S128000x512.size a)
instance k0_chk141.dec : ∀ (v1263 : BitVec 32), Decidable (k0_chk141 v1263) := fun v1263 => decidable_of_iff' _ (Iff.of_eq (k0_chk141.eq_1 v1263))
theorem k0_off282_inb : ∀ (v1263 : BitVec 32) (k0_hw141 : k0_chk141 v1263), ∀ a, (k0_off282 v1263) a + S1x512.size a ≤ S128000x512.size a := fun v1263 k0_hw141 => k0_hw141

def k0_off283 (i : grid0.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v1270 : BitVec 32 := Scalar.addi v0 c141_i32
  let v1271 : Index := Scalar.indexCast v1270
  ![v1271.toNat]
def k0_off284 (v1272 : BitVec 32) : Fin 2 → Nat :=
  let c0_i32_567 : BitVec 32 := 0#32
  ![v1272.toNat, 0]

def k0_chk142 (v1272 : BitVec 32) : Prop :=
  (∀ a, (k0_off284 v1272) a + S1x512.size a ≤ S128000x512.size a)
instance k0_chk142.dec : ∀ (v1272 : BitVec 32), Decidable (k0_chk142 v1272) := fun v1272 => decidable_of_iff' _ (Iff.of_eq (k0_chk142.eq_1 v1272))
theorem k0_off284_inb : ∀ (v1272 : BitVec 32) (k0_hw142 : k0_chk142 v1272), ∀ a, (k0_off284 v1272) a + S1x512.size a ≤ S128000x512.size a := fun v1272 k0_hw142 => k0_hw142

def k0_off285 (i : grid0.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v1279 : BitVec 32 := Scalar.addi v0 c142_i32
  let v1280 : Index := Scalar.indexCast v1279
  ![v1280.toNat]
def k0_off286 (v1281 : BitVec 32) : Fin 2 → Nat :=
  let c0_i32_571 : BitVec 32 := 0#32
  ![v1281.toNat, 0]

def k0_chk143 (v1281 : BitVec 32) : Prop :=
  (∀ a, (k0_off286 v1281) a + S1x512.size a ≤ S128000x512.size a)
instance k0_chk143.dec : ∀ (v1281 : BitVec 32), Decidable (k0_chk143 v1281) := fun v1281 => decidable_of_iff' _ (Iff.of_eq (k0_chk143.eq_1 v1281))
theorem k0_off286_inb : ∀ (v1281 : BitVec 32) (k0_hw143 : k0_chk143 v1281), ∀ a, (k0_off286 v1281) a + S1x512.size a ≤ S128000x512.size a := fun v1281 k0_hw143 => k0_hw143

def k0_off287 (i : grid0.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v1288 : BitVec 32 := Scalar.addi v0 c143_i32
  let v1289 : Index := Scalar.indexCast v1288
  ![v1289.toNat]
def k0_off288 (v1290 : BitVec 32) : Fin 2 → Nat :=
  let c0_i32_575 : BitVec 32 := 0#32
  ![v1290.toNat, 0]

def k0_chk144 (v1290 : BitVec 32) : Prop :=
  (∀ a, (k0_off288 v1290) a + S1x512.size a ≤ S128000x512.size a)
instance k0_chk144.dec : ∀ (v1290 : BitVec 32), Decidable (k0_chk144 v1290) := fun v1290 => decidable_of_iff' _ (Iff.of_eq (k0_chk144.eq_1 v1290))
theorem k0_off288_inb : ∀ (v1290 : BitVec 32) (k0_hw144 : k0_chk144 v1290), ∀ a, (k0_off288 v1290) a + S1x512.size a ≤ S128000x512.size a := fun v1290 k0_hw144 => k0_hw144

def k0_off289 (i : grid0.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v1297 : BitVec 32 := Scalar.addi v0 c144_i32
  let v1298 : Index := Scalar.indexCast v1297
  ![v1298.toNat]
def k0_off290 (v1299 : BitVec 32) : Fin 2 → Nat :=
  let c0_i32_579 : BitVec 32 := 0#32
  ![v1299.toNat, 0]

def k0_chk145 (v1299 : BitVec 32) : Prop :=
  (∀ a, (k0_off290 v1299) a + S1x512.size a ≤ S128000x512.size a)
instance k0_chk145.dec : ∀ (v1299 : BitVec 32), Decidable (k0_chk145 v1299) := fun v1299 => decidable_of_iff' _ (Iff.of_eq (k0_chk145.eq_1 v1299))
theorem k0_off290_inb : ∀ (v1299 : BitVec 32) (k0_hw145 : k0_chk145 v1299), ∀ a, (k0_off290 v1299) a + S1x512.size a ≤ S128000x512.size a := fun v1299 k0_hw145 => k0_hw145

def k0_off291 (i : grid0.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v1306 : BitVec 32 := Scalar.addi v0 c145_i32
  let v1307 : Index := Scalar.indexCast v1306
  ![v1307.toNat]
def k0_off292 (v1308 : BitVec 32) : Fin 2 → Nat :=
  let c0_i32_583 : BitVec 32 := 0#32
  ![v1308.toNat, 0]

def k0_chk146 (v1308 : BitVec 32) : Prop :=
  (∀ a, (k0_off292 v1308) a + S1x512.size a ≤ S128000x512.size a)
instance k0_chk146.dec : ∀ (v1308 : BitVec 32), Decidable (k0_chk146 v1308) := fun v1308 => decidable_of_iff' _ (Iff.of_eq (k0_chk146.eq_1 v1308))
theorem k0_off292_inb : ∀ (v1308 : BitVec 32) (k0_hw146 : k0_chk146 v1308), ∀ a, (k0_off292 v1308) a + S1x512.size a ≤ S128000x512.size a := fun v1308 k0_hw146 => k0_hw146

def k0_off293 (i : grid0.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v1315 : BitVec 32 := Scalar.addi v0 c146_i32
  let v1316 : Index := Scalar.indexCast v1315
  ![v1316.toNat]
def k0_off294 (v1317 : BitVec 32) : Fin 2 → Nat :=
  let c0_i32_587 : BitVec 32 := 0#32
  ![v1317.toNat, 0]

def k0_chk147 (v1317 : BitVec 32) : Prop :=
  (∀ a, (k0_off294 v1317) a + S1x512.size a ≤ S128000x512.size a)
instance k0_chk147.dec : ∀ (v1317 : BitVec 32), Decidable (k0_chk147 v1317) := fun v1317 => decidable_of_iff' _ (Iff.of_eq (k0_chk147.eq_1 v1317))
theorem k0_off294_inb : ∀ (v1317 : BitVec 32) (k0_hw147 : k0_chk147 v1317), ∀ a, (k0_off294 v1317) a + S1x512.size a ≤ S128000x512.size a := fun v1317 k0_hw147 => k0_hw147

def k0_off295 (i : grid0.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v1324 : BitVec 32 := Scalar.addi v0 c147_i32
  let v1325 : Index := Scalar.indexCast v1324
  ![v1325.toNat]
def k0_off296 (v1326 : BitVec 32) : Fin 2 → Nat :=
  let c0_i32_591 : BitVec 32 := 0#32
  ![v1326.toNat, 0]

def k0_chk148 (v1326 : BitVec 32) : Prop :=
  (∀ a, (k0_off296 v1326) a + S1x512.size a ≤ S128000x512.size a)
instance k0_chk148.dec : ∀ (v1326 : BitVec 32), Decidable (k0_chk148 v1326) := fun v1326 => decidable_of_iff' _ (Iff.of_eq (k0_chk148.eq_1 v1326))
theorem k0_off296_inb : ∀ (v1326 : BitVec 32) (k0_hw148 : k0_chk148 v1326), ∀ a, (k0_off296 v1326) a + S1x512.size a ≤ S128000x512.size a := fun v1326 k0_hw148 => k0_hw148

def k0_off297 (i : grid0.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v1333 : BitVec 32 := Scalar.addi v0 c148_i32
  let v1334 : Index := Scalar.indexCast v1333
  ![v1334.toNat]
def k0_off298 (v1335 : BitVec 32) : Fin 2 → Nat :=
  let c0_i32_595 : BitVec 32 := 0#32
  ![v1335.toNat, 0]

def k0_chk149 (v1335 : BitVec 32) : Prop :=
  (∀ a, (k0_off298 v1335) a + S1x512.size a ≤ S128000x512.size a)
instance k0_chk149.dec : ∀ (v1335 : BitVec 32), Decidable (k0_chk149 v1335) := fun v1335 => decidable_of_iff' _ (Iff.of_eq (k0_chk149.eq_1 v1335))
theorem k0_off298_inb : ∀ (v1335 : BitVec 32) (k0_hw149 : k0_chk149 v1335), ∀ a, (k0_off298 v1335) a + S1x512.size a ≤ S128000x512.size a := fun v1335 k0_hw149 => k0_hw149

def k0_off299 (i : grid0.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v1342 : BitVec 32 := Scalar.addi v0 c149_i32
  let v1343 : Index := Scalar.indexCast v1342
  ![v1343.toNat]
def k0_off300 (v1344 : BitVec 32) : Fin 2 → Nat :=
  let c0_i32_599 : BitVec 32 := 0#32
  ![v1344.toNat, 0]

def k0_chk150 (v1344 : BitVec 32) : Prop :=
  (∀ a, (k0_off300 v1344) a + S1x512.size a ≤ S128000x512.size a)
instance k0_chk150.dec : ∀ (v1344 : BitVec 32), Decidable (k0_chk150 v1344) := fun v1344 => decidable_of_iff' _ (Iff.of_eq (k0_chk150.eq_1 v1344))
theorem k0_off300_inb : ∀ (v1344 : BitVec 32) (k0_hw150 : k0_chk150 v1344), ∀ a, (k0_off300 v1344) a + S1x512.size a ≤ S128000x512.size a := fun v1344 k0_hw150 => k0_hw150

def k0_off301 (i : grid0.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v1351 : BitVec 32 := Scalar.addi v0 c150_i32
  let v1352 : Index := Scalar.indexCast v1351
  ![v1352.toNat]
def k0_off302 (v1353 : BitVec 32) : Fin 2 → Nat :=
  let c0_i32_603 : BitVec 32 := 0#32
  ![v1353.toNat, 0]

def k0_chk151 (v1353 : BitVec 32) : Prop :=
  (∀ a, (k0_off302 v1353) a + S1x512.size a ≤ S128000x512.size a)
instance k0_chk151.dec : ∀ (v1353 : BitVec 32), Decidable (k0_chk151 v1353) := fun v1353 => decidable_of_iff' _ (Iff.of_eq (k0_chk151.eq_1 v1353))
theorem k0_off302_inb : ∀ (v1353 : BitVec 32) (k0_hw151 : k0_chk151 v1353), ∀ a, (k0_off302 v1353) a + S1x512.size a ≤ S128000x512.size a := fun v1353 k0_hw151 => k0_hw151

def k0_off303 (i : grid0.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v1360 : BitVec 32 := Scalar.addi v0 c151_i32
  let v1361 : Index := Scalar.indexCast v1360
  ![v1361.toNat]
def k0_off304 (v1362 : BitVec 32) : Fin 2 → Nat :=
  let c0_i32_607 : BitVec 32 := 0#32
  ![v1362.toNat, 0]

def k0_chk152 (v1362 : BitVec 32) : Prop :=
  (∀ a, (k0_off304 v1362) a + S1x512.size a ≤ S128000x512.size a)
instance k0_chk152.dec : ∀ (v1362 : BitVec 32), Decidable (k0_chk152 v1362) := fun v1362 => decidable_of_iff' _ (Iff.of_eq (k0_chk152.eq_1 v1362))
theorem k0_off304_inb : ∀ (v1362 : BitVec 32) (k0_hw152 : k0_chk152 v1362), ∀ a, (k0_off304 v1362) a + S1x512.size a ≤ S128000x512.size a := fun v1362 k0_hw152 => k0_hw152

def k0_off305 (i : grid0.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v1369 : BitVec 32 := Scalar.addi v0 c152_i32
  let v1370 : Index := Scalar.indexCast v1369
  ![v1370.toNat]
def k0_off306 (v1371 : BitVec 32) : Fin 2 → Nat :=
  let c0_i32_611 : BitVec 32 := 0#32
  ![v1371.toNat, 0]

def k0_chk153 (v1371 : BitVec 32) : Prop :=
  (∀ a, (k0_off306 v1371) a + S1x512.size a ≤ S128000x512.size a)
instance k0_chk153.dec : ∀ (v1371 : BitVec 32), Decidable (k0_chk153 v1371) := fun v1371 => decidable_of_iff' _ (Iff.of_eq (k0_chk153.eq_1 v1371))
theorem k0_off306_inb : ∀ (v1371 : BitVec 32) (k0_hw153 : k0_chk153 v1371), ∀ a, (k0_off306 v1371) a + S1x512.size a ≤ S128000x512.size a := fun v1371 k0_hw153 => k0_hw153

def k0_off307 (i : grid0.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v1378 : BitVec 32 := Scalar.addi v0 c153_i32
  let v1379 : Index := Scalar.indexCast v1378
  ![v1379.toNat]
def k0_off308 (v1380 : BitVec 32) : Fin 2 → Nat :=
  let c0_i32_615 : BitVec 32 := 0#32
  ![v1380.toNat, 0]

def k0_chk154 (v1380 : BitVec 32) : Prop :=
  (∀ a, (k0_off308 v1380) a + S1x512.size a ≤ S128000x512.size a)
instance k0_chk154.dec : ∀ (v1380 : BitVec 32), Decidable (k0_chk154 v1380) := fun v1380 => decidable_of_iff' _ (Iff.of_eq (k0_chk154.eq_1 v1380))
theorem k0_off308_inb : ∀ (v1380 : BitVec 32) (k0_hw154 : k0_chk154 v1380), ∀ a, (k0_off308 v1380) a + S1x512.size a ≤ S128000x512.size a := fun v1380 k0_hw154 => k0_hw154

def k0_off309 (i : grid0.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v1387 : BitVec 32 := Scalar.addi v0 c154_i32
  let v1388 : Index := Scalar.indexCast v1387
  ![v1388.toNat]
def k0_off310 (v1389 : BitVec 32) : Fin 2 → Nat :=
  let c0_i32_619 : BitVec 32 := 0#32
  ![v1389.toNat, 0]

def k0_chk155 (v1389 : BitVec 32) : Prop :=
  (∀ a, (k0_off310 v1389) a + S1x512.size a ≤ S128000x512.size a)
instance k0_chk155.dec : ∀ (v1389 : BitVec 32), Decidable (k0_chk155 v1389) := fun v1389 => decidable_of_iff' _ (Iff.of_eq (k0_chk155.eq_1 v1389))
theorem k0_off310_inb : ∀ (v1389 : BitVec 32) (k0_hw155 : k0_chk155 v1389), ∀ a, (k0_off310 v1389) a + S1x512.size a ≤ S128000x512.size a := fun v1389 k0_hw155 => k0_hw155

def k0_off311 (i : grid0.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v1396 : BitVec 32 := Scalar.addi v0 c155_i32
  let v1397 : Index := Scalar.indexCast v1396
  ![v1397.toNat]
def k0_off312 (v1398 : BitVec 32) : Fin 2 → Nat :=
  let c0_i32_623 : BitVec 32 := 0#32
  ![v1398.toNat, 0]

def k0_chk156 (v1398 : BitVec 32) : Prop :=
  (∀ a, (k0_off312 v1398) a + S1x512.size a ≤ S128000x512.size a)
instance k0_chk156.dec : ∀ (v1398 : BitVec 32), Decidable (k0_chk156 v1398) := fun v1398 => decidable_of_iff' _ (Iff.of_eq (k0_chk156.eq_1 v1398))
theorem k0_off312_inb : ∀ (v1398 : BitVec 32) (k0_hw156 : k0_chk156 v1398), ∀ a, (k0_off312 v1398) a + S1x512.size a ≤ S128000x512.size a := fun v1398 k0_hw156 => k0_hw156

def k0_off313 (i : grid0.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v1405 : BitVec 32 := Scalar.addi v0 c156_i32
  let v1406 : Index := Scalar.indexCast v1405
  ![v1406.toNat]
def k0_off314 (v1407 : BitVec 32) : Fin 2 → Nat :=
  let c0_i32_627 : BitVec 32 := 0#32
  ![v1407.toNat, 0]

def k0_chk157 (v1407 : BitVec 32) : Prop :=
  (∀ a, (k0_off314 v1407) a + S1x512.size a ≤ S128000x512.size a)
instance k0_chk157.dec : ∀ (v1407 : BitVec 32), Decidable (k0_chk157 v1407) := fun v1407 => decidable_of_iff' _ (Iff.of_eq (k0_chk157.eq_1 v1407))
theorem k0_off314_inb : ∀ (v1407 : BitVec 32) (k0_hw157 : k0_chk157 v1407), ∀ a, (k0_off314 v1407) a + S1x512.size a ≤ S128000x512.size a := fun v1407 k0_hw157 => k0_hw157

def k0_off315 (i : grid0.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v1414 : BitVec 32 := Scalar.addi v0 c157_i32
  let v1415 : Index := Scalar.indexCast v1414
  ![v1415.toNat]
def k0_off316 (v1416 : BitVec 32) : Fin 2 → Nat :=
  let c0_i32_631 : BitVec 32 := 0#32
  ![v1416.toNat, 0]

def k0_chk158 (v1416 : BitVec 32) : Prop :=
  (∀ a, (k0_off316 v1416) a + S1x512.size a ≤ S128000x512.size a)
instance k0_chk158.dec : ∀ (v1416 : BitVec 32), Decidable (k0_chk158 v1416) := fun v1416 => decidable_of_iff' _ (Iff.of_eq (k0_chk158.eq_1 v1416))
theorem k0_off316_inb : ∀ (v1416 : BitVec 32) (k0_hw158 : k0_chk158 v1416), ∀ a, (k0_off316 v1416) a + S1x512.size a ≤ S128000x512.size a := fun v1416 k0_hw158 => k0_hw158

def k0_off317 (i : grid0.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v1423 : BitVec 32 := Scalar.addi v0 c158_i32
  let v1424 : Index := Scalar.indexCast v1423
  ![v1424.toNat]
def k0_off318 (v1425 : BitVec 32) : Fin 2 → Nat :=
  let c0_i32_635 : BitVec 32 := 0#32
  ![v1425.toNat, 0]

def k0_chk159 (v1425 : BitVec 32) : Prop :=
  (∀ a, (k0_off318 v1425) a + S1x512.size a ≤ S128000x512.size a)
instance k0_chk159.dec : ∀ (v1425 : BitVec 32), Decidable (k0_chk159 v1425) := fun v1425 => decidable_of_iff' _ (Iff.of_eq (k0_chk159.eq_1 v1425))
theorem k0_off318_inb : ∀ (v1425 : BitVec 32) (k0_hw159 : k0_chk159 v1425), ∀ a, (k0_off318 v1425) a + S1x512.size a ≤ S128000x512.size a := fun v1425 k0_hw159 => k0_hw159

def k0_off319 (i : grid0.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v1432 : BitVec 32 := Scalar.addi v0 c159_i32
  let v1433 : Index := Scalar.indexCast v1432
  ![v1433.toNat]
def k0_off320 (v1434 : BitVec 32) : Fin 2 → Nat :=
  let c0_i32_639 : BitVec 32 := 0#32
  ![v1434.toNat, 0]

def k0_chk160 (v1434 : BitVec 32) : Prop :=
  (∀ a, (k0_off320 v1434) a + S1x512.size a ≤ S128000x512.size a)
instance k0_chk160.dec : ∀ (v1434 : BitVec 32), Decidable (k0_chk160 v1434) := fun v1434 => decidable_of_iff' _ (Iff.of_eq (k0_chk160.eq_1 v1434))
theorem k0_off320_inb : ∀ (v1434 : BitVec 32) (k0_hw160 : k0_chk160 v1434), ∀ a, (k0_off320 v1434) a + S1x512.size a ≤ S128000x512.size a := fun v1434 k0_hw160 => k0_hw160

def k0_off321 (i : grid0.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v1441 : BitVec 32 := Scalar.addi v0 c160_i32
  let v1442 : Index := Scalar.indexCast v1441
  ![v1442.toNat]
def k0_off322 (v1443 : BitVec 32) : Fin 2 → Nat :=
  let c0_i32_643 : BitVec 32 := 0#32
  ![v1443.toNat, 0]

def k0_chk161 (v1443 : BitVec 32) : Prop :=
  (∀ a, (k0_off322 v1443) a + S1x512.size a ≤ S128000x512.size a)
instance k0_chk161.dec : ∀ (v1443 : BitVec 32), Decidable (k0_chk161 v1443) := fun v1443 => decidable_of_iff' _ (Iff.of_eq (k0_chk161.eq_1 v1443))
theorem k0_off322_inb : ∀ (v1443 : BitVec 32) (k0_hw161 : k0_chk161 v1443), ∀ a, (k0_off322 v1443) a + S1x512.size a ≤ S128000x512.size a := fun v1443 k0_hw161 => k0_hw161

def k0_off323 (i : grid0.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v1450 : BitVec 32 := Scalar.addi v0 c161_i32
  let v1451 : Index := Scalar.indexCast v1450
  ![v1451.toNat]
def k0_off324 (v1452 : BitVec 32) : Fin 2 → Nat :=
  let c0_i32_647 : BitVec 32 := 0#32
  ![v1452.toNat, 0]

def k0_chk162 (v1452 : BitVec 32) : Prop :=
  (∀ a, (k0_off324 v1452) a + S1x512.size a ≤ S128000x512.size a)
instance k0_chk162.dec : ∀ (v1452 : BitVec 32), Decidable (k0_chk162 v1452) := fun v1452 => decidable_of_iff' _ (Iff.of_eq (k0_chk162.eq_1 v1452))
theorem k0_off324_inb : ∀ (v1452 : BitVec 32) (k0_hw162 : k0_chk162 v1452), ∀ a, (k0_off324 v1452) a + S1x512.size a ≤ S128000x512.size a := fun v1452 k0_hw162 => k0_hw162

def k0_off325 (i : grid0.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v1459 : BitVec 32 := Scalar.addi v0 c162_i32
  let v1460 : Index := Scalar.indexCast v1459
  ![v1460.toNat]
def k0_off326 (v1461 : BitVec 32) : Fin 2 → Nat :=
  let c0_i32_651 : BitVec 32 := 0#32
  ![v1461.toNat, 0]

def k0_chk163 (v1461 : BitVec 32) : Prop :=
  (∀ a, (k0_off326 v1461) a + S1x512.size a ≤ S128000x512.size a)
instance k0_chk163.dec : ∀ (v1461 : BitVec 32), Decidable (k0_chk163 v1461) := fun v1461 => decidable_of_iff' _ (Iff.of_eq (k0_chk163.eq_1 v1461))
theorem k0_off326_inb : ∀ (v1461 : BitVec 32) (k0_hw163 : k0_chk163 v1461), ∀ a, (k0_off326 v1461) a + S1x512.size a ≤ S128000x512.size a := fun v1461 k0_hw163 => k0_hw163

def k0_off327 (i : grid0.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v1468 : BitVec 32 := Scalar.addi v0 c163_i32
  let v1469 : Index := Scalar.indexCast v1468
  ![v1469.toNat]
def k0_off328 (v1470 : BitVec 32) : Fin 2 → Nat :=
  let c0_i32_655 : BitVec 32 := 0#32
  ![v1470.toNat, 0]

def k0_chk164 (v1470 : BitVec 32) : Prop :=
  (∀ a, (k0_off328 v1470) a + S1x512.size a ≤ S128000x512.size a)
instance k0_chk164.dec : ∀ (v1470 : BitVec 32), Decidable (k0_chk164 v1470) := fun v1470 => decidable_of_iff' _ (Iff.of_eq (k0_chk164.eq_1 v1470))
theorem k0_off328_inb : ∀ (v1470 : BitVec 32) (k0_hw164 : k0_chk164 v1470), ∀ a, (k0_off328 v1470) a + S1x512.size a ≤ S128000x512.size a := fun v1470 k0_hw164 => k0_hw164

def k0_off329 (i : grid0.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v1477 : BitVec 32 := Scalar.addi v0 c164_i32
  let v1478 : Index := Scalar.indexCast v1477
  ![v1478.toNat]
def k0_off330 (v1479 : BitVec 32) : Fin 2 → Nat :=
  let c0_i32_659 : BitVec 32 := 0#32
  ![v1479.toNat, 0]

def k0_chk165 (v1479 : BitVec 32) : Prop :=
  (∀ a, (k0_off330 v1479) a + S1x512.size a ≤ S128000x512.size a)
instance k0_chk165.dec : ∀ (v1479 : BitVec 32), Decidable (k0_chk165 v1479) := fun v1479 => decidable_of_iff' _ (Iff.of_eq (k0_chk165.eq_1 v1479))
theorem k0_off330_inb : ∀ (v1479 : BitVec 32) (k0_hw165 : k0_chk165 v1479), ∀ a, (k0_off330 v1479) a + S1x512.size a ≤ S128000x512.size a := fun v1479 k0_hw165 => k0_hw165

def k0_off331 (i : grid0.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v1486 : BitVec 32 := Scalar.addi v0 c165_i32
  let v1487 : Index := Scalar.indexCast v1486
  ![v1487.toNat]
def k0_off332 (v1488 : BitVec 32) : Fin 2 → Nat :=
  let c0_i32_663 : BitVec 32 := 0#32
  ![v1488.toNat, 0]

def k0_chk166 (v1488 : BitVec 32) : Prop :=
  (∀ a, (k0_off332 v1488) a + S1x512.size a ≤ S128000x512.size a)
instance k0_chk166.dec : ∀ (v1488 : BitVec 32), Decidable (k0_chk166 v1488) := fun v1488 => decidable_of_iff' _ (Iff.of_eq (k0_chk166.eq_1 v1488))
theorem k0_off332_inb : ∀ (v1488 : BitVec 32) (k0_hw166 : k0_chk166 v1488), ∀ a, (k0_off332 v1488) a + S1x512.size a ≤ S128000x512.size a := fun v1488 k0_hw166 => k0_hw166

def k0_off333 (i : grid0.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v1495 : BitVec 32 := Scalar.addi v0 c166_i32
  let v1496 : Index := Scalar.indexCast v1495
  ![v1496.toNat]
def k0_off334 (v1497 : BitVec 32) : Fin 2 → Nat :=
  let c0_i32_667 : BitVec 32 := 0#32
  ![v1497.toNat, 0]

def k0_chk167 (v1497 : BitVec 32) : Prop :=
  (∀ a, (k0_off334 v1497) a + S1x512.size a ≤ S128000x512.size a)
instance k0_chk167.dec : ∀ (v1497 : BitVec 32), Decidable (k0_chk167 v1497) := fun v1497 => decidable_of_iff' _ (Iff.of_eq (k0_chk167.eq_1 v1497))
theorem k0_off334_inb : ∀ (v1497 : BitVec 32) (k0_hw167 : k0_chk167 v1497), ∀ a, (k0_off334 v1497) a + S1x512.size a ≤ S128000x512.size a := fun v1497 k0_hw167 => k0_hw167

def k0_off335 (i : grid0.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v1504 : BitVec 32 := Scalar.addi v0 c167_i32
  let v1505 : Index := Scalar.indexCast v1504
  ![v1505.toNat]
def k0_off336 (v1506 : BitVec 32) : Fin 2 → Nat :=
  let c0_i32_671 : BitVec 32 := 0#32
  ![v1506.toNat, 0]

def k0_chk168 (v1506 : BitVec 32) : Prop :=
  (∀ a, (k0_off336 v1506) a + S1x512.size a ≤ S128000x512.size a)
instance k0_chk168.dec : ∀ (v1506 : BitVec 32), Decidable (k0_chk168 v1506) := fun v1506 => decidable_of_iff' _ (Iff.of_eq (k0_chk168.eq_1 v1506))
theorem k0_off336_inb : ∀ (v1506 : BitVec 32) (k0_hw168 : k0_chk168 v1506), ∀ a, (k0_off336 v1506) a + S1x512.size a ≤ S128000x512.size a := fun v1506 k0_hw168 => k0_hw168

def k0_off337 (i : grid0.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v1513 : BitVec 32 := Scalar.addi v0 c168_i32
  let v1514 : Index := Scalar.indexCast v1513
  ![v1514.toNat]
def k0_off338 (v1515 : BitVec 32) : Fin 2 → Nat :=
  let c0_i32_675 : BitVec 32 := 0#32
  ![v1515.toNat, 0]

def k0_chk169 (v1515 : BitVec 32) : Prop :=
  (∀ a, (k0_off338 v1515) a + S1x512.size a ≤ S128000x512.size a)
instance k0_chk169.dec : ∀ (v1515 : BitVec 32), Decidable (k0_chk169 v1515) := fun v1515 => decidable_of_iff' _ (Iff.of_eq (k0_chk169.eq_1 v1515))
theorem k0_off338_inb : ∀ (v1515 : BitVec 32) (k0_hw169 : k0_chk169 v1515), ∀ a, (k0_off338 v1515) a + S1x512.size a ≤ S128000x512.size a := fun v1515 k0_hw169 => k0_hw169

def k0_off339 (i : grid0.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v1522 : BitVec 32 := Scalar.addi v0 c169_i32
  let v1523 : Index := Scalar.indexCast v1522
  ![v1523.toNat]
def k0_off340 (v1524 : BitVec 32) : Fin 2 → Nat :=
  let c0_i32_679 : BitVec 32 := 0#32
  ![v1524.toNat, 0]

def k0_chk170 (v1524 : BitVec 32) : Prop :=
  (∀ a, (k0_off340 v1524) a + S1x512.size a ≤ S128000x512.size a)
instance k0_chk170.dec : ∀ (v1524 : BitVec 32), Decidable (k0_chk170 v1524) := fun v1524 => decidable_of_iff' _ (Iff.of_eq (k0_chk170.eq_1 v1524))
theorem k0_off340_inb : ∀ (v1524 : BitVec 32) (k0_hw170 : k0_chk170 v1524), ∀ a, (k0_off340 v1524) a + S1x512.size a ≤ S128000x512.size a := fun v1524 k0_hw170 => k0_hw170

def k0_off341 (i : grid0.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v1531 : BitVec 32 := Scalar.addi v0 c170_i32
  let v1532 : Index := Scalar.indexCast v1531
  ![v1532.toNat]
def k0_off342 (v1533 : BitVec 32) : Fin 2 → Nat :=
  let c0_i32_683 : BitVec 32 := 0#32
  ![v1533.toNat, 0]

def k0_chk171 (v1533 : BitVec 32) : Prop :=
  (∀ a, (k0_off342 v1533) a + S1x512.size a ≤ S128000x512.size a)
instance k0_chk171.dec : ∀ (v1533 : BitVec 32), Decidable (k0_chk171 v1533) := fun v1533 => decidable_of_iff' _ (Iff.of_eq (k0_chk171.eq_1 v1533))
theorem k0_off342_inb : ∀ (v1533 : BitVec 32) (k0_hw171 : k0_chk171 v1533), ∀ a, (k0_off342 v1533) a + S1x512.size a ≤ S128000x512.size a := fun v1533 k0_hw171 => k0_hw171

def k0_off343 (i : grid0.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v1540 : BitVec 32 := Scalar.addi v0 c171_i32
  let v1541 : Index := Scalar.indexCast v1540
  ![v1541.toNat]
def k0_off344 (v1542 : BitVec 32) : Fin 2 → Nat :=
  let c0_i32_687 : BitVec 32 := 0#32
  ![v1542.toNat, 0]

def k0_chk172 (v1542 : BitVec 32) : Prop :=
  (∀ a, (k0_off344 v1542) a + S1x512.size a ≤ S128000x512.size a)
instance k0_chk172.dec : ∀ (v1542 : BitVec 32), Decidable (k0_chk172 v1542) := fun v1542 => decidable_of_iff' _ (Iff.of_eq (k0_chk172.eq_1 v1542))
theorem k0_off344_inb : ∀ (v1542 : BitVec 32) (k0_hw172 : k0_chk172 v1542), ∀ a, (k0_off344 v1542) a + S1x512.size a ≤ S128000x512.size a := fun v1542 k0_hw172 => k0_hw172

def k0_off345 (i : grid0.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v1549 : BitVec 32 := Scalar.addi v0 c172_i32
  let v1550 : Index := Scalar.indexCast v1549
  ![v1550.toNat]
def k0_off346 (v1551 : BitVec 32) : Fin 2 → Nat :=
  let c0_i32_691 : BitVec 32 := 0#32
  ![v1551.toNat, 0]

def k0_chk173 (v1551 : BitVec 32) : Prop :=
  (∀ a, (k0_off346 v1551) a + S1x512.size a ≤ S128000x512.size a)
instance k0_chk173.dec : ∀ (v1551 : BitVec 32), Decidable (k0_chk173 v1551) := fun v1551 => decidable_of_iff' _ (Iff.of_eq (k0_chk173.eq_1 v1551))
theorem k0_off346_inb : ∀ (v1551 : BitVec 32) (k0_hw173 : k0_chk173 v1551), ∀ a, (k0_off346 v1551) a + S1x512.size a ≤ S128000x512.size a := fun v1551 k0_hw173 => k0_hw173

def k0_off347 (i : grid0.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v1558 : BitVec 32 := Scalar.addi v0 c173_i32
  let v1559 : Index := Scalar.indexCast v1558
  ![v1559.toNat]
def k0_off348 (v1560 : BitVec 32) : Fin 2 → Nat :=
  let c0_i32_695 : BitVec 32 := 0#32
  ![v1560.toNat, 0]

def k0_chk174 (v1560 : BitVec 32) : Prop :=
  (∀ a, (k0_off348 v1560) a + S1x512.size a ≤ S128000x512.size a)
instance k0_chk174.dec : ∀ (v1560 : BitVec 32), Decidable (k0_chk174 v1560) := fun v1560 => decidable_of_iff' _ (Iff.of_eq (k0_chk174.eq_1 v1560))
theorem k0_off348_inb : ∀ (v1560 : BitVec 32) (k0_hw174 : k0_chk174 v1560), ∀ a, (k0_off348 v1560) a + S1x512.size a ≤ S128000x512.size a := fun v1560 k0_hw174 => k0_hw174

def k0_off349 (i : grid0.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v1567 : BitVec 32 := Scalar.addi v0 c174_i32
  let v1568 : Index := Scalar.indexCast v1567
  ![v1568.toNat]
def k0_off350 (v1569 : BitVec 32) : Fin 2 → Nat :=
  let c0_i32_699 : BitVec 32 := 0#32
  ![v1569.toNat, 0]

def k0_chk175 (v1569 : BitVec 32) : Prop :=
  (∀ a, (k0_off350 v1569) a + S1x512.size a ≤ S128000x512.size a)
instance k0_chk175.dec : ∀ (v1569 : BitVec 32), Decidable (k0_chk175 v1569) := fun v1569 => decidable_of_iff' _ (Iff.of_eq (k0_chk175.eq_1 v1569))
theorem k0_off350_inb : ∀ (v1569 : BitVec 32) (k0_hw175 : k0_chk175 v1569), ∀ a, (k0_off350 v1569) a + S1x512.size a ≤ S128000x512.size a := fun v1569 k0_hw175 => k0_hw175

def k0_off351 (i : grid0.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v1576 : BitVec 32 := Scalar.addi v0 c175_i32
  let v1577 : Index := Scalar.indexCast v1576
  ![v1577.toNat]
def k0_off352 (v1578 : BitVec 32) : Fin 2 → Nat :=
  let c0_i32_703 : BitVec 32 := 0#32
  ![v1578.toNat, 0]

def k0_chk176 (v1578 : BitVec 32) : Prop :=
  (∀ a, (k0_off352 v1578) a + S1x512.size a ≤ S128000x512.size a)
instance k0_chk176.dec : ∀ (v1578 : BitVec 32), Decidable (k0_chk176 v1578) := fun v1578 => decidable_of_iff' _ (Iff.of_eq (k0_chk176.eq_1 v1578))
theorem k0_off352_inb : ∀ (v1578 : BitVec 32) (k0_hw176 : k0_chk176 v1578), ∀ a, (k0_off352 v1578) a + S1x512.size a ≤ S128000x512.size a := fun v1578 k0_hw176 => k0_hw176

def k0_off353 (i : grid0.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v1585 : BitVec 32 := Scalar.addi v0 c176_i32
  let v1586 : Index := Scalar.indexCast v1585
  ![v1586.toNat]
def k0_off354 (v1587 : BitVec 32) : Fin 2 → Nat :=
  let c0_i32_707 : BitVec 32 := 0#32
  ![v1587.toNat, 0]

def k0_chk177 (v1587 : BitVec 32) : Prop :=
  (∀ a, (k0_off354 v1587) a + S1x512.size a ≤ S128000x512.size a)
instance k0_chk177.dec : ∀ (v1587 : BitVec 32), Decidable (k0_chk177 v1587) := fun v1587 => decidable_of_iff' _ (Iff.of_eq (k0_chk177.eq_1 v1587))
theorem k0_off354_inb : ∀ (v1587 : BitVec 32) (k0_hw177 : k0_chk177 v1587), ∀ a, (k0_off354 v1587) a + S1x512.size a ≤ S128000x512.size a := fun v1587 k0_hw177 => k0_hw177

def k0_off355 (i : grid0.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v1594 : BitVec 32 := Scalar.addi v0 c177_i32
  let v1595 : Index := Scalar.indexCast v1594
  ![v1595.toNat]
def k0_off356 (v1596 : BitVec 32) : Fin 2 → Nat :=
  let c0_i32_711 : BitVec 32 := 0#32
  ![v1596.toNat, 0]

def k0_chk178 (v1596 : BitVec 32) : Prop :=
  (∀ a, (k0_off356 v1596) a + S1x512.size a ≤ S128000x512.size a)
instance k0_chk178.dec : ∀ (v1596 : BitVec 32), Decidable (k0_chk178 v1596) := fun v1596 => decidable_of_iff' _ (Iff.of_eq (k0_chk178.eq_1 v1596))
theorem k0_off356_inb : ∀ (v1596 : BitVec 32) (k0_hw178 : k0_chk178 v1596), ∀ a, (k0_off356 v1596) a + S1x512.size a ≤ S128000x512.size a := fun v1596 k0_hw178 => k0_hw178

def k0_off357 (i : grid0.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v1603 : BitVec 32 := Scalar.addi v0 c178_i32
  let v1604 : Index := Scalar.indexCast v1603
  ![v1604.toNat]
def k0_off358 (v1605 : BitVec 32) : Fin 2 → Nat :=
  let c0_i32_715 : BitVec 32 := 0#32
  ![v1605.toNat, 0]

def k0_chk179 (v1605 : BitVec 32) : Prop :=
  (∀ a, (k0_off358 v1605) a + S1x512.size a ≤ S128000x512.size a)
instance k0_chk179.dec : ∀ (v1605 : BitVec 32), Decidable (k0_chk179 v1605) := fun v1605 => decidable_of_iff' _ (Iff.of_eq (k0_chk179.eq_1 v1605))
theorem k0_off358_inb : ∀ (v1605 : BitVec 32) (k0_hw179 : k0_chk179 v1605), ∀ a, (k0_off358 v1605) a + S1x512.size a ≤ S128000x512.size a := fun v1605 k0_hw179 => k0_hw179

def k0_off359 (i : grid0.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v1612 : BitVec 32 := Scalar.addi v0 c179_i32
  let v1613 : Index := Scalar.indexCast v1612
  ![v1613.toNat]
def k0_off360 (v1614 : BitVec 32) : Fin 2 → Nat :=
  let c0_i32_719 : BitVec 32 := 0#32
  ![v1614.toNat, 0]

def k0_chk180 (v1614 : BitVec 32) : Prop :=
  (∀ a, (k0_off360 v1614) a + S1x512.size a ≤ S128000x512.size a)
instance k0_chk180.dec : ∀ (v1614 : BitVec 32), Decidable (k0_chk180 v1614) := fun v1614 => decidable_of_iff' _ (Iff.of_eq (k0_chk180.eq_1 v1614))
theorem k0_off360_inb : ∀ (v1614 : BitVec 32) (k0_hw180 : k0_chk180 v1614), ∀ a, (k0_off360 v1614) a + S1x512.size a ≤ S128000x512.size a := fun v1614 k0_hw180 => k0_hw180

def k0_off361 (i : grid0.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v1621 : BitVec 32 := Scalar.addi v0 c180_i32
  let v1622 : Index := Scalar.indexCast v1621
  ![v1622.toNat]
def k0_off362 (v1623 : BitVec 32) : Fin 2 → Nat :=
  let c0_i32_723 : BitVec 32 := 0#32
  ![v1623.toNat, 0]

def k0_chk181 (v1623 : BitVec 32) : Prop :=
  (∀ a, (k0_off362 v1623) a + S1x512.size a ≤ S128000x512.size a)
instance k0_chk181.dec : ∀ (v1623 : BitVec 32), Decidable (k0_chk181 v1623) := fun v1623 => decidable_of_iff' _ (Iff.of_eq (k0_chk181.eq_1 v1623))
theorem k0_off362_inb : ∀ (v1623 : BitVec 32) (k0_hw181 : k0_chk181 v1623), ∀ a, (k0_off362 v1623) a + S1x512.size a ≤ S128000x512.size a := fun v1623 k0_hw181 => k0_hw181

def k0_off363 (i : grid0.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v1630 : BitVec 32 := Scalar.addi v0 c181_i32
  let v1631 : Index := Scalar.indexCast v1630
  ![v1631.toNat]
def k0_off364 (v1632 : BitVec 32) : Fin 2 → Nat :=
  let c0_i32_727 : BitVec 32 := 0#32
  ![v1632.toNat, 0]

def k0_chk182 (v1632 : BitVec 32) : Prop :=
  (∀ a, (k0_off364 v1632) a + S1x512.size a ≤ S128000x512.size a)
instance k0_chk182.dec : ∀ (v1632 : BitVec 32), Decidable (k0_chk182 v1632) := fun v1632 => decidable_of_iff' _ (Iff.of_eq (k0_chk182.eq_1 v1632))
theorem k0_off364_inb : ∀ (v1632 : BitVec 32) (k0_hw182 : k0_chk182 v1632), ∀ a, (k0_off364 v1632) a + S1x512.size a ≤ S128000x512.size a := fun v1632 k0_hw182 => k0_hw182

def k0_off365 (i : grid0.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v1639 : BitVec 32 := Scalar.addi v0 c182_i32
  let v1640 : Index := Scalar.indexCast v1639
  ![v1640.toNat]
def k0_off366 (v1641 : BitVec 32) : Fin 2 → Nat :=
  let c0_i32_731 : BitVec 32 := 0#32
  ![v1641.toNat, 0]

def k0_chk183 (v1641 : BitVec 32) : Prop :=
  (∀ a, (k0_off366 v1641) a + S1x512.size a ≤ S128000x512.size a)
instance k0_chk183.dec : ∀ (v1641 : BitVec 32), Decidable (k0_chk183 v1641) := fun v1641 => decidable_of_iff' _ (Iff.of_eq (k0_chk183.eq_1 v1641))
theorem k0_off366_inb : ∀ (v1641 : BitVec 32) (k0_hw183 : k0_chk183 v1641), ∀ a, (k0_off366 v1641) a + S1x512.size a ≤ S128000x512.size a := fun v1641 k0_hw183 => k0_hw183

def k0_off367 (i : grid0.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v1648 : BitVec 32 := Scalar.addi v0 c183_i32
  let v1649 : Index := Scalar.indexCast v1648
  ![v1649.toNat]
def k0_off368 (v1650 : BitVec 32) : Fin 2 → Nat :=
  let c0_i32_735 : BitVec 32 := 0#32
  ![v1650.toNat, 0]

def k0_chk184 (v1650 : BitVec 32) : Prop :=
  (∀ a, (k0_off368 v1650) a + S1x512.size a ≤ S128000x512.size a)
instance k0_chk184.dec : ∀ (v1650 : BitVec 32), Decidable (k0_chk184 v1650) := fun v1650 => decidable_of_iff' _ (Iff.of_eq (k0_chk184.eq_1 v1650))
theorem k0_off368_inb : ∀ (v1650 : BitVec 32) (k0_hw184 : k0_chk184 v1650), ∀ a, (k0_off368 v1650) a + S1x512.size a ≤ S128000x512.size a := fun v1650 k0_hw184 => k0_hw184

def k0_off369 (i : grid0.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v1657 : BitVec 32 := Scalar.addi v0 c184_i32
  let v1658 : Index := Scalar.indexCast v1657
  ![v1658.toNat]
def k0_off370 (v1659 : BitVec 32) : Fin 2 → Nat :=
  let c0_i32_739 : BitVec 32 := 0#32
  ![v1659.toNat, 0]

def k0_chk185 (v1659 : BitVec 32) : Prop :=
  (∀ a, (k0_off370 v1659) a + S1x512.size a ≤ S128000x512.size a)
instance k0_chk185.dec : ∀ (v1659 : BitVec 32), Decidable (k0_chk185 v1659) := fun v1659 => decidable_of_iff' _ (Iff.of_eq (k0_chk185.eq_1 v1659))
theorem k0_off370_inb : ∀ (v1659 : BitVec 32) (k0_hw185 : k0_chk185 v1659), ∀ a, (k0_off370 v1659) a + S1x512.size a ≤ S128000x512.size a := fun v1659 k0_hw185 => k0_hw185

def k0_off371 (i : grid0.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v1666 : BitVec 32 := Scalar.addi v0 c185_i32
  let v1667 : Index := Scalar.indexCast v1666
  ![v1667.toNat]
def k0_off372 (v1668 : BitVec 32) : Fin 2 → Nat :=
  let c0_i32_743 : BitVec 32 := 0#32
  ![v1668.toNat, 0]

def k0_chk186 (v1668 : BitVec 32) : Prop :=
  (∀ a, (k0_off372 v1668) a + S1x512.size a ≤ S128000x512.size a)
instance k0_chk186.dec : ∀ (v1668 : BitVec 32), Decidable (k0_chk186 v1668) := fun v1668 => decidable_of_iff' _ (Iff.of_eq (k0_chk186.eq_1 v1668))
theorem k0_off372_inb : ∀ (v1668 : BitVec 32) (k0_hw186 : k0_chk186 v1668), ∀ a, (k0_off372 v1668) a + S1x512.size a ≤ S128000x512.size a := fun v1668 k0_hw186 => k0_hw186

def k0_off373 (i : grid0.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v1675 : BitVec 32 := Scalar.addi v0 c186_i32
  let v1676 : Index := Scalar.indexCast v1675
  ![v1676.toNat]
def k0_off374 (v1677 : BitVec 32) : Fin 2 → Nat :=
  let c0_i32_747 : BitVec 32 := 0#32
  ![v1677.toNat, 0]

def k0_chk187 (v1677 : BitVec 32) : Prop :=
  (∀ a, (k0_off374 v1677) a + S1x512.size a ≤ S128000x512.size a)
instance k0_chk187.dec : ∀ (v1677 : BitVec 32), Decidable (k0_chk187 v1677) := fun v1677 => decidable_of_iff' _ (Iff.of_eq (k0_chk187.eq_1 v1677))
theorem k0_off374_inb : ∀ (v1677 : BitVec 32) (k0_hw187 : k0_chk187 v1677), ∀ a, (k0_off374 v1677) a + S1x512.size a ≤ S128000x512.size a := fun v1677 k0_hw187 => k0_hw187

def k0_off375 (i : grid0.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v1684 : BitVec 32 := Scalar.addi v0 c187_i32
  let v1685 : Index := Scalar.indexCast v1684
  ![v1685.toNat]
def k0_off376 (v1686 : BitVec 32) : Fin 2 → Nat :=
  let c0_i32_751 : BitVec 32 := 0#32
  ![v1686.toNat, 0]

def k0_chk188 (v1686 : BitVec 32) : Prop :=
  (∀ a, (k0_off376 v1686) a + S1x512.size a ≤ S128000x512.size a)
instance k0_chk188.dec : ∀ (v1686 : BitVec 32), Decidable (k0_chk188 v1686) := fun v1686 => decidable_of_iff' _ (Iff.of_eq (k0_chk188.eq_1 v1686))
theorem k0_off376_inb : ∀ (v1686 : BitVec 32) (k0_hw188 : k0_chk188 v1686), ∀ a, (k0_off376 v1686) a + S1x512.size a ≤ S128000x512.size a := fun v1686 k0_hw188 => k0_hw188

def k0_off377 (i : grid0.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v1693 : BitVec 32 := Scalar.addi v0 c188_i32
  let v1694 : Index := Scalar.indexCast v1693
  ![v1694.toNat]
def k0_off378 (v1695 : BitVec 32) : Fin 2 → Nat :=
  let c0_i32_755 : BitVec 32 := 0#32
  ![v1695.toNat, 0]

def k0_chk189 (v1695 : BitVec 32) : Prop :=
  (∀ a, (k0_off378 v1695) a + S1x512.size a ≤ S128000x512.size a)
instance k0_chk189.dec : ∀ (v1695 : BitVec 32), Decidable (k0_chk189 v1695) := fun v1695 => decidable_of_iff' _ (Iff.of_eq (k0_chk189.eq_1 v1695))
theorem k0_off378_inb : ∀ (v1695 : BitVec 32) (k0_hw189 : k0_chk189 v1695), ∀ a, (k0_off378 v1695) a + S1x512.size a ≤ S128000x512.size a := fun v1695 k0_hw189 => k0_hw189

def k0_off379 (i : grid0.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v1702 : BitVec 32 := Scalar.addi v0 c189_i32
  let v1703 : Index := Scalar.indexCast v1702
  ![v1703.toNat]
def k0_off380 (v1704 : BitVec 32) : Fin 2 → Nat :=
  let c0_i32_759 : BitVec 32 := 0#32
  ![v1704.toNat, 0]

def k0_chk190 (v1704 : BitVec 32) : Prop :=
  (∀ a, (k0_off380 v1704) a + S1x512.size a ≤ S128000x512.size a)
instance k0_chk190.dec : ∀ (v1704 : BitVec 32), Decidable (k0_chk190 v1704) := fun v1704 => decidable_of_iff' _ (Iff.of_eq (k0_chk190.eq_1 v1704))
theorem k0_off380_inb : ∀ (v1704 : BitVec 32) (k0_hw190 : k0_chk190 v1704), ∀ a, (k0_off380 v1704) a + S1x512.size a ≤ S128000x512.size a := fun v1704 k0_hw190 => k0_hw190

def k0_off381 (i : grid0.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v1711 : BitVec 32 := Scalar.addi v0 c190_i32
  let v1712 : Index := Scalar.indexCast v1711
  ![v1712.toNat]
def k0_off382 (v1713 : BitVec 32) : Fin 2 → Nat :=
  let c0_i32_763 : BitVec 32 := 0#32
  ![v1713.toNat, 0]

def k0_chk191 (v1713 : BitVec 32) : Prop :=
  (∀ a, (k0_off382 v1713) a + S1x512.size a ≤ S128000x512.size a)
instance k0_chk191.dec : ∀ (v1713 : BitVec 32), Decidable (k0_chk191 v1713) := fun v1713 => decidable_of_iff' _ (Iff.of_eq (k0_chk191.eq_1 v1713))
theorem k0_off382_inb : ∀ (v1713 : BitVec 32) (k0_hw191 : k0_chk191 v1713), ∀ a, (k0_off382 v1713) a + S1x512.size a ≤ S128000x512.size a := fun v1713 k0_hw191 => k0_hw191

def k0_off383 (i : grid0.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v1720 : BitVec 32 := Scalar.addi v0 c191_i32
  let v1721 : Index := Scalar.indexCast v1720
  ![v1721.toNat]
def k0_off384 (v1722 : BitVec 32) : Fin 2 → Nat :=
  let c0_i32_767 : BitVec 32 := 0#32
  ![v1722.toNat, 0]

def k0_chk192 (v1722 : BitVec 32) : Prop :=
  (∀ a, (k0_off384 v1722) a + S1x512.size a ≤ S128000x512.size a)
instance k0_chk192.dec : ∀ (v1722 : BitVec 32), Decidable (k0_chk192 v1722) := fun v1722 => decidable_of_iff' _ (Iff.of_eq (k0_chk192.eq_1 v1722))
theorem k0_off384_inb : ∀ (v1722 : BitVec 32) (k0_hw192 : k0_chk192 v1722), ∀ a, (k0_off384 v1722) a + S1x512.size a ≤ S128000x512.size a := fun v1722 k0_hw192 => k0_hw192

def k0_off385 (i : grid0.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v1729 : BitVec 32 := Scalar.addi v0 c192_i32
  let v1730 : Index := Scalar.indexCast v1729
  ![v1730.toNat]
def k0_off386 (v1731 : BitVec 32) : Fin 2 → Nat :=
  let c0_i32_771 : BitVec 32 := 0#32
  ![v1731.toNat, 0]

def k0_chk193 (v1731 : BitVec 32) : Prop :=
  (∀ a, (k0_off386 v1731) a + S1x512.size a ≤ S128000x512.size a)
instance k0_chk193.dec : ∀ (v1731 : BitVec 32), Decidable (k0_chk193 v1731) := fun v1731 => decidable_of_iff' _ (Iff.of_eq (k0_chk193.eq_1 v1731))
theorem k0_off386_inb : ∀ (v1731 : BitVec 32) (k0_hw193 : k0_chk193 v1731), ∀ a, (k0_off386 v1731) a + S1x512.size a ≤ S128000x512.size a := fun v1731 k0_hw193 => k0_hw193

def k0_off387 (i : grid0.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v1738 : BitVec 32 := Scalar.addi v0 c193_i32
  let v1739 : Index := Scalar.indexCast v1738
  ![v1739.toNat]
def k0_off388 (v1740 : BitVec 32) : Fin 2 → Nat :=
  let c0_i32_775 : BitVec 32 := 0#32
  ![v1740.toNat, 0]

def k0_chk194 (v1740 : BitVec 32) : Prop :=
  (∀ a, (k0_off388 v1740) a + S1x512.size a ≤ S128000x512.size a)
instance k0_chk194.dec : ∀ (v1740 : BitVec 32), Decidable (k0_chk194 v1740) := fun v1740 => decidable_of_iff' _ (Iff.of_eq (k0_chk194.eq_1 v1740))
theorem k0_off388_inb : ∀ (v1740 : BitVec 32) (k0_hw194 : k0_chk194 v1740), ∀ a, (k0_off388 v1740) a + S1x512.size a ≤ S128000x512.size a := fun v1740 k0_hw194 => k0_hw194

def k0_off389 (i : grid0.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v1747 : BitVec 32 := Scalar.addi v0 c194_i32
  let v1748 : Index := Scalar.indexCast v1747
  ![v1748.toNat]
def k0_off390 (v1749 : BitVec 32) : Fin 2 → Nat :=
  let c0_i32_779 : BitVec 32 := 0#32
  ![v1749.toNat, 0]

def k0_chk195 (v1749 : BitVec 32) : Prop :=
  (∀ a, (k0_off390 v1749) a + S1x512.size a ≤ S128000x512.size a)
instance k0_chk195.dec : ∀ (v1749 : BitVec 32), Decidable (k0_chk195 v1749) := fun v1749 => decidable_of_iff' _ (Iff.of_eq (k0_chk195.eq_1 v1749))
theorem k0_off390_inb : ∀ (v1749 : BitVec 32) (k0_hw195 : k0_chk195 v1749), ∀ a, (k0_off390 v1749) a + S1x512.size a ≤ S128000x512.size a := fun v1749 k0_hw195 => k0_hw195

def k0_off391 (i : grid0.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v1756 : BitVec 32 := Scalar.addi v0 c195_i32
  let v1757 : Index := Scalar.indexCast v1756
  ![v1757.toNat]
def k0_off392 (v1758 : BitVec 32) : Fin 2 → Nat :=
  let c0_i32_783 : BitVec 32 := 0#32
  ![v1758.toNat, 0]

def k0_chk196 (v1758 : BitVec 32) : Prop :=
  (∀ a, (k0_off392 v1758) a + S1x512.size a ≤ S128000x512.size a)
instance k0_chk196.dec : ∀ (v1758 : BitVec 32), Decidable (k0_chk196 v1758) := fun v1758 => decidable_of_iff' _ (Iff.of_eq (k0_chk196.eq_1 v1758))
theorem k0_off392_inb : ∀ (v1758 : BitVec 32) (k0_hw196 : k0_chk196 v1758), ∀ a, (k0_off392 v1758) a + S1x512.size a ≤ S128000x512.size a := fun v1758 k0_hw196 => k0_hw196

def k0_off393 (i : grid0.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v1765 : BitVec 32 := Scalar.addi v0 c196_i32
  let v1766 : Index := Scalar.indexCast v1765
  ![v1766.toNat]
def k0_off394 (v1767 : BitVec 32) : Fin 2 → Nat :=
  let c0_i32_787 : BitVec 32 := 0#32
  ![v1767.toNat, 0]

def k0_chk197 (v1767 : BitVec 32) : Prop :=
  (∀ a, (k0_off394 v1767) a + S1x512.size a ≤ S128000x512.size a)
instance k0_chk197.dec : ∀ (v1767 : BitVec 32), Decidable (k0_chk197 v1767) := fun v1767 => decidable_of_iff' _ (Iff.of_eq (k0_chk197.eq_1 v1767))
theorem k0_off394_inb : ∀ (v1767 : BitVec 32) (k0_hw197 : k0_chk197 v1767), ∀ a, (k0_off394 v1767) a + S1x512.size a ≤ S128000x512.size a := fun v1767 k0_hw197 => k0_hw197

def k0_off395 (i : grid0.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v1774 : BitVec 32 := Scalar.addi v0 c197_i32
  let v1775 : Index := Scalar.indexCast v1774
  ![v1775.toNat]
def k0_off396 (v1776 : BitVec 32) : Fin 2 → Nat :=
  let c0_i32_791 : BitVec 32 := 0#32
  ![v1776.toNat, 0]

def k0_chk198 (v1776 : BitVec 32) : Prop :=
  (∀ a, (k0_off396 v1776) a + S1x512.size a ≤ S128000x512.size a)
instance k0_chk198.dec : ∀ (v1776 : BitVec 32), Decidable (k0_chk198 v1776) := fun v1776 => decidable_of_iff' _ (Iff.of_eq (k0_chk198.eq_1 v1776))
theorem k0_off396_inb : ∀ (v1776 : BitVec 32) (k0_hw198 : k0_chk198 v1776), ∀ a, (k0_off396 v1776) a + S1x512.size a ≤ S128000x512.size a := fun v1776 k0_hw198 => k0_hw198

def k0_off397 (i : grid0.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v1783 : BitVec 32 := Scalar.addi v0 c198_i32
  let v1784 : Index := Scalar.indexCast v1783
  ![v1784.toNat]
def k0_off398 (v1785 : BitVec 32) : Fin 2 → Nat :=
  let c0_i32_795 : BitVec 32 := 0#32
  ![v1785.toNat, 0]

def k0_chk199 (v1785 : BitVec 32) : Prop :=
  (∀ a, (k0_off398 v1785) a + S1x512.size a ≤ S128000x512.size a)
instance k0_chk199.dec : ∀ (v1785 : BitVec 32), Decidable (k0_chk199 v1785) := fun v1785 => decidable_of_iff' _ (Iff.of_eq (k0_chk199.eq_1 v1785))
theorem k0_off398_inb : ∀ (v1785 : BitVec 32) (k0_hw199 : k0_chk199 v1785), ∀ a, (k0_off398 v1785) a + S1x512.size a ≤ S128000x512.size a := fun v1785 k0_hw199 => k0_hw199

def k0_off399 (i : grid0.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v1792 : BitVec 32 := Scalar.addi v0 c199_i32
  let v1793 : Index := Scalar.indexCast v1792
  ![v1793.toNat]
def k0_off400 (v1794 : BitVec 32) : Fin 2 → Nat :=
  let c0_i32_799 : BitVec 32 := 0#32
  ![v1794.toNat, 0]

def k0_chk200 (v1794 : BitVec 32) : Prop :=
  (∀ a, (k0_off400 v1794) a + S1x512.size a ≤ S128000x512.size a)
instance k0_chk200.dec : ∀ (v1794 : BitVec 32), Decidable (k0_chk200 v1794) := fun v1794 => decidable_of_iff' _ (Iff.of_eq (k0_chk200.eq_1 v1794))
theorem k0_off400_inb : ∀ (v1794 : BitVec 32) (k0_hw200 : k0_chk200 v1794), ∀ a, (k0_off400 v1794) a + S1x512.size a ≤ S128000x512.size a := fun v1794 k0_hw200 => k0_hw200

def k0_off401 (i : grid0.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v1801 : BitVec 32 := Scalar.addi v0 c200_i32
  let v1802 : Index := Scalar.indexCast v1801
  ![v1802.toNat]
def k0_off402 (v1803 : BitVec 32) : Fin 2 → Nat :=
  let c0_i32_803 : BitVec 32 := 0#32
  ![v1803.toNat, 0]

def k0_chk201 (v1803 : BitVec 32) : Prop :=
  (∀ a, (k0_off402 v1803) a + S1x512.size a ≤ S128000x512.size a)
instance k0_chk201.dec : ∀ (v1803 : BitVec 32), Decidable (k0_chk201 v1803) := fun v1803 => decidable_of_iff' _ (Iff.of_eq (k0_chk201.eq_1 v1803))
theorem k0_off402_inb : ∀ (v1803 : BitVec 32) (k0_hw201 : k0_chk201 v1803), ∀ a, (k0_off402 v1803) a + S1x512.size a ≤ S128000x512.size a := fun v1803 k0_hw201 => k0_hw201

def k0_off403 (i : grid0.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v1810 : BitVec 32 := Scalar.addi v0 c201_i32
  let v1811 : Index := Scalar.indexCast v1810
  ![v1811.toNat]
def k0_off404 (v1812 : BitVec 32) : Fin 2 → Nat :=
  let c0_i32_807 : BitVec 32 := 0#32
  ![v1812.toNat, 0]

def k0_chk202 (v1812 : BitVec 32) : Prop :=
  (∀ a, (k0_off404 v1812) a + S1x512.size a ≤ S128000x512.size a)
instance k0_chk202.dec : ∀ (v1812 : BitVec 32), Decidable (k0_chk202 v1812) := fun v1812 => decidable_of_iff' _ (Iff.of_eq (k0_chk202.eq_1 v1812))
theorem k0_off404_inb : ∀ (v1812 : BitVec 32) (k0_hw202 : k0_chk202 v1812), ∀ a, (k0_off404 v1812) a + S1x512.size a ≤ S128000x512.size a := fun v1812 k0_hw202 => k0_hw202

def k0_off405 (i : grid0.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v1819 : BitVec 32 := Scalar.addi v0 c202_i32
  let v1820 : Index := Scalar.indexCast v1819
  ![v1820.toNat]
def k0_off406 (v1821 : BitVec 32) : Fin 2 → Nat :=
  let c0_i32_811 : BitVec 32 := 0#32
  ![v1821.toNat, 0]

def k0_chk203 (v1821 : BitVec 32) : Prop :=
  (∀ a, (k0_off406 v1821) a + S1x512.size a ≤ S128000x512.size a)
instance k0_chk203.dec : ∀ (v1821 : BitVec 32), Decidable (k0_chk203 v1821) := fun v1821 => decidable_of_iff' _ (Iff.of_eq (k0_chk203.eq_1 v1821))
theorem k0_off406_inb : ∀ (v1821 : BitVec 32) (k0_hw203 : k0_chk203 v1821), ∀ a, (k0_off406 v1821) a + S1x512.size a ≤ S128000x512.size a := fun v1821 k0_hw203 => k0_hw203

def k0_off407 (i : grid0.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v1828 : BitVec 32 := Scalar.addi v0 c203_i32
  let v1829 : Index := Scalar.indexCast v1828
  ![v1829.toNat]
def k0_off408 (v1830 : BitVec 32) : Fin 2 → Nat :=
  let c0_i32_815 : BitVec 32 := 0#32
  ![v1830.toNat, 0]

def k0_chk204 (v1830 : BitVec 32) : Prop :=
  (∀ a, (k0_off408 v1830) a + S1x512.size a ≤ S128000x512.size a)
instance k0_chk204.dec : ∀ (v1830 : BitVec 32), Decidable (k0_chk204 v1830) := fun v1830 => decidable_of_iff' _ (Iff.of_eq (k0_chk204.eq_1 v1830))
theorem k0_off408_inb : ∀ (v1830 : BitVec 32) (k0_hw204 : k0_chk204 v1830), ∀ a, (k0_off408 v1830) a + S1x512.size a ≤ S128000x512.size a := fun v1830 k0_hw204 => k0_hw204

def k0_off409 (i : grid0.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v1837 : BitVec 32 := Scalar.addi v0 c204_i32
  let v1838 : Index := Scalar.indexCast v1837
  ![v1838.toNat]
def k0_off410 (v1839 : BitVec 32) : Fin 2 → Nat :=
  let c0_i32_819 : BitVec 32 := 0#32
  ![v1839.toNat, 0]

def k0_chk205 (v1839 : BitVec 32) : Prop :=
  (∀ a, (k0_off410 v1839) a + S1x512.size a ≤ S128000x512.size a)
instance k0_chk205.dec : ∀ (v1839 : BitVec 32), Decidable (k0_chk205 v1839) := fun v1839 => decidable_of_iff' _ (Iff.of_eq (k0_chk205.eq_1 v1839))
theorem k0_off410_inb : ∀ (v1839 : BitVec 32) (k0_hw205 : k0_chk205 v1839), ∀ a, (k0_off410 v1839) a + S1x512.size a ≤ S128000x512.size a := fun v1839 k0_hw205 => k0_hw205

def k0_off411 (i : grid0.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v1846 : BitVec 32 := Scalar.addi v0 c205_i32
  let v1847 : Index := Scalar.indexCast v1846
  ![v1847.toNat]
def k0_off412 (v1848 : BitVec 32) : Fin 2 → Nat :=
  let c0_i32_823 : BitVec 32 := 0#32
  ![v1848.toNat, 0]

def k0_chk206 (v1848 : BitVec 32) : Prop :=
  (∀ a, (k0_off412 v1848) a + S1x512.size a ≤ S128000x512.size a)
instance k0_chk206.dec : ∀ (v1848 : BitVec 32), Decidable (k0_chk206 v1848) := fun v1848 => decidable_of_iff' _ (Iff.of_eq (k0_chk206.eq_1 v1848))
theorem k0_off412_inb : ∀ (v1848 : BitVec 32) (k0_hw206 : k0_chk206 v1848), ∀ a, (k0_off412 v1848) a + S1x512.size a ≤ S128000x512.size a := fun v1848 k0_hw206 => k0_hw206

def k0_off413 (i : grid0.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v1855 : BitVec 32 := Scalar.addi v0 c206_i32
  let v1856 : Index := Scalar.indexCast v1855
  ![v1856.toNat]
def k0_off414 (v1857 : BitVec 32) : Fin 2 → Nat :=
  let c0_i32_827 : BitVec 32 := 0#32
  ![v1857.toNat, 0]

def k0_chk207 (v1857 : BitVec 32) : Prop :=
  (∀ a, (k0_off414 v1857) a + S1x512.size a ≤ S128000x512.size a)
instance k0_chk207.dec : ∀ (v1857 : BitVec 32), Decidable (k0_chk207 v1857) := fun v1857 => decidable_of_iff' _ (Iff.of_eq (k0_chk207.eq_1 v1857))
theorem k0_off414_inb : ∀ (v1857 : BitVec 32) (k0_hw207 : k0_chk207 v1857), ∀ a, (k0_off414 v1857) a + S1x512.size a ≤ S128000x512.size a := fun v1857 k0_hw207 => k0_hw207

def k0_off415 (i : grid0.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v1864 : BitVec 32 := Scalar.addi v0 c207_i32
  let v1865 : Index := Scalar.indexCast v1864
  ![v1865.toNat]
def k0_off416 (v1866 : BitVec 32) : Fin 2 → Nat :=
  let c0_i32_831 : BitVec 32 := 0#32
  ![v1866.toNat, 0]

def k0_chk208 (v1866 : BitVec 32) : Prop :=
  (∀ a, (k0_off416 v1866) a + S1x512.size a ≤ S128000x512.size a)
instance k0_chk208.dec : ∀ (v1866 : BitVec 32), Decidable (k0_chk208 v1866) := fun v1866 => decidable_of_iff' _ (Iff.of_eq (k0_chk208.eq_1 v1866))
theorem k0_off416_inb : ∀ (v1866 : BitVec 32) (k0_hw208 : k0_chk208 v1866), ∀ a, (k0_off416 v1866) a + S1x512.size a ≤ S128000x512.size a := fun v1866 k0_hw208 => k0_hw208

def k0_off417 (i : grid0.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v1873 : BitVec 32 := Scalar.addi v0 c208_i32
  let v1874 : Index := Scalar.indexCast v1873
  ![v1874.toNat]
def k0_off418 (v1875 : BitVec 32) : Fin 2 → Nat :=
  let c0_i32_835 : BitVec 32 := 0#32
  ![v1875.toNat, 0]

def k0_chk209 (v1875 : BitVec 32) : Prop :=
  (∀ a, (k0_off418 v1875) a + S1x512.size a ≤ S128000x512.size a)
instance k0_chk209.dec : ∀ (v1875 : BitVec 32), Decidable (k0_chk209 v1875) := fun v1875 => decidable_of_iff' _ (Iff.of_eq (k0_chk209.eq_1 v1875))
theorem k0_off418_inb : ∀ (v1875 : BitVec 32) (k0_hw209 : k0_chk209 v1875), ∀ a, (k0_off418 v1875) a + S1x512.size a ≤ S128000x512.size a := fun v1875 k0_hw209 => k0_hw209

def k0_off419 (i : grid0.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v1882 : BitVec 32 := Scalar.addi v0 c209_i32
  let v1883 : Index := Scalar.indexCast v1882
  ![v1883.toNat]
def k0_off420 (v1884 : BitVec 32) : Fin 2 → Nat :=
  let c0_i32_839 : BitVec 32 := 0#32
  ![v1884.toNat, 0]

def k0_chk210 (v1884 : BitVec 32) : Prop :=
  (∀ a, (k0_off420 v1884) a + S1x512.size a ≤ S128000x512.size a)
instance k0_chk210.dec : ∀ (v1884 : BitVec 32), Decidable (k0_chk210 v1884) := fun v1884 => decidable_of_iff' _ (Iff.of_eq (k0_chk210.eq_1 v1884))
theorem k0_off420_inb : ∀ (v1884 : BitVec 32) (k0_hw210 : k0_chk210 v1884), ∀ a, (k0_off420 v1884) a + S1x512.size a ≤ S128000x512.size a := fun v1884 k0_hw210 => k0_hw210

def k0_off421 (i : grid0.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v1891 : BitVec 32 := Scalar.addi v0 c210_i32
  let v1892 : Index := Scalar.indexCast v1891
  ![v1892.toNat]
def k0_off422 (v1893 : BitVec 32) : Fin 2 → Nat :=
  let c0_i32_843 : BitVec 32 := 0#32
  ![v1893.toNat, 0]

def k0_chk211 (v1893 : BitVec 32) : Prop :=
  (∀ a, (k0_off422 v1893) a + S1x512.size a ≤ S128000x512.size a)
instance k0_chk211.dec : ∀ (v1893 : BitVec 32), Decidable (k0_chk211 v1893) := fun v1893 => decidable_of_iff' _ (Iff.of_eq (k0_chk211.eq_1 v1893))
theorem k0_off422_inb : ∀ (v1893 : BitVec 32) (k0_hw211 : k0_chk211 v1893), ∀ a, (k0_off422 v1893) a + S1x512.size a ≤ S128000x512.size a := fun v1893 k0_hw211 => k0_hw211

def k0_off423 (i : grid0.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v1900 : BitVec 32 := Scalar.addi v0 c211_i32
  let v1901 : Index := Scalar.indexCast v1900
  ![v1901.toNat]
def k0_off424 (v1902 : BitVec 32) : Fin 2 → Nat :=
  let c0_i32_847 : BitVec 32 := 0#32
  ![v1902.toNat, 0]

def k0_chk212 (v1902 : BitVec 32) : Prop :=
  (∀ a, (k0_off424 v1902) a + S1x512.size a ≤ S128000x512.size a)
instance k0_chk212.dec : ∀ (v1902 : BitVec 32), Decidable (k0_chk212 v1902) := fun v1902 => decidable_of_iff' _ (Iff.of_eq (k0_chk212.eq_1 v1902))
theorem k0_off424_inb : ∀ (v1902 : BitVec 32) (k0_hw212 : k0_chk212 v1902), ∀ a, (k0_off424 v1902) a + S1x512.size a ≤ S128000x512.size a := fun v1902 k0_hw212 => k0_hw212

def k0_off425 (i : grid0.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v1909 : BitVec 32 := Scalar.addi v0 c212_i32
  let v1910 : Index := Scalar.indexCast v1909
  ![v1910.toNat]
def k0_off426 (v1911 : BitVec 32) : Fin 2 → Nat :=
  let c0_i32_851 : BitVec 32 := 0#32
  ![v1911.toNat, 0]

def k0_chk213 (v1911 : BitVec 32) : Prop :=
  (∀ a, (k0_off426 v1911) a + S1x512.size a ≤ S128000x512.size a)
instance k0_chk213.dec : ∀ (v1911 : BitVec 32), Decidable (k0_chk213 v1911) := fun v1911 => decidable_of_iff' _ (Iff.of_eq (k0_chk213.eq_1 v1911))
theorem k0_off426_inb : ∀ (v1911 : BitVec 32) (k0_hw213 : k0_chk213 v1911), ∀ a, (k0_off426 v1911) a + S1x512.size a ≤ S128000x512.size a := fun v1911 k0_hw213 => k0_hw213

def k0_off427 (i : grid0.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v1918 : BitVec 32 := Scalar.addi v0 c213_i32
  let v1919 : Index := Scalar.indexCast v1918
  ![v1919.toNat]
def k0_off428 (v1920 : BitVec 32) : Fin 2 → Nat :=
  let c0_i32_855 : BitVec 32 := 0#32
  ![v1920.toNat, 0]

def k0_chk214 (v1920 : BitVec 32) : Prop :=
  (∀ a, (k0_off428 v1920) a + S1x512.size a ≤ S128000x512.size a)
instance k0_chk214.dec : ∀ (v1920 : BitVec 32), Decidable (k0_chk214 v1920) := fun v1920 => decidable_of_iff' _ (Iff.of_eq (k0_chk214.eq_1 v1920))
theorem k0_off428_inb : ∀ (v1920 : BitVec 32) (k0_hw214 : k0_chk214 v1920), ∀ a, (k0_off428 v1920) a + S1x512.size a ≤ S128000x512.size a := fun v1920 k0_hw214 => k0_hw214

def k0_off429 (i : grid0.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v1927 : BitVec 32 := Scalar.addi v0 c214_i32
  let v1928 : Index := Scalar.indexCast v1927
  ![v1928.toNat]
def k0_off430 (v1929 : BitVec 32) : Fin 2 → Nat :=
  let c0_i32_859 : BitVec 32 := 0#32
  ![v1929.toNat, 0]

def k0_chk215 (v1929 : BitVec 32) : Prop :=
  (∀ a, (k0_off430 v1929) a + S1x512.size a ≤ S128000x512.size a)
instance k0_chk215.dec : ∀ (v1929 : BitVec 32), Decidable (k0_chk215 v1929) := fun v1929 => decidable_of_iff' _ (Iff.of_eq (k0_chk215.eq_1 v1929))
theorem k0_off430_inb : ∀ (v1929 : BitVec 32) (k0_hw215 : k0_chk215 v1929), ∀ a, (k0_off430 v1929) a + S1x512.size a ≤ S128000x512.size a := fun v1929 k0_hw215 => k0_hw215

def k0_off431 (i : grid0.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v1936 : BitVec 32 := Scalar.addi v0 c215_i32
  let v1937 : Index := Scalar.indexCast v1936
  ![v1937.toNat]
def k0_off432 (v1938 : BitVec 32) : Fin 2 → Nat :=
  let c0_i32_863 : BitVec 32 := 0#32
  ![v1938.toNat, 0]

def k0_chk216 (v1938 : BitVec 32) : Prop :=
  (∀ a, (k0_off432 v1938) a + S1x512.size a ≤ S128000x512.size a)
instance k0_chk216.dec : ∀ (v1938 : BitVec 32), Decidable (k0_chk216 v1938) := fun v1938 => decidable_of_iff' _ (Iff.of_eq (k0_chk216.eq_1 v1938))
theorem k0_off432_inb : ∀ (v1938 : BitVec 32) (k0_hw216 : k0_chk216 v1938), ∀ a, (k0_off432 v1938) a + S1x512.size a ≤ S128000x512.size a := fun v1938 k0_hw216 => k0_hw216

def k0_off433 (i : grid0.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v1945 : BitVec 32 := Scalar.addi v0 c216_i32
  let v1946 : Index := Scalar.indexCast v1945
  ![v1946.toNat]
def k0_off434 (v1947 : BitVec 32) : Fin 2 → Nat :=
  let c0_i32_867 : BitVec 32 := 0#32
  ![v1947.toNat, 0]

def k0_chk217 (v1947 : BitVec 32) : Prop :=
  (∀ a, (k0_off434 v1947) a + S1x512.size a ≤ S128000x512.size a)
instance k0_chk217.dec : ∀ (v1947 : BitVec 32), Decidable (k0_chk217 v1947) := fun v1947 => decidable_of_iff' _ (Iff.of_eq (k0_chk217.eq_1 v1947))
theorem k0_off434_inb : ∀ (v1947 : BitVec 32) (k0_hw217 : k0_chk217 v1947), ∀ a, (k0_off434 v1947) a + S1x512.size a ≤ S128000x512.size a := fun v1947 k0_hw217 => k0_hw217

def k0_off435 (i : grid0.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v1954 : BitVec 32 := Scalar.addi v0 c217_i32
  let v1955 : Index := Scalar.indexCast v1954
  ![v1955.toNat]
def k0_off436 (v1956 : BitVec 32) : Fin 2 → Nat :=
  let c0_i32_871 : BitVec 32 := 0#32
  ![v1956.toNat, 0]

def k0_chk218 (v1956 : BitVec 32) : Prop :=
  (∀ a, (k0_off436 v1956) a + S1x512.size a ≤ S128000x512.size a)
instance k0_chk218.dec : ∀ (v1956 : BitVec 32), Decidable (k0_chk218 v1956) := fun v1956 => decidable_of_iff' _ (Iff.of_eq (k0_chk218.eq_1 v1956))
theorem k0_off436_inb : ∀ (v1956 : BitVec 32) (k0_hw218 : k0_chk218 v1956), ∀ a, (k0_off436 v1956) a + S1x512.size a ≤ S128000x512.size a := fun v1956 k0_hw218 => k0_hw218

def k0_off437 (i : grid0.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v1963 : BitVec 32 := Scalar.addi v0 c218_i32
  let v1964 : Index := Scalar.indexCast v1963
  ![v1964.toNat]
def k0_off438 (v1965 : BitVec 32) : Fin 2 → Nat :=
  let c0_i32_875 : BitVec 32 := 0#32
  ![v1965.toNat, 0]

def k0_chk219 (v1965 : BitVec 32) : Prop :=
  (∀ a, (k0_off438 v1965) a + S1x512.size a ≤ S128000x512.size a)
instance k0_chk219.dec : ∀ (v1965 : BitVec 32), Decidable (k0_chk219 v1965) := fun v1965 => decidable_of_iff' _ (Iff.of_eq (k0_chk219.eq_1 v1965))
theorem k0_off438_inb : ∀ (v1965 : BitVec 32) (k0_hw219 : k0_chk219 v1965), ∀ a, (k0_off438 v1965) a + S1x512.size a ≤ S128000x512.size a := fun v1965 k0_hw219 => k0_hw219

def k0_off439 (i : grid0.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v1972 : BitVec 32 := Scalar.addi v0 c219_i32
  let v1973 : Index := Scalar.indexCast v1972
  ![v1973.toNat]
def k0_off440 (v1974 : BitVec 32) : Fin 2 → Nat :=
  let c0_i32_879 : BitVec 32 := 0#32
  ![v1974.toNat, 0]

def k0_chk220 (v1974 : BitVec 32) : Prop :=
  (∀ a, (k0_off440 v1974) a + S1x512.size a ≤ S128000x512.size a)
instance k0_chk220.dec : ∀ (v1974 : BitVec 32), Decidable (k0_chk220 v1974) := fun v1974 => decidable_of_iff' _ (Iff.of_eq (k0_chk220.eq_1 v1974))
theorem k0_off440_inb : ∀ (v1974 : BitVec 32) (k0_hw220 : k0_chk220 v1974), ∀ a, (k0_off440 v1974) a + S1x512.size a ≤ S128000x512.size a := fun v1974 k0_hw220 => k0_hw220

def k0_off441 (i : grid0.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v1981 : BitVec 32 := Scalar.addi v0 c220_i32
  let v1982 : Index := Scalar.indexCast v1981
  ![v1982.toNat]
def k0_off442 (v1983 : BitVec 32) : Fin 2 → Nat :=
  let c0_i32_883 : BitVec 32 := 0#32
  ![v1983.toNat, 0]

def k0_chk221 (v1983 : BitVec 32) : Prop :=
  (∀ a, (k0_off442 v1983) a + S1x512.size a ≤ S128000x512.size a)
instance k0_chk221.dec : ∀ (v1983 : BitVec 32), Decidable (k0_chk221 v1983) := fun v1983 => decidable_of_iff' _ (Iff.of_eq (k0_chk221.eq_1 v1983))
theorem k0_off442_inb : ∀ (v1983 : BitVec 32) (k0_hw221 : k0_chk221 v1983), ∀ a, (k0_off442 v1983) a + S1x512.size a ≤ S128000x512.size a := fun v1983 k0_hw221 => k0_hw221

def k0_off443 (i : grid0.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v1990 : BitVec 32 := Scalar.addi v0 c221_i32
  let v1991 : Index := Scalar.indexCast v1990
  ![v1991.toNat]
def k0_off444 (v1992 : BitVec 32) : Fin 2 → Nat :=
  let c0_i32_887 : BitVec 32 := 0#32
  ![v1992.toNat, 0]

def k0_chk222 (v1992 : BitVec 32) : Prop :=
  (∀ a, (k0_off444 v1992) a + S1x512.size a ≤ S128000x512.size a)
instance k0_chk222.dec : ∀ (v1992 : BitVec 32), Decidable (k0_chk222 v1992) := fun v1992 => decidable_of_iff' _ (Iff.of_eq (k0_chk222.eq_1 v1992))
theorem k0_off444_inb : ∀ (v1992 : BitVec 32) (k0_hw222 : k0_chk222 v1992), ∀ a, (k0_off444 v1992) a + S1x512.size a ≤ S128000x512.size a := fun v1992 k0_hw222 => k0_hw222

def k0_off445 (i : grid0.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v1999 : BitVec 32 := Scalar.addi v0 c222_i32
  let v2000 : Index := Scalar.indexCast v1999
  ![v2000.toNat]
def k0_off446 (v2001 : BitVec 32) : Fin 2 → Nat :=
  let c0_i32_891 : BitVec 32 := 0#32
  ![v2001.toNat, 0]

def k0_chk223 (v2001 : BitVec 32) : Prop :=
  (∀ a, (k0_off446 v2001) a + S1x512.size a ≤ S128000x512.size a)
instance k0_chk223.dec : ∀ (v2001 : BitVec 32), Decidable (k0_chk223 v2001) := fun v2001 => decidable_of_iff' _ (Iff.of_eq (k0_chk223.eq_1 v2001))
theorem k0_off446_inb : ∀ (v2001 : BitVec 32) (k0_hw223 : k0_chk223 v2001), ∀ a, (k0_off446 v2001) a + S1x512.size a ≤ S128000x512.size a := fun v2001 k0_hw223 => k0_hw223

def k0_off447 (i : grid0.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v2008 : BitVec 32 := Scalar.addi v0 c223_i32
  let v2009 : Index := Scalar.indexCast v2008
  ![v2009.toNat]
def k0_off448 (v2010 : BitVec 32) : Fin 2 → Nat :=
  let c0_i32_895 : BitVec 32 := 0#32
  ![v2010.toNat, 0]

def k0_chk224 (v2010 : BitVec 32) : Prop :=
  (∀ a, (k0_off448 v2010) a + S1x512.size a ≤ S128000x512.size a)
instance k0_chk224.dec : ∀ (v2010 : BitVec 32), Decidable (k0_chk224 v2010) := fun v2010 => decidable_of_iff' _ (Iff.of_eq (k0_chk224.eq_1 v2010))
theorem k0_off448_inb : ∀ (v2010 : BitVec 32) (k0_hw224 : k0_chk224 v2010), ∀ a, (k0_off448 v2010) a + S1x512.size a ≤ S128000x512.size a := fun v2010 k0_hw224 => k0_hw224

def k0_off449 (i : grid0.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v2017 : BitVec 32 := Scalar.addi v0 c224_i32
  let v2018 : Index := Scalar.indexCast v2017
  ![v2018.toNat]
def k0_off450 (v2019 : BitVec 32) : Fin 2 → Nat :=
  let c0_i32_899 : BitVec 32 := 0#32
  ![v2019.toNat, 0]

def k0_chk225 (v2019 : BitVec 32) : Prop :=
  (∀ a, (k0_off450 v2019) a + S1x512.size a ≤ S128000x512.size a)
instance k0_chk225.dec : ∀ (v2019 : BitVec 32), Decidable (k0_chk225 v2019) := fun v2019 => decidable_of_iff' _ (Iff.of_eq (k0_chk225.eq_1 v2019))
theorem k0_off450_inb : ∀ (v2019 : BitVec 32) (k0_hw225 : k0_chk225 v2019), ∀ a, (k0_off450 v2019) a + S1x512.size a ≤ S128000x512.size a := fun v2019 k0_hw225 => k0_hw225

def k0_off451 (i : grid0.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v2026 : BitVec 32 := Scalar.addi v0 c225_i32
  let v2027 : Index := Scalar.indexCast v2026
  ![v2027.toNat]
def k0_off452 (v2028 : BitVec 32) : Fin 2 → Nat :=
  let c0_i32_903 : BitVec 32 := 0#32
  ![v2028.toNat, 0]

def k0_chk226 (v2028 : BitVec 32) : Prop :=
  (∀ a, (k0_off452 v2028) a + S1x512.size a ≤ S128000x512.size a)
instance k0_chk226.dec : ∀ (v2028 : BitVec 32), Decidable (k0_chk226 v2028) := fun v2028 => decidable_of_iff' _ (Iff.of_eq (k0_chk226.eq_1 v2028))
theorem k0_off452_inb : ∀ (v2028 : BitVec 32) (k0_hw226 : k0_chk226 v2028), ∀ a, (k0_off452 v2028) a + S1x512.size a ≤ S128000x512.size a := fun v2028 k0_hw226 => k0_hw226

def k0_off453 (i : grid0.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v2035 : BitVec 32 := Scalar.addi v0 c226_i32
  let v2036 : Index := Scalar.indexCast v2035
  ![v2036.toNat]
def k0_off454 (v2037 : BitVec 32) : Fin 2 → Nat :=
  let c0_i32_907 : BitVec 32 := 0#32
  ![v2037.toNat, 0]

def k0_chk227 (v2037 : BitVec 32) : Prop :=
  (∀ a, (k0_off454 v2037) a + S1x512.size a ≤ S128000x512.size a)
instance k0_chk227.dec : ∀ (v2037 : BitVec 32), Decidable (k0_chk227 v2037) := fun v2037 => decidable_of_iff' _ (Iff.of_eq (k0_chk227.eq_1 v2037))
theorem k0_off454_inb : ∀ (v2037 : BitVec 32) (k0_hw227 : k0_chk227 v2037), ∀ a, (k0_off454 v2037) a + S1x512.size a ≤ S128000x512.size a := fun v2037 k0_hw227 => k0_hw227

def k0_off455 (i : grid0.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v2044 : BitVec 32 := Scalar.addi v0 c227_i32
  let v2045 : Index := Scalar.indexCast v2044
  ![v2045.toNat]
def k0_off456 (v2046 : BitVec 32) : Fin 2 → Nat :=
  let c0_i32_911 : BitVec 32 := 0#32
  ![v2046.toNat, 0]

def k0_chk228 (v2046 : BitVec 32) : Prop :=
  (∀ a, (k0_off456 v2046) a + S1x512.size a ≤ S128000x512.size a)
instance k0_chk228.dec : ∀ (v2046 : BitVec 32), Decidable (k0_chk228 v2046) := fun v2046 => decidable_of_iff' _ (Iff.of_eq (k0_chk228.eq_1 v2046))
theorem k0_off456_inb : ∀ (v2046 : BitVec 32) (k0_hw228 : k0_chk228 v2046), ∀ a, (k0_off456 v2046) a + S1x512.size a ≤ S128000x512.size a := fun v2046 k0_hw228 => k0_hw228

def k0_off457 (i : grid0.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v2053 : BitVec 32 := Scalar.addi v0 c228_i32
  let v2054 : Index := Scalar.indexCast v2053
  ![v2054.toNat]
def k0_off458 (v2055 : BitVec 32) : Fin 2 → Nat :=
  let c0_i32_915 : BitVec 32 := 0#32
  ![v2055.toNat, 0]

def k0_chk229 (v2055 : BitVec 32) : Prop :=
  (∀ a, (k0_off458 v2055) a + S1x512.size a ≤ S128000x512.size a)
instance k0_chk229.dec : ∀ (v2055 : BitVec 32), Decidable (k0_chk229 v2055) := fun v2055 => decidable_of_iff' _ (Iff.of_eq (k0_chk229.eq_1 v2055))
theorem k0_off458_inb : ∀ (v2055 : BitVec 32) (k0_hw229 : k0_chk229 v2055), ∀ a, (k0_off458 v2055) a + S1x512.size a ≤ S128000x512.size a := fun v2055 k0_hw229 => k0_hw229

def k0_off459 (i : grid0.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v2062 : BitVec 32 := Scalar.addi v0 c229_i32
  let v2063 : Index := Scalar.indexCast v2062
  ![v2063.toNat]
def k0_off460 (v2064 : BitVec 32) : Fin 2 → Nat :=
  let c0_i32_919 : BitVec 32 := 0#32
  ![v2064.toNat, 0]

def k0_chk230 (v2064 : BitVec 32) : Prop :=
  (∀ a, (k0_off460 v2064) a + S1x512.size a ≤ S128000x512.size a)
instance k0_chk230.dec : ∀ (v2064 : BitVec 32), Decidable (k0_chk230 v2064) := fun v2064 => decidable_of_iff' _ (Iff.of_eq (k0_chk230.eq_1 v2064))
theorem k0_off460_inb : ∀ (v2064 : BitVec 32) (k0_hw230 : k0_chk230 v2064), ∀ a, (k0_off460 v2064) a + S1x512.size a ≤ S128000x512.size a := fun v2064 k0_hw230 => k0_hw230

def k0_off461 (i : grid0.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v2071 : BitVec 32 := Scalar.addi v0 c230_i32
  let v2072 : Index := Scalar.indexCast v2071
  ![v2072.toNat]
def k0_off462 (v2073 : BitVec 32) : Fin 2 → Nat :=
  let c0_i32_923 : BitVec 32 := 0#32
  ![v2073.toNat, 0]

def k0_chk231 (v2073 : BitVec 32) : Prop :=
  (∀ a, (k0_off462 v2073) a + S1x512.size a ≤ S128000x512.size a)
instance k0_chk231.dec : ∀ (v2073 : BitVec 32), Decidable (k0_chk231 v2073) := fun v2073 => decidable_of_iff' _ (Iff.of_eq (k0_chk231.eq_1 v2073))
theorem k0_off462_inb : ∀ (v2073 : BitVec 32) (k0_hw231 : k0_chk231 v2073), ∀ a, (k0_off462 v2073) a + S1x512.size a ≤ S128000x512.size a := fun v2073 k0_hw231 => k0_hw231

def k0_off463 (i : grid0.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v2080 : BitVec 32 := Scalar.addi v0 c231_i32
  let v2081 : Index := Scalar.indexCast v2080
  ![v2081.toNat]
def k0_off464 (v2082 : BitVec 32) : Fin 2 → Nat :=
  let c0_i32_927 : BitVec 32 := 0#32
  ![v2082.toNat, 0]

def k0_chk232 (v2082 : BitVec 32) : Prop :=
  (∀ a, (k0_off464 v2082) a + S1x512.size a ≤ S128000x512.size a)
instance k0_chk232.dec : ∀ (v2082 : BitVec 32), Decidable (k0_chk232 v2082) := fun v2082 => decidable_of_iff' _ (Iff.of_eq (k0_chk232.eq_1 v2082))
theorem k0_off464_inb : ∀ (v2082 : BitVec 32) (k0_hw232 : k0_chk232 v2082), ∀ a, (k0_off464 v2082) a + S1x512.size a ≤ S128000x512.size a := fun v2082 k0_hw232 => k0_hw232

def k0_off465 (i : grid0.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v2089 : BitVec 32 := Scalar.addi v0 c232_i32
  let v2090 : Index := Scalar.indexCast v2089
  ![v2090.toNat]
def k0_off466 (v2091 : BitVec 32) : Fin 2 → Nat :=
  let c0_i32_931 : BitVec 32 := 0#32
  ![v2091.toNat, 0]

def k0_chk233 (v2091 : BitVec 32) : Prop :=
  (∀ a, (k0_off466 v2091) a + S1x512.size a ≤ S128000x512.size a)
instance k0_chk233.dec : ∀ (v2091 : BitVec 32), Decidable (k0_chk233 v2091) := fun v2091 => decidable_of_iff' _ (Iff.of_eq (k0_chk233.eq_1 v2091))
theorem k0_off466_inb : ∀ (v2091 : BitVec 32) (k0_hw233 : k0_chk233 v2091), ∀ a, (k0_off466 v2091) a + S1x512.size a ≤ S128000x512.size a := fun v2091 k0_hw233 => k0_hw233

def k0_off467 (i : grid0.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v2098 : BitVec 32 := Scalar.addi v0 c233_i32
  let v2099 : Index := Scalar.indexCast v2098
  ![v2099.toNat]
def k0_off468 (v2100 : BitVec 32) : Fin 2 → Nat :=
  let c0_i32_935 : BitVec 32 := 0#32
  ![v2100.toNat, 0]

def k0_chk234 (v2100 : BitVec 32) : Prop :=
  (∀ a, (k0_off468 v2100) a + S1x512.size a ≤ S128000x512.size a)
instance k0_chk234.dec : ∀ (v2100 : BitVec 32), Decidable (k0_chk234 v2100) := fun v2100 => decidable_of_iff' _ (Iff.of_eq (k0_chk234.eq_1 v2100))
theorem k0_off468_inb : ∀ (v2100 : BitVec 32) (k0_hw234 : k0_chk234 v2100), ∀ a, (k0_off468 v2100) a + S1x512.size a ≤ S128000x512.size a := fun v2100 k0_hw234 => k0_hw234

def k0_off469 (i : grid0.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v2107 : BitVec 32 := Scalar.addi v0 c234_i32
  let v2108 : Index := Scalar.indexCast v2107
  ![v2108.toNat]
def k0_off470 (v2109 : BitVec 32) : Fin 2 → Nat :=
  let c0_i32_939 : BitVec 32 := 0#32
  ![v2109.toNat, 0]

def k0_chk235 (v2109 : BitVec 32) : Prop :=
  (∀ a, (k0_off470 v2109) a + S1x512.size a ≤ S128000x512.size a)
instance k0_chk235.dec : ∀ (v2109 : BitVec 32), Decidable (k0_chk235 v2109) := fun v2109 => decidable_of_iff' _ (Iff.of_eq (k0_chk235.eq_1 v2109))
theorem k0_off470_inb : ∀ (v2109 : BitVec 32) (k0_hw235 : k0_chk235 v2109), ∀ a, (k0_off470 v2109) a + S1x512.size a ≤ S128000x512.size a := fun v2109 k0_hw235 => k0_hw235

def k0_off471 (i : grid0.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v2116 : BitVec 32 := Scalar.addi v0 c235_i32
  let v2117 : Index := Scalar.indexCast v2116
  ![v2117.toNat]
def k0_off472 (v2118 : BitVec 32) : Fin 2 → Nat :=
  let c0_i32_943 : BitVec 32 := 0#32
  ![v2118.toNat, 0]

def k0_chk236 (v2118 : BitVec 32) : Prop :=
  (∀ a, (k0_off472 v2118) a + S1x512.size a ≤ S128000x512.size a)
instance k0_chk236.dec : ∀ (v2118 : BitVec 32), Decidable (k0_chk236 v2118) := fun v2118 => decidable_of_iff' _ (Iff.of_eq (k0_chk236.eq_1 v2118))
theorem k0_off472_inb : ∀ (v2118 : BitVec 32) (k0_hw236 : k0_chk236 v2118), ∀ a, (k0_off472 v2118) a + S1x512.size a ≤ S128000x512.size a := fun v2118 k0_hw236 => k0_hw236

def k0_off473 (i : grid0.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v2125 : BitVec 32 := Scalar.addi v0 c236_i32
  let v2126 : Index := Scalar.indexCast v2125
  ![v2126.toNat]
def k0_off474 (v2127 : BitVec 32) : Fin 2 → Nat :=
  let c0_i32_947 : BitVec 32 := 0#32
  ![v2127.toNat, 0]

def k0_chk237 (v2127 : BitVec 32) : Prop :=
  (∀ a, (k0_off474 v2127) a + S1x512.size a ≤ S128000x512.size a)
instance k0_chk237.dec : ∀ (v2127 : BitVec 32), Decidable (k0_chk237 v2127) := fun v2127 => decidable_of_iff' _ (Iff.of_eq (k0_chk237.eq_1 v2127))
theorem k0_off474_inb : ∀ (v2127 : BitVec 32) (k0_hw237 : k0_chk237 v2127), ∀ a, (k0_off474 v2127) a + S1x512.size a ≤ S128000x512.size a := fun v2127 k0_hw237 => k0_hw237

def k0_off475 (i : grid0.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v2134 : BitVec 32 := Scalar.addi v0 c237_i32
  let v2135 : Index := Scalar.indexCast v2134
  ![v2135.toNat]
def k0_off476 (v2136 : BitVec 32) : Fin 2 → Nat :=
  let c0_i32_951 : BitVec 32 := 0#32
  ![v2136.toNat, 0]

def k0_chk238 (v2136 : BitVec 32) : Prop :=
  (∀ a, (k0_off476 v2136) a + S1x512.size a ≤ S128000x512.size a)
instance k0_chk238.dec : ∀ (v2136 : BitVec 32), Decidable (k0_chk238 v2136) := fun v2136 => decidable_of_iff' _ (Iff.of_eq (k0_chk238.eq_1 v2136))
theorem k0_off476_inb : ∀ (v2136 : BitVec 32) (k0_hw238 : k0_chk238 v2136), ∀ a, (k0_off476 v2136) a + S1x512.size a ≤ S128000x512.size a := fun v2136 k0_hw238 => k0_hw238

def k0_off477 (i : grid0.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v2143 : BitVec 32 := Scalar.addi v0 c238_i32
  let v2144 : Index := Scalar.indexCast v2143
  ![v2144.toNat]
def k0_off478 (v2145 : BitVec 32) : Fin 2 → Nat :=
  let c0_i32_955 : BitVec 32 := 0#32
  ![v2145.toNat, 0]

def k0_chk239 (v2145 : BitVec 32) : Prop :=
  (∀ a, (k0_off478 v2145) a + S1x512.size a ≤ S128000x512.size a)
instance k0_chk239.dec : ∀ (v2145 : BitVec 32), Decidable (k0_chk239 v2145) := fun v2145 => decidable_of_iff' _ (Iff.of_eq (k0_chk239.eq_1 v2145))
theorem k0_off478_inb : ∀ (v2145 : BitVec 32) (k0_hw239 : k0_chk239 v2145), ∀ a, (k0_off478 v2145) a + S1x512.size a ≤ S128000x512.size a := fun v2145 k0_hw239 => k0_hw239

def k0_off479 (i : grid0.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v2152 : BitVec 32 := Scalar.addi v0 c239_i32
  let v2153 : Index := Scalar.indexCast v2152
  ![v2153.toNat]
def k0_off480 (v2154 : BitVec 32) : Fin 2 → Nat :=
  let c0_i32_959 : BitVec 32 := 0#32
  ![v2154.toNat, 0]

def k0_chk240 (v2154 : BitVec 32) : Prop :=
  (∀ a, (k0_off480 v2154) a + S1x512.size a ≤ S128000x512.size a)
instance k0_chk240.dec : ∀ (v2154 : BitVec 32), Decidable (k0_chk240 v2154) := fun v2154 => decidable_of_iff' _ (Iff.of_eq (k0_chk240.eq_1 v2154))
theorem k0_off480_inb : ∀ (v2154 : BitVec 32) (k0_hw240 : k0_chk240 v2154), ∀ a, (k0_off480 v2154) a + S1x512.size a ≤ S128000x512.size a := fun v2154 k0_hw240 => k0_hw240

def k0_off481 (i : grid0.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v2161 : BitVec 32 := Scalar.addi v0 c240_i32
  let v2162 : Index := Scalar.indexCast v2161
  ![v2162.toNat]
def k0_off482 (v2163 : BitVec 32) : Fin 2 → Nat :=
  let c0_i32_963 : BitVec 32 := 0#32
  ![v2163.toNat, 0]

def k0_chk241 (v2163 : BitVec 32) : Prop :=
  (∀ a, (k0_off482 v2163) a + S1x512.size a ≤ S128000x512.size a)
instance k0_chk241.dec : ∀ (v2163 : BitVec 32), Decidable (k0_chk241 v2163) := fun v2163 => decidable_of_iff' _ (Iff.of_eq (k0_chk241.eq_1 v2163))
theorem k0_off482_inb : ∀ (v2163 : BitVec 32) (k0_hw241 : k0_chk241 v2163), ∀ a, (k0_off482 v2163) a + S1x512.size a ≤ S128000x512.size a := fun v2163 k0_hw241 => k0_hw241

def k0_off483 (i : grid0.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v2170 : BitVec 32 := Scalar.addi v0 c241_i32
  let v2171 : Index := Scalar.indexCast v2170
  ![v2171.toNat]
def k0_off484 (v2172 : BitVec 32) : Fin 2 → Nat :=
  let c0_i32_967 : BitVec 32 := 0#32
  ![v2172.toNat, 0]

def k0_chk242 (v2172 : BitVec 32) : Prop :=
  (∀ a, (k0_off484 v2172) a + S1x512.size a ≤ S128000x512.size a)
instance k0_chk242.dec : ∀ (v2172 : BitVec 32), Decidable (k0_chk242 v2172) := fun v2172 => decidable_of_iff' _ (Iff.of_eq (k0_chk242.eq_1 v2172))
theorem k0_off484_inb : ∀ (v2172 : BitVec 32) (k0_hw242 : k0_chk242 v2172), ∀ a, (k0_off484 v2172) a + S1x512.size a ≤ S128000x512.size a := fun v2172 k0_hw242 => k0_hw242

def k0_off485 (i : grid0.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v2179 : BitVec 32 := Scalar.addi v0 c242_i32
  let v2180 : Index := Scalar.indexCast v2179
  ![v2180.toNat]
def k0_off486 (v2181 : BitVec 32) : Fin 2 → Nat :=
  let c0_i32_971 : BitVec 32 := 0#32
  ![v2181.toNat, 0]

def k0_chk243 (v2181 : BitVec 32) : Prop :=
  (∀ a, (k0_off486 v2181) a + S1x512.size a ≤ S128000x512.size a)
instance k0_chk243.dec : ∀ (v2181 : BitVec 32), Decidable (k0_chk243 v2181) := fun v2181 => decidable_of_iff' _ (Iff.of_eq (k0_chk243.eq_1 v2181))
theorem k0_off486_inb : ∀ (v2181 : BitVec 32) (k0_hw243 : k0_chk243 v2181), ∀ a, (k0_off486 v2181) a + S1x512.size a ≤ S128000x512.size a := fun v2181 k0_hw243 => k0_hw243

def k0_off487 (i : grid0.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v2188 : BitVec 32 := Scalar.addi v0 c243_i32
  let v2189 : Index := Scalar.indexCast v2188
  ![v2189.toNat]
def k0_off488 (v2190 : BitVec 32) : Fin 2 → Nat :=
  let c0_i32_975 : BitVec 32 := 0#32
  ![v2190.toNat, 0]

def k0_chk244 (v2190 : BitVec 32) : Prop :=
  (∀ a, (k0_off488 v2190) a + S1x512.size a ≤ S128000x512.size a)
instance k0_chk244.dec : ∀ (v2190 : BitVec 32), Decidable (k0_chk244 v2190) := fun v2190 => decidable_of_iff' _ (Iff.of_eq (k0_chk244.eq_1 v2190))
theorem k0_off488_inb : ∀ (v2190 : BitVec 32) (k0_hw244 : k0_chk244 v2190), ∀ a, (k0_off488 v2190) a + S1x512.size a ≤ S128000x512.size a := fun v2190 k0_hw244 => k0_hw244

def k0_off489 (i : grid0.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v2197 : BitVec 32 := Scalar.addi v0 c244_i32
  let v2198 : Index := Scalar.indexCast v2197
  ![v2198.toNat]
def k0_off490 (v2199 : BitVec 32) : Fin 2 → Nat :=
  let c0_i32_979 : BitVec 32 := 0#32
  ![v2199.toNat, 0]

def k0_chk245 (v2199 : BitVec 32) : Prop :=
  (∀ a, (k0_off490 v2199) a + S1x512.size a ≤ S128000x512.size a)
instance k0_chk245.dec : ∀ (v2199 : BitVec 32), Decidable (k0_chk245 v2199) := fun v2199 => decidable_of_iff' _ (Iff.of_eq (k0_chk245.eq_1 v2199))
theorem k0_off490_inb : ∀ (v2199 : BitVec 32) (k0_hw245 : k0_chk245 v2199), ∀ a, (k0_off490 v2199) a + S1x512.size a ≤ S128000x512.size a := fun v2199 k0_hw245 => k0_hw245

def k0_off491 (i : grid0.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v2206 : BitVec 32 := Scalar.addi v0 c245_i32
  let v2207 : Index := Scalar.indexCast v2206
  ![v2207.toNat]
def k0_off492 (v2208 : BitVec 32) : Fin 2 → Nat :=
  let c0_i32_983 : BitVec 32 := 0#32
  ![v2208.toNat, 0]

def k0_chk246 (v2208 : BitVec 32) : Prop :=
  (∀ a, (k0_off492 v2208) a + S1x512.size a ≤ S128000x512.size a)
instance k0_chk246.dec : ∀ (v2208 : BitVec 32), Decidable (k0_chk246 v2208) := fun v2208 => decidable_of_iff' _ (Iff.of_eq (k0_chk246.eq_1 v2208))
theorem k0_off492_inb : ∀ (v2208 : BitVec 32) (k0_hw246 : k0_chk246 v2208), ∀ a, (k0_off492 v2208) a + S1x512.size a ≤ S128000x512.size a := fun v2208 k0_hw246 => k0_hw246

def k0_off493 (i : grid0.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v2215 : BitVec 32 := Scalar.addi v0 c246_i32
  let v2216 : Index := Scalar.indexCast v2215
  ![v2216.toNat]
def k0_off494 (v2217 : BitVec 32) : Fin 2 → Nat :=
  let c0_i32_987 : BitVec 32 := 0#32
  ![v2217.toNat, 0]

def k0_chk247 (v2217 : BitVec 32) : Prop :=
  (∀ a, (k0_off494 v2217) a + S1x512.size a ≤ S128000x512.size a)
instance k0_chk247.dec : ∀ (v2217 : BitVec 32), Decidable (k0_chk247 v2217) := fun v2217 => decidable_of_iff' _ (Iff.of_eq (k0_chk247.eq_1 v2217))
theorem k0_off494_inb : ∀ (v2217 : BitVec 32) (k0_hw247 : k0_chk247 v2217), ∀ a, (k0_off494 v2217) a + S1x512.size a ≤ S128000x512.size a := fun v2217 k0_hw247 => k0_hw247

def k0_off495 (i : grid0.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v2224 : BitVec 32 := Scalar.addi v0 c247_i32
  let v2225 : Index := Scalar.indexCast v2224
  ![v2225.toNat]
def k0_off496 (v2226 : BitVec 32) : Fin 2 → Nat :=
  let c0_i32_991 : BitVec 32 := 0#32
  ![v2226.toNat, 0]

def k0_chk248 (v2226 : BitVec 32) : Prop :=
  (∀ a, (k0_off496 v2226) a + S1x512.size a ≤ S128000x512.size a)
instance k0_chk248.dec : ∀ (v2226 : BitVec 32), Decidable (k0_chk248 v2226) := fun v2226 => decidable_of_iff' _ (Iff.of_eq (k0_chk248.eq_1 v2226))
theorem k0_off496_inb : ∀ (v2226 : BitVec 32) (k0_hw248 : k0_chk248 v2226), ∀ a, (k0_off496 v2226) a + S1x512.size a ≤ S128000x512.size a := fun v2226 k0_hw248 => k0_hw248

def k0_off497 (i : grid0.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v2233 : BitVec 32 := Scalar.addi v0 c248_i32
  let v2234 : Index := Scalar.indexCast v2233
  ![v2234.toNat]
def k0_off498 (v2235 : BitVec 32) : Fin 2 → Nat :=
  let c0_i32_995 : BitVec 32 := 0#32
  ![v2235.toNat, 0]

def k0_chk249 (v2235 : BitVec 32) : Prop :=
  (∀ a, (k0_off498 v2235) a + S1x512.size a ≤ S128000x512.size a)
instance k0_chk249.dec : ∀ (v2235 : BitVec 32), Decidable (k0_chk249 v2235) := fun v2235 => decidable_of_iff' _ (Iff.of_eq (k0_chk249.eq_1 v2235))
theorem k0_off498_inb : ∀ (v2235 : BitVec 32) (k0_hw249 : k0_chk249 v2235), ∀ a, (k0_off498 v2235) a + S1x512.size a ≤ S128000x512.size a := fun v2235 k0_hw249 => k0_hw249

def k0_off499 (i : grid0.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v2242 : BitVec 32 := Scalar.addi v0 c249_i32
  let v2243 : Index := Scalar.indexCast v2242
  ![v2243.toNat]
def k0_off500 (v2244 : BitVec 32) : Fin 2 → Nat :=
  let c0_i32_999 : BitVec 32 := 0#32
  ![v2244.toNat, 0]

def k0_chk250 (v2244 : BitVec 32) : Prop :=
  (∀ a, (k0_off500 v2244) a + S1x512.size a ≤ S128000x512.size a)
instance k0_chk250.dec : ∀ (v2244 : BitVec 32), Decidable (k0_chk250 v2244) := fun v2244 => decidable_of_iff' _ (Iff.of_eq (k0_chk250.eq_1 v2244))
theorem k0_off500_inb : ∀ (v2244 : BitVec 32) (k0_hw250 : k0_chk250 v2244), ∀ a, (k0_off500 v2244) a + S1x512.size a ≤ S128000x512.size a := fun v2244 k0_hw250 => k0_hw250

def k0_off501 (i : grid0.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v2251 : BitVec 32 := Scalar.addi v0 c250_i32
  let v2252 : Index := Scalar.indexCast v2251
  ![v2252.toNat]
def k0_off502 (v2253 : BitVec 32) : Fin 2 → Nat :=
  let c0_i32_1003 : BitVec 32 := 0#32
  ![v2253.toNat, 0]

def k0_chk251 (v2253 : BitVec 32) : Prop :=
  (∀ a, (k0_off502 v2253) a + S1x512.size a ≤ S128000x512.size a)
instance k0_chk251.dec : ∀ (v2253 : BitVec 32), Decidable (k0_chk251 v2253) := fun v2253 => decidable_of_iff' _ (Iff.of_eq (k0_chk251.eq_1 v2253))
theorem k0_off502_inb : ∀ (v2253 : BitVec 32) (k0_hw251 : k0_chk251 v2253), ∀ a, (k0_off502 v2253) a + S1x512.size a ≤ S128000x512.size a := fun v2253 k0_hw251 => k0_hw251

def k0_off503 (i : grid0.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v2260 : BitVec 32 := Scalar.addi v0 c251_i32
  let v2261 : Index := Scalar.indexCast v2260
  ![v2261.toNat]
def k0_off504 (v2262 : BitVec 32) : Fin 2 → Nat :=
  let c0_i32_1007 : BitVec 32 := 0#32
  ![v2262.toNat, 0]

def k0_chk252 (v2262 : BitVec 32) : Prop :=
  (∀ a, (k0_off504 v2262) a + S1x512.size a ≤ S128000x512.size a)
instance k0_chk252.dec : ∀ (v2262 : BitVec 32), Decidable (k0_chk252 v2262) := fun v2262 => decidable_of_iff' _ (Iff.of_eq (k0_chk252.eq_1 v2262))
theorem k0_off504_inb : ∀ (v2262 : BitVec 32) (k0_hw252 : k0_chk252 v2262), ∀ a, (k0_off504 v2262) a + S1x512.size a ≤ S128000x512.size a := fun v2262 k0_hw252 => k0_hw252

def k0_off505 (i : grid0.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v2269 : BitVec 32 := Scalar.addi v0 c252_i32
  let v2270 : Index := Scalar.indexCast v2269
  ![v2270.toNat]
def k0_off506 (v2271 : BitVec 32) : Fin 2 → Nat :=
  let c0_i32_1011 : BitVec 32 := 0#32
  ![v2271.toNat, 0]

def k0_chk253 (v2271 : BitVec 32) : Prop :=
  (∀ a, (k0_off506 v2271) a + S1x512.size a ≤ S128000x512.size a)
instance k0_chk253.dec : ∀ (v2271 : BitVec 32), Decidable (k0_chk253 v2271) := fun v2271 => decidable_of_iff' _ (Iff.of_eq (k0_chk253.eq_1 v2271))
theorem k0_off506_inb : ∀ (v2271 : BitVec 32) (k0_hw253 : k0_chk253 v2271), ∀ a, (k0_off506 v2271) a + S1x512.size a ≤ S128000x512.size a := fun v2271 k0_hw253 => k0_hw253

def k0_off507 (i : grid0.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v2278 : BitVec 32 := Scalar.addi v0 c253_i32
  let v2279 : Index := Scalar.indexCast v2278
  ![v2279.toNat]
def k0_off508 (v2280 : BitVec 32) : Fin 2 → Nat :=
  let c0_i32_1015 : BitVec 32 := 0#32
  ![v2280.toNat, 0]

def k0_chk254 (v2280 : BitVec 32) : Prop :=
  (∀ a, (k0_off508 v2280) a + S1x512.size a ≤ S128000x512.size a)
instance k0_chk254.dec : ∀ (v2280 : BitVec 32), Decidable (k0_chk254 v2280) := fun v2280 => decidable_of_iff' _ (Iff.of_eq (k0_chk254.eq_1 v2280))
theorem k0_off508_inb : ∀ (v2280 : BitVec 32) (k0_hw254 : k0_chk254 v2280), ∀ a, (k0_off508 v2280) a + S1x512.size a ≤ S128000x512.size a := fun v2280 k0_hw254 => k0_hw254

def k0_off509 (i : grid0.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v2287 : BitVec 32 := Scalar.addi v0 c254_i32
  let v2288 : Index := Scalar.indexCast v2287
  ![v2288.toNat]
def k0_off510 (v2289 : BitVec 32) : Fin 2 → Nat :=
  let c0_i32_1019 : BitVec 32 := 0#32
  ![v2289.toNat, 0]

def k0_chk255 (v2289 : BitVec 32) : Prop :=
  (∀ a, (k0_off510 v2289) a + S1x512.size a ≤ S128000x512.size a)
instance k0_chk255.dec : ∀ (v2289 : BitVec 32), Decidable (k0_chk255 v2289) := fun v2289 => decidable_of_iff' _ (Iff.of_eq (k0_chk255.eq_1 v2289))
theorem k0_off510_inb : ∀ (v2289 : BitVec 32) (k0_hw255 : k0_chk255 v2289), ∀ a, (k0_off510 v2289) a + S1x512.size a ≤ S128000x512.size a := fun v2289 k0_hw255 => k0_hw255

def k0_off511 (i : grid0.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v2296 : BitVec 32 := Scalar.addi v0 c255_i32
  let v2297 : Index := Scalar.indexCast v2296
  ![v2297.toNat]
def k0_off512 (v2298 : BitVec 32) : Fin 2 → Nat :=
  let c0_i32_1023 : BitVec 32 := 0#32
  ![v2298.toNat, 0]

def k0_chk256 (v2298 : BitVec 32) : Prop :=
  (∀ a, (k0_off512 v2298) a + S1x512.size a ≤ S128000x512.size a)
instance k0_chk256.dec : ∀ (v2298 : BitVec 32), Decidable (k0_chk256 v2298) := fun v2298 => decidable_of_iff' _ (Iff.of_eq (k0_chk256.eq_1 v2298))
theorem k0_off512_inb : ∀ (v2298 : BitVec 32) (k0_hw256 : k0_chk256 v2298), ∀ a, (k0_off512 v2298) a + S1x512.size a ≤ S128000x512.size a := fun v2298 k0_hw256 => k0_hw256

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1024x1024_S1024x512_0_0 : S1024x1024.Slices ![0, 0] S1024x512
  transposes_S1024x512_S512x1024_1_0 : S1024x512.Transposes [1, 0] S512x1024
  bitsLt_bf16_f32 : FTy.bits .bf16 < FTy.bits .f32
  slices_S1024x1024_S1024x512_0_512 : S1024x1024.Slices ![0, 512] S1024x512
  shapeCasts_S1024_S1x1024 : S1024.ShapeCasts S1x1024
  numel1_S1 : S1.numel = 1
  inb_S256_S1_0 : ∀ a, (![0] : Fin 1 → Nat) a + S1.size a ≤ S256.size a
  squeezes_S1_S_ : S1.Squeezes S_
  inb_S256x512_S1x512_0_0 : ∀ a, (![0, 0] : Fin 2 → Nat) a + S1x512.size a ≤ S256x512.size a
  squeezes_S1x512_S512 : S1x512.Squeezes S512
  inb_S256_S1_1 : ∀ a, (![1] : Fin 1 → Nat) a + S1.size a ≤ S256.size a
  inb_S256x512_S1x512_1_0 : ∀ a, (![1, 0] : Fin 2 → Nat) a + S1x512.size a ≤ S256x512.size a
  inb_S256_S1_2 : ∀ a, (![2] : Fin 1 → Nat) a + S1.size a ≤ S256.size a
  inb_S256x512_S1x512_2_0 : ∀ a, (![2, 0] : Fin 2 → Nat) a + S1x512.size a ≤ S256x512.size a
  inb_S256_S1_3 : ∀ a, (![3] : Fin 1 → Nat) a + S1.size a ≤ S256.size a
  inb_S256x512_S1x512_3_0 : ∀ a, (![3, 0] : Fin 2 → Nat) a + S1x512.size a ≤ S256x512.size a
  inb_S256_S1_4 : ∀ a, (![4] : Fin 1 → Nat) a + S1.size a ≤ S256.size a
  inb_S256x512_S1x512_4_0 : ∀ a, (![4, 0] : Fin 2 → Nat) a + S1x512.size a ≤ S256x512.size a
  inb_S256_S1_5 : ∀ a, (![5] : Fin 1 → Nat) a + S1.size a ≤ S256.size a
  inb_S256x512_S1x512_5_0 : ∀ a, (![5, 0] : Fin 2 → Nat) a + S1x512.size a ≤ S256x512.size a
  inb_S256_S1_6 : ∀ a, (![6] : Fin 1 → Nat) a + S1.size a ≤ S256.size a
  inb_S256x512_S1x512_6_0 : ∀ a, (![6, 0] : Fin 2 → Nat) a + S1x512.size a ≤ S256x512.size a
  inb_S256_S1_7 : ∀ a, (![7] : Fin 1 → Nat) a + S1.size a ≤ S256.size a
  inb_S256x512_S1x512_7_0 : ∀ a, (![7, 0] : Fin 2 → Nat) a + S1x512.size a ≤ S256x512.size a
  inb_S256_S1_8 : ∀ a, (![8] : Fin 1 → Nat) a + S1.size a ≤ S256.size a
  inb_S256x512_S1x512_8_0 : ∀ a, (![8, 0] : Fin 2 → Nat) a + S1x512.size a ≤ S256x512.size a
  inb_S256_S1_9 : ∀ a, (![9] : Fin 1 → Nat) a + S1.size a ≤ S256.size a
  inb_S256x512_S1x512_9_0 : ∀ a, (![9, 0] : Fin 2 → Nat) a + S1x512.size a ≤ S256x512.size a
  inb_S256_S1_10 : ∀ a, (![10] : Fin 1 → Nat) a + S1.size a ≤ S256.size a
  inb_S256x512_S1x512_10_0 : ∀ a, (![10, 0] : Fin 2 → Nat) a + S1x512.size a ≤ S256x512.size a
  inb_S256_S1_11 : ∀ a, (![11] : Fin 1 → Nat) a + S1.size a ≤ S256.size a
  inb_S256x512_S1x512_11_0 : ∀ a, (![11, 0] : Fin 2 → Nat) a + S1x512.size a ≤ S256x512.size a
  inb_S256_S1_12 : ∀ a, (![12] : Fin 1 → Nat) a + S1.size a ≤ S256.size a
  inb_S256x512_S1x512_12_0 : ∀ a, (![12, 0] : Fin 2 → Nat) a + S1x512.size a ≤ S256x512.size a
  inb_S256_S1_13 : ∀ a, (![13] : Fin 1 → Nat) a + S1.size a ≤ S256.size a
  inb_S256x512_S1x512_13_0 : ∀ a, (![13, 0] : Fin 2 → Nat) a + S1x512.size a ≤ S256x512.size a
  inb_S256_S1_14 : ∀ a, (![14] : Fin 1 → Nat) a + S1.size a ≤ S256.size a
  inb_S256x512_S1x512_14_0 : ∀ a, (![14, 0] : Fin 2 → Nat) a + S1x512.size a ≤ S256x512.size a
  inb_S256_S1_15 : ∀ a, (![15] : Fin 1 → Nat) a + S1.size a ≤ S256.size a
  inb_S256x512_S1x512_15_0 : ∀ a, (![15, 0] : Fin 2 → Nat) a + S1x512.size a ≤ S256x512.size a
  inb_S256_S1_16 : ∀ a, (![16] : Fin 1 → Nat) a + S1.size a ≤ S256.size a
  inb_S256x512_S1x512_16_0 : ∀ a, (![16, 0] : Fin 2 → Nat) a + S1x512.size a ≤ S256x512.size a
  inb_S256_S1_17 : ∀ a, (![17] : Fin 1 → Nat) a + S1.size a ≤ S256.size a
  inb_S256x512_S1x512_17_0 : ∀ a, (![17, 0] : Fin 2 → Nat) a + S1x512.size a ≤ S256x512.size a
  inb_S256_S1_18 : ∀ a, (![18] : Fin 1 → Nat) a + S1.size a ≤ S256.size a
  inb_S256x512_S1x512_18_0 : ∀ a, (![18, 0] : Fin 2 → Nat) a + S1x512.size a ≤ S256x512.size a
  inb_S256_S1_19 : ∀ a, (![19] : Fin 1 → Nat) a + S1.size a ≤ S256.size a
  inb_S256x512_S1x512_19_0 : ∀ a, (![19, 0] : Fin 2 → Nat) a + S1x512.size a ≤ S256x512.size a
  inb_S256_S1_20 : ∀ a, (![20] : Fin 1 → Nat) a + S1.size a ≤ S256.size a
  inb_S256x512_S1x512_20_0 : ∀ a, (![20, 0] : Fin 2 → Nat) a + S1x512.size a ≤ S256x512.size a
  inb_S256_S1_21 : ∀ a, (![21] : Fin 1 → Nat) a + S1.size a ≤ S256.size a
  inb_S256x512_S1x512_21_0 : ∀ a, (![21, 0] : Fin 2 → Nat) a + S1x512.size a ≤ S256x512.size a
  inb_S256_S1_22 : ∀ a, (![22] : Fin 1 → Nat) a + S1.size a ≤ S256.size a
  inb_S256x512_S1x512_22_0 : ∀ a, (![22, 0] : Fin 2 → Nat) a + S1x512.size a ≤ S256x512.size a
  inb_S256_S1_23 : ∀ a, (![23] : Fin 1 → Nat) a + S1.size a ≤ S256.size a
  inb_S256x512_S1x512_23_0 : ∀ a, (![23, 0] : Fin 2 → Nat) a + S1x512.size a ≤ S256x512.size a
  inb_S256_S1_24 : ∀ a, (![24] : Fin 1 → Nat) a + S1.size a ≤ S256.size a
  inb_S256x512_S1x512_24_0 : ∀ a, (![24, 0] : Fin 2 → Nat) a + S1x512.size a ≤ S256x512.size a
  inb_S256_S1_25 : ∀ a, (![25] : Fin 1 → Nat) a + S1.size a ≤ S256.size a
  inb_S256x512_S1x512_25_0 : ∀ a, (![25, 0] : Fin 2 → Nat) a + S1x512.size a ≤ S256x512.size a
  inb_S256_S1_26 : ∀ a, (![26] : Fin 1 → Nat) a + S1.size a ≤ S256.size a
  inb_S256x512_S1x512_26_0 : ∀ a, (![26, 0] : Fin 2 → Nat) a + S1x512.size a ≤ S256x512.size a
  inb_S256_S1_27 : ∀ a, (![27] : Fin 1 → Nat) a + S1.size a ≤ S256.size a
  inb_S256x512_S1x512_27_0 : ∀ a, (![27, 0] : Fin 2 → Nat) a + S1x512.size a ≤ S256x512.size a
  inb_S256_S1_28 : ∀ a, (![28] : Fin 1 → Nat) a + S1.size a ≤ S256.size a
  inb_S256x512_S1x512_28_0 : ∀ a, (![28, 0] : Fin 2 → Nat) a + S1x512.size a ≤ S256x512.size a
  inb_S256_S1_29 : ∀ a, (![29] : Fin 1 → Nat) a + S1.size a ≤ S256.size a
  inb_S256x512_S1x512_29_0 : ∀ a, (![29, 0] : Fin 2 → Nat) a + S1x512.size a ≤ S256x512.size a
  inb_S256_S1_30 : ∀ a, (![30] : Fin 1 → Nat) a + S1.size a ≤ S256.size a
  inb_S256x512_S1x512_30_0 : ∀ a, (![30, 0] : Fin 2 → Nat) a + S1x512.size a ≤ S256x512.size a
  inb_S256_S1_31 : ∀ a, (![31] : Fin 1 → Nat) a + S1.size a ≤ S256.size a
  inb_S256x512_S1x512_31_0 : ∀ a, (![31, 0] : Fin 2 → Nat) a + S1x512.size a ≤ S256x512.size a
  inb_S256_S1_32 : ∀ a, (![32] : Fin 1 → Nat) a + S1.size a ≤ S256.size a
  inb_S256x512_S1x512_32_0 : ∀ a, (![32, 0] : Fin 2 → Nat) a + S1x512.size a ≤ S256x512.size a
  inb_S256_S1_33 : ∀ a, (![33] : Fin 1 → Nat) a + S1.size a ≤ S256.size a
  inb_S256x512_S1x512_33_0 : ∀ a, (![33, 0] : Fin 2 → Nat) a + S1x512.size a ≤ S256x512.size a
  inb_S256_S1_34 : ∀ a, (![34] : Fin 1 → Nat) a + S1.size a ≤ S256.size a
  inb_S256x512_S1x512_34_0 : ∀ a, (![34, 0] : Fin 2 → Nat) a + S1x512.size a ≤ S256x512.size a
  inb_S256_S1_35 : ∀ a, (![35] : Fin 1 → Nat) a + S1.size a ≤ S256.size a
  inb_S256x512_S1x512_35_0 : ∀ a, (![35, 0] : Fin 2 → Nat) a + S1x512.size a ≤ S256x512.size a
  inb_S256_S1_36 : ∀ a, (![36] : Fin 1 → Nat) a + S1.size a ≤ S256.size a
  inb_S256x512_S1x512_36_0 : ∀ a, (![36, 0] : Fin 2 → Nat) a + S1x512.size a ≤ S256x512.size a
  inb_S256_S1_37 : ∀ a, (![37] : Fin 1 → Nat) a + S1.size a ≤ S256.size a
  inb_S256x512_S1x512_37_0 : ∀ a, (![37, 0] : Fin 2 → Nat) a + S1x512.size a ≤ S256x512.size a
  inb_S256_S1_38 : ∀ a, (![38] : Fin 1 → Nat) a + S1.size a ≤ S256.size a
  inb_S256x512_S1x512_38_0 : ∀ a, (![38, 0] : Fin 2 → Nat) a + S1x512.size a ≤ S256x512.size a
  inb_S256_S1_39 : ∀ a, (![39] : Fin 1 → Nat) a + S1.size a ≤ S256.size a
  inb_S256x512_S1x512_39_0 : ∀ a, (![39, 0] : Fin 2 → Nat) a + S1x512.size a ≤ S256x512.size a
  inb_S256_S1_40 : ∀ a, (![40] : Fin 1 → Nat) a + S1.size a ≤ S256.size a
  inb_S256x512_S1x512_40_0 : ∀ a, (![40, 0] : Fin 2 → Nat) a + S1x512.size a ≤ S256x512.size a
  inb_S256_S1_41 : ∀ a, (![41] : Fin 1 → Nat) a + S1.size a ≤ S256.size a
  inb_S256x512_S1x512_41_0 : ∀ a, (![41, 0] : Fin 2 → Nat) a + S1x512.size a ≤ S256x512.size a
  inb_S256_S1_42 : ∀ a, (![42] : Fin 1 → Nat) a + S1.size a ≤ S256.size a
  inb_S256x512_S1x512_42_0 : ∀ a, (![42, 0] : Fin 2 → Nat) a + S1x512.size a ≤ S256x512.size a
  inb_S256_S1_43 : ∀ a, (![43] : Fin 1 → Nat) a + S1.size a ≤ S256.size a
  inb_S256x512_S1x512_43_0 : ∀ a, (![43, 0] : Fin 2 → Nat) a + S1x512.size a ≤ S256x512.size a
  inb_S256_S1_44 : ∀ a, (![44] : Fin 1 → Nat) a + S1.size a ≤ S256.size a
  inb_S256x512_S1x512_44_0 : ∀ a, (![44, 0] : Fin 2 → Nat) a + S1x512.size a ≤ S256x512.size a
  inb_S256_S1_45 : ∀ a, (![45] : Fin 1 → Nat) a + S1.size a ≤ S256.size a
  inb_S256x512_S1x512_45_0 : ∀ a, (![45, 0] : Fin 2 → Nat) a + S1x512.size a ≤ S256x512.size a
  inb_S256_S1_46 : ∀ a, (![46] : Fin 1 → Nat) a + S1.size a ≤ S256.size a
  inb_S256x512_S1x512_46_0 : ∀ a, (![46, 0] : Fin 2 → Nat) a + S1x512.size a ≤ S256x512.size a
  inb_S256_S1_47 : ∀ a, (![47] : Fin 1 → Nat) a + S1.size a ≤ S256.size a
  inb_S256x512_S1x512_47_0 : ∀ a, (![47, 0] : Fin 2 → Nat) a + S1x512.size a ≤ S256x512.size a
  inb_S256_S1_48 : ∀ a, (![48] : Fin 1 → Nat) a + S1.size a ≤ S256.size a
  inb_S256x512_S1x512_48_0 : ∀ a, (![48, 0] : Fin 2 → Nat) a + S1x512.size a ≤ S256x512.size a
  inb_S256_S1_49 : ∀ a, (![49] : Fin 1 → Nat) a + S1.size a ≤ S256.size a
  inb_S256x512_S1x512_49_0 : ∀ a, (![49, 0] : Fin 2 → Nat) a + S1x512.size a ≤ S256x512.size a
  inb_S256_S1_50 : ∀ a, (![50] : Fin 1 → Nat) a + S1.size a ≤ S256.size a
  inb_S256x512_S1x512_50_0 : ∀ a, (![50, 0] : Fin 2 → Nat) a + S1x512.size a ≤ S256x512.size a
  inb_S256_S1_51 : ∀ a, (![51] : Fin 1 → Nat) a + S1.size a ≤ S256.size a
  inb_S256x512_S1x512_51_0 : ∀ a, (![51, 0] : Fin 2 → Nat) a + S1x512.size a ≤ S256x512.size a
  inb_S256_S1_52 : ∀ a, (![52] : Fin 1 → Nat) a + S1.size a ≤ S256.size a
  inb_S256x512_S1x512_52_0 : ∀ a, (![52, 0] : Fin 2 → Nat) a + S1x512.size a ≤ S256x512.size a
  inb_S256_S1_53 : ∀ a, (![53] : Fin 1 → Nat) a + S1.size a ≤ S256.size a
  inb_S256x512_S1x512_53_0 : ∀ a, (![53, 0] : Fin 2 → Nat) a + S1x512.size a ≤ S256x512.size a
  inb_S256_S1_54 : ∀ a, (![54] : Fin 1 → Nat) a + S1.size a ≤ S256.size a
  inb_S256x512_S1x512_54_0 : ∀ a, (![54, 0] : Fin 2 → Nat) a + S1x512.size a ≤ S256x512.size a
  inb_S256_S1_55 : ∀ a, (![55] : Fin 1 → Nat) a + S1.size a ≤ S256.size a
  inb_S256x512_S1x512_55_0 : ∀ a, (![55, 0] : Fin 2 → Nat) a + S1x512.size a ≤ S256x512.size a
  inb_S256_S1_56 : ∀ a, (![56] : Fin 1 → Nat) a + S1.size a ≤ S256.size a
  inb_S256x512_S1x512_56_0 : ∀ a, (![56, 0] : Fin 2 → Nat) a + S1x512.size a ≤ S256x512.size a
  inb_S256_S1_57 : ∀ a, (![57] : Fin 1 → Nat) a + S1.size a ≤ S256.size a
  inb_S256x512_S1x512_57_0 : ∀ a, (![57, 0] : Fin 2 → Nat) a + S1x512.size a ≤ S256x512.size a
  inb_S256_S1_58 : ∀ a, (![58] : Fin 1 → Nat) a + S1.size a ≤ S256.size a
  inb_S256x512_S1x512_58_0 : ∀ a, (![58, 0] : Fin 2 → Nat) a + S1x512.size a ≤ S256x512.size a
  inb_S256_S1_59 : ∀ a, (![59] : Fin 1 → Nat) a + S1.size a ≤ S256.size a
  inb_S256x512_S1x512_59_0 : ∀ a, (![59, 0] : Fin 2 → Nat) a + S1x512.size a ≤ S256x512.size a
  inb_S256_S1_60 : ∀ a, (![60] : Fin 1 → Nat) a + S1.size a ≤ S256.size a
  inb_S256x512_S1x512_60_0 : ∀ a, (![60, 0] : Fin 2 → Nat) a + S1x512.size a ≤ S256x512.size a
  inb_S256_S1_61 : ∀ a, (![61] : Fin 1 → Nat) a + S1.size a ≤ S256.size a
  inb_S256x512_S1x512_61_0 : ∀ a, (![61, 0] : Fin 2 → Nat) a + S1x512.size a ≤ S256x512.size a
  inb_S256_S1_62 : ∀ a, (![62] : Fin 1 → Nat) a + S1.size a ≤ S256.size a
  inb_S256x512_S1x512_62_0 : ∀ a, (![62, 0] : Fin 2 → Nat) a + S1x512.size a ≤ S256x512.size a
  inb_S256_S1_63 : ∀ a, (![63] : Fin 1 → Nat) a + S1.size a ≤ S256.size a
  inb_S256x512_S1x512_63_0 : ∀ a, (![63, 0] : Fin 2 → Nat) a + S1x512.size a ≤ S256x512.size a
  inb_S256_S1_64 : ∀ a, (![64] : Fin 1 → Nat) a + S1.size a ≤ S256.size a
  inb_S256x512_S1x512_64_0 : ∀ a, (![64, 0] : Fin 2 → Nat) a + S1x512.size a ≤ S256x512.size a
  inb_S256_S1_65 : ∀ a, (![65] : Fin 1 → Nat) a + S1.size a ≤ S256.size a
  inb_S256x512_S1x512_65_0 : ∀ a, (![65, 0] : Fin 2 → Nat) a + S1x512.size a ≤ S256x512.size a
  inb_S256_S1_66 : ∀ a, (![66] : Fin 1 → Nat) a + S1.size a ≤ S256.size a
  inb_S256x512_S1x512_66_0 : ∀ a, (![66, 0] : Fin 2 → Nat) a + S1x512.size a ≤ S256x512.size a
  inb_S256_S1_67 : ∀ a, (![67] : Fin 1 → Nat) a + S1.size a ≤ S256.size a
  inb_S256x512_S1x512_67_0 : ∀ a, (![67, 0] : Fin 2 → Nat) a + S1x512.size a ≤ S256x512.size a
  inb_S256_S1_68 : ∀ a, (![68] : Fin 1 → Nat) a + S1.size a ≤ S256.size a
  inb_S256x512_S1x512_68_0 : ∀ a, (![68, 0] : Fin 2 → Nat) a + S1x512.size a ≤ S256x512.size a
  inb_S256_S1_69 : ∀ a, (![69] : Fin 1 → Nat) a + S1.size a ≤ S256.size a
  inb_S256x512_S1x512_69_0 : ∀ a, (![69, 0] : Fin 2 → Nat) a + S1x512.size a ≤ S256x512.size a
  inb_S256_S1_70 : ∀ a, (![70] : Fin 1 → Nat) a + S1.size a ≤ S256.size a
  inb_S256x512_S1x512_70_0 : ∀ a, (![70, 0] : Fin 2 → Nat) a + S1x512.size a ≤ S256x512.size a
  inb_S256_S1_71 : ∀ a, (![71] : Fin 1 → Nat) a + S1.size a ≤ S256.size a
  inb_S256x512_S1x512_71_0 : ∀ a, (![71, 0] : Fin 2 → Nat) a + S1x512.size a ≤ S256x512.size a
  inb_S256_S1_72 : ∀ a, (![72] : Fin 1 → Nat) a + S1.size a ≤ S256.size a
  inb_S256x512_S1x512_72_0 : ∀ a, (![72, 0] : Fin 2 → Nat) a + S1x512.size a ≤ S256x512.size a
  inb_S256_S1_73 : ∀ a, (![73] : Fin 1 → Nat) a + S1.size a ≤ S256.size a
  inb_S256x512_S1x512_73_0 : ∀ a, (![73, 0] : Fin 2 → Nat) a + S1x512.size a ≤ S256x512.size a
  inb_S256_S1_74 : ∀ a, (![74] : Fin 1 → Nat) a + S1.size a ≤ S256.size a
  inb_S256x512_S1x512_74_0 : ∀ a, (![74, 0] : Fin 2 → Nat) a + S1x512.size a ≤ S256x512.size a
  inb_S256_S1_75 : ∀ a, (![75] : Fin 1 → Nat) a + S1.size a ≤ S256.size a
  inb_S256x512_S1x512_75_0 : ∀ a, (![75, 0] : Fin 2 → Nat) a + S1x512.size a ≤ S256x512.size a
  inb_S256_S1_76 : ∀ a, (![76] : Fin 1 → Nat) a + S1.size a ≤ S256.size a
  inb_S256x512_S1x512_76_0 : ∀ a, (![76, 0] : Fin 2 → Nat) a + S1x512.size a ≤ S256x512.size a
  inb_S256_S1_77 : ∀ a, (![77] : Fin 1 → Nat) a + S1.size a ≤ S256.size a
  inb_S256x512_S1x512_77_0 : ∀ a, (![77, 0] : Fin 2 → Nat) a + S1x512.size a ≤ S256x512.size a
  inb_S256_S1_78 : ∀ a, (![78] : Fin 1 → Nat) a + S1.size a ≤ S256.size a
  inb_S256x512_S1x512_78_0 : ∀ a, (![78, 0] : Fin 2 → Nat) a + S1x512.size a ≤ S256x512.size a
  inb_S256_S1_79 : ∀ a, (![79] : Fin 1 → Nat) a + S1.size a ≤ S256.size a
  inb_S256x512_S1x512_79_0 : ∀ a, (![79, 0] : Fin 2 → Nat) a + S1x512.size a ≤ S256x512.size a
  inb_S256_S1_80 : ∀ a, (![80] : Fin 1 → Nat) a + S1.size a ≤ S256.size a
  inb_S256x512_S1x512_80_0 : ∀ a, (![80, 0] : Fin 2 → Nat) a + S1x512.size a ≤ S256x512.size a
  inb_S256_S1_81 : ∀ a, (![81] : Fin 1 → Nat) a + S1.size a ≤ S256.size a
  inb_S256x512_S1x512_81_0 : ∀ a, (![81, 0] : Fin 2 → Nat) a + S1x512.size a ≤ S256x512.size a
  inb_S256_S1_82 : ∀ a, (![82] : Fin 1 → Nat) a + S1.size a ≤ S256.size a
  inb_S256x512_S1x512_82_0 : ∀ a, (![82, 0] : Fin 2 → Nat) a + S1x512.size a ≤ S256x512.size a
  inb_S256_S1_83 : ∀ a, (![83] : Fin 1 → Nat) a + S1.size a ≤ S256.size a
  inb_S256x512_S1x512_83_0 : ∀ a, (![83, 0] : Fin 2 → Nat) a + S1x512.size a ≤ S256x512.size a
  inb_S256_S1_84 : ∀ a, (![84] : Fin 1 → Nat) a + S1.size a ≤ S256.size a
  inb_S256x512_S1x512_84_0 : ∀ a, (![84, 0] : Fin 2 → Nat) a + S1x512.size a ≤ S256x512.size a
  inb_S256_S1_85 : ∀ a, (![85] : Fin 1 → Nat) a + S1.size a ≤ S256.size a
  inb_S256x512_S1x512_85_0 : ∀ a, (![85, 0] : Fin 2 → Nat) a + S1x512.size a ≤ S256x512.size a
  inb_S256_S1_86 : ∀ a, (![86] : Fin 1 → Nat) a + S1.size a ≤ S256.size a
  inb_S256x512_S1x512_86_0 : ∀ a, (![86, 0] : Fin 2 → Nat) a + S1x512.size a ≤ S256x512.size a
  inb_S256_S1_87 : ∀ a, (![87] : Fin 1 → Nat) a + S1.size a ≤ S256.size a
  inb_S256x512_S1x512_87_0 : ∀ a, (![87, 0] : Fin 2 → Nat) a + S1x512.size a ≤ S256x512.size a
  inb_S256_S1_88 : ∀ a, (![88] : Fin 1 → Nat) a + S1.size a ≤ S256.size a
  inb_S256x512_S1x512_88_0 : ∀ a, (![88, 0] : Fin 2 → Nat) a + S1x512.size a ≤ S256x512.size a
  inb_S256_S1_89 : ∀ a, (![89] : Fin 1 → Nat) a + S1.size a ≤ S256.size a
  inb_S256x512_S1x512_89_0 : ∀ a, (![89, 0] : Fin 2 → Nat) a + S1x512.size a ≤ S256x512.size a
  inb_S256_S1_90 : ∀ a, (![90] : Fin 1 → Nat) a + S1.size a ≤ S256.size a
  inb_S256x512_S1x512_90_0 : ∀ a, (![90, 0] : Fin 2 → Nat) a + S1x512.size a ≤ S256x512.size a
  inb_S256_S1_91 : ∀ a, (![91] : Fin 1 → Nat) a + S1.size a ≤ S256.size a
  inb_S256x512_S1x512_91_0 : ∀ a, (![91, 0] : Fin 2 → Nat) a + S1x512.size a ≤ S256x512.size a
  inb_S256_S1_92 : ∀ a, (![92] : Fin 1 → Nat) a + S1.size a ≤ S256.size a
  inb_S256x512_S1x512_92_0 : ∀ a, (![92, 0] : Fin 2 → Nat) a + S1x512.size a ≤ S256x512.size a
  inb_S256_S1_93 : ∀ a, (![93] : Fin 1 → Nat) a + S1.size a ≤ S256.size a
  inb_S256x512_S1x512_93_0 : ∀ a, (![93, 0] : Fin 2 → Nat) a + S1x512.size a ≤ S256x512.size a
  inb_S256_S1_94 : ∀ a, (![94] : Fin 1 → Nat) a + S1.size a ≤ S256.size a
  inb_S256x512_S1x512_94_0 : ∀ a, (![94, 0] : Fin 2 → Nat) a + S1x512.size a ≤ S256x512.size a
  inb_S256_S1_95 : ∀ a, (![95] : Fin 1 → Nat) a + S1.size a ≤ S256.size a
  inb_S256x512_S1x512_95_0 : ∀ a, (![95, 0] : Fin 2 → Nat) a + S1x512.size a ≤ S256x512.size a
  inb_S256_S1_96 : ∀ a, (![96] : Fin 1 → Nat) a + S1.size a ≤ S256.size a
  inb_S256x512_S1x512_96_0 : ∀ a, (![96, 0] : Fin 2 → Nat) a + S1x512.size a ≤ S256x512.size a
  inb_S256_S1_97 : ∀ a, (![97] : Fin 1 → Nat) a + S1.size a ≤ S256.size a
  inb_S256x512_S1x512_97_0 : ∀ a, (![97, 0] : Fin 2 → Nat) a + S1x512.size a ≤ S256x512.size a
  inb_S256_S1_98 : ∀ a, (![98] : Fin 1 → Nat) a + S1.size a ≤ S256.size a
  inb_S256x512_S1x512_98_0 : ∀ a, (![98, 0] : Fin 2 → Nat) a + S1x512.size a ≤ S256x512.size a
  inb_S256_S1_99 : ∀ a, (![99] : Fin 1 → Nat) a + S1.size a ≤ S256.size a
  inb_S256x512_S1x512_99_0 : ∀ a, (![99, 0] : Fin 2 → Nat) a + S1x512.size a ≤ S256x512.size a
  inb_S256_S1_100 : ∀ a, (![100] : Fin 1 → Nat) a + S1.size a ≤ S256.size a
  inb_S256x512_S1x512_100_0 : ∀ a, (![100, 0] : Fin 2 → Nat) a + S1x512.size a ≤ S256x512.size a
  inb_S256_S1_101 : ∀ a, (![101] : Fin 1 → Nat) a + S1.size a ≤ S256.size a
  inb_S256x512_S1x512_101_0 : ∀ a, (![101, 0] : Fin 2 → Nat) a + S1x512.size a ≤ S256x512.size a
  inb_S256_S1_102 : ∀ a, (![102] : Fin 1 → Nat) a + S1.size a ≤ S256.size a
  inb_S256x512_S1x512_102_0 : ∀ a, (![102, 0] : Fin 2 → Nat) a + S1x512.size a ≤ S256x512.size a
  inb_S256_S1_103 : ∀ a, (![103] : Fin 1 → Nat) a + S1.size a ≤ S256.size a
  inb_S256x512_S1x512_103_0 : ∀ a, (![103, 0] : Fin 2 → Nat) a + S1x512.size a ≤ S256x512.size a
  inb_S256_S1_104 : ∀ a, (![104] : Fin 1 → Nat) a + S1.size a ≤ S256.size a
  inb_S256x512_S1x512_104_0 : ∀ a, (![104, 0] : Fin 2 → Nat) a + S1x512.size a ≤ S256x512.size a
  inb_S256_S1_105 : ∀ a, (![105] : Fin 1 → Nat) a + S1.size a ≤ S256.size a
  inb_S256x512_S1x512_105_0 : ∀ a, (![105, 0] : Fin 2 → Nat) a + S1x512.size a ≤ S256x512.size a
  inb_S256_S1_106 : ∀ a, (![106] : Fin 1 → Nat) a + S1.size a ≤ S256.size a
  inb_S256x512_S1x512_106_0 : ∀ a, (![106, 0] : Fin 2 → Nat) a + S1x512.size a ≤ S256x512.size a
  inb_S256_S1_107 : ∀ a, (![107] : Fin 1 → Nat) a + S1.size a ≤ S256.size a
  inb_S256x512_S1x512_107_0 : ∀ a, (![107, 0] : Fin 2 → Nat) a + S1x512.size a ≤ S256x512.size a
  inb_S256_S1_108 : ∀ a, (![108] : Fin 1 → Nat) a + S1.size a ≤ S256.size a
  inb_S256x512_S1x512_108_0 : ∀ a, (![108, 0] : Fin 2 → Nat) a + S1x512.size a ≤ S256x512.size a
  inb_S256_S1_109 : ∀ a, (![109] : Fin 1 → Nat) a + S1.size a ≤ S256.size a
  inb_S256x512_S1x512_109_0 : ∀ a, (![109, 0] : Fin 2 → Nat) a + S1x512.size a ≤ S256x512.size a
  inb_S256_S1_110 : ∀ a, (![110] : Fin 1 → Nat) a + S1.size a ≤ S256.size a
  inb_S256x512_S1x512_110_0 : ∀ a, (![110, 0] : Fin 2 → Nat) a + S1x512.size a ≤ S256x512.size a
  inb_S256_S1_111 : ∀ a, (![111] : Fin 1 → Nat) a + S1.size a ≤ S256.size a
  inb_S256x512_S1x512_111_0 : ∀ a, (![111, 0] : Fin 2 → Nat) a + S1x512.size a ≤ S256x512.size a
  inb_S256_S1_112 : ∀ a, (![112] : Fin 1 → Nat) a + S1.size a ≤ S256.size a
  inb_S256x512_S1x512_112_0 : ∀ a, (![112, 0] : Fin 2 → Nat) a + S1x512.size a ≤ S256x512.size a
  inb_S256_S1_113 : ∀ a, (![113] : Fin 1 → Nat) a + S1.size a ≤ S256.size a
  inb_S256x512_S1x512_113_0 : ∀ a, (![113, 0] : Fin 2 → Nat) a + S1x512.size a ≤ S256x512.size a
  inb_S256_S1_114 : ∀ a, (![114] : Fin 1 → Nat) a + S1.size a ≤ S256.size a
  inb_S256x512_S1x512_114_0 : ∀ a, (![114, 0] : Fin 2 → Nat) a + S1x512.size a ≤ S256x512.size a
  inb_S256_S1_115 : ∀ a, (![115] : Fin 1 → Nat) a + S1.size a ≤ S256.size a
  inb_S256x512_S1x512_115_0 : ∀ a, (![115, 0] : Fin 2 → Nat) a + S1x512.size a ≤ S256x512.size a
  inb_S256_S1_116 : ∀ a, (![116] : Fin 1 → Nat) a + S1.size a ≤ S256.size a
  inb_S256x512_S1x512_116_0 : ∀ a, (![116, 0] : Fin 2 → Nat) a + S1x512.size a ≤ S256x512.size a
  inb_S256_S1_117 : ∀ a, (![117] : Fin 1 → Nat) a + S1.size a ≤ S256.size a
  inb_S256x512_S1x512_117_0 : ∀ a, (![117, 0] : Fin 2 → Nat) a + S1x512.size a ≤ S256x512.size a
  inb_S256_S1_118 : ∀ a, (![118] : Fin 1 → Nat) a + S1.size a ≤ S256.size a
  inb_S256x512_S1x512_118_0 : ∀ a, (![118, 0] : Fin 2 → Nat) a + S1x512.size a ≤ S256x512.size a
  inb_S256_S1_119 : ∀ a, (![119] : Fin 1 → Nat) a + S1.size a ≤ S256.size a
  inb_S256x512_S1x512_119_0 : ∀ a, (![119, 0] : Fin 2 → Nat) a + S1x512.size a ≤ S256x512.size a
  inb_S256_S1_120 : ∀ a, (![120] : Fin 1 → Nat) a + S1.size a ≤ S256.size a
  inb_S256x512_S1x512_120_0 : ∀ a, (![120, 0] : Fin 2 → Nat) a + S1x512.size a ≤ S256x512.size a
  inb_S256_S1_121 : ∀ a, (![121] : Fin 1 → Nat) a + S1.size a ≤ S256.size a
  inb_S256x512_S1x512_121_0 : ∀ a, (![121, 0] : Fin 2 → Nat) a + S1x512.size a ≤ S256x512.size a
  inb_S256_S1_122 : ∀ a, (![122] : Fin 1 → Nat) a + S1.size a ≤ S256.size a
  inb_S256x512_S1x512_122_0 : ∀ a, (![122, 0] : Fin 2 → Nat) a + S1x512.size a ≤ S256x512.size a
  inb_S256_S1_123 : ∀ a, (![123] : Fin 1 → Nat) a + S1.size a ≤ S256.size a
  inb_S256x512_S1x512_123_0 : ∀ a, (![123, 0] : Fin 2 → Nat) a + S1x512.size a ≤ S256x512.size a
  inb_S256_S1_124 : ∀ a, (![124] : Fin 1 → Nat) a + S1.size a ≤ S256.size a
  inb_S256x512_S1x512_124_0 : ∀ a, (![124, 0] : Fin 2 → Nat) a + S1x512.size a ≤ S256x512.size a
  inb_S256_S1_125 : ∀ a, (![125] : Fin 1 → Nat) a + S1.size a ≤ S256.size a
  inb_S256x512_S1x512_125_0 : ∀ a, (![125, 0] : Fin 2 → Nat) a + S1x512.size a ≤ S256x512.size a
  inb_S256_S1_126 : ∀ a, (![126] : Fin 1 → Nat) a + S1.size a ≤ S256.size a
  inb_S256x512_S1x512_126_0 : ∀ a, (![126, 0] : Fin 2 → Nat) a + S1x512.size a ≤ S256x512.size a
  inb_S256_S1_127 : ∀ a, (![127] : Fin 1 → Nat) a + S1.size a ≤ S256.size a
  inb_S256x512_S1x512_127_0 : ∀ a, (![127, 0] : Fin 2 → Nat) a + S1x512.size a ≤ S256x512.size a
  inb_S256_S1_128 : ∀ a, (![128] : Fin 1 → Nat) a + S1.size a ≤ S256.size a
  inb_S256x512_S1x512_128_0 : ∀ a, (![128, 0] : Fin 2 → Nat) a + S1x512.size a ≤ S256x512.size a
  inb_S256_S1_129 : ∀ a, (![129] : Fin 1 → Nat) a + S1.size a ≤ S256.size a
  inb_S256x512_S1x512_129_0 : ∀ a, (![129, 0] : Fin 2 → Nat) a + S1x512.size a ≤ S256x512.size a
  inb_S256_S1_130 : ∀ a, (![130] : Fin 1 → Nat) a + S1.size a ≤ S256.size a
  inb_S256x512_S1x512_130_0 : ∀ a, (![130, 0] : Fin 2 → Nat) a + S1x512.size a ≤ S256x512.size a
  inb_S256_S1_131 : ∀ a, (![131] : Fin 1 → Nat) a + S1.size a ≤ S256.size a
  inb_S256x512_S1x512_131_0 : ∀ a, (![131, 0] : Fin 2 → Nat) a + S1x512.size a ≤ S256x512.size a
  inb_S256_S1_132 : ∀ a, (![132] : Fin 1 → Nat) a + S1.size a ≤ S256.size a
  inb_S256x512_S1x512_132_0 : ∀ a, (![132, 0] : Fin 2 → Nat) a + S1x512.size a ≤ S256x512.size a
  inb_S256_S1_133 : ∀ a, (![133] : Fin 1 → Nat) a + S1.size a ≤ S256.size a
  inb_S256x512_S1x512_133_0 : ∀ a, (![133, 0] : Fin 2 → Nat) a + S1x512.size a ≤ S256x512.size a
  inb_S256_S1_134 : ∀ a, (![134] : Fin 1 → Nat) a + S1.size a ≤ S256.size a
  inb_S256x512_S1x512_134_0 : ∀ a, (![134, 0] : Fin 2 → Nat) a + S1x512.size a ≤ S256x512.size a
  inb_S256_S1_135 : ∀ a, (![135] : Fin 1 → Nat) a + S1.size a ≤ S256.size a
  inb_S256x512_S1x512_135_0 : ∀ a, (![135, 0] : Fin 2 → Nat) a + S1x512.size a ≤ S256x512.size a
  inb_S256_S1_136 : ∀ a, (![136] : Fin 1 → Nat) a + S1.size a ≤ S256.size a
  inb_S256x512_S1x512_136_0 : ∀ a, (![136, 0] : Fin 2 → Nat) a + S1x512.size a ≤ S256x512.size a
  inb_S256_S1_137 : ∀ a, (![137] : Fin 1 → Nat) a + S1.size a ≤ S256.size a
  inb_S256x512_S1x512_137_0 : ∀ a, (![137, 0] : Fin 2 → Nat) a + S1x512.size a ≤ S256x512.size a
  inb_S256_S1_138 : ∀ a, (![138] : Fin 1 → Nat) a + S1.size a ≤ S256.size a
  inb_S256x512_S1x512_138_0 : ∀ a, (![138, 0] : Fin 2 → Nat) a + S1x512.size a ≤ S256x512.size a
  inb_S256_S1_139 : ∀ a, (![139] : Fin 1 → Nat) a + S1.size a ≤ S256.size a
  inb_S256x512_S1x512_139_0 : ∀ a, (![139, 0] : Fin 2 → Nat) a + S1x512.size a ≤ S256x512.size a
  inb_S256_S1_140 : ∀ a, (![140] : Fin 1 → Nat) a + S1.size a ≤ S256.size a
  inb_S256x512_S1x512_140_0 : ∀ a, (![140, 0] : Fin 2 → Nat) a + S1x512.size a ≤ S256x512.size a
  inb_S256_S1_141 : ∀ a, (![141] : Fin 1 → Nat) a + S1.size a ≤ S256.size a
  inb_S256x512_S1x512_141_0 : ∀ a, (![141, 0] : Fin 2 → Nat) a + S1x512.size a ≤ S256x512.size a
  inb_S256_S1_142 : ∀ a, (![142] : Fin 1 → Nat) a + S1.size a ≤ S256.size a
  inb_S256x512_S1x512_142_0 : ∀ a, (![142, 0] : Fin 2 → Nat) a + S1x512.size a ≤ S256x512.size a
  inb_S256_S1_143 : ∀ a, (![143] : Fin 1 → Nat) a + S1.size a ≤ S256.size a
  inb_S256x512_S1x512_143_0 : ∀ a, (![143, 0] : Fin 2 → Nat) a + S1x512.size a ≤ S256x512.size a
  inb_S256_S1_144 : ∀ a, (![144] : Fin 1 → Nat) a + S1.size a ≤ S256.size a
  inb_S256x512_S1x512_144_0 : ∀ a, (![144, 0] : Fin 2 → Nat) a + S1x512.size a ≤ S256x512.size a
  inb_S256_S1_145 : ∀ a, (![145] : Fin 1 → Nat) a + S1.size a ≤ S256.size a
  inb_S256x512_S1x512_145_0 : ∀ a, (![145, 0] : Fin 2 → Nat) a + S1x512.size a ≤ S256x512.size a
  inb_S256_S1_146 : ∀ a, (![146] : Fin 1 → Nat) a + S1.size a ≤ S256.size a
  inb_S256x512_S1x512_146_0 : ∀ a, (![146, 0] : Fin 2 → Nat) a + S1x512.size a ≤ S256x512.size a
  inb_S256_S1_147 : ∀ a, (![147] : Fin 1 → Nat) a + S1.size a ≤ S256.size a
  inb_S256x512_S1x512_147_0 : ∀ a, (![147, 0] : Fin 2 → Nat) a + S1x512.size a ≤ S256x512.size a
  inb_S256_S1_148 : ∀ a, (![148] : Fin 1 → Nat) a + S1.size a ≤ S256.size a
  inb_S256x512_S1x512_148_0 : ∀ a, (![148, 0] : Fin 2 → Nat) a + S1x512.size a ≤ S256x512.size a
  inb_S256_S1_149 : ∀ a, (![149] : Fin 1 → Nat) a + S1.size a ≤ S256.size a
  inb_S256x512_S1x512_149_0 : ∀ a, (![149, 0] : Fin 2 → Nat) a + S1x512.size a ≤ S256x512.size a
  inb_S256_S1_150 : ∀ a, (![150] : Fin 1 → Nat) a + S1.size a ≤ S256.size a
  inb_S256x512_S1x512_150_0 : ∀ a, (![150, 0] : Fin 2 → Nat) a + S1x512.size a ≤ S256x512.size a
  inb_S256_S1_151 : ∀ a, (![151] : Fin 1 → Nat) a + S1.size a ≤ S256.size a
  inb_S256x512_S1x512_151_0 : ∀ a, (![151, 0] : Fin 2 → Nat) a + S1x512.size a ≤ S256x512.size a
  inb_S256_S1_152 : ∀ a, (![152] : Fin 1 → Nat) a + S1.size a ≤ S256.size a
  inb_S256x512_S1x512_152_0 : ∀ a, (![152, 0] : Fin 2 → Nat) a + S1x512.size a ≤ S256x512.size a
  inb_S256_S1_153 : ∀ a, (![153] : Fin 1 → Nat) a + S1.size a ≤ S256.size a
  inb_S256x512_S1x512_153_0 : ∀ a, (![153, 0] : Fin 2 → Nat) a + S1x512.size a ≤ S256x512.size a
  inb_S256_S1_154 : ∀ a, (![154] : Fin 1 → Nat) a + S1.size a ≤ S256.size a
  inb_S256x512_S1x512_154_0 : ∀ a, (![154, 0] : Fin 2 → Nat) a + S1x512.size a ≤ S256x512.size a
  inb_S256_S1_155 : ∀ a, (![155] : Fin 1 → Nat) a + S1.size a ≤ S256.size a
  inb_S256x512_S1x512_155_0 : ∀ a, (![155, 0] : Fin 2 → Nat) a + S1x512.size a ≤ S256x512.size a
  inb_S256_S1_156 : ∀ a, (![156] : Fin 1 → Nat) a + S1.size a ≤ S256.size a
  inb_S256x512_S1x512_156_0 : ∀ a, (![156, 0] : Fin 2 → Nat) a + S1x512.size a ≤ S256x512.size a
  inb_S256_S1_157 : ∀ a, (![157] : Fin 1 → Nat) a + S1.size a ≤ S256.size a
  inb_S256x512_S1x512_157_0 : ∀ a, (![157, 0] : Fin 2 → Nat) a + S1x512.size a ≤ S256x512.size a
  inb_S256_S1_158 : ∀ a, (![158] : Fin 1 → Nat) a + S1.size a ≤ S256.size a
  inb_S256x512_S1x512_158_0 : ∀ a, (![158, 0] : Fin 2 → Nat) a + S1x512.size a ≤ S256x512.size a
  inb_S256_S1_159 : ∀ a, (![159] : Fin 1 → Nat) a + S1.size a ≤ S256.size a
  inb_S256x512_S1x512_159_0 : ∀ a, (![159, 0] : Fin 2 → Nat) a + S1x512.size a ≤ S256x512.size a
  inb_S256_S1_160 : ∀ a, (![160] : Fin 1 → Nat) a + S1.size a ≤ S256.size a
  inb_S256x512_S1x512_160_0 : ∀ a, (![160, 0] : Fin 2 → Nat) a + S1x512.size a ≤ S256x512.size a
  inb_S256_S1_161 : ∀ a, (![161] : Fin 1 → Nat) a + S1.size a ≤ S256.size a
  inb_S256x512_S1x512_161_0 : ∀ a, (![161, 0] : Fin 2 → Nat) a + S1x512.size a ≤ S256x512.size a
  inb_S256_S1_162 : ∀ a, (![162] : Fin 1 → Nat) a + S1.size a ≤ S256.size a
  inb_S256x512_S1x512_162_0 : ∀ a, (![162, 0] : Fin 2 → Nat) a + S1x512.size a ≤ S256x512.size a
  inb_S256_S1_163 : ∀ a, (![163] : Fin 1 → Nat) a + S1.size a ≤ S256.size a
  inb_S256x512_S1x512_163_0 : ∀ a, (![163, 0] : Fin 2 → Nat) a + S1x512.size a ≤ S256x512.size a
  inb_S256_S1_164 : ∀ a, (![164] : Fin 1 → Nat) a + S1.size a ≤ S256.size a
  inb_S256x512_S1x512_164_0 : ∀ a, (![164, 0] : Fin 2 → Nat) a + S1x512.size a ≤ S256x512.size a
  inb_S256_S1_165 : ∀ a, (![165] : Fin 1 → Nat) a + S1.size a ≤ S256.size a
  inb_S256x512_S1x512_165_0 : ∀ a, (![165, 0] : Fin 2 → Nat) a + S1x512.size a ≤ S256x512.size a
  inb_S256_S1_166 : ∀ a, (![166] : Fin 1 → Nat) a + S1.size a ≤ S256.size a
  inb_S256x512_S1x512_166_0 : ∀ a, (![166, 0] : Fin 2 → Nat) a + S1x512.size a ≤ S256x512.size a
  inb_S256_S1_167 : ∀ a, (![167] : Fin 1 → Nat) a + S1.size a ≤ S256.size a
  inb_S256x512_S1x512_167_0 : ∀ a, (![167, 0] : Fin 2 → Nat) a + S1x512.size a ≤ S256x512.size a
  inb_S256_S1_168 : ∀ a, (![168] : Fin 1 → Nat) a + S1.size a ≤ S256.size a
  inb_S256x512_S1x512_168_0 : ∀ a, (![168, 0] : Fin 2 → Nat) a + S1x512.size a ≤ S256x512.size a
  inb_S256_S1_169 : ∀ a, (![169] : Fin 1 → Nat) a + S1.size a ≤ S256.size a
  inb_S256x512_S1x512_169_0 : ∀ a, (![169, 0] : Fin 2 → Nat) a + S1x512.size a ≤ S256x512.size a
  inb_S256_S1_170 : ∀ a, (![170] : Fin 1 → Nat) a + S1.size a ≤ S256.size a
  inb_S256x512_S1x512_170_0 : ∀ a, (![170, 0] : Fin 2 → Nat) a + S1x512.size a ≤ S256x512.size a
  inb_S256_S1_171 : ∀ a, (![171] : Fin 1 → Nat) a + S1.size a ≤ S256.size a
  inb_S256x512_S1x512_171_0 : ∀ a, (![171, 0] : Fin 2 → Nat) a + S1x512.size a ≤ S256x512.size a
  inb_S256_S1_172 : ∀ a, (![172] : Fin 1 → Nat) a + S1.size a ≤ S256.size a
  inb_S256x512_S1x512_172_0 : ∀ a, (![172, 0] : Fin 2 → Nat) a + S1x512.size a ≤ S256x512.size a
  inb_S256_S1_173 : ∀ a, (![173] : Fin 1 → Nat) a + S1.size a ≤ S256.size a
  inb_S256x512_S1x512_173_0 : ∀ a, (![173, 0] : Fin 2 → Nat) a + S1x512.size a ≤ S256x512.size a
  inb_S256_S1_174 : ∀ a, (![174] : Fin 1 → Nat) a + S1.size a ≤ S256.size a
  inb_S256x512_S1x512_174_0 : ∀ a, (![174, 0] : Fin 2 → Nat) a + S1x512.size a ≤ S256x512.size a
  inb_S256_S1_175 : ∀ a, (![175] : Fin 1 → Nat) a + S1.size a ≤ S256.size a
  inb_S256x512_S1x512_175_0 : ∀ a, (![175, 0] : Fin 2 → Nat) a + S1x512.size a ≤ S256x512.size a
  inb_S256_S1_176 : ∀ a, (![176] : Fin 1 → Nat) a + S1.size a ≤ S256.size a
  inb_S256x512_S1x512_176_0 : ∀ a, (![176, 0] : Fin 2 → Nat) a + S1x512.size a ≤ S256x512.size a
  inb_S256_S1_177 : ∀ a, (![177] : Fin 1 → Nat) a + S1.size a ≤ S256.size a
  inb_S256x512_S1x512_177_0 : ∀ a, (![177, 0] : Fin 2 → Nat) a + S1x512.size a ≤ S256x512.size a
  inb_S256_S1_178 : ∀ a, (![178] : Fin 1 → Nat) a + S1.size a ≤ S256.size a
  inb_S256x512_S1x512_178_0 : ∀ a, (![178, 0] : Fin 2 → Nat) a + S1x512.size a ≤ S256x512.size a
  inb_S256_S1_179 : ∀ a, (![179] : Fin 1 → Nat) a + S1.size a ≤ S256.size a
  inb_S256x512_S1x512_179_0 : ∀ a, (![179, 0] : Fin 2 → Nat) a + S1x512.size a ≤ S256x512.size a
  inb_S256_S1_180 : ∀ a, (![180] : Fin 1 → Nat) a + S1.size a ≤ S256.size a
  inb_S256x512_S1x512_180_0 : ∀ a, (![180, 0] : Fin 2 → Nat) a + S1x512.size a ≤ S256x512.size a
  inb_S256_S1_181 : ∀ a, (![181] : Fin 1 → Nat) a + S1.size a ≤ S256.size a
  inb_S256x512_S1x512_181_0 : ∀ a, (![181, 0] : Fin 2 → Nat) a + S1x512.size a ≤ S256x512.size a
  inb_S256_S1_182 : ∀ a, (![182] : Fin 1 → Nat) a + S1.size a ≤ S256.size a
  inb_S256x512_S1x512_182_0 : ∀ a, (![182, 0] : Fin 2 → Nat) a + S1x512.size a ≤ S256x512.size a
  inb_S256_S1_183 : ∀ a, (![183] : Fin 1 → Nat) a + S1.size a ≤ S256.size a
  inb_S256x512_S1x512_183_0 : ∀ a, (![183, 0] : Fin 2 → Nat) a + S1x512.size a ≤ S256x512.size a
  inb_S256_S1_184 : ∀ a, (![184] : Fin 1 → Nat) a + S1.size a ≤ S256.size a
  inb_S256x512_S1x512_184_0 : ∀ a, (![184, 0] : Fin 2 → Nat) a + S1x512.size a ≤ S256x512.size a
  inb_S256_S1_185 : ∀ a, (![185] : Fin 1 → Nat) a + S1.size a ≤ S256.size a
  inb_S256x512_S1x512_185_0 : ∀ a, (![185, 0] : Fin 2 → Nat) a + S1x512.size a ≤ S256x512.size a
  inb_S256_S1_186 : ∀ a, (![186] : Fin 1 → Nat) a + S1.size a ≤ S256.size a
  inb_S256x512_S1x512_186_0 : ∀ a, (![186, 0] : Fin 2 → Nat) a + S1x512.size a ≤ S256x512.size a
  inb_S256_S1_187 : ∀ a, (![187] : Fin 1 → Nat) a + S1.size a ≤ S256.size a
  inb_S256x512_S1x512_187_0 : ∀ a, (![187, 0] : Fin 2 → Nat) a + S1x512.size a ≤ S256x512.size a
  inb_S256_S1_188 : ∀ a, (![188] : Fin 1 → Nat) a + S1.size a ≤ S256.size a
  inb_S256x512_S1x512_188_0 : ∀ a, (![188, 0] : Fin 2 → Nat) a + S1x512.size a ≤ S256x512.size a
  inb_S256_S1_189 : ∀ a, (![189] : Fin 1 → Nat) a + S1.size a ≤ S256.size a
  inb_S256x512_S1x512_189_0 : ∀ a, (![189, 0] : Fin 2 → Nat) a + S1x512.size a ≤ S256x512.size a
  inb_S256_S1_190 : ∀ a, (![190] : Fin 1 → Nat) a + S1.size a ≤ S256.size a
  inb_S256x512_S1x512_190_0 : ∀ a, (![190, 0] : Fin 2 → Nat) a + S1x512.size a ≤ S256x512.size a
  inb_S256_S1_191 : ∀ a, (![191] : Fin 1 → Nat) a + S1.size a ≤ S256.size a
  inb_S256x512_S1x512_191_0 : ∀ a, (![191, 0] : Fin 2 → Nat) a + S1x512.size a ≤ S256x512.size a
  inb_S256_S1_192 : ∀ a, (![192] : Fin 1 → Nat) a + S1.size a ≤ S256.size a
  inb_S256x512_S1x512_192_0 : ∀ a, (![192, 0] : Fin 2 → Nat) a + S1x512.size a ≤ S256x512.size a
  inb_S256_S1_193 : ∀ a, (![193] : Fin 1 → Nat) a + S1.size a ≤ S256.size a
  inb_S256x512_S1x512_193_0 : ∀ a, (![193, 0] : Fin 2 → Nat) a + S1x512.size a ≤ S256x512.size a
  inb_S256_S1_194 : ∀ a, (![194] : Fin 1 → Nat) a + S1.size a ≤ S256.size a
  inb_S256x512_S1x512_194_0 : ∀ a, (![194, 0] : Fin 2 → Nat) a + S1x512.size a ≤ S256x512.size a
  inb_S256_S1_195 : ∀ a, (![195] : Fin 1 → Nat) a + S1.size a ≤ S256.size a
  inb_S256x512_S1x512_195_0 : ∀ a, (![195, 0] : Fin 2 → Nat) a + S1x512.size a ≤ S256x512.size a
  inb_S256_S1_196 : ∀ a, (![196] : Fin 1 → Nat) a + S1.size a ≤ S256.size a
  inb_S256x512_S1x512_196_0 : ∀ a, (![196, 0] : Fin 2 → Nat) a + S1x512.size a ≤ S256x512.size a
  inb_S256_S1_197 : ∀ a, (![197] : Fin 1 → Nat) a + S1.size a ≤ S256.size a
  inb_S256x512_S1x512_197_0 : ∀ a, (![197, 0] : Fin 2 → Nat) a + S1x512.size a ≤ S256x512.size a
  inb_S256_S1_198 : ∀ a, (![198] : Fin 1 → Nat) a + S1.size a ≤ S256.size a
  inb_S256x512_S1x512_198_0 : ∀ a, (![198, 0] : Fin 2 → Nat) a + S1x512.size a ≤ S256x512.size a
  inb_S256_S1_199 : ∀ a, (![199] : Fin 1 → Nat) a + S1.size a ≤ S256.size a
  inb_S256x512_S1x512_199_0 : ∀ a, (![199, 0] : Fin 2 → Nat) a + S1x512.size a ≤ S256x512.size a
  inb_S256_S1_200 : ∀ a, (![200] : Fin 1 → Nat) a + S1.size a ≤ S256.size a
  inb_S256x512_S1x512_200_0 : ∀ a, (![200, 0] : Fin 2 → Nat) a + S1x512.size a ≤ S256x512.size a
  inb_S256_S1_201 : ∀ a, (![201] : Fin 1 → Nat) a + S1.size a ≤ S256.size a
  inb_S256x512_S1x512_201_0 : ∀ a, (![201, 0] : Fin 2 → Nat) a + S1x512.size a ≤ S256x512.size a
  inb_S256_S1_202 : ∀ a, (![202] : Fin 1 → Nat) a + S1.size a ≤ S256.size a
  inb_S256x512_S1x512_202_0 : ∀ a, (![202, 0] : Fin 2 → Nat) a + S1x512.size a ≤ S256x512.size a
  inb_S256_S1_203 : ∀ a, (![203] : Fin 1 → Nat) a + S1.size a ≤ S256.size a
  inb_S256x512_S1x512_203_0 : ∀ a, (![203, 0] : Fin 2 → Nat) a + S1x512.size a ≤ S256x512.size a
  inb_S256_S1_204 : ∀ a, (![204] : Fin 1 → Nat) a + S1.size a ≤ S256.size a
  inb_S256x512_S1x512_204_0 : ∀ a, (![204, 0] : Fin 2 → Nat) a + S1x512.size a ≤ S256x512.size a
  inb_S256_S1_205 : ∀ a, (![205] : Fin 1 → Nat) a + S1.size a ≤ S256.size a
  inb_S256x512_S1x512_205_0 : ∀ a, (![205, 0] : Fin 2 → Nat) a + S1x512.size a ≤ S256x512.size a
  inb_S256_S1_206 : ∀ a, (![206] : Fin 1 → Nat) a + S1.size a ≤ S256.size a
  inb_S256x512_S1x512_206_0 : ∀ a, (![206, 0] : Fin 2 → Nat) a + S1x512.size a ≤ S256x512.size a
  inb_S256_S1_207 : ∀ a, (![207] : Fin 1 → Nat) a + S1.size a ≤ S256.size a
  inb_S256x512_S1x512_207_0 : ∀ a, (![207, 0] : Fin 2 → Nat) a + S1x512.size a ≤ S256x512.size a
  inb_S256_S1_208 : ∀ a, (![208] : Fin 1 → Nat) a + S1.size a ≤ S256.size a
  inb_S256x512_S1x512_208_0 : ∀ a, (![208, 0] : Fin 2 → Nat) a + S1x512.size a ≤ S256x512.size a
  inb_S256_S1_209 : ∀ a, (![209] : Fin 1 → Nat) a + S1.size a ≤ S256.size a
  inb_S256x512_S1x512_209_0 : ∀ a, (![209, 0] : Fin 2 → Nat) a + S1x512.size a ≤ S256x512.size a
  inb_S256_S1_210 : ∀ a, (![210] : Fin 1 → Nat) a + S1.size a ≤ S256.size a
  inb_S256x512_S1x512_210_0 : ∀ a, (![210, 0] : Fin 2 → Nat) a + S1x512.size a ≤ S256x512.size a
  inb_S256_S1_211 : ∀ a, (![211] : Fin 1 → Nat) a + S1.size a ≤ S256.size a
  inb_S256x512_S1x512_211_0 : ∀ a, (![211, 0] : Fin 2 → Nat) a + S1x512.size a ≤ S256x512.size a
  inb_S256_S1_212 : ∀ a, (![212] : Fin 1 → Nat) a + S1.size a ≤ S256.size a
  inb_S256x512_S1x512_212_0 : ∀ a, (![212, 0] : Fin 2 → Nat) a + S1x512.size a ≤ S256x512.size a
  inb_S256_S1_213 : ∀ a, (![213] : Fin 1 → Nat) a + S1.size a ≤ S256.size a
  inb_S256x512_S1x512_213_0 : ∀ a, (![213, 0] : Fin 2 → Nat) a + S1x512.size a ≤ S256x512.size a
  inb_S256_S1_214 : ∀ a, (![214] : Fin 1 → Nat) a + S1.size a ≤ S256.size a
  inb_S256x512_S1x512_214_0 : ∀ a, (![214, 0] : Fin 2 → Nat) a + S1x512.size a ≤ S256x512.size a
  inb_S256_S1_215 : ∀ a, (![215] : Fin 1 → Nat) a + S1.size a ≤ S256.size a
  inb_S256x512_S1x512_215_0 : ∀ a, (![215, 0] : Fin 2 → Nat) a + S1x512.size a ≤ S256x512.size a
  inb_S256_S1_216 : ∀ a, (![216] : Fin 1 → Nat) a + S1.size a ≤ S256.size a
  inb_S256x512_S1x512_216_0 : ∀ a, (![216, 0] : Fin 2 → Nat) a + S1x512.size a ≤ S256x512.size a
  inb_S256_S1_217 : ∀ a, (![217] : Fin 1 → Nat) a + S1.size a ≤ S256.size a
  inb_S256x512_S1x512_217_0 : ∀ a, (![217, 0] : Fin 2 → Nat) a + S1x512.size a ≤ S256x512.size a
  inb_S256_S1_218 : ∀ a, (![218] : Fin 1 → Nat) a + S1.size a ≤ S256.size a
  inb_S256x512_S1x512_218_0 : ∀ a, (![218, 0] : Fin 2 → Nat) a + S1x512.size a ≤ S256x512.size a
  inb_S256_S1_219 : ∀ a, (![219] : Fin 1 → Nat) a + S1.size a ≤ S256.size a
  inb_S256x512_S1x512_219_0 : ∀ a, (![219, 0] : Fin 2 → Nat) a + S1x512.size a ≤ S256x512.size a
  inb_S256_S1_220 : ∀ a, (![220] : Fin 1 → Nat) a + S1.size a ≤ S256.size a
  inb_S256x512_S1x512_220_0 : ∀ a, (![220, 0] : Fin 2 → Nat) a + S1x512.size a ≤ S256x512.size a
  inb_S256_S1_221 : ∀ a, (![221] : Fin 1 → Nat) a + S1.size a ≤ S256.size a
  inb_S256x512_S1x512_221_0 : ∀ a, (![221, 0] : Fin 2 → Nat) a + S1x512.size a ≤ S256x512.size a
  inb_S256_S1_222 : ∀ a, (![222] : Fin 1 → Nat) a + S1.size a ≤ S256.size a
  inb_S256x512_S1x512_222_0 : ∀ a, (![222, 0] : Fin 2 → Nat) a + S1x512.size a ≤ S256x512.size a
  inb_S256_S1_223 : ∀ a, (![223] : Fin 1 → Nat) a + S1.size a ≤ S256.size a
  inb_S256x512_S1x512_223_0 : ∀ a, (![223, 0] : Fin 2 → Nat) a + S1x512.size a ≤ S256x512.size a
  inb_S256_S1_224 : ∀ a, (![224] : Fin 1 → Nat) a + S1.size a ≤ S256.size a
  inb_S256x512_S1x512_224_0 : ∀ a, (![224, 0] : Fin 2 → Nat) a + S1x512.size a ≤ S256x512.size a
  inb_S256_S1_225 : ∀ a, (![225] : Fin 1 → Nat) a + S1.size a ≤ S256.size a
  inb_S256x512_S1x512_225_0 : ∀ a, (![225, 0] : Fin 2 → Nat) a + S1x512.size a ≤ S256x512.size a
  inb_S256_S1_226 : ∀ a, (![226] : Fin 1 → Nat) a + S1.size a ≤ S256.size a
  inb_S256x512_S1x512_226_0 : ∀ a, (![226, 0] : Fin 2 → Nat) a + S1x512.size a ≤ S256x512.size a
  inb_S256_S1_227 : ∀ a, (![227] : Fin 1 → Nat) a + S1.size a ≤ S256.size a
  inb_S256x512_S1x512_227_0 : ∀ a, (![227, 0] : Fin 2 → Nat) a + S1x512.size a ≤ S256x512.size a
  inb_S256_S1_228 : ∀ a, (![228] : Fin 1 → Nat) a + S1.size a ≤ S256.size a
  inb_S256x512_S1x512_228_0 : ∀ a, (![228, 0] : Fin 2 → Nat) a + S1x512.size a ≤ S256x512.size a
  inb_S256_S1_229 : ∀ a, (![229] : Fin 1 → Nat) a + S1.size a ≤ S256.size a
  inb_S256x512_S1x512_229_0 : ∀ a, (![229, 0] : Fin 2 → Nat) a + S1x512.size a ≤ S256x512.size a
  inb_S256_S1_230 : ∀ a, (![230] : Fin 1 → Nat) a + S1.size a ≤ S256.size a
  inb_S256x512_S1x512_230_0 : ∀ a, (![230, 0] : Fin 2 → Nat) a + S1x512.size a ≤ S256x512.size a
  inb_S256_S1_231 : ∀ a, (![231] : Fin 1 → Nat) a + S1.size a ≤ S256.size a
  inb_S256x512_S1x512_231_0 : ∀ a, (![231, 0] : Fin 2 → Nat) a + S1x512.size a ≤ S256x512.size a
  inb_S256_S1_232 : ∀ a, (![232] : Fin 1 → Nat) a + S1.size a ≤ S256.size a
  inb_S256x512_S1x512_232_0 : ∀ a, (![232, 0] : Fin 2 → Nat) a + S1x512.size a ≤ S256x512.size a
  inb_S256_S1_233 : ∀ a, (![233] : Fin 1 → Nat) a + S1.size a ≤ S256.size a
  inb_S256x512_S1x512_233_0 : ∀ a, (![233, 0] : Fin 2 → Nat) a + S1x512.size a ≤ S256x512.size a
  inb_S256_S1_234 : ∀ a, (![234] : Fin 1 → Nat) a + S1.size a ≤ S256.size a
  inb_S256x512_S1x512_234_0 : ∀ a, (![234, 0] : Fin 2 → Nat) a + S1x512.size a ≤ S256x512.size a
  inb_S256_S1_235 : ∀ a, (![235] : Fin 1 → Nat) a + S1.size a ≤ S256.size a
  inb_S256x512_S1x512_235_0 : ∀ a, (![235, 0] : Fin 2 → Nat) a + S1x512.size a ≤ S256x512.size a
  inb_S256_S1_236 : ∀ a, (![236] : Fin 1 → Nat) a + S1.size a ≤ S256.size a
  inb_S256x512_S1x512_236_0 : ∀ a, (![236, 0] : Fin 2 → Nat) a + S1x512.size a ≤ S256x512.size a
  inb_S256_S1_237 : ∀ a, (![237] : Fin 1 → Nat) a + S1.size a ≤ S256.size a
  inb_S256x512_S1x512_237_0 : ∀ a, (![237, 0] : Fin 2 → Nat) a + S1x512.size a ≤ S256x512.size a
  inb_S256_S1_238 : ∀ a, (![238] : Fin 1 → Nat) a + S1.size a ≤ S256.size a
  inb_S256x512_S1x512_238_0 : ∀ a, (![238, 0] : Fin 2 → Nat) a + S1x512.size a ≤ S256x512.size a
  inb_S256_S1_239 : ∀ a, (![239] : Fin 1 → Nat) a + S1.size a ≤ S256.size a
  inb_S256x512_S1x512_239_0 : ∀ a, (![239, 0] : Fin 2 → Nat) a + S1x512.size a ≤ S256x512.size a
  inb_S256_S1_240 : ∀ a, (![240] : Fin 1 → Nat) a + S1.size a ≤ S256.size a
  inb_S256x512_S1x512_240_0 : ∀ a, (![240, 0] : Fin 2 → Nat) a + S1x512.size a ≤ S256x512.size a
  inb_S256_S1_241 : ∀ a, (![241] : Fin 1 → Nat) a + S1.size a ≤ S256.size a
  inb_S256x512_S1x512_241_0 : ∀ a, (![241, 0] : Fin 2 → Nat) a + S1x512.size a ≤ S256x512.size a
  inb_S256_S1_242 : ∀ a, (![242] : Fin 1 → Nat) a + S1.size a ≤ S256.size a
  inb_S256x512_S1x512_242_0 : ∀ a, (![242, 0] : Fin 2 → Nat) a + S1x512.size a ≤ S256x512.size a
  inb_S256_S1_243 : ∀ a, (![243] : Fin 1 → Nat) a + S1.size a ≤ S256.size a
  inb_S256x512_S1x512_243_0 : ∀ a, (![243, 0] : Fin 2 → Nat) a + S1x512.size a ≤ S256x512.size a
  inb_S256_S1_244 : ∀ a, (![244] : Fin 1 → Nat) a + S1.size a ≤ S256.size a
  inb_S256x512_S1x512_244_0 : ∀ a, (![244, 0] : Fin 2 → Nat) a + S1x512.size a ≤ S256x512.size a
  inb_S256_S1_245 : ∀ a, (![245] : Fin 1 → Nat) a + S1.size a ≤ S256.size a
  inb_S256x512_S1x512_245_0 : ∀ a, (![245, 0] : Fin 2 → Nat) a + S1x512.size a ≤ S256x512.size a
  inb_S256_S1_246 : ∀ a, (![246] : Fin 1 → Nat) a + S1.size a ≤ S256.size a
  inb_S256x512_S1x512_246_0 : ∀ a, (![246, 0] : Fin 2 → Nat) a + S1x512.size a ≤ S256x512.size a
  inb_S256_S1_247 : ∀ a, (![247] : Fin 1 → Nat) a + S1.size a ≤ S256.size a
  inb_S256x512_S1x512_247_0 : ∀ a, (![247, 0] : Fin 2 → Nat) a + S1x512.size a ≤ S256x512.size a
  inb_S256_S1_248 : ∀ a, (![248] : Fin 1 → Nat) a + S1.size a ≤ S256.size a
  inb_S256x512_S1x512_248_0 : ∀ a, (![248, 0] : Fin 2 → Nat) a + S1x512.size a ≤ S256x512.size a
  inb_S256_S1_249 : ∀ a, (![249] : Fin 1 → Nat) a + S1.size a ≤ S256.size a
  inb_S256x512_S1x512_249_0 : ∀ a, (![249, 0] : Fin 2 → Nat) a + S1x512.size a ≤ S256x512.size a
  inb_S256_S1_250 : ∀ a, (![250] : Fin 1 → Nat) a + S1.size a ≤ S256.size a
  inb_S256x512_S1x512_250_0 : ∀ a, (![250, 0] : Fin 2 → Nat) a + S1x512.size a ≤ S256x512.size a
  inb_S256_S1_251 : ∀ a, (![251] : Fin 1 → Nat) a + S1.size a ≤ S256.size a
  inb_S256x512_S1x512_251_0 : ∀ a, (![251, 0] : Fin 2 → Nat) a + S1x512.size a ≤ S256x512.size a
  inb_S256_S1_252 : ∀ a, (![252] : Fin 1 → Nat) a + S1.size a ≤ S256.size a
  inb_S256x512_S1x512_252_0 : ∀ a, (![252, 0] : Fin 2 → Nat) a + S1x512.size a ≤ S256x512.size a
  inb_S256_S1_253 : ∀ a, (![253] : Fin 1 → Nat) a + S1.size a ≤ S256.size a
  inb_S256x512_S1x512_253_0 : ∀ a, (![253, 0] : Fin 2 → Nat) a + S1x512.size a ≤ S256x512.size a
  inb_S256_S1_254 : ∀ a, (![254] : Fin 1 → Nat) a + S1.size a ≤ S256.size a
  inb_S256x512_S1x512_254_0 : ∀ a, (![254, 0] : Fin 2 → Nat) a + S1x512.size a ≤ S256x512.size a
  inb_S256_S1_255 : ∀ a, (![255] : Fin 1 → Nat) a + S1.size a ≤ S256.size a
  inb_S256x512_S1x512_255_0 : ∀ a, (![255, 0] : Fin 2 → Nat) a + S1x512.size a ≤ S256x512.size a
  inb_S256x512_S256x512_0_0 : ∀ a, (![0, 0] : Fin 2 → Nat) a + S256x512.size a ≤ S256x512.size a
  h_S256x512 : 0 < S256x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S128000x512_S1x512_0_0 : ∀ a, (![0, 0] : Fin 2 → Nat) a + S1x512.size a ≤ S128000x512.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  reducesTo_S8192x1024_S1024_d0 : S8192x1024.ReducesTo [0] S1024
  h_S_ : 0 < S_.numel
  bcast_S_S1024 : S_.BroadcastsInDim S1024 (![] : Fin 0 → Fin S1024.rank)
  shapeCasts_S1024_S1x1x1024 : S1024.ShapeCasts S1x1x1024
  dot_S256x512_S512x1024_S256x1024_1_0_0_1_n_n_wf : DotDims.WF S256x512 S512x1024 S256x1024 [1] [0] [0] [1] [] []
  hcc0_scratch1 : 7 + S256.numel ≤ 263
  hrank0 : 0 < grid0.rank
  k0_off1_inb : ∀ i : grid0.Coords, ∀ a, (k0_off1 i) a + S1.size a ≤ S8192.size a
  k0_off3_inb : ∀ i : grid0.Coords, ∀ a, (k0_off3 i) a + S1.size a ≤ S8192.size a
  k0_off5_inb : ∀ i : grid0.Coords, ∀ a, (k0_off5 i) a + S1.size a ≤ S8192.size a
  k0_off7_inb : ∀ i : grid0.Coords, ∀ a, (k0_off7 i) a + S1.size a ≤ S8192.size a
  k0_off9_inb : ∀ i : grid0.Coords, ∀ a, (k0_off9 i) a + S1.size a ≤ S8192.size a
  k0_off11_inb : ∀ i : grid0.Coords, ∀ a, (k0_off11 i) a + S1.size a ≤ S8192.size a
  k0_off13_inb : ∀ i : grid0.Coords, ∀ a, (k0_off13 i) a + S1.size a ≤ S8192.size a
  k0_off15_inb : ∀ i : grid0.Coords, ∀ a, (k0_off15 i) a + S1.size a ≤ S8192.size a
  k0_off17_inb : ∀ i : grid0.Coords, ∀ a, (k0_off17 i) a + S1.size a ≤ S8192.size a
  k0_off19_inb : ∀ i : grid0.Coords, ∀ a, (k0_off19 i) a + S1.size a ≤ S8192.size a
  k0_off21_inb : ∀ i : grid0.Coords, ∀ a, (k0_off21 i) a + S1.size a ≤ S8192.size a
  k0_off23_inb : ∀ i : grid0.Coords, ∀ a, (k0_off23 i) a + S1.size a ≤ S8192.size a
  k0_off25_inb : ∀ i : grid0.Coords, ∀ a, (k0_off25 i) a + S1.size a ≤ S8192.size a
  k0_off27_inb : ∀ i : grid0.Coords, ∀ a, (k0_off27 i) a + S1.size a ≤ S8192.size a
  k0_off29_inb : ∀ i : grid0.Coords, ∀ a, (k0_off29 i) a + S1.size a ≤ S8192.size a
  k0_off31_inb : ∀ i : grid0.Coords, ∀ a, (k0_off31 i) a + S1.size a ≤ S8192.size a
  k0_off33_inb : ∀ i : grid0.Coords, ∀ a, (k0_off33 i) a + S1.size a ≤ S8192.size a
  k0_off35_inb : ∀ i : grid0.Coords, ∀ a, (k0_off35 i) a + S1.size a ≤ S8192.size a
  k0_off37_inb : ∀ i : grid0.Coords, ∀ a, (k0_off37 i) a + S1.size a ≤ S8192.size a
  k0_off39_inb : ∀ i : grid0.Coords, ∀ a, (k0_off39 i) a + S1.size a ≤ S8192.size a
  k0_off41_inb : ∀ i : grid0.Coords, ∀ a, (k0_off41 i) a + S1.size a ≤ S8192.size a
  k0_off43_inb : ∀ i : grid0.Coords, ∀ a, (k0_off43 i) a + S1.size a ≤ S8192.size a
  k0_off45_inb : ∀ i : grid0.Coords, ∀ a, (k0_off45 i) a + S1.size a ≤ S8192.size a
  k0_off47_inb : ∀ i : grid0.Coords, ∀ a, (k0_off47 i) a + S1.size a ≤ S8192.size a
  k0_off49_inb : ∀ i : grid0.Coords, ∀ a, (k0_off49 i) a + S1.size a ≤ S8192.size a
  k0_off51_inb : ∀ i : grid0.Coords, ∀ a, (k0_off51 i) a + S1.size a ≤ S8192.size a
  k0_off53_inb : ∀ i : grid0.Coords, ∀ a, (k0_off53 i) a + S1.size a ≤ S8192.size a
  k0_off55_inb : ∀ i : grid0.Coords, ∀ a, (k0_off55 i) a + S1.size a ≤ S8192.size a
  k0_off57_inb : ∀ i : grid0.Coords, ∀ a, (k0_off57 i) a + S1.size a ≤ S8192.size a
  k0_off59_inb : ∀ i : grid0.Coords, ∀ a, (k0_off59 i) a + S1.size a ≤ S8192.size a
  k0_off61_inb : ∀ i : grid0.Coords, ∀ a, (k0_off61 i) a + S1.size a ≤ S8192.size a
  k0_off63_inb : ∀ i : grid0.Coords, ∀ a, (k0_off63 i) a + S1.size a ≤ S8192.size a
  k0_off65_inb : ∀ i : grid0.Coords, ∀ a, (k0_off65 i) a + S1.size a ≤ S8192.size a
  k0_off67_inb : ∀ i : grid0.Coords, ∀ a, (k0_off67 i) a + S1.size a ≤ S8192.size a
  k0_off69_inb : ∀ i : grid0.Coords, ∀ a, (k0_off69 i) a + S1.size a ≤ S8192.size a
  k0_off71_inb : ∀ i : grid0.Coords, ∀ a, (k0_off71 i) a + S1.size a ≤ S8192.size a
  k0_off73_inb : ∀ i : grid0.Coords, ∀ a, (k0_off73 i) a + S1.size a ≤ S8192.size a
  k0_off75_inb : ∀ i : grid0.Coords, ∀ a, (k0_off75 i) a + S1.size a ≤ S8192.size a
  k0_off77_inb : ∀ i : grid0.Coords, ∀ a, (k0_off77 i) a + S1.size a ≤ S8192.size a
  k0_off79_inb : ∀ i : grid0.Coords, ∀ a, (k0_off79 i) a + S1.size a ≤ S8192.size a
  k0_off81_inb : ∀ i : grid0.Coords, ∀ a, (k0_off81 i) a + S1.size a ≤ S8192.size a
  k0_off83_inb : ∀ i : grid0.Coords, ∀ a, (k0_off83 i) a + S1.size a ≤ S8192.size a
  k0_off85_inb : ∀ i : grid0.Coords, ∀ a, (k0_off85 i) a + S1.size a ≤ S8192.size a
  k0_off87_inb : ∀ i : grid0.Coords, ∀ a, (k0_off87 i) a + S1.size a ≤ S8192.size a
  k0_off89_inb : ∀ i : grid0.Coords, ∀ a, (k0_off89 i) a + S1.size a ≤ S8192.size a
  k0_off91_inb : ∀ i : grid0.Coords, ∀ a, (k0_off91 i) a + S1.size a ≤ S8192.size a
  k0_off93_inb : ∀ i : grid0.Coords, ∀ a, (k0_off93 i) a + S1.size a ≤ S8192.size a
  k0_off95_inb : ∀ i : grid0.Coords, ∀ a, (k0_off95 i) a + S1.size a ≤ S8192.size a
  k0_off97_inb : ∀ i : grid0.Coords, ∀ a, (k0_off97 i) a + S1.size a ≤ S8192.size a
  k0_off99_inb : ∀ i : grid0.Coords, ∀ a, (k0_off99 i) a + S1.size a ≤ S8192.size a
  k0_off101_inb : ∀ i : grid0.Coords, ∀ a, (k0_off101 i) a + S1.size a ≤ S8192.size a
  k0_off103_inb : ∀ i : grid0.Coords, ∀ a, (k0_off103 i) a + S1.size a ≤ S8192.size a
  k0_off105_inb : ∀ i : grid0.Coords, ∀ a, (k0_off105 i) a + S1.size a ≤ S8192.size a
  k0_off107_inb : ∀ i : grid0.Coords, ∀ a, (k0_off107 i) a + S1.size a ≤ S8192.size a
  k0_off109_inb : ∀ i : grid0.Coords, ∀ a, (k0_off109 i) a + S1.size a ≤ S8192.size a
  k0_off111_inb : ∀ i : grid0.Coords, ∀ a, (k0_off111 i) a + S1.size a ≤ S8192.size a
  k0_off113_inb : ∀ i : grid0.Coords, ∀ a, (k0_off113 i) a + S1.size a ≤ S8192.size a
  k0_off115_inb : ∀ i : grid0.Coords, ∀ a, (k0_off115 i) a + S1.size a ≤ S8192.size a
  k0_off117_inb : ∀ i : grid0.Coords, ∀ a, (k0_off117 i) a + S1.size a ≤ S8192.size a
  k0_off119_inb : ∀ i : grid0.Coords, ∀ a, (k0_off119 i) a + S1.size a ≤ S8192.size a
  k0_off121_inb : ∀ i : grid0.Coords, ∀ a, (k0_off121 i) a + S1.size a ≤ S8192.size a
  k0_off123_inb : ∀ i : grid0.Coords, ∀ a, (k0_off123 i) a + S1.size a ≤ S8192.size a
  k0_off125_inb : ∀ i : grid0.Coords, ∀ a, (k0_off125 i) a + S1.size a ≤ S8192.size a
  k0_off127_inb : ∀ i : grid0.Coords, ∀ a, (k0_off127 i) a + S1.size a ≤ S8192.size a
  k0_off129_inb : ∀ i : grid0.Coords, ∀ a, (k0_off129 i) a + S1.size a ≤ S8192.size a
  k0_off131_inb : ∀ i : grid0.Coords, ∀ a, (k0_off131 i) a + S1.size a ≤ S8192.size a
  k0_off133_inb : ∀ i : grid0.Coords, ∀ a, (k0_off133 i) a + S1.size a ≤ S8192.size a
  k0_off135_inb : ∀ i : grid0.Coords, ∀ a, (k0_off135 i) a + S1.size a ≤ S8192.size a
  k0_off137_inb : ∀ i : grid0.Coords, ∀ a, (k0_off137 i) a + S1.size a ≤ S8192.size a
  k0_off139_inb : ∀ i : grid0.Coords, ∀ a, (k0_off139 i) a + S1.size a ≤ S8192.size a
  k0_off141_inb : ∀ i : grid0.Coords, ∀ a, (k0_off141 i) a + S1.size a ≤ S8192.size a
  k0_off143_inb : ∀ i : grid0.Coords, ∀ a, (k0_off143 i) a + S1.size a ≤ S8192.size a
  k0_off145_inb : ∀ i : grid0.Coords, ∀ a, (k0_off145 i) a + S1.size a ≤ S8192.size a
  k0_off147_inb : ∀ i : grid0.Coords, ∀ a, (k0_off147 i) a + S1.size a ≤ S8192.size a
  k0_off149_inb : ∀ i : grid0.Coords, ∀ a, (k0_off149 i) a + S1.size a ≤ S8192.size a
  k0_off151_inb : ∀ i : grid0.Coords, ∀ a, (k0_off151 i) a + S1.size a ≤ S8192.size a
  k0_off153_inb : ∀ i : grid0.Coords, ∀ a, (k0_off153 i) a + S1.size a ≤ S8192.size a
  k0_off155_inb : ∀ i : grid0.Coords, ∀ a, (k0_off155 i) a + S1.size a ≤ S8192.size a
  k0_off157_inb : ∀ i : grid0.Coords, ∀ a, (k0_off157 i) a + S1.size a ≤ S8192.size a
  k0_off159_inb : ∀ i : grid0.Coords, ∀ a, (k0_off159 i) a + S1.size a ≤ S8192.size a
  k0_off161_inb : ∀ i : grid0.Coords, ∀ a, (k0_off161 i) a + S1.size a ≤ S8192.size a
  k0_off163_inb : ∀ i : grid0.Coords, ∀ a, (k0_off163 i) a + S1.size a ≤ S8192.size a
  k0_off165_inb : ∀ i : grid0.Coords, ∀ a, (k0_off165 i) a + S1.size a ≤ S8192.size a
  k0_off167_inb : ∀ i : grid0.Coords, ∀ a, (k0_off167 i) a + S1.size a ≤ S8192.size a
  k0_off169_inb : ∀ i : grid0.Coords, ∀ a, (k0_off169 i) a + S1.size a ≤ S8192.size a
  k0_off171_inb : ∀ i : grid0.Coords, ∀ a, (k0_off171 i) a + S1.size a ≤ S8192.size a
  k0_off173_inb : ∀ i : grid0.Coords, ∀ a, (k0_off173 i) a + S1.size a ≤ S8192.size a
  k0_off175_inb : ∀ i : grid0.Coords, ∀ a, (k0_off175 i) a + S1.size a ≤ S8192.size a
  k0_off177_inb : ∀ i : grid0.Coords, ∀ a, (k0_off177 i) a + S1.size a ≤ S8192.size a
  k0_off179_inb : ∀ i : grid0.Coords, ∀ a, (k0_off179 i) a + S1.size a ≤ S8192.size a
  k0_off181_inb : ∀ i : grid0.Coords, ∀ a, (k0_off181 i) a + S1.size a ≤ S8192.size a
  k0_off183_inb : ∀ i : grid0.Coords, ∀ a, (k0_off183 i) a + S1.size a ≤ S8192.size a
  k0_off185_inb : ∀ i : grid0.Coords, ∀ a, (k0_off185 i) a + S1.size a ≤ S8192.size a
  k0_off187_inb : ∀ i : grid0.Coords, ∀ a, (k0_off187 i) a + S1.size a ≤ S8192.size a
  k0_off189_inb : ∀ i : grid0.Coords, ∀ a, (k0_off189 i) a + S1.size a ≤ S8192.size a
  k0_off191_inb : ∀ i : grid0.Coords, ∀ a, (k0_off191 i) a + S1.size a ≤ S8192.size a
  k0_off193_inb : ∀ i : grid0.Coords, ∀ a, (k0_off193 i) a + S1.size a ≤ S8192.size a
  k0_off195_inb : ∀ i : grid0.Coords, ∀ a, (k0_off195 i) a + S1.size a ≤ S8192.size a
  k0_off197_inb : ∀ i : grid0.Coords, ∀ a, (k0_off197 i) a + S1.size a ≤ S8192.size a
  k0_off199_inb : ∀ i : grid0.Coords, ∀ a, (k0_off199 i) a + S1.size a ≤ S8192.size a
  k0_off201_inb : ∀ i : grid0.Coords, ∀ a, (k0_off201 i) a + S1.size a ≤ S8192.size a
  k0_off203_inb : ∀ i : grid0.Coords, ∀ a, (k0_off203 i) a + S1.size a ≤ S8192.size a
  k0_off205_inb : ∀ i : grid0.Coords, ∀ a, (k0_off205 i) a + S1.size a ≤ S8192.size a
  k0_off207_inb : ∀ i : grid0.Coords, ∀ a, (k0_off207 i) a + S1.size a ≤ S8192.size a
  k0_off209_inb : ∀ i : grid0.Coords, ∀ a, (k0_off209 i) a + S1.size a ≤ S8192.size a
  k0_off211_inb : ∀ i : grid0.Coords, ∀ a, (k0_off211 i) a + S1.size a ≤ S8192.size a
  k0_off213_inb : ∀ i : grid0.Coords, ∀ a, (k0_off213 i) a + S1.size a ≤ S8192.size a
  k0_off215_inb : ∀ i : grid0.Coords, ∀ a, (k0_off215 i) a + S1.size a ≤ S8192.size a
  k0_off217_inb : ∀ i : grid0.Coords, ∀ a, (k0_off217 i) a + S1.size a ≤ S8192.size a
  k0_off219_inb : ∀ i : grid0.Coords, ∀ a, (k0_off219 i) a + S1.size a ≤ S8192.size a
  k0_off221_inb : ∀ i : grid0.Coords, ∀ a, (k0_off221 i) a + S1.size a ≤ S8192.size a
  k0_off223_inb : ∀ i : grid0.Coords, ∀ a, (k0_off223 i) a + S1.size a ≤ S8192.size a
  k0_off225_inb : ∀ i : grid0.Coords, ∀ a, (k0_off225 i) a + S1.size a ≤ S8192.size a
  k0_off227_inb : ∀ i : grid0.Coords, ∀ a, (k0_off227 i) a + S1.size a ≤ S8192.size a
  k0_off229_inb : ∀ i : grid0.Coords, ∀ a, (k0_off229 i) a + S1.size a ≤ S8192.size a
  k0_off231_inb : ∀ i : grid0.Coords, ∀ a, (k0_off231 i) a + S1.size a ≤ S8192.size a
  k0_off233_inb : ∀ i : grid0.Coords, ∀ a, (k0_off233 i) a + S1.size a ≤ S8192.size a
  k0_off235_inb : ∀ i : grid0.Coords, ∀ a, (k0_off235 i) a + S1.size a ≤ S8192.size a
  k0_off237_inb : ∀ i : grid0.Coords, ∀ a, (k0_off237 i) a + S1.size a ≤ S8192.size a
  k0_off239_inb : ∀ i : grid0.Coords, ∀ a, (k0_off239 i) a + S1.size a ≤ S8192.size a
  k0_off241_inb : ∀ i : grid0.Coords, ∀ a, (k0_off241 i) a + S1.size a ≤ S8192.size a
  k0_off243_inb : ∀ i : grid0.Coords, ∀ a, (k0_off243 i) a + S1.size a ≤ S8192.size a
  k0_off245_inb : ∀ i : grid0.Coords, ∀ a, (k0_off245 i) a + S1.size a ≤ S8192.size a
  k0_off247_inb : ∀ i : grid0.Coords, ∀ a, (k0_off247 i) a + S1.size a ≤ S8192.size a
  k0_off249_inb : ∀ i : grid0.Coords, ∀ a, (k0_off249 i) a + S1.size a ≤ S8192.size a
  k0_off251_inb : ∀ i : grid0.Coords, ∀ a, (k0_off251 i) a + S1.size a ≤ S8192.size a
  k0_off253_inb : ∀ i : grid0.Coords, ∀ a, (k0_off253 i) a + S1.size a ≤ S8192.size a
  k0_off255_inb : ∀ i : grid0.Coords, ∀ a, (k0_off255 i) a + S1.size a ≤ S8192.size a
  k0_off257_inb : ∀ i : grid0.Coords, ∀ a, (k0_off257 i) a + S1.size a ≤ S8192.size a
  k0_off259_inb : ∀ i : grid0.Coords, ∀ a, (k0_off259 i) a + S1.size a ≤ S8192.size a
  k0_off261_inb : ∀ i : grid0.Coords, ∀ a, (k0_off261 i) a + S1.size a ≤ S8192.size a
  k0_off263_inb : ∀ i : grid0.Coords, ∀ a, (k0_off263 i) a + S1.size a ≤ S8192.size a
  k0_off265_inb : ∀ i : grid0.Coords, ∀ a, (k0_off265 i) a + S1.size a ≤ S8192.size a
  k0_off267_inb : ∀ i : grid0.Coords, ∀ a, (k0_off267 i) a + S1.size a ≤ S8192.size a
  k0_off269_inb : ∀ i : grid0.Coords, ∀ a, (k0_off269 i) a + S1.size a ≤ S8192.size a
  k0_off271_inb : ∀ i : grid0.Coords, ∀ a, (k0_off271 i) a + S1.size a ≤ S8192.size a
  k0_off273_inb : ∀ i : grid0.Coords, ∀ a, (k0_off273 i) a + S1.size a ≤ S8192.size a
  k0_off275_inb : ∀ i : grid0.Coords, ∀ a, (k0_off275 i) a + S1.size a ≤ S8192.size a
  k0_off277_inb : ∀ i : grid0.Coords, ∀ a, (k0_off277 i) a + S1.size a ≤ S8192.size a
  k0_off279_inb : ∀ i : grid0.Coords, ∀ a, (k0_off279 i) a + S1.size a ≤ S8192.size a
  k0_off281_inb : ∀ i : grid0.Coords, ∀ a, (k0_off281 i) a + S1.size a ≤ S8192.size a
  k0_off283_inb : ∀ i : grid0.Coords, ∀ a, (k0_off283 i) a + S1.size a ≤ S8192.size a
  k0_off285_inb : ∀ i : grid0.Coords, ∀ a, (k0_off285 i) a + S1.size a ≤ S8192.size a
  k0_off287_inb : ∀ i : grid0.Coords, ∀ a, (k0_off287 i) a + S1.size a ≤ S8192.size a
  k0_off289_inb : ∀ i : grid0.Coords, ∀ a, (k0_off289 i) a + S1.size a ≤ S8192.size a
  k0_off291_inb : ∀ i : grid0.Coords, ∀ a, (k0_off291 i) a + S1.size a ≤ S8192.size a
  k0_off293_inb : ∀ i : grid0.Coords, ∀ a, (k0_off293 i) a + S1.size a ≤ S8192.size a
  k0_off295_inb : ∀ i : grid0.Coords, ∀ a, (k0_off295 i) a + S1.size a ≤ S8192.size a
  k0_off297_inb : ∀ i : grid0.Coords, ∀ a, (k0_off297 i) a + S1.size a ≤ S8192.size a
  k0_off299_inb : ∀ i : grid0.Coords, ∀ a, (k0_off299 i) a + S1.size a ≤ S8192.size a
  k0_off301_inb : ∀ i : grid0.Coords, ∀ a, (k0_off301 i) a + S1.size a ≤ S8192.size a
  k0_off303_inb : ∀ i : grid0.Coords, ∀ a, (k0_off303 i) a + S1.size a ≤ S8192.size a
  k0_off305_inb : ∀ i : grid0.Coords, ∀ a, (k0_off305 i) a + S1.size a ≤ S8192.size a
  k0_off307_inb : ∀ i : grid0.Coords, ∀ a, (k0_off307 i) a + S1.size a ≤ S8192.size a
  k0_off309_inb : ∀ i : grid0.Coords, ∀ a, (k0_off309 i) a + S1.size a ≤ S8192.size a
  k0_off311_inb : ∀ i : grid0.Coords, ∀ a, (k0_off311 i) a + S1.size a ≤ S8192.size a
  k0_off313_inb : ∀ i : grid0.Coords, ∀ a, (k0_off313 i) a + S1.size a ≤ S8192.size a
  k0_off315_inb : ∀ i : grid0.Coords, ∀ a, (k0_off315 i) a + S1.size a ≤ S8192.size a
  k0_off317_inb : ∀ i : grid0.Coords, ∀ a, (k0_off317 i) a + S1.size a ≤ S8192.size a
  k0_off319_inb : ∀ i : grid0.Coords, ∀ a, (k0_off319 i) a + S1.size a ≤ S8192.size a
  k0_off321_inb : ∀ i : grid0.Coords, ∀ a, (k0_off321 i) a + S1.size a ≤ S8192.size a
  k0_off323_inb : ∀ i : grid0.Coords, ∀ a, (k0_off323 i) a + S1.size a ≤ S8192.size a
  k0_off325_inb : ∀ i : grid0.Coords, ∀ a, (k0_off325 i) a + S1.size a ≤ S8192.size a
  k0_off327_inb : ∀ i : grid0.Coords, ∀ a, (k0_off327 i) a + S1.size a ≤ S8192.size a
  k0_off329_inb : ∀ i : grid0.Coords, ∀ a, (k0_off329 i) a + S1.size a ≤ S8192.size a
  k0_off331_inb : ∀ i : grid0.Coords, ∀ a, (k0_off331 i) a + S1.size a ≤ S8192.size a
  k0_off333_inb : ∀ i : grid0.Coords, ∀ a, (k0_off333 i) a + S1.size a ≤ S8192.size a
  k0_off335_inb : ∀ i : grid0.Coords, ∀ a, (k0_off335 i) a + S1.size a ≤ S8192.size a
  k0_off337_inb : ∀ i : grid0.Coords, ∀ a, (k0_off337 i) a + S1.size a ≤ S8192.size a
  k0_off339_inb : ∀ i : grid0.Coords, ∀ a, (k0_off339 i) a + S1.size a ≤ S8192.size a
  k0_off341_inb : ∀ i : grid0.Coords, ∀ a, (k0_off341 i) a + S1.size a ≤ S8192.size a
  k0_off343_inb : ∀ i : grid0.Coords, ∀ a, (k0_off343 i) a + S1.size a ≤ S8192.size a
  k0_off345_inb : ∀ i : grid0.Coords, ∀ a, (k0_off345 i) a + S1.size a ≤ S8192.size a
  k0_off347_inb : ∀ i : grid0.Coords, ∀ a, (k0_off347 i) a + S1.size a ≤ S8192.size a
  k0_off349_inb : ∀ i : grid0.Coords, ∀ a, (k0_off349 i) a + S1.size a ≤ S8192.size a
  k0_off351_inb : ∀ i : grid0.Coords, ∀ a, (k0_off351 i) a + S1.size a ≤ S8192.size a
  k0_off353_inb : ∀ i : grid0.Coords, ∀ a, (k0_off353 i) a + S1.size a ≤ S8192.size a
  k0_off355_inb : ∀ i : grid0.Coords, ∀ a, (k0_off355 i) a + S1.size a ≤ S8192.size a
  k0_off357_inb : ∀ i : grid0.Coords, ∀ a, (k0_off357 i) a + S1.size a ≤ S8192.size a
  k0_off359_inb : ∀ i : grid0.Coords, ∀ a, (k0_off359 i) a + S1.size a ≤ S8192.size a
  k0_off361_inb : ∀ i : grid0.Coords, ∀ a, (k0_off361 i) a + S1.size a ≤ S8192.size a
  k0_off363_inb : ∀ i : grid0.Coords, ∀ a, (k0_off363 i) a + S1.size a ≤ S8192.size a
  k0_off365_inb : ∀ i : grid0.Coords, ∀ a, (k0_off365 i) a + S1.size a ≤ S8192.size a
  k0_off367_inb : ∀ i : grid0.Coords, ∀ a, (k0_off367 i) a + S1.size a ≤ S8192.size a
  k0_off369_inb : ∀ i : grid0.Coords, ∀ a, (k0_off369 i) a + S1.size a ≤ S8192.size a
  k0_off371_inb : ∀ i : grid0.Coords, ∀ a, (k0_off371 i) a + S1.size a ≤ S8192.size a
  k0_off373_inb : ∀ i : grid0.Coords, ∀ a, (k0_off373 i) a + S1.size a ≤ S8192.size a
  k0_off375_inb : ∀ i : grid0.Coords, ∀ a, (k0_off375 i) a + S1.size a ≤ S8192.size a
  k0_off377_inb : ∀ i : grid0.Coords, ∀ a, (k0_off377 i) a + S1.size a ≤ S8192.size a
  k0_off379_inb : ∀ i : grid0.Coords, ∀ a, (k0_off379 i) a + S1.size a ≤ S8192.size a
  k0_off381_inb : ∀ i : grid0.Coords, ∀ a, (k0_off381 i) a + S1.size a ≤ S8192.size a
  k0_off383_inb : ∀ i : grid0.Coords, ∀ a, (k0_off383 i) a + S1.size a ≤ S8192.size a
  k0_off385_inb : ∀ i : grid0.Coords, ∀ a, (k0_off385 i) a + S1.size a ≤ S8192.size a
  k0_off387_inb : ∀ i : grid0.Coords, ∀ a, (k0_off387 i) a + S1.size a ≤ S8192.size a
  k0_off389_inb : ∀ i : grid0.Coords, ∀ a, (k0_off389 i) a + S1.size a ≤ S8192.size a
  k0_off391_inb : ∀ i : grid0.Coords, ∀ a, (k0_off391 i) a + S1.size a ≤ S8192.size a
  k0_off393_inb : ∀ i : grid0.Coords, ∀ a, (k0_off393 i) a + S1.size a ≤ S8192.size a
  k0_off395_inb : ∀ i : grid0.Coords, ∀ a, (k0_off395 i) a + S1.size a ≤ S8192.size a
  k0_off397_inb : ∀ i : grid0.Coords, ∀ a, (k0_off397 i) a + S1.size a ≤ S8192.size a
  k0_off399_inb : ∀ i : grid0.Coords, ∀ a, (k0_off399 i) a + S1.size a ≤ S8192.size a
  k0_off401_inb : ∀ i : grid0.Coords, ∀ a, (k0_off401 i) a + S1.size a ≤ S8192.size a
  k0_off403_inb : ∀ i : grid0.Coords, ∀ a, (k0_off403 i) a + S1.size a ≤ S8192.size a
  k0_off405_inb : ∀ i : grid0.Coords, ∀ a, (k0_off405 i) a + S1.size a ≤ S8192.size a
  k0_off407_inb : ∀ i : grid0.Coords, ∀ a, (k0_off407 i) a + S1.size a ≤ S8192.size a
  k0_off409_inb : ∀ i : grid0.Coords, ∀ a, (k0_off409 i) a + S1.size a ≤ S8192.size a
  k0_off411_inb : ∀ i : grid0.Coords, ∀ a, (k0_off411 i) a + S1.size a ≤ S8192.size a
  k0_off413_inb : ∀ i : grid0.Coords, ∀ a, (k0_off413 i) a + S1.size a ≤ S8192.size a
  k0_off415_inb : ∀ i : grid0.Coords, ∀ a, (k0_off415 i) a + S1.size a ≤ S8192.size a
  k0_off417_inb : ∀ i : grid0.Coords, ∀ a, (k0_off417 i) a + S1.size a ≤ S8192.size a
  k0_off419_inb : ∀ i : grid0.Coords, ∀ a, (k0_off419 i) a + S1.size a ≤ S8192.size a
  k0_off421_inb : ∀ i : grid0.Coords, ∀ a, (k0_off421 i) a + S1.size a ≤ S8192.size a
  k0_off423_inb : ∀ i : grid0.Coords, ∀ a, (k0_off423 i) a + S1.size a ≤ S8192.size a
  k0_off425_inb : ∀ i : grid0.Coords, ∀ a, (k0_off425 i) a + S1.size a ≤ S8192.size a
  k0_off427_inb : ∀ i : grid0.Coords, ∀ a, (k0_off427 i) a + S1.size a ≤ S8192.size a
  k0_off429_inb : ∀ i : grid0.Coords, ∀ a, (k0_off429 i) a + S1.size a ≤ S8192.size a
  k0_off431_inb : ∀ i : grid0.Coords, ∀ a, (k0_off431 i) a + S1.size a ≤ S8192.size a
  k0_off433_inb : ∀ i : grid0.Coords, ∀ a, (k0_off433 i) a + S1.size a ≤ S8192.size a
  k0_off435_inb : ∀ i : grid0.Coords, ∀ a, (k0_off435 i) a + S1.size a ≤ S8192.size a
  k0_off437_inb : ∀ i : grid0.Coords, ∀ a, (k0_off437 i) a + S1.size a ≤ S8192.size a
  k0_off439_inb : ∀ i : grid0.Coords, ∀ a, (k0_off439 i) a + S1.size a ≤ S8192.size a
  k0_off441_inb : ∀ i : grid0.Coords, ∀ a, (k0_off441 i) a + S1.size a ≤ S8192.size a
  k0_off443_inb : ∀ i : grid0.Coords, ∀ a, (k0_off443 i) a + S1.size a ≤ S8192.size a
  k0_off445_inb : ∀ i : grid0.Coords, ∀ a, (k0_off445 i) a + S1.size a ≤ S8192.size a
  k0_off447_inb : ∀ i : grid0.Coords, ∀ a, (k0_off447 i) a + S1.size a ≤ S8192.size a
  k0_off449_inb : ∀ i : grid0.Coords, ∀ a, (k0_off449 i) a + S1.size a ≤ S8192.size a
  k0_off451_inb : ∀ i : grid0.Coords, ∀ a, (k0_off451 i) a + S1.size a ≤ S8192.size a
  k0_off453_inb : ∀ i : grid0.Coords, ∀ a, (k0_off453 i) a + S1.size a ≤ S8192.size a
  k0_off455_inb : ∀ i : grid0.Coords, ∀ a, (k0_off455 i) a + S1.size a ≤ S8192.size a
  k0_off457_inb : ∀ i : grid0.Coords, ∀ a, (k0_off457 i) a + S1.size a ≤ S8192.size a
  k0_off459_inb : ∀ i : grid0.Coords, ∀ a, (k0_off459 i) a + S1.size a ≤ S8192.size a
  k0_off461_inb : ∀ i : grid0.Coords, ∀ a, (k0_off461 i) a + S1.size a ≤ S8192.size a
  k0_off463_inb : ∀ i : grid0.Coords, ∀ a, (k0_off463 i) a + S1.size a ≤ S8192.size a
  k0_off465_inb : ∀ i : grid0.Coords, ∀ a, (k0_off465 i) a + S1.size a ≤ S8192.size a
  k0_off467_inb : ∀ i : grid0.Coords, ∀ a, (k0_off467 i) a + S1.size a ≤ S8192.size a
  k0_off469_inb : ∀ i : grid0.Coords, ∀ a, (k0_off469 i) a + S1.size a ≤ S8192.size a
  k0_off471_inb : ∀ i : grid0.Coords, ∀ a, (k0_off471 i) a + S1.size a ≤ S8192.size a
  k0_off473_inb : ∀ i : grid0.Coords, ∀ a, (k0_off473 i) a + S1.size a ≤ S8192.size a
  k0_off475_inb : ∀ i : grid0.Coords, ∀ a, (k0_off475 i) a + S1.size a ≤ S8192.size a
  k0_off477_inb : ∀ i : grid0.Coords, ∀ a, (k0_off477 i) a + S1.size a ≤ S8192.size a
  k0_off479_inb : ∀ i : grid0.Coords, ∀ a, (k0_off479 i) a + S1.size a ≤ S8192.size a
  k0_off481_inb : ∀ i : grid0.Coords, ∀ a, (k0_off481 i) a + S1.size a ≤ S8192.size a
  k0_off483_inb : ∀ i : grid0.Coords, ∀ a, (k0_off483 i) a + S1.size a ≤ S8192.size a
  k0_off485_inb : ∀ i : grid0.Coords, ∀ a, (k0_off485 i) a + S1.size a ≤ S8192.size a
  k0_off487_inb : ∀ i : grid0.Coords, ∀ a, (k0_off487 i) a + S1.size a ≤ S8192.size a
  k0_off489_inb : ∀ i : grid0.Coords, ∀ a, (k0_off489 i) a + S1.size a ≤ S8192.size a
  k0_off491_inb : ∀ i : grid0.Coords, ∀ a, (k0_off491 i) a + S1.size a ≤ S8192.size a
  k0_off493_inb : ∀ i : grid0.Coords, ∀ a, (k0_off493 i) a + S1.size a ≤ S8192.size a
  k0_off495_inb : ∀ i : grid0.Coords, ∀ a, (k0_off495 i) a + S1.size a ≤ S8192.size a
  k0_off497_inb : ∀ i : grid0.Coords, ∀ a, (k0_off497 i) a + S1.size a ≤ S8192.size a
  k0_off499_inb : ∀ i : grid0.Coords, ∀ a, (k0_off499 i) a + S1.size a ≤ S8192.size a
  k0_off501_inb : ∀ i : grid0.Coords, ∀ a, (k0_off501 i) a + S1.size a ≤ S8192.size a
  k0_off503_inb : ∀ i : grid0.Coords, ∀ a, (k0_off503 i) a + S1.size a ≤ S8192.size a
  k0_off505_inb : ∀ i : grid0.Coords, ∀ a, (k0_off505 i) a + S1.size a ≤ S8192.size a
  k0_off507_inb : ∀ i : grid0.Coords, ∀ a, (k0_off507 i) a + S1.size a ≤ S8192.size a
  k0_off509_inb : ∀ i : grid0.Coords, ∀ a, (k0_off509 i) a + S1.size a ≤ S8192.size a
  k0_off511_inb : ∀ i : grid0.Coords, ∀ a, (k0_off511 i) a + S1.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S256x512.size a ≤ S8192x512.size a
  hwx0_0 : ∀ i : grid0.Coords, EltTy.bits .f32 = 32 ∨ (Rect.block (s := S8192x512) S256x512.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S512x1024.size a ≤ S512x1024.size a
  hwx0_1 : ∀ i : grid0.Coords, EltTy.bits .bf16 = 32 ∨ (Rect.block (s := S512x1024) S512x1024.size (cc0_transform_2 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S512x1024.size a ≤ S512x1024.size a
  hwx0_2 : ∀ i : grid0.Coords, EltTy.bits .bf16 = 32 ∨ (Rect.block (s := S512x1024) S512x1024.size (cc0_transform_3 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x1024.size a ≤ S1x1024.size a
  hwx0_3 : ∀ i : grid0.Coords, EltTy.bits .f32 = 32 ∨ (Rect.block (s := S1x1024) S1x1024.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S256x1024.size a ≤ S8192x1024.size a
  hwx0_4 : ∀ i : grid0.Coords, EltTy.bits .f32 = 32 ∨ (Rect.block (s := S8192x1024) S256x1024.size (cc0_transform_5 i) (hinb0_4 i)).WholeWords (EltTy.packing .f32)

variable [Facts₀]

abbrev cc0_scratch1 : DmaSems sig S256 := SemArray.consecutive 7 S256 hcc0_scratch1
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev spec0_0 : Pipeline.WinSpec sig grid0.rank :=
  Pipeline.WinSpec.ofSpec (Memref.whole main_arg2) S256x512.size reads0_0 false false 2 stage0_0 sem0_0 nbuf0_0 hstage0_0

abbrev spec0_1 : Pipeline.WinSpec sig grid0.rank :=
  Pipeline.WinSpec.ofSpec (Memref.whole main_v2) S512x1024.size reads0_1 false true 1 stage0_1 sem0_1 nbuf0_1 hstage0_1

abbrev spec0_2 : Pipeline.WinSpec sig grid0.rank :=
  Pipeline.WinSpec.ofSpec (Memref.whole main_v5) S512x1024.size reads0_2 false true 1 stage0_2 sem0_2 nbuf0_2 hstage0_2

abbrev spec0_3 : Pipeline.WinSpec sig grid0.rank :=
  Pipeline.WinSpec.ofSpec (Memref.whole main_v6) S1x1024.size reads0_3 false true 1 stage0_3 sem0_3 nbuf0_3 hstage0_3

abbrev spec0_4 : Pipeline.WinSpec sig grid0.rank :=
  Pipeline.WinSpec.ofSpec (Memref.whole main_v7) S256x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_1 | 1 => cc0_transform_2 | 2 => cc0_transform_3 | 3 => cc0_transform_4 | 4 => cc0_transform_5 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S8192 : Shape := ⟨1, ![8192]⟩
abbrev S128000x512 : Shape := ⟨2, ![128000, 512]⟩
abbrev S8192x512 : Shape := ⟨2, ![8192, 512]⟩
abbrev S1024x1024 : Shape := ⟨2, ![1024, 1024]⟩
abbrev S1024 : Shape := ⟨1, ![1024]⟩
abbrev S0 : Shape := ⟨1, ![0]⟩
abbrev S_ : Shape := ⟨0, ![]⟩
abbrev S8192x1 : Shape := ⟨2, ![8192, 1]⟩
abbrev S8192x1024 : Shape := ⟨2, ![8192, 1024]⟩
abbrev S1x1024 : Shape := ⟨2, ![1, 1024]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192, .i32⟩
  | .hbm, ⟨1, _⟩ => ⟨S128000x512, .f32⟩
  | .hbm, ⟨2, _⟩ => ⟨S8192x512, .f32⟩
  | .hbm, ⟨3, _⟩ => ⟨S1024x1024, .f32⟩
  | .hbm, ⟨4, _⟩ => ⟨S1024, .f32⟩
  | .hbm, ⟨5, _⟩ => ⟨S0, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x512, .f32⟩
  | .hbm, ⟨15, _⟩ => ⟨S8192x1024, .f32⟩
  | .hbm, ⟨16, _⟩ => ⟨S1024x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1x1024, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  hz_S0 : S0.numel = 0
  bcast_S_S8192 : S_.BroadcastsInDim S8192 (![] : Fin 0 → Fin S8192.rank)
  bcast_S8192_S8192x1_0 : S8192.BroadcastsInDim S8192x1 (![0] : Fin 1 → Fin S8192x1.rank)
  concatenates_S8192x512_S8192x512_S8192x1024_d1 : Shape.Concatenates [S8192x512, S8192x512] S8192x1024 1
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S1024_d0 : S8192x1024.ReducesTo [0] S1024
  h_S_ : 0 < S_.numel
  bcast_S_S1024 : S_.BroadcastsInDim S1024 (![] : Fin 0 → Fin S1024.rank)
  shapeCasts_S1024_S1x1x1024 : S1024.ShapeCasts S1x1x1024
  gather_S128000x512_S8192x1_S8192x512_1_0_n_n_0_1_1512_wf : GatherDims.WF S128000x512 S8192x1 S8192x512 [1] [0] [] [0] [] 1 ![1, 512]
  dot_S8192x1024_S1024x1024_S8192x1024_1_0_0_1_n_n_wf : DotDims.WF S8192x1024 S1024x1024 S8192x1024 [1] [0] [0] [1] [] []
  scatter_S8192x1024_S0_S8192x1024_01_n_n_0_wf : ScatterDims.WF S8192x1024 S0 S8192x1024 [0, 1] [] [] 0

variable [Facts₀]

def gather_S128000x512_S8192x1_S8192x512_1_0_n_n_0_1_1512 : GatherDims S128000x512 S8192x1 S8192x512 where
  offsetDims := [1]
  collapsedSliceDims := [0]
  operandBatchingDims := []
  startIndicesBatchingDims := []
  startIndexMap := [0]
  indexVectorDim := 1
  sliceSizes := ![1, 512]
  wf := gather_S128000x512_S8192x1_S8192x512_1_0_n_n_0_1_1512_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def scatter_S8192x1024_S0_S8192x1024_01_n_n_0 : ScatterDims S8192x1024 S0 S8192x1024 where
  updateWindowDims := [0, 1]
  insertedWindowDims := []
  scatterDimsToOperandDims := []
  indexVectorDim := 0
  wf := scatter_S8192x1024_S0_S8192x1024_01_n_n_0_wf

class Facts : Prop extends Facts₀ where

variable [Facts]
-- ==== Proof.PreIdx.lean ====
/-
  The token range, read out of the printed precondition.

  The precondition is a conjunction of one-bit words; its last conjunct is the and-reduction, over all 8192
  tokens, of (token ≥ 0, signed) ∧ (token < 128000, signed). When the whole precondition is 1, that conjunct
  is 1, so every element of the reduced array is 1, so each token word is nonnegative and below 128000 read
  signed. A word that is nonnegative read signed has its top bit clear and reads the same unsigned; hence each
  token's unsigned value is below 128000.
-/
import proofs.«422593_j31129922961550_2_alg».proof.Pre_finite_inputs
import Idealize.ShloMosaic.Lib.ReduceAll
import Idealize.ShloMosaic.Lib.StableHlo.Predicate
import Idealize.ShloMosaic.Lib.ValueIdx

namespace Cert.Pre_finite_inputs.Idx
open Idealize.ShloMosaic

/-- The scalar shape has exactly one index (a function out of the empty set of axes). -/
instance : Subsingleton Cert.Pre_finite_inputs.S_.Idx := ⟨fun _ _ => funext fun d => d.elim0⟩

/-- A 32-bit word that is ≥ 0 and < 128000 as a signed integer is < 128000 as a natural number:
    0 ≤ toInt forces the top bit clear, and then toInt = toNat. -/
theorem toNat_lt_of_signed_range (w : BitVec 32) (h0 : IntOp.cmpi .sge w 0#32 = 1#1)
    (h1 : IntOp.cmpi .slt w 128000#32 = 1#1) : w.toNat < 128000 := by
  rw [IntOp.cmpi_sge, show (0#32 : BitVec 32).toInt = 0 from by decide] at h0
  rw [IntOp.cmpi_slt, show (128000#32 : BitVec 32).toInt = 128000 from by decide] at h1
  have hm : 2 * w.toNat < 2 ^ 32 := BitVec.toInt_pos_iff.1 h0
  rw [BitVec.toInt_eq_toNat_of_lt hm] at h1
  omega

/-- Under the precondition every token is a row number of the 128000-row table. -/
theorem tok_lt [Cert.Pre_finite_inputs.Facts] {F : FTy → Type} [FloatOps F]
    (a0 : IVec Cert.Pre_finite_inputs.S8192 32) (a1 : FVec F Cert.Pre_finite_inputs.S128000x512 .f32)
    (a2 : FVec F Cert.Pre_finite_inputs.S8192x512 .f32) (a3 : FVec F Cert.Pre_finite_inputs.S1024x1024 .f32)
    (a4 : FVec F Cert.Pre_finite_inputs.S1024 .f32)
    (h : Cert.Pre_finite_inputs.fn (F := F) a0 a1 a2 a3 a4 = fun _ => 1#1) :
    ∀ j : Cert.Pre_finite_inputs.S8192.Idx, (a0 j).toNat < 128000 := by
  intro j
  -- the precondition's one word is 1
  have e := congrFun h ValueIdx.ix0
  dsimp only [Cert.Pre_finite_inputs.fn, Cert.Pre_finite_inputs.fn_part1] at e
  -- its last conjunct: the and-reduction over the tokens is 1
  have eall := (IntOp.andi_eq_one.1 e).2
  -- so the reduced array is 1 at token j
  have ej := Host.reduce_andi_all _ _ _ _ _ eall j
  -- and that element is the conjunction of the two signed comparisons of token j
  obtain ⟨h0, h1⟩ := IntOp.andi_eq_one.1 ej
  exact toNat_lt_of_signed_range (a0 j) h0 h1

end Cert.Pre_finite_inputs.Idx
-- ==== Proof.Spec.lean ====
import Idealize.ShloMosaic.PureOps.Ideal
import Idealize.ShloMosaic.Lib.ValueIdx

/-!
  What both programs compute, as one function of the five argument arrays, index by index over the extended reals.

  Row `t` of the result is the sigmoid of a linear layer applied to the concatenation of the embedding-table row that
  token `t` names and row `t` of the position table: for output column `h`,
  `σ( Σ_{k<512} E[tok t, k] · W[h, k]  +  Σ_{k<512} P[t, k] · W[h, 512 + k]  +  b[h] )`.
  The second result is the mean of the first over its 8192 rows, laid out as a 1 × 1 × 1024 array.
-/

noncomputable section

namespace Cert.Spec

open Idealize.ShloMosaic Idealize.ShloMosaic.ValueIdx

abbrev Tk : Shape := ⟨1, ![8192]⟩
abbrev Emb : Shape := ⟨2, ![128000, 512]⟩
abbrev Pos : Shape := ⟨2, ![8192, 512]⟩
abbrev Wt : Shape := ⟨2, ![1024, 1024]⟩
abbrev Bs : Shape := ⟨1, ![1024]⟩
abbrev Out : Shape := ⟨2, ![8192, 1024]⟩
abbrev Hid : Shape := ⟨3, ![1, 1, 1024]⟩
abbrev Sc : Shape := ⟨0, ![]⟩

/-- The embedding-table row token `t` names; an id at or past the table's end would name its last row. -/
def tokRow (inp : IVec Tk 32) (t : Fin 8192) : Fin 128000 := ⟨min (inp (ix1 t)).toNat 127999, by omega⟩

/-- The linear layer at row `t`, column `h`: the token's embedding against the first 512 columns of row `h` of the
    weights, the position's against the last 512, and the bias. -/
def lin (inp : IVec Tk 32) (E : FVec Ideal Emb .f32) (P : FVec Ideal Pos .f32) (W : FVec Ideal Wt .f32) (b : FVec Ideal Bs .f32)
    (t : Fin 8192) (h : Fin 1024) : EReal :=
  ((∑ k : Fin 512, (E (ix2 (tokRow inp t) k) : EReal) * W (ix2 h ⟨k.val, by omega⟩))
    + ∑ k : Fin 512, (P (ix2 t k) : EReal) * W (ix2 h ⟨512 + k.val, by omega⟩)) + b (ix1 h)

/-- The first result: the sigmoid of the linear layer. -/
def out (inp : IVec Tk 32) (E : FVec Ideal Emb .f32) (P : FVec Ideal Pos .f32) (W : FVec Ideal Wt .f32) (b : FVec Ideal Bs .f32) :
    FVec Ideal Out .f32 :=
  fun j => Ideal.logistic (lin inp E P W b ⟨(j 0).val, idx2_lt0 j⟩ ⟨(j 1).val, idx2_lt1 j⟩)

/-- The mean over the rows, as the host computes it in both programs: the column sums from zero, divided by 8192, reshaped. -/
def meanTail (hred : Out.ReducesTo [0] Bs) (hpos : 0 < Sc.numel) (hb : Sc.BroadcastsInDim Bs (![] : Fin 0 → Fin Bs.rank))
    (hc : Bs.ShapeCasts Hid) (x : FVec Ideal Out .f32) : FVec Ideal Hid .f32 :=
  shapeCast Hid
    (Host.divf (Host.reduceAdd x (constant (F := Ideal) Sc .f32 0x00000000#32) hred hpos)
      (broadcastInDim Bs ![] hb (constant (F := Ideal) Sc .f32 0x46000000#32))) hc

end Cert.Spec

end
-- ==== Proof.RefValue.lean ====
import proofs.«422593_j31129922961550_2_alg».proof.Proof.RefRunP
import proofs.«422593_j31129922961550_2_alg».proof.Proof.RefReadP
import proofs.«422593_j31129922961550_2_alg».proof.Proof.Spec
import Idealize.ShloMosaic.Lib.StableHlo.Predicate
import Mathlib.Algebra.BigOperators.Fin

/-!
  The reference program's two results are the specification's functions of the five argument arrays.

  Under the precondition that every token is below the table's 128000 rows: a token is non-negative as a signed word, so
  the wrap-around select keeps it; the row gather clamps the start index into the table, which leaves it unchanged, and
  reads the table's row the token names; the join along axis 1 reads that row at columns below 512 and the position
  table's row from column 512 on; the contraction against the transposed weights is a sum over 1024 columns that splits
  into the first and the last 512; the negate, exponential, add-one and divide-into-one are the logistic function by
  definition; the scatter of one window that is the whole array replaces the zeros by the rows; and the mean is the same
  host operations applied to the rows.
-/

noncomputable section

namespace Cert.ReferenceIdeal.RefValue

open Cert.ReferenceIdeal Cert.ReferenceIdeal.Gen Idealize.ShloMosaic Idealize.ShloMosaic.ValueIdx

/-! ## A row gather read at an index -/

section Rows
variable {α : Type}

/-- The dimension numbers of a row gather. -/
abbrev rowDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

theorem gather_rows_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (t : Fin R) (k : Fin K) :
    Host.gather (rowDims N K R wf) x idx (ix2 t k)
      = x (ix2 ⟨min (idx (ix2 t (0 : Fin 1))).toInt.toNat (N - 1), by omega⟩ k) := by
  unfold Host.gather
  congr 1
  funext a
  refine Fin.ext ?_
  match a with
  | ⟨0, _⟩ =>
    show (rowDims N K R wf).start (ix2 t k) idx 0 + (rowDims N K R wf).batchCoord (ix2 t k) 0
      + (rowDims N K R wf).offCoord (ix2 t k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K R wf).startIndexMap from List.mem_singleton.mpr rfl)]
    have hsi : (rowDims N K R wf).siIdx (ix2 t k) ⟨List.idxOf (0 : Fin 2) (rowDims N K R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (rowDims N K R wf).start (ix2 t k) idx 1 + (rowDims N K R wf).batchCoord (ix2 t k) 1
      + (rowDims N K R wf).offCoord (ix2 t k) 1 = k.val
    have hs : (rowDims N K R wf).start (ix2 t k) idx 1 = 0 := by
      unfold GatherDims.start
      rw [dif_neg (show ¬ (1 : Fin 2) ∈ ([0] : List (Fin 2)) by decide)]
    have hm : (1 : Fin 2) ∈ (rowDims N K R wf).sKept :=
      (GatherDims.mem_sKept _ _).mpr ⟨show ¬ (1 : Fin 2) ∈ ([0] : List (Fin 2)) by decide, List.not_mem_nil⟩
    have ho : (rowDims N K R wf).offCoord (ix2 t k) 1 = k.val := by
      unfold GatherDims.offCoord
      rw [dif_pos hm]
      rfl
    rw [GatherDims.batchCoord_eq_zero _ _ _ List.not_mem_nil, hs, ho, Nat.zero_add]

end Rows

/-! ## A scatter of one window that is the whole operand -/

section Whole
variable {α : Type}

theorem foldl_overwrite {ι κ : Type} [DecidableEq ι] (e : κ → ι) (upd : ι → α) (l : List κ) (x : ι → α) (i : ι) :
    (l.foldl (fun r n => fun i' => if i' = e n then upd (e n) else r i') x) i
      = if ∃ n ∈ l, e n = i then upd i else x i := by
  induction l generalizing x with
  | nil => simp
  | cons a l ih =>
    rw [List.foldl_cons, ih]
    by_cases h : ∃ n ∈ l, e n = i
    · rw [if_pos h, if_pos (by obtain ⟨n, hn, hn'⟩ := h; exact ⟨n, List.mem_cons_of_mem _ hn, hn'⟩)]
    · rw [if_neg h]
      by_cases ha : i = e a
      · rw [if_pos ha, if_pos ⟨a, List.mem_cons_self, ha.symm⟩, ha]
      · rw [if_neg ha, if_neg]
        rintro ⟨n, hn, hn'⟩
        rcases List.mem_cons.mp hn with rfl | hn
        · exact ha hn'.symm
        · exact h ⟨n, hn, hn'⟩

/-- When every update index lands on itself and the combiner keeps the update, the scatter's result is the updates. -/
theorem scatter_whole {s si : Shape} {w : Nat} (d : ScatterDims s si s) (x : s.Idx → α) (idx : IVec si w)
    (upd : s.Idx → α) (h : ∀ j : s.Idx, d.resultIdx? j idx = some j) :
    Host.scatter d (fun _ b => b) x idx upd = upd := by
  funext i
  unfold Host.scatter
  simp only [h]
  rw [foldl_overwrite (fun n => s.rowMajor.symm n) upd]
  rw [if_pos ⟨s.rowMajor i, List.mem_finRange _, Equiv.symm_apply_apply _ _⟩]

end Whole

theorem ofBits_one_f32 : Ideal.ofBits .f32 0x3F800000#32 = 1 := by
  simp [Ideal.ofBits, Ideal.ieee, -EReal.coe_mul]; norm_num

/-! ## The program's element-picking operations, read at an index -/

/-- A token below the table's size is non-negative as a signed word, so the wrap-around select keeps it. -/
theorem tok_apply (x0 : IVec S8192 32) (hx0 : ∀ j : S8192.Idx, (x0 j).toNat < 128000) (i : S8192.Idx) :
    ReadP.val_main_v4 (F := Ideal) x0 i = x0 i := by
  rw [ReadP.val_main_v4_apply, ReadP.val_main_v1_apply, ReadP.val_main_v0_apply, ReadP.val_main_c_0_apply]
  have h : IntOp.cmpi .slt (x0 i) 0#32 = 0#1 := by
    apply eq_zero_of_ne_one
    intro h1
    have h2 := (StableHlo.Predicate.slt_iff_toNat (by have := hx0 i; omega) (by decide)).mp h1
    simp at h2
  rw [h, select_zero]

/-- The gathered rows: row `t` is the table's row the token names. -/
theorem emb_apply (x0 : IVec S8192 32) (x1 : FVec Ideal S128000x512 .f32)
    (hx0 : ∀ j : S8192.Idx, (x0 j).toNat < 128000) (t : Fin 8192) (k : Fin 512) :
    ReadP.val_main_v6 (F := Ideal) x0 x1 (ix2 t k) = x1 (ix2 (Cert.Spec.tokRow x0 t) k) := by
  unfold ReadP.val_main_v6
  refine (gather_rows_apply (by decide) gather_S128000x512_S8192x1_S8192x512_1_0_n_n_0_1_1512_wf x1
    (ReadP.val_main_v5 (F := Ideal) x0) t k).trans ?_
  refine congrArg x1 (congrArg (fun a => ix2 a k) (Fin.ext ?_))
  have h5 : ReadP.val_main_v5 (F := Ideal) x0 (ix2 t (0 : Fin 1)) = x0 (ix1 t) := by
    rw [ReadP.val_main_v5_apply, tok_apply x0 hx0]
    exact congrArg x0 (funext fun a => Fin.ext (by match a with | ⟨0, _⟩ => rfl))
  show min (ReadP.val_main_v5 (F := Ideal) x0 (ix2 t (0 : Fin 1))).toInt.toNat (128000 - 1) = min (x0 (ix1 t)).toNat 127999
  rw [h5, StableHlo.Predicate.toInt_eq_toNat_of_lt (by have := hx0 (ix1 t); omega), Int.toNat_natCast]

/-- The joined rows, first half: the gathered row. -/
theorem cat_left (x0 : IVec S8192 32) (x1 : FVec Ideal S128000x512 .f32) (x2 : FVec Ideal S8192x512 .f32)
    (t : Fin 8192) (k : Fin 512) :
    ReadP.val_main_v7 (F := Ideal) x0 x1 x2 (ix2 t (⟨k.val, by omega⟩ : Fin 1024))
      = ReadP.val_main_v6 (F := Ideal) x0 x1 (ix2 t k) := by
  unfold ReadP.val_main_v7
  generalize ReadP.val_main_v6 (F := Ideal) x0 x1 = y
  exact concatenate_pair_apply_left 1 y x2 concatenates_S8192x512_S8192x512_S8192x1024_d1 _ rfl (ix2 t k)
    (fun b => by match b with | ⟨0, _⟩ => rfl | ⟨1, _⟩ => rfl)

/-- The joined rows, second half: the position table's row. -/
theorem cat_right (x0 : IVec S8192 32) (x1 : FVec Ideal S128000x512 .f32) (x2 : FVec Ideal S8192x512 .f32)
    (t : Fin 8192) (k : Fin 512) :
    ReadP.val_main_v7 (F := Ideal) x0 x1 x2 (ix2 t (⟨512 + k.val, by omega⟩ : Fin 1024)) = x2 (ix2 t k) := by
  unfold ReadP.val_main_v7
  generalize ReadP.val_main_v6 (F := Ideal) x0 x1 = y
  exact concatenate_pair_apply_right 1 y x2 concatenates_S8192x512_S8192x512_S8192x1024_d1 _ rfl rfl (ix2 t k)
    (fun b hb => by
      match b, hb with
      | ⟨0, _⟩, _ => rfl
      | ⟨1, _⟩, hb => exact absurd rfl hb)
    (by show k.val + 512 = 512 + k.val; omega)

/-- Every update index of the whole-array window lands on itself. -/
theorem resultIdx_self (j : S8192x1024.Idx) (idx : IVec S0 32) :
    scatter_S8192x1024_S0_S8192x1024_01_n_n_0.resultIdx? j idx = some j := by
  have hs : ∀ a, scatter_S8192x1024_S0_S8192x1024_01_n_n_0.start j idx a = 0 := fun a => by
    unfold ScatterDims.start
    rw [dif_neg (show ¬ a ∈ scatter_S8192x1024_S0_S8192x1024_01_n_n_0.scatterDimsToOperandDims from List.not_mem_nil)]
  have hw : ∀ a, scatter_S8192x1024_S0_S8192x1024_01_n_n_0.window j a = (j a).val := fun a => by
    match a with
    | ⟨0, _⟩ => rfl
    | ⟨1, _⟩ => rfl
  unfold ScatterDims.resultIdx?
  rw [dif_pos (fun a => by rw [hs a, hw a]; have := (j a).isLt; constructor <;> omega)]
  refine congrArg some (funext fun a => Fin.ext ?_)
  show (scatter_S8192x1024_S0_S8192x1024_01_n_n_0.start j idx a
    + (scatter_S8192x1024_S0_S8192x1024_01_n_n_0.window j a : Int)).toNat = (j a).val
  rw [hs a, hw a]; omega

/-! ## The two results -/

/-- The linear layer: the contraction over the 1024 joined columns splits into the token's 512 and the position's 512. -/
theorem lin_apply (x0 : IVec S8192 32) (x1 : FVec Ideal S128000x512 .f32) (x2 : FVec Ideal S8192x512 .f32)
    (x3 : FVec Ideal S1024x1024 .f32) (x4 : FVec Ideal S1024 .f32)
    (hx0 : ∀ j : S8192.Idx, (x0 j).toNat < 128000) (t : Fin 8192) (h : Fin 1024) :
    ReadP.val_main_v12 (F := Ideal) x0 x1 x2 x3 x4 (ix2 t h) = Cert.Spec.lin x0 x1 x2 x3 x4 t h := by
  rw [ReadP.val_main_v12_apply, ReadP.val_main_v9_apply, ReadP.val_main_v11_apply, ReadP.val_main_v10_apply, Ideal.addf_def]
  unfold Cert.Spec.lin
  congr 1
  · refine (Fin.sum_univ_add (a := 512) (b := 512) (fun k : Fin (512 + 512) =>
      ReadP.val_main_v7 (F := Ideal) x0 x1 x2 (ReadP.lidx_main_v9 (ix2 t h) k)
        * ReadP.val_main_v8 (F := Ideal) x3 (ReadP.ridx_main_v9 (ix2 t h) k))).trans ?_
    congr 1
    · refine Finset.sum_congr rfl fun k _ => ?_
      have el : ReadP.lidx_main_v9 (ix2 t h) (Fin.castAdd 512 k) = ix2 t (⟨k.val, by omega⟩ : Fin 1024) :=
        funext fun a => Fin.ext (by match a with | ⟨0, _⟩ => rfl | ⟨1, _⟩ => rfl)
      have er : ReadP.idx_main_v8 (ReadP.ridx_main_v9 (ix2 t h) (Fin.castAdd 512 k)) = ix2 h (⟨k.val, by omega⟩ : Fin 1024) :=
        funext fun a => Fin.ext (by match a with | ⟨0, _⟩ => rfl | ⟨1, _⟩ => rfl)
      rw [ReadP.val_main_v8_apply, el, er, cat_left, emb_apply x0 x1 hx0]
    · refine Finset.sum_congr rfl fun k _ => ?_
      have el : ReadP.lidx_main_v9 (ix2 t h) (Fin.natAdd 512 k) = ix2 t (⟨512 + k.val, by omega⟩ : Fin 1024) :=
        funext fun a => Fin.ext (by match a with | ⟨0, _⟩ => rfl | ⟨1, _⟩ => rfl)
      have er : ReadP.idx_main_v8 (ReadP.ridx_main_v9 (ix2 t h) (Fin.natAdd 512 k)) = ix2 h (⟨512 + k.val, by omega⟩ : Fin 1024) :=
        funext fun a => Fin.ext (by match a with | ⟨0, _⟩ => rfl | ⟨1, _⟩ => rfl)
      rw [ReadP.val_main_v8_apply, el, er, cat_right]
  · exact congrArg x4 (funext fun a => Fin.ext (by match a with | ⟨0, _⟩ => rfl))

/-- rows before the scatter -/
theorem rows_eq (x0 : IVec S8192 32) (x1 : FVec Ideal S128000x512 .f32) (x2 : FVec Ideal S8192x512 .f32)
    (x3 : FVec Ideal S1024x1024 .f32) (x4 : FVec Ideal S1024 .f32)
    (hx0 : ∀ j : S8192.Idx, (x0 j).toNat < 128000) :
    ReadP.val_main_v18 (F := Ideal) x0 x1 x2 x3 x4 = Cert.Spec.out x0 x1 x2 x3 x4 := by
  funext j
  obtain ⟨t, h, rfl⟩ : ∃ (t : Fin 8192) (h : Fin 1024), j = ix2 t h := ⟨j 0, j 1, eq_ix2 j⟩
  rw [ReadP.val_main_v18_apply, ReadP.val_main_v17_apply, ReadP.val_main_cst_2_apply, ReadP.val_main_v16_apply,
    ReadP.val_main_v15_apply, ReadP.val_main_cst_apply, ReadP.val_main_v14_apply, ReadP.val_main_v13_apply,
    lin_apply x0 x1 x2 x3 x4 hx0 t h]
  simp only [Ideal.hostDivf_def, Ideal.ofBits_def, ofBits_one_f32, Ideal.addf_def, Ideal.hostUnary_exp_def,
    Ideal.hostNegf_def, Ideal.negf_def]
  rfl

/-- the first result: one window, the whole array, replaces the zeros by the rows -/
theorem out_eq (x0 : IVec S8192 32) (x1 : FVec Ideal S128000x512 .f32) (x2 : FVec Ideal S8192x512 .f32)
    (x3 : FVec Ideal S1024x1024 .f32) (x4 : FVec Ideal S1024 .f32)
    (hx0 : ∀ j : S8192.Idx, (x0 j).toNat < 128000) :
    ReadP.val_main_v20 (F := Ideal) x0 x1 x2 x3 x4 = Cert.Spec.out x0 x1 x2 x3 x4 := by
  rw [← rows_eq x0 x1 x2 x3 x4 hx0]
  unfold ReadP.val_main_v20
  generalize ReadP.val_main_v18 (F := Ideal) x0 x1 x2 x3 x4 = y
  exact scatter_whole _ _ _ y (fun j => resultIdx_self j _)

/-- the second result: the same host operations applied to the rows -/
theorem hid_eq (x0 : IVec S8192 32) (x1 : FVec Ideal S128000x512 .f32) (x2 : FVec Ideal S8192x512 .f32)
    (x3 : FVec Ideal S1024x1024 .f32) (x4 : FVec Ideal S1024 .f32)
    (hx0 : ∀ j : S8192.Idx, (x0 j).toNat < 128000) :
    ReadP.val_main_v24 (F := Ideal) x0 x1 x2 x3 x4
      = Cert.Spec.meanTail reducesTo_S8192x1024_S1024_d0 h_S_ bcast_S_S1024 shapeCasts_S1024_S1x1x1024
          (Cert.Spec.out x0 x1 x2 x3 x4) := by
  rw [← rows_eq x0 x1 x2 x3 x4 hx0]
  unfold ReadP.val_main_v24 ReadP.val_main_v23 ReadP.val_main_v21 ReadP.val_main_v22 ReadP.val_main_cst_4
    ReadP.val_main_cst_5 Cert.Spec.meanTail
  generalize ReadP.val_main_v18 (F := Ideal) x0 x1 x2 x3 x4 = y
  rfl

/-! ## The run -/

section Run
open Idealize.ShloMosaic.TcCoe Idealize.SL.Sem

/-- the run: every weakly fair execution ends with the two results at the specification and the arguments unchanged -/
theorem ref_run (m' : (ℓ : Loc nD τ sig) → Buf (Elt Ideal) ℓ) (ρ' : Dev nD → PrngReg)
    (hx0 : ∀ (c : Dev nD) (j : S8192.Idx), (m' ((c.tc : Thread nD τ).loc main_arg0) j).toNat < 128000) :
    θ_run (defs (F := Ideal)) (onTc (τ := τ) (main (F := Ideal))) ⟨m', fun _ => 0, ρ'⟩ (fun r => ∀ c : Dev nD,
      r.2.mem ((c.tc : Thread nD τ).loc main_v20) = Cert.Spec.out (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v24) = Cert.Spec.meanTail reducesTo_S8192x1024_S1024_d0 h_S_ bcast_S_S1024 shapeCasts_S1024_S1x1x1024 (Cert.Spec.out (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun _ h c =>
    ⟨(h c).1.trans ((ReadP.val_main_v20_eq _ _ _ _ _).trans (out_eq _ _ _ _ _ (hx0 c))),
      (h c).2.1.trans ((ReadP.val_main_v24_eq _ _ _ _ _).trans (hid_eq _ _ _ _ _ (hx0 c))),
      (h c).2.2⟩)
    (ValueP.run m' ρ')

end Run

end Cert.ReferenceIdeal.RefValue

end
-- ==== Proof.Chain.lean ====
import Idealize.ShloMosaic.Lib.Tactic

/-!
  Two small conveniences for a kernel that owns a long array of semaphore cells: a separating conjunction written
  once over a numeral range, and the matching introduction and hand-back of its conjuncts by name.
-/

open Lean Elab Tactic
open Idealize.SL Idealize.SL.BI
open scoped Idealize.SL.BI

namespace Cert.Chain

/-- `sepchain% lo hi k => body`: the right-nested conjunction `body[k := lo] ∗ … ∗ body[k := hi - 1]`, each `k` a numeral. -/
macro "sepchain% " lo:num hi:num k:ident " => " b:term : term => do
  let inst (n : Nat) : MacroM Term := do
    let lit := Syntax.mkNumLit (toString n)
    let r ← b.raw.replaceM fun s => pure (if s.isIdent && s.getId == k.getId then some lit else none)
    pure ⟨r⟩
  let lo := lo.getNat
  let hi := hi.getNat
  if hi ≤ lo then Macro.throwError "sepchain%: empty range"
  let mut acc ← inst (hi - 1)
  for j in [0 : hi - 1 - lo] do
    let a ← inst (hi - 2 - j)
    acc ← `(BIBase.sep $a $acc)
  pure acc

private def runTac (s : String) : TacticM Unit := do
  match Parser.runParserCategory (← getEnv) `tactic s with
  | .ok stx => evalTactic stx
  | .error e => throwError "{e}\n{s}"

/-- `icases_range H P lo hi`: splits the chain `H` into `P<lo> … P<hi-1>`. -/
elab "icases_range " h:ident p:ident lo:num hi:num : tactic => do
  let names := (List.range (hi.getNat - lo.getNat)).map fun k => s!"{p.getId}{k + lo.getNat}"
  runTac s!"icases {h.getId} with ⟨{", ".intercalate names}⟩"

/-- `iexact_range P lo hi`: closes a goal that is the chain of `P<lo> … P<hi-1>`'s propositions, each by its hypothesis. -/
elab "iexact_range " p:ident lo:num hi:num : tactic => do
  let lo := lo.getNat
  let hi := hi.getNat
  for n in [lo : hi - 1] do
    runTac s!"isplitl [{p.getId}{n}]"
    runTac s!"focus iexact {p.getId}{n}"
  runTac s!"iexact {p.getId}{hi - 1}"

/-- `irange_tac "text" P lo hi`: runs the tactic `text` with each `@@` in it replaced by the names `P<lo> … P<hi-1>`, space separated. -/
elab "irange_tac " t:str p:ident lo:num hi:num : tactic => do
  let names := (List.range (hi.getNat - lo.getNat)).map fun k => s!"{p.getId}{k + lo.getNat}"
  runTac (t.getString.replace "@@" (" ".intercalate names))

end Cert.Chain
-- ==== Proof.KI.Base.lean ====
import proofs.«422593_j31129922961550_2_alg».proof.Proof.Gen.KernelIdeal.Skeleton
import proofs.«422593_j31129922961550_2_alg».proof.Proof.Gen.KernelIdeal.Launch
import proofs.«422593_j31129922961550_2_alg».proof.Proof.Chain
import Idealize.ShloMosaic.Lib.Tactic
import Idealize.ShloMosaic.Lib.Transfers
import Idealize.ShloMosaic.Lib.Pipeline.Frame

noncomputable section

namespace Cert.KernelIdeal.Body

open Cert.KernelIdeal Cert.KernelIdeal.Gen Cert.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A memref's buffer on core `c`: its contents type, and the buffer held whole at share `q` with contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Bf (F := F) c M) : sProp 𝕄 :=
  M.view.loc (c : Thread nD τ) ↦{q} f

/-- The token table in scalar memory, the embedding table left in HBM, and the kernel's row buffer. -/
abbrev tabM : Memref sig .tc .smem S8192 .i32 := Memref.whole main_arg0
abbrev embM : Memref sig .tc .hbm S128000x512 .f32 := Memref.whole main_arg1
abbrev scrM : Memref sig .tc .vmem S256x512 .f32 := Memref.whole cc0_scratch0

/-- A token below the vocabulary size names a whole row of the embedding table. -/
theorem chk_row (v : BitVec 32) (h : v.toNat < 128000) :
    ∀ a : Fin 2, (![v.toNat, 0] : Fin 2 → Nat) a + S1x512.size a ≤ S128000x512.size a := by
  intro a; fin_cases a
  · show v.toNat + 1 ≤ 128000; omega
  · show 0 + 512 ≤ 512; omega

end Cert.KernelIdeal.Body

end
-- ==== Proof.KI.Rows.lean ====
import proofs.«422593_j31129922961550_2_alg».proof.Proof.KI.Base
import Idealize.ShloMosaic.Lib.Pipeline.Kit
import Idealize.ShloMosaic.Lib.Writes
import Idealize.ShloMosaic.Lib.ValueIdx
import Idealize.ShloMosaic.Lib.Exec.Geometry

/-!
  The kernel's row buffer held row by row.

  The buffer is 256 rows of 512 elements; the body copies one table row into each through its own one-row view, the row
  at offset `(j, 0)` of size `1 × 512` read as a vector of 512. The rows' element sets partition the buffer's index
  set — an index lies in row `j` exactly when its first coordinate is `j` — so the buffer held whole is the 256 rows held
  each by its own elements at the same contents, and 256 rows held at whatever contents join into the whole buffer at
  contents that agree with each row's on that row. A row written whole with a vector `p` reads `p k` at column `k`, and
  the vector a copy carries out of row `r` of the table is that row of the table's contents.
-/

noncomputable section

namespace Cert.KernelIdeal.Rows

open Cert.KernelIdeal Cert.KernelIdeal.Gen Cert.KernelIdeal.Body Cert.Chain
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A memref's elements held by exactly themselves, at share `q` and contents `f`. -/
abbrev ptOwn (c : Dev nD) {sp : Space} {S : Shape} {e : EltTy} (M : Memref sig .tc sp S e) (q : PosShare TreeShare)
    (f : Bf (F := F) c M) : sProp 𝕄 :=
  M.view.loc (c : Thread nD τ) ↦[M.view.set]{q} f

/-! ## One row of a table of rows of 512, as a vector -/

section RowView
variable {κ : Kind} {sp : Space} {e : EltTy} {N : Nat}

/-- Row `r` lies inside a table of `N` rows when `r < N`. -/
theorem inb_row (r : Nat) (hr : r < N) :
    ∀ a : Fin 2, (![r, 0] : Fin 2 → Nat) a + S1x512.size a ≤ (⟨2, ![N, 512]⟩ : Shape).size a := by
  intro a; fin_cases a
  · show r + 1 ≤ N; omega
  · show 0 + 512 ≤ 512; omega

/-- Element `k` of row `r` read as a vector is element `(r, k)` of the table. -/
theorem rowView_emb (v : View sig κ sp ⟨2, ![N, 512]⟩ e) (r : Nat) (hr : r < N)
    (h : ∀ a : Fin 2, (![r, 0] : Fin 2 → Nat) a + S1x512.size a ≤ (⟨2, ![N, 512]⟩ : Shape).size a)
    (hs : S512.numel = S1x512.numel) (k : Fin 512) :
    ((v.slice (Rect.unit (s := ⟨2, ![N, 512]⟩) ![r, 0] S1x512.size h)).reshape S512 hs).emb (ix1 k)
      = v.emb (ix2 (⟨r, hr⟩ : Fin N) k) := by
  have e1 : Shape.reshapeEquiv hs (ix1 k) = (ix2 (0 : Fin 1) k : S1x512.Idx) :=
    Shape.reshapeEquiv_eq_of_rowMajor hs (by
      rw [Shape.rowMajor_val_one, Shape.rowMajor_val_two]
      show (0 : Nat) * 512 + k.val = k.val
      omega)
  rw [View.emb_reshape, View.emb_slice]
  show v.emb ((Rect.unit (s := ⟨2, ![N, 512]⟩) ![r, 0] S1x512.size h).emb (Shape.reshapeEquiv hs (ix1 k))) = _
  rw [e1]
  refine congrArg v.emb (funext fun a => Fin.ext ?_)
  rw [Rect.emb_apply]
  match a with
  | ⟨0, _⟩ => show r + 1 * 0 = r; omega
  | ⟨1, _⟩ => show 0 + 1 * k.val = k.val; omega

end RowView

/-! ## The rows of the buffer -/

/-- Row `n` of the buffer as the body names it: the slice at `(n, 0)` of size `1 × 512`, squeezed to a vector. -/
abbrev rowLit (n : Nat) (hn : n < 256 := by decide) : Memref sig .tc .vmem S512 .f32 :=
  (scrM.slice (Rect.unit (s := S256x512) ![n, 0] S1x512.size (inb_row n hn)) (fun _ => rfl)).squeeze S512 squeezes_S1x512_S512

/-- The same at a row number below 256. -/
abbrev rowAt (j : Fin 256) : Memref sig .tc .vmem S512 .f32 := rowLit j.val j.isLt

/-- Its elements, as a set of the buffer's indices. -/
abbrev rowSet (j : Fin 256) : Finset S256x512.Idx := (rowAt j).view.set

/-- Row `n` held by exactly its own elements, outright, at contents `f` of the buffer. -/
abbrev ptRow (c : Dev nD) (f : Bf (F := F) c scrM) (n : Nat) (hn : n < 256 := by decide) : sProp 𝕄 :=
  ptOwn c (rowLit n hn) fullShare f

/-- The buffer's contents `fs` with the vector `p` written over row `n`, as one piece. -/
abbrev rowW (c : Dev nD) (fs : Bf (F := F) c scrM) (p : S512.Idx → Elt F .f32) (n : Nat) (hn : n < 256 := by decide) :
    Bf (F := F) c scrM :=
  (rowLit n hn).view.writes (Elt F) fs [⟨Rect.whole S512, p⟩]

/-- The buffer's contents whose row `j` is the vector `p j`. -/
def rowsFn (c : Dev nD) (p : Fin 256 → S512.Idx → Elt F .f32) : Bf (F := F) c scrM :=
  show S256x512.Idx → Elt F .f32 from fun idx => p ⟨(idx 0).val, idx2_lt0 idx⟩ (ix1 ⟨(idx 1).val, idx2_lt1 idx⟩)

/-- An index lies in row `j` exactly when its first coordinate is `j`. -/
theorem mem_rowAt (j : Fin 256) (i : S256x512.Idx) : i ∈ (rowAt j).view.set ↔ (i 0).val = j.val := by
  rw [show (rowAt j).view.set = (Rect.unit (s := S256x512) ![j.val, 0] S1x512.size (inb_row j.val j.isLt)).set from by
    show (((View.whole cc0_scratch0).slice (Rect.unit (s := S256x512) ![j.val, 0] S1x512.size (inb_row j.val j.isLt))).reshape S512 _).set = _
    rw [View.set_reshape, View.set_slice_whole]]
  rw [Rect.mem_set_unit]
  constructor
  · intro h; have := h 0; change j.val ≤ (i 0).val ∧ (i 0).val < j.val + 1 at this; omega
  · intro h a; fin_cases a
    · change j.val ≤ (i 0).val ∧ (i 0).val < j.val + 1; omega
    · change 0 ≤ (i 1).val ∧ (i 1).val < 0 + 512; have := (i 1).isLt; change (i 1).val < 512 at this; omega

/-- Two rows share no element. -/
theorem rowSet_disjoint : ∀ j ∈ (Finset.univ : Finset (Fin 256)), ∀ j' ∈ (Finset.univ : Finset (Fin 256)), j ≠ j' →
    Disjoint (rowSet j) (rowSet j') := fun j _ j' _ hjj' =>
  Finset.disjoint_left.mpr fun i hi hi' => hjj' (Fin.ext (((mem_rowAt j i).mp hi).symm.trans ((mem_rowAt j' i).mp hi')))

/-- The rows cover the buffer. -/
theorem rowSet_cover : (Finset.univ : Finset (Fin 256)).biUnion rowSet = Finset.univ := by
  ext i
  simp only [Finset.mem_biUnion, Finset.mem_univ, true_and, iff_true]
  exact ⟨⟨(i 0).val, (i 0).isLt⟩, (mem_rowAt _ i).mpr rfl⟩

/-- A conjunction over the 256 row numbers is the chain of its 256 conjuncts, the row's number a numeral. -/
theorem rows_chain_nat (Ψ : (n : Nat) → n < 256 → sProp 𝕄) :
    bigSep Finset.univ (fun j : Fin 256 => Ψ j.val j.isLt) = (sepchain% 0 256 k => Ψ k (by decide)) :=
  Idealize.SL.BI.bigSep_univ_eq_bigSepL (List.finRange 256) (List.toFinset_finRange _).symm (List.nodup_finRange _)
    (fun j : Fin 256 => Ψ j.val j.isLt)

set_option backward.isDefEq.respectTransparency.types false in
/-- The buffer held whole is its 256 rows held each by its own elements, at the same contents. -/
theorem rows_whole (c : Dev nD) (f : Bf (F := F) c scrM) :
    (pt c scrM fullShare f : sProp 𝕄) = (sepchain% 0 256 k => ptRow c f k) := by
  have h1 : (pt c scrM fullShare f : sProp 𝕄)
      = bigSep Finset.univ (fun j : Fin 256 => (scrM.view.loc (c : Thread nD τ) ↦[rowSet j]{fullShare} f : sProp 𝕄)) := by
    show (scrM.view.loc (c : Thread nD τ) ↦[Finset.univ]{fullShare} f : sProp 𝕄) = _
    rw [← rowSet_cover]
    exact pointsTo_biUnion (Ix := Unit) (Name := ℕ) (U := Pipeline.UD sig nD τ) (Lvl := ℕ) (Val := Elt F)
      (ℓ := scrM.view.loc (c : Thread nD τ)) (q := fullShare) (f := f) Finset.univ rowSet rowSet_disjoint
  have h2 : (fun j : Fin 256 => (scrM.view.loc (c : Thread nD τ) ↦[rowSet j]{fullShare} f : sProp 𝕄))
      = (fun j : Fin 256 => ptRow c f j.val j.isLt) := funext fun j => rfl
  rw [h1, h2]
  exact rows_chain_nat (fun n hn => ptRow c f n hn)

/-- The split going in: the buffer held whole hands out its 256 rows. -/
theorem scr_split (c : Dev nD) (fs : Bf (F := F) c scrM) :
    (pt c scrM fullShare fs : sProp 𝕄) ⊢ (sepchain% 0 256 k => ptRow c fs k) :=
  Entails.of_eq (rows_whole c fs)

/-! ## Values -/

/-- A row written whole with the vector `p` holds `p k` at column `k`. -/
theorem row_writes_apply (c : Dev nD) (j : Fin 256) (fs : Bf (F := F) c scrM) (p : S512.Idx → Elt F .f32) (k : Fin 512) :
    rowW c fs p j.val j.isLt (ix2 j k) = p (ix1 k) := by
  show (rowAt j).view.writes (Elt F) fs [⟨Rect.whole S512, p⟩] (ix2 j k) = p (ix1 k)
  rw [← View.write_univ_eq_writes_whole (rowAt j).view fs [] p]
  show (rowAt j).view.write (Elt F) fs p Finset.univ (ix2 j k) = p (ix1 k)
  have he : (rowAt j).view.emb (ix1 k) = ix2 j k :=
    rowView_emb (View.whole cc0_scratch0) j.val j.isLt (inb_row j.val j.isLt) _ k
  rw [← he]
  exact View.write_emb_of_mem (v := (rowAt j).view) fs p (Finset.mem_univ (ix1 k))

/-- On row `j`'s elements, the buffer with `p j` written over that row is the buffer whose rows are the `p`. -/
theorem rowW_eq_rowsFn (c : Dev nD) (fs : Bf (F := F) c scrM) (p : Fin 256 → S512.Idx → Elt F .f32) (j : Fin 256)
    (i : S256x512.Idx) (hi : i ∈ rowSet j) : rowW c fs (p j) j.val j.isLt i = rowsFn c p i := by
  obtain ⟨a, b, rfl⟩ : ∃ (a : Fin 256) (b : Fin 512), i = ix2 a b := ⟨i 0, i 1, eq_ix2 i⟩
  obtain rfl : a = j := Fin.ext ((mem_rowAt j _).mp hi)
  rw [row_writes_apply c a fs (p a) b]
  rfl

set_option backward.isDefEq.respectTransparency.types false in
/-- The join coming out: the 256 rows, each with its vector landed in it, are the buffer held whole at the contents
    whose rows are those vectors. -/
theorem rows_join_val (c : Dev nD) (fs : Bf (F := F) c scrM) (p : Fin 256 → S512.Idx → Elt F .f32) :
    (sepchain% 0 256 k => ptRow c (rowW c fs (p k) k) k) ⊢ (pt c scrM fullShare (rowsFn c p) : sProp 𝕄) := by
  have h0 : (sepchain% 0 256 k => ptRow c (rowW c fs (p k) k) k)
      = bigSep Finset.univ (fun j : Fin 256 => ptRow c (rowW c fs (p ⟨j.val, j.isLt⟩) j.val j.isLt) j.val j.isLt) :=
    (rows_chain_nat (fun n hn => ptRow c (rowW c fs (p ⟨n, hn⟩) n hn) n hn)).symm
  have h1 : (fun j : Fin 256 => ptRow c (rowW c fs (p ⟨j.val, j.isLt⟩) j.val j.isLt) j.val j.isLt)
      = (fun j : Fin 256 => ptRow c (rowsFn c p) j.val j.isLt) := funext fun j =>
    pointsTo_congr (Ix := Unit) (Name := ℕ) (U := Pipeline.UD sig nD τ) (Lvl := ℕ) (Val := Elt F)
      (ℓ := scrM.view.loc (c : Thread nD τ)) (I := rowSet j) (q := fullShare) (fun i hi => rowW_eq_rowsFn c fs p j i hi)
  exact Entails.of_eq (h0.trans ((congrArg (bigSep Finset.univ) h1).trans
    ((rows_chain_nat (fun n hn => ptRow c (rowsFn c p) n hn)).trans (rows_whole c (rowsFn c p)).symm)))

/-- The vector a copy carries out of row `r` of the embedding table: that row of the table's contents. -/
theorem src_row_read (c : Dev nD) (fw : Bf (F := F) c embM) (r : Nat) (hr : r < 128000)
    (h : ∀ a : Fin 2, (![r, 0] : Fin 2 → Nat) a + S1x512.size a ≤ S128000x512.size a) (k : Fin 512) :
    ReadAs.same.apply (View.read (Elt F)
        ((embM.slice (Rect.unit (s := S128000x512) ![r, 0] S1x512.size h) (fun _ => rfl)).squeeze S512 squeezes_S1x512_S512).view fw)
        (ix1 k)
      = fw (ix2 (⟨r, hr⟩ : Fin 128000) k) := by
  show fw (((embM.slice (Rect.unit (s := S128000x512) ![r, 0] S1x512.size h) (fun _ => rfl)).squeeze S512 squeezes_S1x512_S512).view.emb (ix1 k)) = _
  exact congrArg fw (rowView_emb (View.whole main_arg1) r hr h _ k)

/-! ## The vectors the copies carry -/

/-- The offset of row `j`'s token in the table, as the body computes it: `256 · i + j` in 32-bit words. -/
def tokOff (i : grid0.Coords) (j : Fin 256) : Fin 1 → Nat :=
  ![(Scalar.indexCast (Scalar.addi (Scalar.muli (BitVec.ofNat 32 (i 0).val) 256#32) (BitVec.ofNat 32 j.val))).toNat]

/-- No word overflows: the offset is `256 · i + j`. -/
theorem tokOff_val (i : grid0.Coords) (j : Fin 256) : tokOff i j 0 = 256 * (i 0).val + j.val := by
  have hi : (i 0).val < 32 := (i 0).isLt
  have hj := j.isLt
  show (Scalar.indexCast (Scalar.addi (Scalar.muli (BitVec.ofNat 32 (i 0).val) 256#32) (BitVec.ofNat 32 j.val))).toNat = _
  simp only [Scalar.indexCast, Scalar.addi, Scalar.muli, IntOp.addi, IntOp.muli, BitVec.toNat_add, BitVec.toNat_mul,
    BitVec.toNat_ofNat]
  omega

/-- The offset lies inside the table of 8192 tokens. -/
theorem tokOff_inb (i : grid0.Coords) (j : Fin 256) : ∀ a, tokOff i j a + S1.size a ≤ S8192.size a := by
  intro a
  obtain rfl : a = 0 := Subsingleton.elim _ _
  have hi : (i 0).val < 32 := (i 0).isLt
  have hj := j.isLt
  rw [tokOff_val]
  show 256 * (i 0).val + j.val + 1 ≤ 8192
  omega

section Payload

variable (c : Dev nD) (i : grid0.Coords) (ftab : Bf (F := F) c tabM)
  (hidx : ∀ j : S8192.Idx, (tabM.view.read (Elt F) ftab j).toNat < 128000) (fw : Bf (F := F) c embM)

/-- Row `j`'s token: the table's word at that offset, as the body's scalar load reads it. -/
def tokAt (j : Fin 256) : Elt F .i32 :=
  View.readAt (Elt F) tabM.view (Rect.unit (s := S8192) (tokOff i j) S1.size (tokOff_inb i j)).toLoadRect ftab
    (Shape.Idx.first (show 0 < S1.numel by decide))

/-- It is the table's entry `256 · i + j`. -/
theorem tokAt_eq (j : Fin 256) :
    tokAt c i ftab j = tabM.view.read (Elt F) ftab (ix1 (⟨256 * (i 0).val + j.val, by
      have hi : (i 0).val < 32 := (i 0).isLt
      have hj := j.isLt
      omega⟩ : Fin 8192)) := by
  unfold tokAt
  rw [View.readAt_apply]
  refine congrArg (tabM.view.read (Elt F) ftab) (funext fun a => Fin.ext ?_)
  obtain rfl : a = 0 := Subsingleton.elim _ _
  rw [LoadRect.idx_apply]
  show tokOff i j 0 + 1 * 0 = 256 * (i 0).val + j.val
  rw [tokOff_val]; omega

include hidx in
/-- So it is below the table's 128000 rows. -/
theorem tokAt_lt (j : Fin 256) : (tokAt c i ftab j).toNat < 128000 := by
  rw [tokAt_eq]; exact hidx _

/-- The vector row `j`'s copy carries: the embedding table's row its token names, read as a vector of 512. -/
def P (j : Fin 256) : S512.Idx → Elt F .f32 :=
  ReadAs.same.apply (View.read (Elt F)
    ((embM.slice (Rect.unit (s := S128000x512) ![(tokAt c i ftab j).toNat, 0] S1x512.size
        (chk_row (tokAt c i ftab j) (tokAt_lt c i ftab hidx j))) (fun _ => rfl)).squeeze S512 squeezes_S1x512_S512).view fw)

/-- Its entry `k` is entry `(token, k)` of the embedding table. -/
theorem P_apply (j : Fin 256) (k : Fin 512) :
    P c i ftab hidx fw j (ix1 k) = fw (ix2 (⟨(tokAt c i ftab j).toNat, tokAt_lt c i ftab hidx j⟩ : Fin 128000) k) :=
  src_row_read c fw (tokAt c i ftab j).toNat (tokAt_lt c i ftab hidx j) _ k

end Payload

/-- The buffer whose rows are the vectors `p`, read at `(j, k)`. -/
theorem rowsFn_apply (c : Dev nD) (p : Fin 256 → S512.Idx → Elt F .f32) (j : Fin 256) (k : Fin 512) :
    scrM.view.read (Elt F) (rowsFn c p) (ix2 j k) = p j (ix1 k) := rfl

end Cert.KernelIdeal.Rows

end
-- ==== Proof.KI.Body.lean ====
import proofs.«422593_j31129922961550_2_alg».proof.Proof.KI.Base
import proofs.«422593_j31129922961550_2_alg».proof.Proof.KI.Rows

noncomputable section

namespace Cert.KernelIdeal.Body

open Cert.KernelIdeal Cert.KernelIdeal.Gen Cert.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 0 in
/-- What the body leaves in the output block's buffer, WITH the proof that the body runs: from the four input blocks at
    their contents, the output block's and the row buffer at anything, the token table (its read half) with every token
    below the vocabulary size, the embedding table as 263 read shares and their remainder, the kernel's 256 cells at
    zero and what the core owes, the kernel runs to its return handing everything back as it was but the output block,
    which holds the witness, and the row buffer, which holds something. -/
noncomputable def kernelRun [∀ e, Nonempty (Elt F e)] (c : Dev nD) (i : grid0.Coords)
    (M3 : Memref sig .tc .vmem S256x512 .f32) (h3 : M3.IsWhole) (M4 : Memref sig .tc .vmem S512x1024 .bf16) (h4 : M4.IsWhole)
    (M5 : Memref sig .tc .vmem S512x1024 .bf16) (h5 : M5.IsWhole) (M6 : Memref sig .tc .vmem S1x1024 .f32) (h6 : M6.IsWhole)
    (M7 : Memref sig .tc .vmem S256x1024 .f32) (h7 : M7.IsWhole)
    (ftab : Bf (F := F) c tabM) (hidx : ∀ j : S8192.Idx, (tabM.view.read (Elt F) ftab j).toNat < 128000)
    (fw : Bf (F := F) c embM) (f3 : Bf (F := F) c M3) (f4 : Bf (F := F) c M4) (f5 : Bf (F := F) c M5) (f6 : Bf (F := F) c M6) :
    { Wt : Bf (F := F) c M7 //
      ∀ (f7 : Bf (F := F) c M7) (fs : Bf (F := F) c scrM) (W : Waits sig Unit) (Q : PUnit → sProp 𝕄),
        iprop(pt c M3 fullShare f3 ∗ pt c M4 fullShare f4 ∗ pt c M5 fullShare f5 ∗ pt c M6 fullShare f6 ∗ pt c M7 fullShare f7
          ∗ pt c scrM fullShare fs ∗ pt c tabM fullShare.right ftab
          ∗ pt c embM (Transfers.shareDrop fullShare 263) fw
          ∗ (sepchain% 0 263 k => pt c embM (Transfers.shareTokN fullShare k) fw)
          ∗ (sepchain% 7 263 k => semVal ((c : Thread nD τ), SemLoc.dma k) 0)
          ∗ owes (c : Thread nD τ) 0 W
          ∗ (iprop(pt c M3 fullShare f3 ∗ pt c M4 fullShare f4 ∗ pt c M5 fullShare f5 ∗ pt c M6 fullShare f6 ∗ pt c M7 fullShare Wt
              ∗ (∃ f, pt c scrM fullShare f) ∗ pt c tabM fullShare.right ftab
              ∗ pt c embM (Transfers.shareDrop fullShare 263) fw
              ∗ (sepchain% 0 263 k => pt c embM (Transfers.shareTokN fullShare k) fw)
              ∗ (sepchain% 7 263 k => semVal ((c : Thread nD τ), SemLoc.dma k) 0)
              ∗ (∃ W', owes (c : Thread nD τ) 0 W')) -∗ Q ⟨⟩))
        ⊢ wp frame (wpE (defs₀ (F := F)) Variants.none c none) Set.univ
            (cc0__embed_kernel i tabM (Memref.isWhole_whole _) embM (Memref.isWhole_whole _) M3 h3 M4 h4 M5 h5 M6 h6 M7 h7 scrM (Memref.isWhole_whole _) cc0_scratch1) Q } := by
  refine ⟨?_, fun f7 fs W Q => ?run⟩
  case run =>
    iintro ⟨H3, H4, H5, H6, H7, Hs, Ht, Hwd, Hws, Hqs, HO, Hk⟩
    icases_range Hws Hw 0 263
    icases_range Hqs Hq 7 263
    -- the row buffer, one hypothesis per row: each copy takes its own row
    ihave Hrs := (Rows.scr_split c fs) $$ Hs
    icases_range Hrs Hr 0 256
    simp only [cc0__embed_kernel_eq_skeleton]; unfold cc0__embed_kernel_skel
    -- the 256 token loads, range checks and row copies, the position half of the product, the 256 waits
    sl_exec (disch := exact chk_row _ (hidx _))
    -- every row has landed: the row buffer whole again, row `j` the embedding row of the `j`-th token
    irange_tac "ihave Hs := (Rows.rows_join_val c fs (Rows.P c i ftab hidx fw)) $$ [@@]" Hr 0 256
    · iexact_range Hr 0 256
    -- the word half, the bias, the sigmoid, the store
    sl_exec!
    sl_step
    iapply Hk
    isplitl [H3]; · iexact H3
    isplitl [H4]; · iexact H4
    isplitl [H5]; · iexact H5
    isplitl [H6]; · iexact H6
    isplitl [H7]; · iexact H7
    isplitl [Hs]; · iexists _; iexact Hs
    isplitl [Ht]; · iexact Ht
    isplitl [Hwd]; · iexact Hwd
    irange_tac "isplitl [@@]" Hw 0 263
    · iexact_range Hw 0 263
    irange_tac "isplitl [@@]" Hq 7 263
    · iexact_range Hq 7 263
    iexists _; iexact HO

end Cert.KernelIdeal.Body

end
-- ==== Proof.KI.Entry.lean ====
import proofs.«422593_j31129922961550_2_alg».proof.Proof.Gen.KernelIdeal.Launch
import Idealize.ShloMosaic.Lib.Pipeline.FrameSuffix
import Idealize.ShloMosaic.Lib.StableHlo.Run

/-!
  The memory as the kernel region finds it: the launch contents after the seven host operations that cut the weight
  matrix into its two halves, transpose and narrow them, and lay the bias out as a row.
-/

noncomputable section

namespace Cert.KernelIdeal.Entry

open Cert.KernelIdeal Cert.KernelIdeal.Gen
open Idealize.ShloMosaic Idealize.ShloMosaic.TcCoe Idealize.SL.Sem

variable {F : FTy → Type} [FloatOps F]

/-- Core `c`'s buffers at the region's entry. -/
abbrev V0 (m : (ℓ : Loc nD τ sig) → Buf (Elt F) ℓ) (c : Dev nD) : Valuation τ sig (Elt F) :=
  StableHlo.after ([hostOps0 (F := F)] : List (List (HloOp τ sig (Elt F)))).flatten (fun b => m (c, b))

/-- The same, read at a TensorCore reference. -/
abbrev V (m : (ℓ : Loc nD τ sig) → Buf (Elt F) ℓ) (c : Dev nD) (b : Ref sig .tc) : Buf (Elt F) ((c.tc : Thread nD τ).loc b) :=
  V0 m c (Proc.devRef .tc b)

end Cert.KernelIdeal.Entry

end
-- ==== Proof.KI.Cfg.lean ====
import proofs.«422593_j31129922961550_2_alg».proof.Proof.KI.Entry

/-!
  The pipeline at the token table's contents. No index map of the kernel reads the table (the body reads it, word by
  word), so every contents of the table is admissible and the windows' schedule does not depend on it.
-/

noncomputable section

namespace Cert.KernelIdeal.Entry

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- The token table as the region reads it at entry. -/
def tbl : pre0.Contents (Elt F) := fun j => V m (0 : Dev nD) (pre0.ref j)

/-- On every device the table holds those contents (there is one device). -/
theorem V_pre (c : Dev nD) (j : Fin 1) : V m c (pre0.ref j) = tbl m j := by
  obtain rfl : c = 0 := Subsingleton.elim _ _; rfl

/-- The table's contents as admissible contents, and the pipeline at them. -/
abbrev adm : (p : Fin 1) → (pcfgs (F := F) p).Adm := fun _ => ⟨tbl m, trivial⟩
abbrev cfgM : Pipeline.Cfg sig Λ₀ := cfg0 (adm m 0)

/-- The kernel's own DMA semaphores: one per gathered row, cells 7 to 262 of the pool. -/
abbrev osem0 : Fin 256 → SemLoc sig := fun j => SemLoc.dma ⟨7 + j.val, by have := j.isLt; show 7 + j.val < 263; omega⟩

/-- The one operand left in HBM that the body copies rows of: the embedding table. -/
def H0 : Finset (Ref sig .tc) := {main_arg1}

end Cert.KernelIdeal.Entry

end
-- ==== Proof.KI.TailValue.lean ====
import proofs.«422593_j31129922961550_2_alg».proof.Proof.KI.Cfg
import proofs.«422593_j31129922961550_2_alg».proof.Proof.Spec
import Idealize.ShloMosaic.Lib.Pipeline.FrameSuffix
import Idealize.ShloMosaic.Lib.StableHlo.Run

/-!
  The host operations around the kernel's region.

  After the region six operations compute the second result from the region's output array: a zero, the column sums of
  the output from it, the constant 8192, its broadcast along the 1024 columns, the quotient, and the reshape to
  1 × 1 × 1024. That is the specification's mean of the rows applied to whatever the output array holds; every buffer
  other than those six results keeps its contents. The operations touch neither the token table, nor the embedding
  table whose rows the kernel copies itself, and write no array of the pipeline; none leaves a buffer undetermined.
  The seven operations before the region likewise touch TensorCore buffers only and leave none undetermined.
-/

noncomputable section

namespace Cert.KernelIdeal.TailValue

open Cert.KernelIdeal Cert.KernelIdeal.Gen Cert.KernelIdeal.Entry Idealize.ShloMosaic Idealize.ShloMosaic.TcCoe Idealize.SL.Sem

variable {F : FTy → Type} [FloatOps F]

/-- No operation before the region leaves a buffer undetermined. -/
theorem hostOps0_fresh : (hostOps0 : List (HloOp τ sig (Elt F))).Forall fun op => op.fresh = ∅ := by
  simp only [List.Forall]; repeat' constructor

/-- No operation after the region leaves a buffer undetermined. -/
theorem hostOps1_fresh : (hostOps1 : List (HloOp τ sig (Elt F))).Forall fun op => op.fresh = ∅ := by
  simp only [List.Forall]; repeat' constructor

/-- The operations after the region touch the pipeline's arrays and the bypassing buffers only, and among those neither
    the token table nor the embedding table. -/
theorem tail_sub : ∀ ops ∈ ([hostOps1 (F := F)] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  refine Pipeline.sub_tailRefsBut pre0 spec0 H0 op ((List.forall_iff_forall_mem.mp hostOps1_sub) op hop) ?_ ?_
  · simp only [hostOps1, List.mem_cons, List.mem_nil_iff, or_false] at hop
    rcases hop with rfl | rfl | rfl | rfl | rfl | rfl
    all_goals intro j; fin_cases j <;> simp only [StableHlo.nullary_bufs, StableHlo.unary_bufs, StableHlo.binary_bufs,
      StableHlo.reshape_bufs, Finset.mem_insert, Finset.mem_singleton, not_or] <;> and_intros <;>
      exact StableHlo.devRef_ne_of_ne (by decide)
  · simp only [hostOps1, List.mem_cons, List.mem_nil_iff, or_false] at hop
    rcases hop with rfl | rfl | rfl | rfl | rfl | rfl
    all_goals intro b hb; simp only [H0, Finset.mem_singleton] at hb
    all_goals rcases hb with rfl <;> simp only [StableHlo.nullary_bufs, StableHlo.unary_bufs, StableHlo.binary_bufs,
      StableHlo.reshape_bufs, Finset.mem_insert, Finset.mem_singleton, not_or] <;> and_intros <;>
      exact StableHlo.devRef_ne_of_ne (by decide)

/-- They leave no buffer undetermined. -/
theorem tail_fresh : ∀ ops ∈ ([hostOps1 (F := F)] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And write no array of the pipeline: each writes its own result buffer only. -/
theorem tail_keep : ∀ ops ∈ ([hostOps1 (F := F)] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals intro w; fin_cases w <;> simp only [StableHlo.nullary_writes, StableHlo.unary_writes, StableHlo.binary_writes,
    StableHlo.reshape_writes, Finset.mem_singleton] <;> exact StableHlo.devRef_ne_of_ne (by decide)

/-- The operations before the region touch TensorCore buffers only. -/
theorem head_sub : ([hostOps0 (F := F)] : List (List (HloOp τ sig (Elt F)))).Forall fun ops =>
    ops.Forall fun op => op.bufs ⊆ StableHlo.tcRefs τ sig := by
  simp only [List.Forall]; exact hostOps0_sub

/-- And leave no buffer undetermined. -/
theorem head_fresh : ([hostOps0 (F := F)] : List (List (HloOp τ sig (Elt F)))).Forall fun ops =>
    ops.Forall fun op => op.fresh = ∅ := by
  simp only [List.Forall]; exact hostOps0_fresh

/-- The second result after the six operations, from any contents at the region's exit: the mean of the rows of the
    region's output array. -/
theorem tail_v11 (Wv : Valuation τ sig (Elt Ideal)) :
    StableHlo.after ([hostOps1 (F := Ideal)] : List (List (HloOp τ sig (Elt Ideal)))).flatten Wv (Proc.devRef .tc main_v11)
      = Cert.Spec.meanTail reducesTo_S8192x1024_S1024_d0 h_S_ bcast_S_S1024 shapeCasts_S1024_S1x1x1024
          (Wv (Proc.devRef .tc main_v7)) := by
  simp only [List.flatten_cons, List.flatten_nil, List.append_nil]
  dsimp only [hostOps1]
  after_results
  unfold Cert.Spec.meanTail
  generalize Wv (Proc.devRef .tc main_v7) = y
  rfl

/-- A buffer that is none of the six results keeps its contents. -/
theorem tail_other (Wv : Valuation τ sig (Elt F)) (b : Ref sig .tc)
    (hb : b ≠ main_cst ∧ b ≠ main_v8 ∧ b ≠ main_cst_0 ∧ b ≠ main_v9 ∧ b ≠ main_v10 ∧ b ≠ main_v11) :
    StableHlo.after ([hostOps1 (F := F)] : List (List (HloOp τ sig (Elt F)))).flatten Wv (Proc.devRef .tc b)
      = Wv (Proc.devRef .tc b) := by
  obtain ⟨h1, h2, h3, h4, h5, h6⟩ := hb
  simp only [List.flatten_cons, List.flatten_nil, List.append_nil]
  refine StableHlo.after_of_forall_not_mem _ _ fun op hop => ?_
  simp only [hostOps1, List.mem_cons, List.mem_nil_iff, or_false] at hop
  rcases hop with rfl | rfl | rfl | rfl | rfl | rfl
  all_goals simp only [StableHlo.nullary_writes, StableHlo.unary_writes, StableHlo.binary_writes, StableHlo.reshape_writes,
    Finset.mem_singleton]
  · exact StableHlo.devRef_ne_of_ne h1
  · exact StableHlo.devRef_ne_of_ne h2
  · exact StableHlo.devRef_ne_of_ne h3
  · exact StableHlo.devRef_ne_of_ne h4
  · exact StableHlo.devRef_ne_of_ne h5
  · exact StableHlo.devRef_ne_of_ne h6

end Cert.KernelIdeal.TailValue

end
-- ==== Proof.KI.Own.lean ====
import proofs.«422593_j31129922961550_2_alg».proof.Proof.KI.Cfg
import proofs.«422593_j31129922961550_2_alg».proof.Proof.KI.TailValue
import proofs.«422593_j31129922961550_2_alg».proof.Proof.Chain
import Idealize.ShloMosaic.Lib.Pipeline.FrameSuffix
import Idealize.ShloMosaic.Lib.Transfers

/-!
  What the launch of the kernel region takes from the layout alone: the kernel's own semaphores are scoped, distinct and
  none a window's; the embedding table bypasses the pipeline; @main is host lines, the region, host lines; and the region
  invariant's conjuncts one by one.
-/

noncomputable section

namespace Cert.KernelIdeal.Own

open Cert.KernelIdeal Cert.KernelIdeal.Gen Cert.KernelIdeal.Entry Cert.Chain
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ)

theorem ownSemFacts0 : Pipeline.OwnSemFacts spec0 osem0 := by decide

theorem H0_sub : H0 ⊆ Pipeline.restRefsP sig pre0 spec0 := by decide

/-- @main is the seven host lines, the region, the six host lines. -/
theorem hmain (𝒱₀ : Variants) :
    Pipeline.HMainPK (Ix := Unit) (Name := ℕ) (U := Pipeline.UD sig nD τ) (Lvl := ℕ) pcfgs 0 defs₀ 𝒱₀ m (main (F := F))
      (V m) (fun _ => Pipeline.chain (([hostOps1 (F := F)] : List (List (HloOp τ sig (Elt F)))).map StableHlo.seq)) :=
  Pipeline.hmainP_around pcfgs 0 defs₀ 𝒱₀ m main [hostOps0] [hostOps1] TailValue.head_sub TailValue.head_fresh
    fun c => (main_chain c).trans rfl

/-- The kernel's 256 cells at zero, one by one. -/
theorem ownSems0_eq (c : Dev nD) :
    (Pipeline.ownSems0 (Ix := Unit) (Name := ℕ) (U := Pipeline.UD sig nD τ) (Lvl := ℕ) (Val := Elt F) (τ := τ) osem0 c : sProp 𝕄)
      = (sepchain% 7 263 k => semVal ((c : Thread nD τ), SemLoc.dma k) 0) := by
  rw [Pipeline.ownSems0_eq_of_list c osem0 (List.finRange 256) (by decide) (List.nodup_finRange 256)]
  rfl

/-- A buffer held whole is the remainder and 263 read shares of it: one for each DMA cell of the pool, the kernel's own being
    numbers 7 to 262. -/
theorem toks_eq (ℓ : Loc nD τ sig) (f : Buf (Elt F) ℓ) :
    ((ℓ ↦{fullShare} f : sProp 𝕄))
      ⊣⊢ iprop((ℓ ↦{Transfers.shareDrop fullShare 263} f) ∗ (sepchain% 0 263 k => (ℓ ↦{Transfers.shareTokN fullShare k} f))) := by
  have h := Transfers.pointsTo_toks_range (Ix := Unit) (Name := ℕ) (U := Pipeline.UD sig nD τ) (Lvl := ℕ) (ℓ := ℓ) (S := Finset.univ) (f := f) fullShare 263
  rw [bigSep_eq_bigSepL_of_eq (List.range 263) (List.toFinset_range 263).symm List.nodup_range] at h
  exact h

end Cert.KernelIdeal.Own

end
-- ==== Proof.KI.Frame.lean ====
/-
  The kernel region's proof data, the body obligation and the launch.

  The pipeline stages five windows on a grid of 32 points: the position rows' block, the two weight matrices and the
  bias row as inputs, and the output block. The body also reads the token table (handed to it at half share) and copies
  rows of the embedding table, left in HBM, into a row buffer of its own over 256 cells of its own. At every point the
  input buffers hold their blocks; the body runs from them and leaves the output block at the run's witness; the
  invariant goes in and comes back unchanged. The library's launch theorem then gives the run of @main: the seven
  host operations, the region, the six host operations.
-/
import proofs.«422593_j31129922961550_2_alg».proof.Proof.KI.Body
import proofs.«422593_j31129922961550_2_alg».proof.Proof.KI.Own
import proofs.«422593_j31129922961550_2_alg».proof.Proof.KI.Cfg
import proofs.«422593_j31129922961550_2_alg».proof.Proof.KI.TailValue
import proofs.«422593_j31129922961550_2_alg».proof.Proof.Chain
import Idealize.ShloMosaic.Lib.Pipeline.FrameBody
import Idealize.ShloMosaic.Lib.Pipeline.FrameSuffix
import Idealize.ShloMosaic.Lib.StableHlo.Run
import Idealize.ShloMosaic.Lib.Tactic
import Idealize.ShloMosaic.Lib.Transfers

set_option maxRecDepth 16384

noncomputable section

namespace Cert.KernelIdeal.Frame

open Cert.KernelIdeal Cert.KernelIdeal.Gen Cert.KernelIdeal.Entry Cert.KernelIdeal.Body Cert.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)
  (hm : ∀ (c : Dev nD) (j : S8192.Idx), (m ((c.tc : Thread nD τ).loc main_arg0) j).toNat < 128000)

/-! ## The two arguments the pipeline does not stage -/

/-- The host operations before the region write neither the token table nor the embedding table. -/
theorem V_arg0 (c : Dev nD) : V m c main_arg0 = m ((c.tc : Thread nD τ).loc main_arg0) := by
  dsimp only [Entry.V, Entry.V0]
  simp only [List.flatten_cons, List.flatten_nil, List.append_nil]
  dsimp only [hostOps0]
  after_results
theorem V_arg1 (c : Dev nD) : V m c main_arg1 = m ((c.tc : Thread nD τ).loc main_arg1) := by
  dsimp only [Entry.V, Entry.V0]
  simp only [List.flatten_cons, List.flatten_nil, List.append_nil]
  dsimp only [hostOps0]
  after_results

include hm in
/-- So every token the region reads names a row of the embedding table. -/
theorem tok_lt (c : Dev nD) : ∀ j : S8192.Idx, (tabM.view.read (Elt F) (V m c main_arg0) j).toNat < 128000 := by
  intro j
  rw [V_arg0]
  exact hm c j

/-! ## The staging memrefs and the windows' blocks -/

/-- Each window's staging buffer in use at point t, and that it is a whole buffer: the position rows' block, the two
    weight matrices, the bias row, the output block. -/
abbrev ms0_0 (t : Fin (cfgM m).N) : Memref sig .tc .vmem S256x512 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S512x1024 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S512x1024 .bf16 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x1024 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S256x1024 .f32 := spec0_4.stage ((cfgM m).slots t 4)
abbrev hs0_4 (t : Fin (cfgM m).N) : (ms0_4 m t).IsWhole := hstage0_4 (((cfgM m).slots t 4).cast nbuf0_4)

/-- Window w's block at point t, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's staging buffer holds its block when the body runs at point t, fetched there or not: the body
    leaves the block in place, and where no fetch happens the block index has not moved. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (Pipeline.UD sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The run at point t, at the point's staging memrefs and input blocks. -/
def runAt (c : Dev nD) (t : Fin (cfgM m).N) :=
  Body.kernelRun (F := F) c (grid0.coords t) (ms0_0 m t) (hs0_0 m t) (ms0_1 m t) (hs0_1 m t) (ms0_2 m t) (hs0_2 m t) (ms0_3 m t) (hs0_3 m t) (ms0_4 m t) (hs0_4 m t)
    (V m c main_arg0) (tok_lt m hm c) (V m c main_arg1)
    ((hs0_0 m t).unread (iblk m c 0 t)) ((hs0_1 m t).unread (iblk m c 1 t)) ((hs0_2 m t).unread (iblk m c 2 t)) ((hs0_3 m t).unread (iblk m c 3 t))

/-- What the body leaves in the output block at point t, read through the staging buffer. -/
def outAt (c : Dev nD) (t : Fin (cfgM m).N) : S256x1024.Idx → Elt F .f32 :=
  (ms0_4 m t).view.read (Elt F) (runAt m hm c t).1

/-! ## The pipeline's proof data -/

/-- The proof data of the pipeline on core c: the arrays as the region finds them; after the body at point t each input
    buffer at its block and the output buffer at what the run leaves; the invariant: the row buffer at some contents,
    the generator register, the kernel's 256 cells at zero, the embedding table at its entry contents, and the read half
    of the token table; nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m hm c t
  Φ _ := iprop(Pipeline.ΦD osem0 spec0 H0 (V m) c ∗ Pipeline.ΦT pre0 (tbl m) c)
  q _ := fullShare
  owed _ := 0

/-- The proof data's arrays are the region-entry contents. -/
theorem A_eq (c : Dev nD) (w : Fin (cfgM m).W) : (dats m hm 0 c).A w = V m c (Pipeline.arrRef spec0 w) := by
  dsimp only [dats]

/-- What the body leaves, window by window. -/
theorem after0_0 (c : Dev nD) (t : Fin (cfgM m).N) : (dats m hm 0 c).after 0 t = iblk m c 0 t := by dsimp only [dats]; try rfl
theorem after0_1 (c : Dev nD) (t : Fin (cfgM m).N) : (dats m hm 0 c).after 1 t = iblk m c 1 t := by dsimp only [dats]; try rfl
theorem after0_2 (c : Dev nD) (t : Fin (cfgM m).N) : (dats m hm 0 c).after 2 t = iblk m c 2 t := by dsimp only [dats]; try rfl
theorem after0_3 (c : Dev nD) (t : Fin (cfgM m).N) : (dats m hm 0 c).after 3 t = iblk m c 3 t := by dsimp only [dats]; try rfl
theorem after0_4 (c : Dev nD) (t : Fin (cfgM m).N) : (dats m hm 0 c).after 4 t = outAt m hm c t := by dsimp only [dats]; try rfl

/-- Each input's staging buffer holds its block at every point. -/
theorem before0_0 (c : Dev nD) (t : Fin (cfgM m).N) (d) : (dats m hm 0 c).before 0 t d = iblk m c 0 t :=
  before0_0_of m (dats m hm 0 c) (A_eq m hm c 0) (after0_0 m hm c) t d
theorem before0_1 (c : Dev nD) (t : Fin (cfgM m).N) (d) : (dats m hm 0 c).before 1 t d = iblk m c 1 t :=
  before0_1_of m (dats m hm 0 c) (A_eq m hm c 1) (after0_1 m hm c) t d
theorem before0_2 (c : Dev nD) (t : Fin (cfgM m).N) (d) : (dats m hm 0 c).before 2 t d = iblk m c 2 t :=
  before0_2_of m (dats m hm 0 c) (A_eq m hm c 2) (after0_2 m hm c) t d
theorem before0_3 (c : Dev nD) (t : Fin (cfgM m).N) (d) : (dats m hm 0 c).before 3 t d = iblk m c 3 t :=
  before0_3_of m (dats m hm 0 c) (A_eq m hm c 3) (after0_3 m hm c) t d

/-! ## The invariant, conjunct by conjunct -/

/-- A whole memref owned at what it reads is its buffer's points-to at the contents that read so. -/
theorem owns_eq_pt {sp : Space} {S : Shape} {e : EltTy} (c : Dev nD) (M : Memref sig .tc sp S e) (h : M.IsWhole) (q : PosShare TreeShare)
    (X : S.Idx → Elt F e) : (owns (c : Thread nD τ) M q X : sProp 𝕄) = pt c M q (h.unread X) := by
  unfold owns
  have h₁ : iprop(∃ f, ⌜M.view.read (Elt F) f = X⌝ ∗ (M.view.loc (c : Thread nD τ) ↦[M.view.set]{q} f)) ⊢ (pt c M q (h.unread X) : sProp 𝕄) := by
    iintro ⟨%f, %hf, H⟩
    obtain rfl := h.eq_unread hf
    rw [h.set_eq_univ]
    iexact H
  have h₂ : (pt c M q (h.unread X) : sProp 𝕄) ⊢ iprop(∃ f, ⌜M.view.read (Elt F) f = X⌝ ∗ (M.view.loc (c : Thread nD τ) ↦[M.view.set]{q} f)) := by
    iintro H; iexists h.unread X; isplitr; · ipureintro; exact h.read_unread X
    rw [h.set_eq_univ]; iexact H
  exact BI.equiv_iff.mp ⟨h₁, h₂⟩

/-- The same as two entailments, and for contents given raw. -/
theorem owns_pt {sp : Space} {S : Shape} {e : EltTy} (c : Dev nD) (M : Memref sig .tc sp S e) (h : M.IsWhole) (q : PosShare TreeShare)
    (X : S.Idx → Elt F e) : (owns (c : Thread nD τ) M q X : sProp 𝕄) ⊢ pt c M q (h.unread X) := by
  rw [owns_eq_pt c M h]

theorem pt_owns {sp : Space} {S : Shape} {e : EltTy} (c : Dev nD) (M : Memref sig .tc sp S e) (h : M.IsWhole) (q : PosShare TreeShare)
    (X : S.Idx → Elt F e) : (pt c M q (h.unread X) : sProp 𝕄) ⊢ owns (c : Thread nD τ) M q X := by
  rw [owns_eq_pt c M h]

theorem pt_owns_read {sp : Space} {S : Shape} {e : EltTy} (c : Dev nD) (M : Memref sig .tc sp S e) (h : M.IsWhole) (q : PosShare TreeShare)
    (f : Bf (F := F) c M) : (pt c M q f : sProp 𝕄) ⊢ owns (c : Thread nD τ) M q (M.view.read (Elt F) f) := by
  rw [owns_eq_pt c M h, h.unread_read]

/-- The one operand left in HBM, at its contents at the region's entry. -/
theorem hbmPts0_eq (c : Dev nD) :
    (bigSep H0 (fun b => ((c : Thread nD τ).loc b) ↦{fullShare} V m c b) : sProp 𝕄) = iprop(pt c embM fullShare (V m c main_arg1)) := by
  rw [BI.bigSep_eq_bigSepL_of_eq [main_arg1] (by decide) (by decide)]; rfl

/-- The invariant's first part, conjunct by conjunct: the row buffer at some contents, the generator register at some
    state, the 256 cells at zero one by one, the embedding table whole at its entry contents. -/
theorem PhiD0_eq (c : Dev nD) :
    (Pipeline.ΦD osem0 spec0 H0 (V m) c : sProp 𝕄)
      = iprop((∃ f, pt c scrM fullShare f) ∗ (∃ r, prngReg c r) ∗ (sepchain% 7 263 k => semVal ((c : Thread nD τ), SemLoc.dma k) 0)
          ∗ pt c embM fullShare (V m c main_arg1)) := by
  rw [Pipeline.ΦD_eq, Gen.scopedRest0_eq, Own.ownSems0_eq, hbmPts0_eq]

/-- The invariant's second part: the token table's read half at its entry contents. -/
theorem PhiT0_eq (c : Dev nD) : (Pipeline.ΦT pre0 (tbl m) c : sProp 𝕄) = iprop(pt c tabM fullShare.right (V m c main_arg0)) := by
  unfold Pipeline.ΦT Pipeline.prefHeld
  rw [show (Finset.univ : Finset (Fin 1)) = {(0 : Fin 1)} from by decide, bigSep_singleton, ← V_pre m c 0]
  rfl

/-! ## The body obligation -/

/-- What the body is called with at point t, the windows one by one, -/
def bodyPre (c : Dev nD) (t : Fin (cfgM m).N) : sProp 𝕄 :=
  iprop((dats m hm 0 c).Φ t.castSucc ∗ (dats m hm 0 c).owesAt () t.castSucc
    ∗ (∃ d, owns (c : Thread nD τ) (ms0_0 m t) fullShare ((dats m hm 0 c).before 0 t d))
    ∗ (∃ d, owns (c : Thread nD τ) (ms0_1 m t) fullShare ((dats m hm 0 c).before 1 t d))
    ∗ (∃ d, owns (c : Thread nD τ) (ms0_2 m t) fullShare ((dats m hm 0 c).before 2 t d))
    ∗ (∃ d, owns (c : Thread nD τ) (ms0_3 m t) fullShare ((dats m hm 0 c).before 3 t d))
    ∗ (∃ d, owns (c : Thread nD τ) (ms0_4 m t) fullShare ((dats m hm 0 c).before 4 t d)))

/-- and what it returns. -/
def bodyPost (c : Dev nD) (t : Fin (cfgM m).N) : sProp 𝕄 :=
  iprop((dats m hm 0 c).Φ t.succ ∗ (dats m hm 0 c).owesAt () t.succ
    ∗ owns (c : Thread nD τ) (ms0_0 m t) fullShare ((dats m hm 0 c).after 0 t)
    ∗ owns (c : Thread nD τ) (ms0_1 m t) fullShare ((dats m hm 0 c).after 1 t)
    ∗ owns (c : Thread nD τ) (ms0_2 m t) fullShare ((dats m hm 0 c).after 2 t)
    ∗ owns (c : Thread nD τ) (ms0_3 m t) fullShare ((dats m hm 0 c).after 3 t)
    ∗ owns (c : Thread nD τ) (ms0_4 m t) fullShare ((dats m hm 0 c).after 4 t))

/-- The body at any point: the four inputs hold their blocks; the invariant hands the body its row buffer, the 256 cells
    at zero, the table's read half, and the embedding table split into 263 read shares and their remainder; the run
    applies; everything comes back as it was, the shares rejoined, the output block at what the run leaves. -/
theorem sound_body (c : Dev nD) (t : Fin (cfgM m).N) :
    bodyPre m hm c t ⊢ wp frame (wpE (defs₀ (F := F)) Variants.none c none) Set.univ
      (cc0__embed_kernel (F := F) (grid0.coords t) tabM (Memref.isWhole_whole _) embM (Memref.isWhole_whole _) (ms0_0 m t) (hs0_0 m t) (ms0_1 m t) (hs0_1 m t) (ms0_2 m t) (hs0_2 m t) (ms0_3 m t) (hs0_3 m t) (ms0_4 m t) (hs0_4 m t) scrM (Memref.isWhole_whole _) cc0_scratch1) (fun _ => bodyPost m hm c t) := by
  unfold bodyPre bodyPost
  simp only [before0_0, before0_1, before0_2, before0_3]
  rw [show (dats m hm 0 c).Φ t.succ = (dats m hm 0 c).Φ t.castSucc from rfl, after0_0, after0_1, after0_2, after0_3, after0_4]
  rw [show (dats m hm 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hm 0 c).owed t.castSucc = 0 from rfl, show (dats m hm 0 c).owed t.succ = 0 from rfl]
  unfold outAt
  iintro ⟨⟨⟨⟨%fs, HS⟩, Hg, Hq, Hh⟩, HT⟩, ⟨%W, -, HW⟩, ⟨%d0, H0⟩, ⟨%d1, H1⟩, ⟨%d2, H2⟩, ⟨%d3, H3⟩, ⟨%d4, H4⟩⟩
  ihave Hh' := (Own.toks_eq _ _).1 $$ Hh
  icases Hh' with ⟨Hrem, Htoks⟩
  iapply ((runAt m hm c t).2 _ fs W _)
  isplitl [H0]; · iapply (owns_pt c (ms0_0 m t) (hs0_0 m t) fullShare (iblk m c 0 t)); iexact H0
  isplitl [H1]; · iapply (owns_pt c (ms0_1 m t) (hs0_1 m t) fullShare (iblk m c 1 t)); iexact H1
  isplitl [H2]; · iapply (owns_pt c (ms0_2 m t) (hs0_2 m t) fullShare (iblk m c 2 t)); iexact H2
  isplitl [H3]; · iapply (owns_pt c (ms0_3 m t) (hs0_3 m t) fullShare (iblk m c 3 t)); iexact H3
  isplitl [H4]; · iapply (owns_pt c (ms0_4 m t) (hs0_4 m t) fullShare _); iexact H4
  isplitl [HS]; · iexact HS
  isplitl [HT]; · iexact HT
  isplitl [Hrem]; · iexact Hrem
  isplitl [Htoks]; · iexact Htoks
  isplitl [Hq]; · iexact Hq
  isplitl [HW]; · iexact HW
  iintro ⟨H0, H1, H2, H3, H4, HS, HT, Hrem, Htoks, Hq, ⟨%W', HW'⟩⟩
  isplitl [HS Hg Hq Hrem Htoks HT]
  · isplitr [HT]
    · isplitl [HS]; · iexact HS
      isplitl [Hg]; · iexact Hg
      isplitl [Hq]; · iexact Hq
      iapply (Own.toks_eq _ _).2
      isplitl [Hrem]; · iexact Hrem
      iexact Htoks
    · iexact HT
  isplitl [HW']
  · iexists W'; isplitr; · ipureintro; exact fun _ _ => Or.inl trivial
    iexact HW'
  isplitl [H0]; · iapply (pt_owns c (ms0_0 m t) (hs0_0 m t) fullShare (iblk m c 0 t)); iexact H0
  isplitl [H1]; · iapply (pt_owns c (ms0_1 m t) (hs0_1 m t) fullShare (iblk m c 1 t)); iexact H1
  isplitl [H2]; · iapply (pt_owns c (ms0_2 m t) (hs0_2 m t) fullShare (iblk m c 2 t)); iexact H2
  isplitl [H3]; · iapply (pt_owns c (ms0_3 m t) (hs0_3 m t) fullShare (iblk m c 3 t)); iexact H3
  iapply (pt_owns_read c (ms0_4 m t) (hs0_4 m t) fullShare _); iexact H4

/-- The program the pipeline runs at point t is the kernel function at the point's coordinates and staging buffers. -/
theorem body_prog (t : Fin (cfgM m).N) : defs₀ (F := F) .tc (cfgM m).body ((cfgM m).bodyArgs t ((cfgM m).slots t))
    = (cc0__embed_kernel (F := F) (grid0.coords t) tabM (Memref.isWhole_whole _) embM (Memref.isWhole_whole _) (ms0_0 m t) (hs0_0 m t) (ms0_1 m t) (hs0_1 m t) (ms0_2 m t) (hs0_2 m t) (ms0_3 m t) (hs0_3 m t) (ms0_4 m t) (hs0_4 m t) scrM (Memref.isWhole_whole _) cc0_scratch1) := rfl

set_option maxRecDepth 100000 in
/-- The body obligation, at every point. -/
theorem body_obligation (c : Dev nD) : BodyObligation (dats (F := F) m hm 0 c) (defs₀ (F := F)) Variants.none () Set.univ := fun t => by
  rw [Gen.bigSep_W0, Gen.bigSep_W0]
  rw [body_prog m t]
  exact sound_body m hm c t

/-! ## The launch -/

set_option backward.isDefEq.respectTransparency.types false in
/-- From any memory with every token below the vocabulary size and zero counters: every weakly fair execution of @main
    terminates; every array of the pipeline ends at what the proof data computes, every other unscoped buffer at what
    the six host operations after the region make of the region's exit contents. -/
theorem run_main : θ_run defs (onTc (τ := τ) (main (F := F))) (s₀ m ρ)
    (Pipeline.FramePost (Pipeline.pin pcfgs (adm m)) (dats m hm) 0 (Pipeline.afterTail pcfgs (adm m) (dats m hm) 0 (V0 m) [hostOps1])) :=
  Pipeline.θ_run_frameP_dma_around pcfgs (adm m) (dats m hm) (0 : Fin 1) Gen.launch0 osem0 defs₀ Variants.none Own.ownSemFacts0 H0 Own.H0_sub m ρ main
    (hbody := fun c => (body_obligation m hm c).loose) (hshare := fun c => (dats m hm 0 c).share_full fun _ => rfl)
    (howed := fun _ _ => rfl) (V₀ := V0 m) (opss := [hostOps1]) (hsub := TailValue.tail_sub) (hfresh := TailValue.tail_fresh)
    (hkeep := TailValue.tail_keep) (hmain := Own.hmain m Variants.none) (hA := A_eq m hm) (hpf := V_pre m)
    (hin := fun c => .rfl) (hout := fun c => by rw [show (dats m hm 0 c).Φ (Fin.last _) = iprop(Pipeline.ΦD osem0 spec0 H0 (V m) c ∗ Pipeline.ΦT pre0 (tbl m) c) from rfl]; iintro ⟨H, -⟩; iexact H)

end Cert.KernelIdeal.Frame
-- ==== Proof.KI.FrameClaim.lean ====
/-
  The frame of the kernel's program: from a memory whose tokens are all below the vocabulary size, @main runs to its end
  and leaves the five argument arrays as they were. Of the five, the position table is the array of an input window of
  the pipeline; the token table, the embedding table, the weight matrix and the bias bypass it, and neither the host
  operations before the region nor those after it write any of them.
-/
import proofs.«422593_j31129922961550_2_alg».proof.Proof.KI.Frame

noncomputable section

namespace Cert.KernelIdeal.FrameClaim

open Cert.KernelIdeal Cert.KernelIdeal.Gen Cert.KernelIdeal.Entry
open Idealize.ShloMosaic Idealize.ShloMosaic.TcCoe Idealize.SL.Sem

variable {F : FTy → Type} [FloatOps F] [∀ e, Nonempty (Elt F e)]

variable (m : (ℓ : Loc nD τ sig) → Buf (Elt F) ℓ) (ρ : Dev nD → PrngReg)
  (hm : ∀ (c : Dev nD) (j : S8192.Idx), (m ((c.tc : Thread nD τ).loc main_arg0) j).toNat < 128000)

/-! ## The other three arguments at the region's entry -/

/-- The host operations before the region write none of the arguments. -/
theorem V_arg2 (c : Dev nD) : V m c main_arg2 = m ((c.tc : Thread nD τ).loc main_arg2) := by
  dsimp only [Entry.V, Entry.V0]
  simp only [List.flatten_cons, List.flatten_nil, List.append_nil]
  dsimp only [hostOps0]
  after_results
theorem V_arg3 (c : Dev nD) : V m c main_arg3 = m ((c.tc : Thread nD τ).loc main_arg3) := by
  dsimp only [Entry.V, Entry.V0]
  simp only [List.flatten_cons, List.flatten_nil, List.append_nil]
  dsimp only [hostOps0]
  after_results
theorem V_arg4 (c : Dev nD) : V m c main_arg4 = m ((c.tc : Thread nD τ).loc main_arg4) := by
  dsimp only [Entry.V, Entry.V0]
  simp only [List.flatten_cons, List.flatten_nil, List.append_nil]
  dsimp only [hostOps0]
  after_results

/-! ## Buffers the host operations after the region leave alone -/

/-- A buffer that is no array of the pipeline and none of the six results computed after the region ends as the region
    found it. -/
theorem afterTail_other (c : Dev nD) (b : Ref sig .tc)
    (hb : b ≠ main_cst ∧ b ≠ main_v8 ∧ b ≠ main_cst_0 ∧ b ≠ main_v9 ∧ b ≠ main_v10 ∧ b ≠ main_v11)
    (harr : ∀ w, Pipeline.arrRef spec0 w ≠ b) :
    Pipeline.afterTail pcfgs (adm m) (Frame.dats m hm) 0 (V0 m) [hostOps1] c b = V m c b := by
  unfold Pipeline.afterTail
  rw [TailValue.tail_other _ b hb, Pipeline.withArrays_of_ne _ c _ _ b harr]

/-! ## The frame -/

include hm in
/-- From any memory with every token below the vocabulary size and zero counters, @main runs to its end and the five
    argument arrays end as they began: the position table is an input window's array, which no write-back touches; the
    other four bypass the pipeline and no host operation writes them. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of (win := spec0) main_arg0 (by decide) (by decide))).trans
        ((afterTail_other m hm c main_arg0 (by decide) (by decide)).trans (Frame.V_arg0 m c)),
      ((h c).2 main_arg1 (Pipeline.mem_restRefs_of (win := spec0) main_arg1 (by decide) (by decide))).trans
        ((afterTail_other m hm c main_arg1 (by decide) (by decide)).trans (Frame.V_arg1 m c)),
      ((h c).1 0).trans (((Frame.dats m hm 0 c).arrAt_in 0 rfl _).trans ((Frame.A_eq m hm c 0).trans (V_arg2 m c))),
      ((h c).2 main_arg3 (Pipeline.mem_restRefs_of (win := spec0) main_arg3 (by decide) (by decide))).trans
        ((afterTail_other m hm c main_arg3 (by decide) (by decide)).trans (V_arg3 m c)),
      ((h c).2 main_arg4 (Pipeline.mem_restRefs_of (win := spec0) main_arg4 (by decide) (by decide))).trans
        ((afterTail_other m hm c main_arg4 (by decide) (by decide)).trans (V_arg4 m c))⟩)
    (Frame.run_main m ρ hm)

end Cert.KernelIdeal.FrameClaim

end
-- ==== Proof.KI.ReadBack.lean ====
import proofs.«422593_j31129922961550_2_alg».proof.Proof.KI.Base
import Idealize.ShloMosaic.Lib.Pipeline.Value

/-!
  Reading a whole buffer back.

  A load through the rectangle at offset `(0, 0)` whose size is the buffer's whole shape reads the buffer's contents as
  they are; and after one store through that rectangle the buffer reads the stored value, whatever it held before.
-/

noncomputable section

namespace Cert.KernelIdeal.ReadBack

open Cert.KernelIdeal Cert.KernelIdeal.Gen Cert.KernelIdeal.Body Idealize.ShloMosaic

/-- The offsets `(0, 0)` are zero on both axes. -/
theorem zero2 : (![0, 0] : Fin 2 → Nat) = fun _ => 0 := by
  funext a; fin_cases a <;> rfl

section Generic

variable {sig : RefSig} {κ : Kind} {sp : Space} {S : Shape} {e : EltTy} {Val : EltTy → Type}

/-- A load through the whole-shape rectangle at zero offsets reads what the view reads. -/
theorem readAt_whole (v : View sig κ sp S e) {off : Fin S.rank → Nat} (hoff : off = fun _ => 0)
    (h : ∀ a, off a + S.size a ≤ S.size a) (f : v.ty.Contents Val) :
    v.readAt Val (Rect.unit off S.size h).toLoadRect f = v.read Val f := by
  show View.ld (v.read Val f) (Rect.unit off S.size h) = _
  exact View.ld_unit_zero hoff h _

/-- Every index lies in the whole-shape rectangle. -/
theorem cover_whole {off : Fin S.rank → Nat} (hoff : off = fun _ => 0) (h : ∀ a, off a + S.size a ≤ S.size a)
    (w : S.Idx → Val e) : ∀ y : S.Idx, ∃ p ∈ [(⟨Rect.unit off S.size h, w⟩ : View.Piece Val S e)], y ∈ p.1.set :=
  fun y => ⟨_, List.mem_singleton.mpr rfl, View.mem_set_unit_zero hoff h y⟩

/-- After one store through the whole-shape rectangle the view reads the stored value, whatever the contents before. -/
theorem read_store_whole [∀ e, Nonempty (Val e)] (v : View sig κ sp S e) {off : Fin S.rank → Nat} (hoff : off = fun _ => 0)
    (h : ∀ a, off a + S.size a ≤ S.size a) (J : v.ty.Contents Val) (w : S.Idx → Val e) :
    v.read Val (v.writes Val J [(⟨Rect.unit off S.size h, w⟩ : View.Piece Val S e)]) = w := by
  rw [View.read_writes_eq_canon v J _ (cover_whole hoff h w)]
  exact View.canon_unit_zero hoff h w

/-- The same with the store spelt as one write through the rectangle's slice of the view. -/
theorem read_slice_write_whole [∀ e, Nonempty (Val e)] (v : View sig κ sp S e) {off : Fin S.rank → Nat} (hoff : off = fun _ => 0)
    (h : ∀ a, off a + S.size a ≤ S.size a) (J : v.ty.Contents Val) (w : S.Idx → Val e) :
    v.read Val ((v.slice (Rect.unit off S.size h)).write Val J w Finset.univ) = w :=
  read_store_whole v hoff h J w

/-- A load through the whole-shape rectangle of what one store through it left reads the stored value. -/
theorem readAt_store_whole [∀ e, Nonempty (Val e)] (v : View sig κ sp S e) {off : Fin S.rank → Nat} (hoff : off = fun _ => 0)
    (h h' : ∀ a, off a + S.size a ≤ S.size a) (J : v.ty.Contents Val) (w : S.Idx → Val e) :
    v.readAt Val (Rect.unit off S.size h').toLoadRect (v.writes Val J [(⟨Rect.unit off S.size h, w⟩ : View.Piece Val S e)]) = w :=
  (readAt_whole v hoff h' _).trans (read_store_whole v hoff h J w)

end Generic

/-! ## At the body's four block shapes -/

variable {F : FTy → Type} [FloatOps F]

/-- A whole load of a `S256x512` buffer reads its contents. -/
theorem readAt_whole_S256x512 {sp : Space} (M : Memref sig .tc sp S256x512 .f32)
    (h : ∀ a, (![0, 0] : Fin 2 → Nat) a + S256x512.size a ≤ S256x512.size a) (f : M.view.ty.Contents (Elt F)) :
    View.readAt (Elt F) M.view (Rect.unit (s := S256x512) ![0, 0] S256x512.size h).toLoadRect f = M.view.read (Elt F) f :=
  readAt_whole M.view zero2 h f

/-- A whole store into a `S256x512` buffer leaves the stored value. -/
theorem read_store_whole_S256x512 [∀ e, Nonempty (Elt F e)] {sp : Space} (M : Memref sig .tc sp S256x512 .f32)
    (h : ∀ a, (![0, 0] : Fin 2 → Nat) a + S256x512.size a ≤ S256x512.size a) (J : M.view.ty.Contents (Elt F))
    (w : S256x512.Idx → Elt F .f32) :
    M.view.read (Elt F) (M.view.writes (Elt F) J [⟨Rect.unit (s := S256x512) ![0, 0] S256x512.size h, w⟩]) = w :=
  read_store_whole M.view zero2 h J w

/-- A whole load of a `S512x1024` buffer reads its contents. -/
theorem readAt_whole_S512x1024 {sp : Space} (M : Memref sig .tc sp S512x1024 .bf16)
    (h : ∀ a, (![0, 0] : Fin 2 → Nat) a + S512x1024.size a ≤ S512x1024.size a) (f : M.view.ty.Contents (Elt F)) :
    View.readAt (Elt F) M.view (Rect.unit (s := S512x1024) ![0, 0] S512x1024.size h).toLoadRect f = M.view.read (Elt F) f :=
  readAt_whole M.view zero2 h f

/-- A whole store into a `S512x1024` buffer leaves the stored value. -/
theorem read_store_whole_S512x1024 [∀ e, Nonempty (Elt F e)] {sp : Space} (M : Memref sig .tc sp S512x1024 .bf16)
    (h : ∀ a, (![0, 0] : Fin 2 → Nat) a + S512x1024.size a ≤ S512x1024.size a) (J : M.view.ty.Contents (Elt F))
    (w : S512x1024.Idx → Elt F .bf16) :
    M.view.read (Elt F) (M.view.writes (Elt F) J [⟨Rect.unit (s := S512x1024) ![0, 0] S512x1024.size h, w⟩]) = w :=
  read_store_whole M.view zero2 h J w

/-- A whole load of a `S1x1024` buffer reads its contents. -/
theorem readAt_whole_S1x1024 {sp : Space} (M : Memref sig .tc sp S1x1024 .f32)
    (h : ∀ a, (![0, 0] : Fin 2 → Nat) a + S1x1024.size a ≤ S1x1024.size a) (f : M.view.ty.Contents (Elt F)) :
    View.readAt (Elt F) M.view (Rect.unit (s := S1x1024) ![0, 0] S1x1024.size h).toLoadRect f = M.view.read (Elt F) f :=
  readAt_whole M.view zero2 h f

/-- A whole store into a `S1x1024` buffer leaves the stored value. -/
theorem read_store_whole_S1x1024 [∀ e, Nonempty (Elt F e)] {sp : Space} (M : Memref sig .tc sp S1x1024 .f32)
    (h : ∀ a, (![0, 0] : Fin 2 → Nat) a + S1x1024.size a ≤ S1x1024.size a) (J : M.view.ty.Contents (Elt F))
    (w : S1x1024.Idx → Elt F .f32) :
    M.view.read (Elt F) (M.view.writes (Elt F) J [⟨Rect.unit (s := S1x1024) ![0, 0] S1x1024.size h, w⟩]) = w :=
  read_store_whole M.view zero2 h J w

/-- A whole load of a `S256x1024` buffer reads its contents. -/
theorem readAt_whole_S256x1024 {sp : Space} (M : Memref sig .tc sp S256x1024 .f32)
    (h : ∀ a, (![0, 0] : Fin 2 → Nat) a + S256x1024.size a ≤ S256x1024.size a) (f : M.view.ty.Contents (Elt F)) :
    View.readAt (Elt F) M.view (Rect.unit (s := S256x1024) ![0, 0] S256x1024.size h).toLoadRect f = M.view.read (Elt F) f :=
  readAt_whole M.view zero2 h f

/-- A whole store into a `S256x1024` buffer leaves the stored value. -/
theorem read_store_whole_S256x1024 [∀ e, Nonempty (Elt F e)] {sp : Space} (M : Memref sig .tc sp S256x1024 .f32)
    (h : ∀ a, (![0, 0] : Fin 2 → Nat) a + S256x1024.size a ≤ S256x1024.size a) (J : M.view.ty.Contents (Elt F))
    (w : S256x1024.Idx → Elt F .f32) :
    M.view.read (Elt F) (M.view.writes (Elt F) J [⟨Rect.unit (s := S256x1024) ![0, 0] S256x1024.size h, w⟩]) = w :=
  read_store_whole M.view zero2 h J w

end Cert.KernelIdeal.ReadBack

end
-- ==== Proof.KI.BodyVal.lean ====
import proofs.«422593_j31129922961550_2_alg».proof.Proof.KI.Body
import proofs.«422593_j31129922961550_2_alg».proof.Proof.KI.ReadBack

noncomputable section

namespace Cert.KernelIdeal.Body

open Cert.KernelIdeal Cert.KernelIdeal.Gen Cert.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the witness is: the output block holds the sigmoid layer's arithmetic (the body's two named payloads) of the
    position block, the two weight halves, the bias row and the gathered rows — row `j` of the row buffer being the
    embedding-table row that the `j`-th token of this grid point names. -/
theorem kernelRun_val [∀ e, Nonempty (Elt F e)] (c : Dev nD) (i : grid0.Coords)
    (M3 : Memref sig .tc .vmem S256x512 .f32) (h3 : M3.IsWhole) (M4 : Memref sig .tc .vmem S512x1024 .bf16) (h4 : M4.IsWhole)
    (M5 : Memref sig .tc .vmem S512x1024 .bf16) (h5 : M5.IsWhole) (M6 : Memref sig .tc .vmem S1x1024 .f32) (h6 : M6.IsWhole)
    (M7 : Memref sig .tc .vmem S256x1024 .f32) (h7 : M7.IsWhole)
    (ftab : Bf (F := F) c tabM) (hidx : ∀ j : S8192.Idx, (tabM.view.read (Elt F) ftab j).toNat < 128000)
    (fw : Bf (F := F) c embM) (f3 : Bf (F := F) c M3) (f4 : Bf (F := F) c M4) (f5 : Bf (F := F) c M5) (f6 : Bf (F := F) c M6) :
    M7.view.read (Elt F) (kernelRun c i M3 h3 M4 h4 M5 h5 M6 h6 M7 h7 ftab hidx fw f3 f4 f5 f6).1
      = k0_pay2 (k0_pay1 (M3.view.read (Elt F) f3) (M5.view.read (Elt F) f5))
          (scrM.view.read (Elt F) (Rows.rowsFn c (Rows.P c i ftab hidx fw)))
          (M4.view.read (Elt F) f4) (M6.view.read (Elt F) f6) := by
  -- the witness: one store through the whole rectangle, over whatever the output block held
  have hw : (kernelRun c i M3 h3 M4 h4 M5 h5 M6 h6 M7 h7 ftab hidx fw f3 f4 f5 f6).1
      = M7.view.writes (Elt F) M7.view.junk (kernelRun.sl.H7_1 c i M3 M4 M5 M6 ftab hidx fw f3 f4 f5 f6) := by
    unfold kernelRun; with_reducible rfl
  rw [hw]
  -- the run's names: the piece list, the stored value, the position half of the product
  sl_unfold_words
  -- the store covers the block, and every load is of a whole block
  rw [ReadBack.read_store_whole_S256x1024]
  rw [ReadBack.readAt_whole_S256x512 M3, ReadBack.readAt_whole_S512x1024 M5, ReadBack.readAt_whole_S256x512 scrM,
    ReadBack.readAt_whole_S512x1024 M4, ReadBack.readAt_whole_S1x1024 M6]

end Cert.KernelIdeal.Body

end
-- ==== Proof.KI.OutAt.lean ====
import proofs.«422593_j31129922961550_2_alg».proof.Proof.KI.Frame
import proofs.«422593_j31129922961550_2_alg».proof.Proof.KI.BodyVal
import Idealize.ShloMosaic.Lib.ValueIdx

/-!
  What the body leaves in the output block at one grid point, entry by entry, at the ideal values.

  The run's witness is the body's arithmetic of the point's four input blocks and of the row buffer after the 256
  copies; the input blocks are what the staging buffers held, and row `p` of the row buffer is the embedding table's row
  that token `256 t + p` names: the body reads the token at offset `256 · i + p` of the table, `i` the point's one
  grid coordinate, which is `t` itself.
-/

noncomputable section

namespace Cert.KernelIdeal.OutAt

open Cert.KernelIdeal Cert.KernelIdeal.Gen Cert.KernelIdeal.Entry Cert.KernelIdeal.Body
open Idealize.ShloMosaic Idealize.ShloMosaic.ValueIdx Idealize.ShloMosaic.TcCoe Idealize.SL.Sem

variable (m : (ℓ : Loc nD τ sig) → Buf (Elt Ideal) ℓ)
  (hm : ∀ (c : Dev nD) (j : S8192.Idx), (m ((c.tc : Thread nD τ).loc main_arg0) j).toNat < 128000)

/-- The one grid coordinate of point `t` is `t`. -/
theorem coords_val (t : Fin grid0.N) : (grid0.coords t 0).val = t.val :=
  (by decide +kernel : ∀ t : Fin grid0.N, (grid0.coords t 0).val = t.val) t

/-- The row buffer after the 256 copies of point `t`, read as a 256 × 512 array. -/
def rowsAt (c : Dev nD) (t : Fin (cfgM m).N) : Vec Ideal S256x512 .f32 :=
  scrM.view.read (Elt Ideal)
    (Rows.rowsFn c (Rows.P c (grid0.coords t) (V m c main_arg0) (Frame.tok_lt m hm c) (V m c main_arg1)))

/-- Its row `p` is the embedding table's row that token `256 t + p` names. -/
theorem rowsAt_apply (c : Dev nD) (t : Fin (cfgM m).N) (p : Fin 256) (k : Fin 512) :
    (rowsAt m hm c t (ix2 p k) : EReal)
      = (V m c main_arg1 : S128000x512.Idx → EReal) (ix2 (⟨((V m c main_arg0 : S8192.Idx → BitVec 32) (ix1 (⟨256 * t.val + p.val, by have := t.isLt; have : (cfgM m).N = 32 := rfl; omega⟩ : Fin 8192))).toNat, Frame.tok_lt m hm c _⟩ : Fin 128000) k) := by
  unfold rowsAt
  rw [Rows.rowsFn_apply, Rows.P_apply]
  refine congrArg (fun r : Fin 128000 => (V m c main_arg1 : S128000x512.Idx → EReal) (ix2 r k)) (Fin.ext ?_)
  show (Rows.tokAt c (grid0.coords t) (V m c main_arg0) p).toNat = _
  rw [Rows.tokAt_eq]
  exact congrArg (fun n : Fin 8192 => ((V m c main_arg0 : S8192.Idx → BitVec 32) (ix1 n)).toNat)
    (Fin.ext (by show 256 * (grid0.coords t 0).val + p.val = 256 * t.val + p.val; rw [coords_val]))

/-- The output block at point `t`: the body's arithmetic of the four input blocks and the gathered rows. -/
theorem outAt_eq (c : Dev nD) (t : Fin (cfgM m).N) :
    Frame.outAt m hm c t
      = k0_pay2 (F := Ideal) (k0_pay1 (F := Ideal) (Frame.iblk m c 0 t) (Frame.iblk m c 2 t)) (rowsAt m hm c t)
          (Frame.iblk m c 1 t) (Frame.iblk m c 3 t) := by
  unfold Frame.outAt Frame.runAt
  refine (Body.kernelRun_val c (grid0.coords t) (Frame.ms0_0 m t) (Frame.hs0_0 m t) (Frame.ms0_1 m t) (Frame.hs0_1 m t)
    (Frame.ms0_2 m t) (Frame.hs0_2 m t) (Frame.ms0_3 m t) (Frame.hs0_3 m t) (Frame.ms0_4 m t) (Frame.hs0_4 m t)
    (V m c main_arg0) (Frame.tok_lt m hm c) (V m c main_arg1) _ _ _ _).trans ?_
  have e0 : (Frame.ms0_0 m t).view.read (Elt Ideal) ((Frame.hs0_0 m t).unread (Frame.iblk m c 0 t)) = Frame.iblk m c 0 t :=
    (Frame.hs0_0 m t).read_unread _
  have e1 : (Frame.ms0_1 m t).view.read (Elt Ideal) ((Frame.hs0_1 m t).unread (Frame.iblk m c 1 t)) = Frame.iblk m c 1 t :=
    (Frame.hs0_1 m t).read_unread _
  have e2 : (Frame.ms0_2 m t).view.read (Elt Ideal) ((Frame.hs0_2 m t).unread (Frame.iblk m c 2 t)) = Frame.iblk m c 2 t :=
    (Frame.hs0_2 m t).read_unread _
  have e3 : (Frame.ms0_3 m t).view.read (Elt Ideal) ((Frame.hs0_3 m t).unread (Frame.iblk m c 3 t)) = Frame.iblk m c 3 t :=
    (Frame.hs0_3 m t).read_unread _
  exact congr (congr (congr (congrArg (k0_pay2 (F := Ideal)) (congr (congrArg (k0_pay1 (F := Ideal)) e0) e2)) rfl) e1) e3

/-- At point t the output block holds the body's arithmetic of the point's four input blocks and of the 256 rows of the
    embedding table that tokens 256 t … 256 t + 255 name. -/
theorem outAt_apply (c : Dev nD) (t : Fin (cfgM m).N) :
    ∃ rows : Vec Ideal S256x512 .f32,
      (∀ (p : Fin 256) (k : Fin 512), (rows (ix2 p k) : EReal)
          = (V m c main_arg1 : S128000x512.Idx → EReal) (ix2 (⟨((V m c main_arg0 : S8192.Idx → BitVec 32) (ix1 (⟨256 * t.val + p.val, by have := t.isLt; have : (cfgM m).N = 32 := rfl; omega⟩ : Fin 8192))).toNat, Frame.tok_lt m hm c _⟩ : Fin 128000) k))
      ∧ ∀ (p : Fin 256) (q : Fin 1024), (Frame.outAt m hm c t (ix2 p q) : EReal)
          = k0_pay2 (F := Ideal) (k0_pay1 (F := Ideal) (Frame.iblk m c 0 t) (Frame.iblk m c 2 t)) rows (Frame.iblk m c 1 t) (Frame.iblk m c 3 t) (ix2 p q) :=
  ⟨rowsAt m hm c t, rowsAt_apply m hm c t, fun p q => congrFun (outAt_eq m hm c t) (ix2 p q)⟩

end Cert.KernelIdeal.OutAt

end
-- ==== Proof.KI.Cover.lean ====
/-
  The kernel's windows over the grid of 32 points, independent of what the token table holds.

  The position rows [8192, 512] and the output [8192, 1024] are cut into 32 row blocks of 256 rows, block t at point t;
  the two weight matrices [512, 1024] and the bias row [1, 1024] are one whole-array block at every point. So the
  output's blocks cover it, each written back at its own point; a block of a whole-array function read at (p, q) is
  the function at row 256 t + p; and the three whole-array windows read their array unchanged. No index map reads
  the table, so every fact holds at arbitrary admissible contents of the table; the last section specialises them to
  the contents at the region's entry.
-/
import proofs.«422593_j31129922961550_2_alg».proof.Proof.KI.Cfg
import Idealize.ShloMosaic.Lib.Pipeline.Value
import Idealize.ShloMosaic.Lib.ValueIdx

noncomputable section

namespace Cert.KernelIdeal.Cover

open Cert.KernelIdeal Cert.KernelIdeal.Gen Cert.KernelIdeal.Entry Idealize.ShloMosaic Idealize.ShloMosaic.ValueIdx Idealize.ShloMosaic.TcCoe Idealize.SL.Sem

/-! ## At arbitrary admissible contents of the table -/

section AnyTable
variable (a : (pcfg0 (F := Ideal)).Adm)

/-- The grid has 32 points, whatever the table holds. -/
theorem N_eq : (cfg0 a).N = 32 := N_0

/-- The output window's block index at point t is (t, 0) (by enumeration of the 32 points). -/
theorem out_index (t : Fin (cfg0 a).N) : ((cfg0 a).win 4).index t (0 : Fin 2) = t.val ∧ ((cfg0 a).win 4).index t (1 : Fin 2) = 0 :=
  (by decide +kernel : ∀ t : Fin grid0.N, cc0_transform_5 (grid0.coords t) 0 = t.val ∧ cc0_transform_5 (grid0.coords t) 1 = 0) t

/-- The position rows' window's block index at point t is (t, 0) (by enumeration of the 32 points). -/
theorem pos_index (t : Fin (cfg0 a).N) : ((cfg0 a).win 0).index t (0 : Fin 2) = t.val ∧ ((cfg0 a).win 0).index t (1 : Fin 2) = 0 :=
  (by decide +kernel : ∀ t : Fin grid0.N, cc0_transform_1 (grid0.coords t) 0 = t.val ∧ cc0_transform_1 (grid0.coords t) 1 = 0) t

/-- The two weight windows and the bias window sit at block index (0, 0) at every point (by enumeration of the 32 points). -/
theorem w1_index (t : Fin (cfg0 a).N) (ax : Fin 2) : ((cfg0 a).win 1).index t ax = 0 :=
  (by decide +kernel : ∀ t : Fin grid0.N, ∀ ax : Fin 2, cc0_transform_2 (grid0.coords t) ax = 0) t ax
theorem w2_index (t : Fin (cfg0 a).N) (ax : Fin 2) : ((cfg0 a).win 2).index t ax = 0 :=
  (by decide +kernel : ∀ t : Fin grid0.N, ∀ ax : Fin 2, cc0_transform_3 (grid0.coords t) ax = 0) t ax
theorem w3_index (t : Fin (cfg0 a).N) (ax : Fin 2) : ((cfg0 a).win 3).index t ax = 0 :=
  (by decide +kernel : ∀ t : Fin grid0.N, ∀ ax : Fin 2, cc0_transform_4 (grid0.coords t) ax = 0) t ax

/-- The output's block index changes at every step, so every point writes its block back. -/
theorem out_flush (t : Fin (cfg0 a).N) : ((cfg0 a).win 4).flush t = true := by
  unfold Pipeline.Window.flush
  rw [Bool.and_eq_true]
  refine ⟨rfl, ?_⟩
  rw [Bool.or_eq_true, decide_eq_true_eq, decide_eq_true_eq]
  by_cases h : t.val + 1 = (cfg0 a).grid.N
  · exact Or.inl h
  · have hlt : t.val + 1 < (cfg0 a).grid.N := by have := t.isLt; have e : (cfg0 a).N = (cfg0 a).grid.N := rfl; omega
    refine Or.inr ⟨hlt, fun e => ?_⟩
    have e0 := congrFun e (0 : Fin 2)
    rw [(out_index a ⟨t.val + 1, hlt⟩).1, (out_index a t).1] at e0
    exact absurd e0 (by show t.val + 1 ≠ t.val; omega)

/-- An index of the output array is in point t's block iff each coordinate is in the block's range on its axis. -/
theorem out_mem_blk (t : Fin (cfg0 a).N) (i : S8192x1024.Idx) :
    i ∈ (((cfg0 a).win 4).blk t).view.set ↔ ∀ ax : Fin 2, ((cfg0 a).win 4).index t ax * S256x1024.size ax ≤ (i ax).val ∧ (i ax).val < ((cfg0 a).win 4).index t ax * S256x1024.size ax + S256x1024.size ax :=
  (iff_of_eq (congrArg (i ∈ ·) (View.set_slice_whole main_v7 (((cfg0 a).win 4).rect t)))).trans Rect.mem_set_unit

/-- Every index of the output array is in the block of the point its row divided by 256 names, and that point
    writes back. -/
theorem out_cover' (i : S8192x1024.Idx) :
    ∃ t : Fin (cfg0 a).N, ((cfg0 a).win 4).flush t = true ∧ i ∈ (((cfg0 a).win 4).blk t).view.set := by
  have hi0 : (i 0).val < 8192 := (i 0).isLt
  have hi1 : (i 1).val < 1024 := (i 1).isLt
  have hN : (cfg0 a).N = 32 := N_eq a
  refine ⟨⟨(i 0).val / 256, by omega⟩, out_flush a _, ?_⟩
  rw [out_mem_blk]
  intro ax
  obtain ⟨e0, e1⟩ := out_index a ⟨(i 0).val / 256, by omega⟩
  match ax with
  | ⟨0, _⟩ => show ((cfg0 a).win 4).index _ (0 : Fin 2) * 256 ≤ (i 0).val ∧ (i 0).val < ((cfg0 a).win 4).index _ (0 : Fin 2) * 256 + 256; rw [e0]; show (i 0).val / 256 * 256 ≤ _ ∧ _ < (i 0).val / 256 * 256 + 256; omega
  | ⟨1, _⟩ => show ((cfg0 a).win 4).index _ (1 : Fin 2) * 1024 ≤ (i 1).val ∧ (i 1).val < ((cfg0 a).win 4).index _ (1 : Fin 2) * 1024 + 1024; rw [e1]; omega

/-- Block t of a whole-array function, read at (p, q), is the function at row 256 t + p, column q. -/
theorem out_blk_read' (G : FVec Ideal S8192x1024 .f32) (t : Fin (cfg0 a).N) (p : Fin 256) (q : Fin 1024) :
    ((((cfg0 a).win 4).blk t).view.read (Elt Ideal) G) (ix2 p q) = G (ix2 (⟨256 * t.val + p.val, by have := t.isLt; have := N_eq a; omega⟩ : Fin 8192) q) := by
  show G _ = G _
  refine congrArg G (funext fun ax => Fin.ext ?_)
  obtain ⟨e0, e1⟩ := out_index a t
  match ax with
  | ⟨0, _⟩ => show ((cfg0 a).win 4).index t (0 : Fin 2) * 256 + 1 * p.val = 256 * t.val + p.val; rw [e0]; omega
  | ⟨1, _⟩ => show ((cfg0 a).win 4).index t (1 : Fin 2) * 1024 + 1 * q.val = q.val; rw [e1]; omega

/-- Conversely, block contents that agree with the function at those rows are block t of it. -/
theorem out_blk_ext' (G : FVec Ideal S8192x1024 .f32) (t : Fin (cfg0 a).N) (B : Vec Ideal S256x1024 .f32)
    (h : ∀ (p : Fin 256) (q : Fin 1024), (B (ix2 p q) : EReal) = G (ix2 (⟨256 * t.val + p.val, by have := t.isLt; have := N_eq a; omega⟩ : Fin 8192) q)) :
    B = (((cfg0 a).win 4).blk t).view.read (Elt Ideal) G := by
  funext j
  obtain ⟨p, q, rfl⟩ : ∃ (p : Fin 256) (q : Fin 1024), j = ix2 p q := ⟨j 0, j 1, eq_ix2 j⟩
  exact (h p q).trans (out_blk_read' a G t p q).symm

/-- Block t of the position table, read at (p, k), is the table at row 256 t + p, column k. -/
theorem pos_blk_read' (X : FVec Ideal S8192x512 .f32) (t : Fin (cfg0 a).N) (p : Fin 256) (k : Fin 512) :
    ((((cfg0 a).win 0).blk t).view.read (Elt Ideal) X) (ix2 p k) = X (ix2 (⟨256 * t.val + p.val, by have := t.isLt; have := N_eq a; omega⟩ : Fin 8192) k) := by
  show X _ = X _
  refine congrArg X (funext fun ax => Fin.ext ?_)
  obtain ⟨e0, e1⟩ := pos_index a t
  match ax with
  | ⟨0, _⟩ => show ((cfg0 a).win 0).index t (0 : Fin 2) * 256 + 1 * p.val = 256 * t.val + p.val; rw [e0]; omega
  | ⟨1, _⟩ => show ((cfg0 a).win 0).index t (1 : Fin 2) * 512 + 1 * k.val = k.val; rw [e1]; omega

/-- The word part's weight window is the whole array at every point. -/
theorem w1_blk_read' (X : FVec Ideal S512x1024 .bf16) (t : Fin (cfg0 a).N) :
    (((cfg0 a).win 1).blk t).view.read (Elt Ideal) X = X := by
  have hz : (fun ax : Fin 2 => ((cfg0 a).win 1).index t ax * S512x1024.size ax) = fun _ => 0 := funext fun ax => by rw [w1_index a t ax]; exact Nat.zero_mul _
  exact Memref.read_access_unit_zero (Elt Ideal) main_v2 hz (fun ax => by have h0 := congrFun hz ax; dsimp only at h0 ⊢; omega) X

/-- The position part's weight window is the whole array at every point. -/
theorem w2_blk_read' (X : FVec Ideal S512x1024 .bf16) (t : Fin (cfg0 a).N) :
    (((cfg0 a).win 2).blk t).view.read (Elt Ideal) X = X := by
  have hz : (fun ax : Fin 2 => ((cfg0 a).win 2).index t ax * S512x1024.size ax) = fun _ => 0 := funext fun ax => by rw [w2_index a t ax]; exact Nat.zero_mul _
  exact Memref.read_access_unit_zero (Elt Ideal) main_v5 hz (fun ax => by have h0 := congrFun hz ax; dsimp only at h0 ⊢; omega) X

/-- The bias row's window is the whole array at every point. -/
theorem w3_blk_read' (X : FVec Ideal S1x1024 .f32) (t : Fin (cfg0 a).N) :
    (((cfg0 a).win 3).blk t).view.read (Elt Ideal) X = X := by
  have hz : (fun ax : Fin 2 => ((cfg0 a).win 3).index t ax * S1x1024.size ax) = fun _ => 0 := funext fun ax => by rw [w3_index a t ax]; exact Nat.zero_mul _
  exact Memref.read_access_unit_zero (Elt Ideal) main_v6 hz (fun ax => by have h0 := congrFun hz ax; dsimp only at h0 ⊢; omega) X

end AnyTable

/-! ## At the table's contents at the region's entry -/

section AtTable
variable (m : (ℓ : Loc nD τ sig) → Buf (Elt Ideal) ℓ) (c : Dev nD)

/-- The output's blocks cover it, each written back: the hypothesis of the whole-array post. -/
theorem out_cover (i : (((Entry.cfgM m).win 4).arr.view.loc (c.tc : Thread nD τ)).2.ty.Idx) :
    ∃ t : Fin (Entry.cfgM m).N, ((Entry.cfgM m).win 4).flush t = true ∧ i ∈ (((Entry.cfgM m).win 4).blk t).view.set :=
  out_cover' (Entry.adm m 0) i

/-- The output's block index changes at every step, so every point writes its block back. -/
theorem out_flush_all (t : Fin (Entry.cfgM m).N) : ((Entry.cfgM m).win 4).flush t = true := out_flush (Entry.adm m 0) t

/-- Block t of a whole-array function of the output's shape, at (p, q): the function at row 256 t + p. -/
theorem out_blk_read (G : FVec Ideal S8192x1024 .f32) (t : Fin (Entry.cfgM m).N) (p : Fin 256) (q : Fin 1024) :
    ((((Entry.cfgM m).win 4).blk t).view.read (Elt Ideal) G) (ix2 p q) = G (ix2 (⟨256 * t.val + p.val, by have := t.isLt; have : (Entry.cfgM m).N = 32 := rfl; omega⟩ : Fin 8192) q) :=
  out_blk_read' (Entry.adm m 0) G t p q

/-- Block contents that agree with the function at rows 256 t + p are block t of it. -/
theorem out_blk_ext (G : FVec Ideal S8192x1024 .f32) (t : Fin (Entry.cfgM m).N) (B : Vec Ideal S256x1024 .f32)
    (h : ∀ (p : Fin 256) (q : Fin 1024), (B (ix2 p q) : EReal) = G (ix2 (⟨256 * t.val + p.val, by have := t.isLt; have : (Entry.cfgM m).N = 32 := rfl; omega⟩ : Fin 8192) q)) :
    B = (((Entry.cfgM m).win 4).blk t).view.read (Elt Ideal) G :=
  out_blk_ext' (Entry.adm m 0) G t B h

/-- Block t of the position table at (p, k): the table at row 256 t + p. -/
theorem pos_blk_read (X : FVec Ideal S8192x512 .f32) (t : Fin (Entry.cfgM m).N) (p : Fin 256) (k : Fin 512) :
    ((((Entry.cfgM m).win 0).blk t).view.read (Elt Ideal) X) (ix2 p k) = X (ix2 (⟨256 * t.val + p.val, by have := t.isLt; have : (Entry.cfgM m).N = 32 := rfl; omega⟩ : Fin 8192) k) :=
  pos_blk_read' (Entry.adm m 0) X t p k

/-- Windows 1, 2 and 3 read their whole array at every point. -/
theorem w1_blk_read (X : FVec Ideal S512x1024 .bf16) (t : Fin (Entry.cfgM m).N) : (((Entry.cfgM m).win 1).blk t).view.read (Elt Ideal) X = X :=
  w1_blk_read' (Entry.adm m 0) X t
theorem w2_blk_read (X : FVec Ideal S512x1024 .bf16) (t : Fin (Entry.cfgM m).N) : (((Entry.cfgM m).win 2).blk t).view.read (Elt Ideal) X = X :=
  w2_blk_read' (Entry.adm m 0) X t
theorem w3_blk_read (X : FVec Ideal S1x1024 .f32) (t : Fin (Entry.cfgM m).N) : (((Entry.cfgM m).win 3).blk t).view.read (Elt Ideal) X = X :=
  w3_blk_read' (Entry.adm m 0) X t

end AtTable

end Cert.KernelIdeal.Cover
-- ==== Proof.PayValue.lean ====
/-
  The kernel body's arithmetic read at one index, at the ideal values (floats are extended reals).

  The body computes, for a 256 x 1024 output block,
      logistic ( rows · wwt  +  pos · wpt  +  bias ),
  where each product is a matrix product of a 256 x 512 block (narrowed to bf16, which at the ideal values is the
  identity) with a 512 x 1024 block, accumulated into the zero matrix, and the bias is one row of 1024 entries
  repeated over the 256 rows. Read at the entry (p, q) this is
      logistic ( (∑ k, rows (p,k) * wwt (k,q)) + (∑ k, pos (p,k) * wpt (k,q)) + b (0,q) ).
-/
import proofs.«422593_j31129922961550_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen

/-! ## The product's operand indices, coordinate by coordinate

  The product contracts the left operand's axis 1 with the right operand's axis 0; the left operand's axis 0 and the
  right operand's axis 1 are the result's two axes. -/

/-- The left operand's row is the result's row. -/
theorem lhs_0 (i : S256x1024.Idx) (c : dot_S256x512_S512x1024_S256x1024_1_0_0_1_n_n.contr.Idx) :
    (dot_S256x512_S512x1024_S256x1024_1_0_0_1_n_n.lhsIdx i c 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl

/-- The left operand's column is the contracted coordinate. -/
theorem lhs_1 (i : S256x1024.Idx) (c : dot_S256x512_S512x1024_S256x1024_1_0_0_1_n_n.contr.Idx) :
    (dot_S256x512_S512x1024_S256x1024_1_0_0_1_n_n.lhsIdx i c 1).val = (c ⟨0, by decide⟩).val :=
  dot_S256x512_S512x1024_S256x1024_1_0_0_1_n_n.lhsIdx_val_of_single rfl i c

/-- The right operand's row is the contracted coordinate. -/
theorem rhs_0 (i : S256x1024.Idx) (c : dot_S256x512_S512x1024_S256x1024_1_0_0_1_n_n.contr.Idx) :
    (dot_S256x512_S512x1024_S256x1024_1_0_0_1_n_n.rhsIdx i c 0).val = (c ⟨0, by decide⟩).val :=
  dot_S256x512_S512x1024_S256x1024_1_0_0_1_n_n.rhsIdx_val_of_single rfl i c

/-- The right operand's column is the result's column. -/
theorem rhs_1 (i : S256x1024.Idx) (c : dot_S256x512_S512x1024_S256x1024_1_0_0_1_n_n.contr.Idx) :
    (dot_S256x512_S512x1024_S256x1024_1_0_0_1_n_n.rhsIdx i c 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-! ## One product into the zero matrix, read at an entry -/

/-- A 256 x 512 by 512 x 1024 product accumulated into the zero matrix is, at the entry (p, q), the sum over the
    contracted coordinate of the products of the entries. -/
theorem matmul_zero_apply (A : FVec Ideal S256x512 .bf16) (B : FVec Ideal S512x1024 .bf16) (p : Fin 256) (q : Fin 1024) :
    matmul (F := Ideal) dot_S256x512_S512x1024_S256x1024_1_0_0_1_n_n none A B (constant (F := Ideal) S256x1024 .f32 0x00000000#32) (ix2 p q)
      = ∑ k : Fin 512, (A (ix2 p k) : EReal) * B (ix2 k q) := by
  show FloatOps.matmul dot_S256x512_S512x1024_S256x1024_1_0_0_1_n_n none A B (constant (F := Ideal) S256x1024 .f32 0x00000000#32) (ix2 p q) = _
  rw [Ideal.matmul_constant_zero_apply, ← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 p q) ((contrEquiv1 dot_S256x512_S512x1024_S256x1024_1_0_0_1_n_n 512 rfl rfl).symm k) = ix2 p k := funext fun a => Fin.ext (by
    match a with
    | ⟨0, _⟩ => exact lhs_0 _ _
    | ⟨1, _⟩ => exact (lhs_1 _ _).trans hk)
  have er : dot_S256x512_S512x1024_S256x1024_1_0_0_1_n_n.rhsIdx (ix2 p q) ((contrEquiv1 dot_S256x512_S512x1024_S256x1024_1_0_0_1_n_n 512 rfl rfl).symm k) = ix2 k q := funext fun a => Fin.ext (by
    match a with
    | ⟨0, _⟩ => exact (rhs_0 _ _).trans hk
    | ⟨1, _⟩ => exact rhs_1 _ _)
  rw [el, er]

/-! ## The two payloads -/

/-- The first payload (the position part's product) at an entry: narrowing to bf16 and the cast to the same shape are
    the identity at the ideal values. -/
theorem pay1_apply (pos : Vec Ideal S256x512 .f32) (wpt : Vec Ideal S512x1024 .bf16) (p : Fin 256) (q : Fin 1024) :
    k0_pay1 (F := Ideal) pos wpt (ix2 p q) = ∑ k : Fin 512, (pos (ix2 p k) : EReal) * wpt (ix2 k q) := by
  unfold k0_pay1
  refine (matmul_zero_apply _ _ p q).trans ?_
  refine Finset.sum_congr rfl fun k _ => ?_
  rw [shapeCast_self]
  rfl

/-- The second payload at an entry, over any value of the first: the word part's product plus that value, plus the
    bias row, through the logistic function. -/
theorem pay2_apply (acc : FVec Ideal S256x1024 .f32) (rows : Vec Ideal S256x512 .f32) (wwt : Vec Ideal S512x1024 .bf16)
    (b : Vec Ideal S1x1024 .f32) (p : Fin 256) (q : Fin 1024) :
    k0_pay2 (F := Ideal) acc rows wwt b (ix2 p q)
      = Ideal.logistic (((∑ k : Fin 512, (rows (ix2 p k) : EReal) * wwt (ix2 k q)) + acc (ix2 p q)) + b (ix2 (0 : Fin 1) q)) := by
  unfold k0_pay2
  show FloatOps.logistic (F := Ideal) _ = _
  rw [Ideal.logistic_def]
  refine congrArg Ideal.logistic ?_
  rw [addf_apply, addf_apply]
  refine congrArg₂ (· + ·) (congrArg₂ (· + ·) ?_ rfl) ?_
  · refine (matmul_zero_apply _ _ p q).trans ?_
    refine Finset.sum_congr rfl fun k _ => ?_
    rw [shapeCast_self]
    rfl
  · rw [shapeCast_self]
    exact broadcastTo_1b_ab_apply b broadcasts_S1x1024_S256x1024 p q

/-- The body's arithmetic at the entry (p, q): the word part's sum, plus the position part's sum, plus the bias,
    through the logistic function. -/
theorem pay_apply [Cert.KernelIdeal.Facts] (pos : Vec Ideal S256x512 .f32) (wpt : Vec Ideal S512x1024 .bf16) (rows : Vec Ideal S256x512 .f32)
    (wwt : Vec Ideal S512x1024 .bf16) (b : Vec Ideal S1x1024 .f32) (p : Fin 256) (q : Fin 1024) :
    k0_pay2 (F := Ideal) (k0_pay1 (F := Ideal) pos wpt) rows wwt b (ix2 p q)
      = Ideal.logistic (((∑ k : Fin 512, (rows (ix2 p k) : EReal) * wwt (ix2 k q))
          + ∑ k : Fin 512, (pos (ix2 p k) : EReal) * wpt (ix2 k q)) + b (ix2 (0 : Fin 1) q)) := by
  rw [pay2_apply, pay1_apply]

end Cert.KernelIdeal.PayValue
-- ==== Proof.KI.EntryValue.lean ====
/-
  The memory at the kernel region's entry, read at an index, and one block of the result against the specification.

  Before the region the host cuts the 1024 x 1024 weight matrix W into its left and right halves of 512 columns,
  transposes each to 512 x 1024 and narrows it to bf16 (the identity at the ideal values), and lays the bias of 1024
  entries out as one row. So the word part's weights hold W (q, k) at (k, q), the position part's hold W (q, 512 + k),
  and the bias row holds b q at (0, q); the five arguments are as the launch left them. With these, the body's
  arithmetic on block t is the specification's rows 256 t … 256 t + 255.
-/
import proofs.«422593_j31129922961550_2_alg».proof.Proof.KI.Entry
import proofs.«422593_j31129922961550_2_alg».proof.Proof.PayValue
import proofs.«422593_j31129922961550_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.EntryValue

open Cert.KernelIdeal Cert.KernelIdeal.Gen Cert.KernelIdeal.Entry Idealize.ShloMosaic Idealize.ShloMosaic.ValueIdx Idealize.ShloMosaic.TcCoe Idealize.SL.Sem

variable (m : (ℓ : Loc nD τ sig) → Buf (Elt Ideal) ℓ) (c : Dev nD)

/-! ## The five arguments: the host operations before the region write none of them -/

theorem V_arg0 : V m c main_arg0 = m ((c.tc : Thread nD τ).loc main_arg0) := by
  dsimp only [Entry.V, Entry.V0]
  simp only [List.flatten_cons, List.flatten_nil, List.append_nil]
  dsimp only [hostOps0]
  after_results

theorem V_arg1 : V m c main_arg1 = m ((c.tc : Thread nD τ).loc main_arg1) := by
  dsimp only [Entry.V, Entry.V0]
  simp only [List.flatten_cons, List.flatten_nil, List.append_nil]
  dsimp only [hostOps0]
  after_results

theorem V_arg2 : V m c main_arg2 = m ((c.tc : Thread nD τ).loc main_arg2) := by
  dsimp only [Entry.V, Entry.V0]
  simp only [List.flatten_cons, List.flatten_nil, List.append_nil]
  dsimp only [hostOps0]
  after_results

theorem V_arg3 : V m c main_arg3 = m ((c.tc : Thread nD τ).loc main_arg3) := by
  dsimp only [Entry.V, Entry.V0]
  simp only [List.flatten_cons, List.flatten_nil, List.append_nil]
  dsimp only [hostOps0]
  after_results

theorem V_arg4 : V m c main_arg4 = m ((c.tc : Thread nD τ).loc main_arg4) := by
  dsimp only [Entry.V, Entry.V0]
  simp only [List.flatten_cons, List.flatten_nil, List.append_nil]
  dsimp only [hostOps0]
  after_results

/-! ## The three operands the host operations write, read at an index -/

/-- A half of the weight matrix's columns, starting at column o, transposed and narrowed to bf16 (the identity at the
    ideal values): its entry (k, q) is the weight matrix's entry (q, o + k). -/
theorem half_apply (o : Nat) (X : FVec Ideal S1024x1024 .f32) (hs : S1024x1024.Slices ![0, o] S1024x512)
    (ht : S1024x512.Transposes [1, 0] S512x1024) (hb : FTy.bits .bf16 < FTy.bits .f32)
    (k : Fin 512) (q : Fin 1024) (j : Fin 1024) (hj : j.val = o + k.val) :
    (truncf .bf16 (transpose S512x1024 [1, 0] (extractStridedSlice S1024x512 ![0, o] X hs) ht) hb : FVec Ideal S512x1024 .bf16) (ix2 k q)
      = X (ix2 q j) := by
  rw [truncf_apply, transpose_ix2_apply]
  exact slice2_axis1_apply o X hs q k j hj

/-- The word part's weights at the region's entry: entry (k, q) is the weight matrix's entry (q, k). -/
theorem V_v2_apply (k : Fin 512) (q : Fin 1024) : (V m c main_v2 : S512x1024.Idx → EReal) (ix2 k q) = (m ((c.tc : Thread nD τ).loc main_arg3) : S1024x1024.Idx → EReal) (ix2 q ⟨k.val, by omega⟩) := by
  have e : (V m c main_v2 : S512x1024.Idx → EReal)
      = truncf (F := Ideal) .bf16 (transpose S512x1024 [1, 0] (extractStridedSlice S1024x512 ![0, 0] (m ((c.tc : Thread nD τ).loc main_arg3) : S1024x1024.Idx → EReal) slices_S1024x1024_S1024x512_0_0) transposes_S1024x512_S512x1024_1_0) bitsLt_bf16_f32 := by
    dsimp only [Entry.V, Entry.V0]
    simp only [List.flatten_cons, List.flatten_nil, List.append_nil]
    dsimp only [hostOps0]
    after_results
  rw [e]
  exact half_apply 0 _ _ _ _ k q _ (Nat.zero_add _).symm

/-- The position part's weights at the region's entry: entry (k, q) is the weight matrix's entry (q, 512 + k). -/
theorem V_v5_apply (k : Fin 512) (q : Fin 1024) : (V m c main_v5 : S512x1024.Idx → EReal) (ix2 k q) = (m ((c.tc : Thread nD τ).loc main_arg3) : S1024x1024.Idx → EReal) (ix2 q ⟨512 + k.val, by omega⟩) := by
  have e : (V m c main_v5 : S512x1024.Idx → EReal)
      = truncf (F := Ideal) .bf16 (transpose S512x1024 [1, 0] (extractStridedSlice S1024x512 ![0, 512] (m ((c.tc : Thread nD τ).loc main_arg3) : S1024x1024.Idx → EReal) slices_S1024x1024_S1024x512_0_512) transposes_S1024x512_S512x1024_1_0) bitsLt_bf16_f32 := by
    dsimp only [Entry.V, Entry.V0]
    simp only [List.flatten_cons, List.flatten_nil, List.append_nil]
    dsimp only [hostOps0]
    after_results
  rw [e]
  exact half_apply 512 _ _ _ _ k q _ rfl

/-- The bias laid out as one row at the region's entry: entry (0, q) is the bias's entry q. -/
theorem V_v6_apply (q : Fin 1024) : (V m c main_v6 : S1x1024.Idx → EReal) (ix2 (0 : Fin 1) q) = (m ((c.tc : Thread nD τ).loc main_arg4) : S1024.Idx → EReal) (ix1 q) := by
  have e : (V m c main_v6 : S1x1024.Idx → EReal) = shapeCast S1x1024 (m ((c.tc : Thread nD τ).loc main_arg4) : S1024.Idx → EReal) shapeCasts_S1024_S1x1024 := by
    dsimp only [Entry.V, Entry.V0]
    simp only [List.flatten_cons, List.flatten_nil, List.append_nil]
    dsimp only [hostOps0]
    after_results
    rfl
  rw [e]
  exact shapeCast_a_1a_apply _ _ 0 q

/-! ## One block of the result is the specification's rows -/

/-- Block t of the result (rows 256 t … 256 t + 255): when the two row blocks hold the token rows' embeddings and the
    position table's rows, the two weight blocks the two halves of the weight matrix transposed, and the bias block the
    bias, the body's arithmetic at (p, q) is the specification at row 256 t + p, column q. -/
theorem block_eq (inp : IVec S8192 32) (E : FVec Ideal S128000x512 .f32) (P : FVec Ideal S8192x512 .f32) (W : FVec Ideal S1024x1024 .f32) (b : FVec Ideal S1024 .f32)
    (t : Fin 32) (rows pos : Vec Ideal S256x512 .f32) (wwt wpt : Vec Ideal S512x1024 .bf16) (bb : Vec Ideal S1x1024 .f32)
    (hrows : ∀ (p : Fin 256) (k : Fin 512), (rows (ix2 p k) : EReal) = E (ix2 (Cert.Spec.tokRow inp ⟨256 * t.val + p.val, by omega⟩) k))
    (hpos : ∀ (p : Fin 256) (k : Fin 512), (pos (ix2 p k) : EReal) = P (ix2 (⟨256 * t.val + p.val, by omega⟩ : Fin 8192) k))
    (hwwt : ∀ (k : Fin 512) (q : Fin 1024), (wwt (ix2 k q) : EReal) = W (ix2 q ⟨k.val, by omega⟩))
    (hwpt : ∀ (k : Fin 512) (q : Fin 1024), (wpt (ix2 k q) : EReal) = W (ix2 q ⟨512 + k.val, by omega⟩))
    (hb : ∀ q : Fin 1024, (bb (ix2 (0 : Fin 1) q) : EReal) = b (ix1 q)) (p : Fin 256) (q : Fin 1024) :
    k0_pay2 (F := Ideal) (k0_pay1 (F := Ideal) pos wpt) rows wwt bb (ix2 p q)
      = Cert.Spec.out inp E P W b (ix2 (⟨256 * t.val + p.val, by omega⟩ : Fin 8192) q) := by
  rw [PayValue.pay_apply]
  unfold Cert.Spec.out Cert.Spec.lin
  refine congrArg Ideal.logistic (congrArg₂ (· + ·) (congrArg₂ (· + ·) ?_ ?_) ?_)
  · exact Finset.sum_congr rfl fun k _ => by rw [hrows p k, hwwt k q]
  · exact Finset.sum_congr rfl fun k _ => by rw [hpos p k, hwpt k q]
  · exact hb q

end Cert.KernelIdeal.EntryValue
-- ==== Proof.KI.OutValue.lean ====
/-
  What the kernel's program leaves in its two results, at the ideal values.

  Point t of the grid writes block t of the output array: rows 256 t … 256 t + 255. The body's arithmetic on that
  block, with the weights the host laid out before the region and the embedding rows the tokens name, is the
  specification's rows; the 32 blocks cover the array; so the array ends at the specification's first result. The host
  operations after the region compute the mean of its rows, the second result, and touch no argument.
-/
import proofs.«422593_j31129922961550_2_alg».proof.Proof.KI.FrameClaim
import proofs.«422593_j31129922961550_2_alg».proof.Proof.KI.OutAt
import proofs.«422593_j31129922961550_2_alg».proof.Proof.KI.Cover
import proofs.«422593_j31129922961550_2_alg».proof.Proof.KI.EntryValue
import proofs.«422593_j31129922961550_2_alg».proof.Proof.KI.TailValue
import proofs.«422593_j31129922961550_2_alg».proof.Proof.Spec
import Idealize.ShloMosaic.Lib.ValueIdx
import Idealize.ShloMosaic.Lib.Pipeline.Value

noncomputable section

namespace Cert.KernelIdeal.OutValue

open Cert.KernelIdeal Cert.KernelIdeal.Gen Cert.KernelIdeal.Entry
open Idealize.ShloMosaic Idealize.ShloMosaic.ValueIdx Idealize.ShloMosaic.TcCoe Idealize.SL.Sem

variable (m : (ℓ : Loc nD τ sig) → Buf (Elt Ideal) ℓ) (ρ : Dev nD → PrngReg)
  (hm : ∀ (c : Dev nD) (j : S8192.Idx), (m ((c.tc : Thread nD τ).loc main_arg0) j).toNat < 128000)

/-! ## The first result -/

/-- After the region the output array is the specification's first result of the five argument arrays. -/
theorem arrAt_out (c : Dev nD) : (Frame.dats (F := Ideal) m hm 0 c).arrAt 4 (cfgM m).N = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (Frame.dats (F := Ideal) m hm 0 c).arrAt_eq_of_cover 4 _ (fun t _ => ?_) (Cover.out_cover m c)
  show ((cfgM m).win 4).cut ((cfgM m).grid.coords t) ((Frame.dats (F := Ideal) m hm 0 c).after 4 t) = _
  rw [Frame.after0_4]
  refine Cover.out_blk_ext m _ t _ (fun p q => ?_)
  obtain ⟨rows, hrows, hout⟩ := OutAt.outAt_apply m hm c t
  show (Frame.outAt m hm c t (ix2 p q) : EReal) = _
  rw [hout p q]
  refine EntryValue.block_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨t.val, by have := t.isLt; have : (cfgM m).grid.N = 32 := rfl; omega⟩ rows (Frame.iblk m c 0 t) (Frame.iblk m c 1 t) (Frame.iblk m c 2 t) (Frame.iblk m c 3 t) ?_ ?_ ?_ ?_ ?_ p q
  · intro p k
    refine (hrows p k).trans ?_
    rw [show (V m c main_arg1 : S128000x512.Idx → EReal) = m ((c.tc : Thread nD τ).loc main_arg1) from EntryValue.V_arg1 m c]
    refine congrArg (fun r : Fin 128000 => (m ((c.tc : Thread nD τ).loc main_arg1) : S128000x512.Idx → EReal) (ix2 r k)) (Fin.ext ?_)
    show ((V m c main_arg0 : S8192.Idx → BitVec 32) _).toNat = min ((m ((c.tc : Thread nD τ).loc main_arg0) : S8192.Idx → BitVec 32) _).toNat 127999
    rw [show (V m c main_arg0 : S8192.Idx → BitVec 32) = m ((c.tc : Thread nD τ).loc main_arg0) from EntryValue.V_arg0 m c]
    exact (Nat.min_eq_left (by have := hm c (ix1 ⟨256 * t.val + p.val, by have := t.isLt; have : (cfgM m).grid.N = 32 := rfl; omega⟩); omega)).symm
  · intro p k
    exact (Cover.pos_blk_read m (V m c main_arg2) t p k).trans (congrFun (EntryValue.V_arg2 m c) _)
  · intro k q
    exact (congrFun (Cover.w1_blk_read m (V m c main_v2) t) (ix2 k q)).trans (EntryValue.V_v2_apply m c k q)
  · intro k q
    exact (congrFun (Cover.w2_blk_read m (V m c main_v5) t) (ix2 k q)).trans (EntryValue.V_v5_apply m c k q)
  · intro q
    exact (congrFun (Cover.w3_blk_read m (V m c main_v6) t) (ix2 (0 : Fin 1) q)).trans (EntryValue.V_v6_apply m c q)

/-! ## The run, read -/

include hm in
/-- From any memory with every token below the vocabulary size and zero counters, @main runs to its end with the first
    result at the specification's sigmoid of the linear layer, the second at the mean of its rows, and the five arguments
    unchanged. -/
theorem run_values : θ_run defs (onTc (τ := τ) (main (F := Ideal))) ⟨m, fun _ => 0, ρ⟩ (fun r => ∀ c : Dev nD,
      r.2.mem ((c.tc : Thread nD τ).loc main_v7) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v11) = Cert.Spec.meanTail reducesTo_S8192x1024_S1024_d0 h_S_ bcast_S_S1024 shapeCasts_S1024_S1x1x1024 (Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 4).trans (arrAt_out m hm c),
      ((h c).2 main_v11 (Pipeline.mem_restRefs_of (win := spec0) main_v11 (by decide) (by decide))).trans (by
        unfold Pipeline.afterTail
        rw [TailValue.tail_v11, Pipeline.withArrays_arr _ Gen.winFacts0.arr_inj c _ _ 4]
        exact congrArg _ (arrAt_out m hm c)),
      ((h c).2 main_arg0 (Pipeline.mem_restRefs_of (win := spec0) main_arg0 (by decide) (by decide))).trans
        ((FrameClaim.afterTail_other m hm c main_arg0 (by decide) (by decide)).trans (Frame.V_arg0 m c)),
      ((h c).2 main_arg1 (Pipeline.mem_restRefs_of (win := spec0) main_arg1 (by decide) (by decide))).trans
        ((FrameClaim.afterTail_other m hm c main_arg1 (by decide) (by decide)).trans (Frame.V_arg1 m c)),
      ((h c).1 0).trans (((Frame.dats m hm 0 c).arrAt_in 0 rfl _).trans ((Frame.A_eq m hm c 0).trans (FrameClaim.V_arg2 m c))),
      ((h c).2 main_arg3 (Pipeline.mem_restRefs_of (win := spec0) main_arg3 (by decide) (by decide))).trans
        ((FrameClaim.afterTail_other m hm c main_arg3 (by decide) (by decide)).trans (FrameClaim.V_arg3 m c)),
      ((h c).2 main_arg4 (Pipeline.mem_restRefs_of (win := spec0) main_arg4 (by decide) (by decide))).trans
        ((FrameClaim.afterTail_other m hm c main_arg4 (by decide) (by decide)).trans (FrameClaim.V_arg4 m c))⟩)
    (Frame.run_main m ρ hm)

end Cert.KernelIdeal.OutValue

end
-- ==== Proof.Final.lean ====
/-
  The certificate's claims, assembled.

  Each program's precondition says in particular that every token is a row number of the embedding table. Under it the
  kernel (read bit-exactly and at the ideal values) and the reference run to their ends with their arguments unchanged;
  and at the ideal values, from memories that agree on the arguments, the kernel's two results and the reference's are
  the same functions of those arguments: the sigmoid of the linear layer on the concatenated embedding and position
  rows, and the mean of its rows.
-/
import proofs.«422593_j31129922961550_2_alg».proof.Defs
import proofs.«422593_j31129922961550_2_alg».proof.Proof.Gen.Kernel
import proofs.«422593_j31129922961550_2_alg».proof.Proof.Gen.KernelIdeal
import proofs.«422593_j31129922961550_2_alg».proof.Proof.Gen.ReferenceIdeal
import proofs.«422593_j31129922961550_2_alg».proof.Proof.Gen.Pre_finite_inputs
import proofs.«422593_j31129922961550_2_alg».proof.Proof.PreIdx
import proofs.«422593_j31129922961550_2_alg».proof.Proof.RefValue
import proofs.«422593_j31129922961550_2_alg».proof.Proof.KI.FrameClaim
import proofs.«422593_j31129922961550_2_alg».proof.Proof.KI.OutValue
import proofs.«422593_j31129922961550_2_alg».proof.Proof.K.FrameClaim

noncomputable section

namespace Cert.Proof

open Idealize.ShloMosaic Idealize.ShloMosaic.TcCoe Idealize.SL.Sem

/-! ## The token range, from each program's precondition -/

/-- Under the precondition every token of the bit-exact kernel's memory is below the vocabulary size. -/
theorem tok_Kernel (m : (ℓ : Loc Cert.Kernel.nD Cert.Kernel.τ Cert.Kernel.sig) → Buf (Elt Bits) ℓ) (h : Cert.Pre_Kernel m) :
    ∀ (c : Dev Cert.Kernel.nD) (j : Cert.Kernel.S8192.Idx), (m ((c.tc : Thread Cert.Kernel.nD Cert.Kernel.τ).loc Cert.Kernel.main_arg0) j).toNat < 128000 :=
  fun c => Cert.Pre_finite_inputs.Idx.tok_lt (F := Bits) _ _ _ _ _ (h c)

/-- The same for the kernel at the ideal values. -/
theorem tok_KernelIdeal (m : (ℓ : Loc Cert.KernelIdeal.nD Cert.KernelIdeal.τ Cert.KernelIdeal.sig) → Buf (Elt Ideal) ℓ) (h : Cert.Pre_KernelIdeal m) :
    ∀ (c : Dev Cert.KernelIdeal.nD) (j : Cert.KernelIdeal.S8192.Idx), (m ((c.tc : Thread Cert.KernelIdeal.nD Cert.KernelIdeal.τ).loc Cert.KernelIdeal.main_arg0) j).toNat < 128000 :=
  fun c => Cert.Pre_finite_inputs.Idx.tok_lt (F := Ideal) _ _ _ _ _ (h c)

/-- The same for the reference. -/
theorem tok_ReferenceIdeal (m : (ℓ : Loc Cert.ReferenceIdeal.nD Cert.ReferenceIdeal.τ Cert.ReferenceIdeal.sig) → Buf (Elt Ideal) ℓ) (h : Cert.Pre_ReferenceIdeal m) :
    ∀ (c : Dev Cert.ReferenceIdeal.nD) (j : Cert.ReferenceIdeal.S8192.Idx), (m ((c.tc : Thread Cert.ReferenceIdeal.nD Cert.ReferenceIdeal.τ).loc Cert.ReferenceIdeal.main_arg0) j).toNat < 128000 :=
  fun c => Cert.Pre_finite_inputs.Idx.tok_lt (F := Ideal) _ _ _ _ _ (h c)

/-! ## The claims one by one -/

/-- The bit-exact kernel runs and leaves its arguments unchanged. -/
theorem frame_Kernel : Cert.frame_Kernel :=
  fun m g h => Cert.Kernel.FrameClaim.run_frame (F := Bits) m g (tok_Kernel m h)

/-- So does the kernel at the ideal values. -/
theorem frame_KernelIdeal : Cert.frame_KernelIdeal :=
  fun m g h => Cert.KernelIdeal.FrameClaim.run_frame (F := Ideal) m g (tok_KernelIdeal m h)

/-- And the reference: its run to the specification, read at the arguments. -/
theorem frame_ReferenceIdeal : Cert.frame_ReferenceIdeal :=
  fun m g h => (θ_run Cert.ReferenceIdeal.defs _ _).mono (fun _ hr c => (hr c).2.2) (Cert.ReferenceIdeal.RefValue.ref_run m g (tok_ReferenceIdeal m h))

/-- From memories that agree on the five arguments both programs run, leave the arguments unchanged, and end with the
    same two results: the specification's sigmoid of the linear layer and the mean of its rows, of those arguments. -/
theorem algebraic : Cert.algebraic_KernelIdeal_ReferenceIdeal := by
  intro m g m' g' h hagree
  have hm := tok_KernelIdeal m h
  have hm' : ∀ (c : Dev Cert.ReferenceIdeal.nD) (j : Cert.ReferenceIdeal.S8192.Idx), (m' ((c.tc : Thread Cert.ReferenceIdeal.nD Cert.ReferenceIdeal.τ).loc Cert.ReferenceIdeal.main_arg0) j).toNat < 128000 := fun c j => by
    have e := (hagree c).1
    rw [e]
    exact hm c j
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.meanTail Cert.KernelIdeal.Facts₀.reducesTo_S8192x1024_S1024_d0 Cert.KernelIdeal.Facts₀.h_S_ Cert.KernelIdeal.Facts₀.bcast_S_S1024 Cert.KernelIdeal.Facts₀.shapeCasts_S1024_S1x1x1024 (Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    Cert.KernelIdeal.OutValue.run_values m g hm, ?_⟩
  refine (θ_run Cert.ReferenceIdeal.defs _ _).mono (fun _ hr c => ?_) (Cert.ReferenceIdeal.RefValue.ref_run m' g' hm')
  obtain ⟨e0, e1, e2, e3, e4⟩ := hagree c
  obtain ⟨r0, r1, rest⟩ := hr c
  refine ⟨?_, ?_, rest⟩
  · rw [r0, e0, e1, e2, e3, e4]
  · rw [r1, e0, e1, e2, e3, e4]

/-! ## Everything claimed -/

theorem claim_all : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
-- ==== Proof.lean ====
/-
  The certificate's proof.

  Both programs map 8192 tokens, an embedding table of 128000 rows of 512, a position table of 8192 rows of 512, a
  weight matrix of 1024 × 1024 and a bias of 1024 to two results. The first is, at row t and column h,
      σ( Σ_{k<512} E[tok t, k] · W[h, k]  +  Σ_{k<512} P[t, k] · W[h, 512 + k]  +  b[h] ),
  the logistic function σ x = 1 / (1 + exp (−x)), on the extended reals, of a linear layer applied to the concatenation
  of the embedding row that token t names and row t of the position table. The second is the mean of the first over
  its 8192 rows, laid out as 1 × 1 × 1024.
  The reference gathers the embedding rows by token, joins them to the position rows along the columns, and takes one
  dot product of 1024 terms per entry against a row of the weights; that sum splits at column 512 into the two sums
  above. The kernel computes the first result in 32 blocks of 256 rows: for block i it copies, one row per token, the
  256 embedding rows that tokens 256 i … 256 i + 255 name, multiplies them by the left half of the weights and the
  block's position rows by the right half (each half transposed beforehand), adds the two products and the bias, and
  applies σ; the 32 blocks tile the result, each written once. Both programs then compute the mean by the same
  operations on the first result: the column sums from zero, divided by 8192.
  A token names a row only if it is at least 0 and below 128000, so every claim is made under that precondition on
  the tokens, added to the finiteness of the inputs. Under it each program runs to its end with its five arguments
  unchanged — the kernel read bit-exactly as well as at the ideal values — and, at the ideal values, from memories
  that agree on the arguments, the kernel's two results and the reference's are equal entry by entry.
-/
import proofs.«422593_j31129922961550_2_alg».proof.Proof.Final

theorem Cert.Proof.claim : Cert.Claim := Cert.Proof.claim_all
